-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S1024x512 : Shape := ⟨2, ![1024, 512]⟩
abbrev S_ : Shape := ⟨0, ![]⟩
abbrev S13 : Shape := ⟨1, ![13]⟩
abbrev S12 : Shape := ⟨1, ![12]⟩
abbrev S1 : Shape := ⟨1, ![1]⟩
abbrev S32x512 : Shape := ⟨2, ![32, 512]⟩
abbrev S24x512 : Shape := ⟨2, ![24, 512]⟩
abbrev S16x512 : Shape := ⟨2, ![16, 512]⟩
abbrev S8x512 : Shape := ⟨2, ![8, 512]⟩
abbrev S80x512 : Shape := ⟨2, ![80, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .local _ .vmem, ⟨0, _⟩ => ⟨S512x512, .f32⟩
  | .local _ .vmem, ⟨1, _⟩ => ⟨S1024x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32 : BitVec 32 := 0#32
  ![v8.toNat, 0]
def k0_dev1 (d0 : Dev nD) : Nat :=
  let c0_i32_6 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v11 : BitVec 32 := Scalar.muli v2 c2_i32_5
  let v12 : BitVec 32 := Scalar.addi c0_i32_6 v11
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7 : BitVec 32 := 1#32
  let v13 : BitVec 32 := Scalar.muli v6 c1_i32_7
  let v14 : BitVec 32 := Scalar.addi v12 v13
  v14.toNat
def k0_dev2 (d0 : Dev nD) : Nat :=
  let c0_i32_10 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_9 : BitVec 32 := 2#32
  let v15 : BitVec 32 := Scalar.muli v7 c2_i32_9
  let v16 : BitVec 32 := Scalar.addi c0_i32_10 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_11 : BitVec 32 := 1#32
  let v17 : BitVec 32 := Scalar.muli v5 c1_i32_11
  let v18 : BitVec 32 := Scalar.addi v16 v17
  v18.toNat
def k0_off2 (d0 : Dev nD) (c0_i32_13 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_14 : BitVec 32 := 512#32
  let v32 : BitVec 32 := Scalar.muli v5 c512_i32_14
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v20 : BitVec 32 := Scalar.addi v19 c0_i32_13
  let v33 : BitVec 32 := Scalar.addi v32 v20
  let c0_i32_20 : BitVec 32 := 0#32
  ![v33.toNat, 0]
def k0_off3 (d0 : Dev nD) (c0_i32_13 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v20 : BitVec 32 := Scalar.addi v19 c0_i32_13
  let c0_i32_21 : BitVec 32 := 0#32
  ![v20.toNat, 0]
def k0_dev3 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v34 : BitVec 32 := Scalar.muli v2 c2_i32_17
  let v35 : BitVec 32 := Scalar.addi c0_i32_18 v34
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_19 : BitVec 32 := 1#32
  let v36 : BitVec 32 := Scalar.muli v6 c1_i32_19
  let v37 : BitVec 32 := Scalar.addi v35 v36
  v37.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v46 : BitVec 32 := Scalar.muli v2 c2_i32_25
  let v47 : BitVec 32 := Scalar.addi c0_i32_26 v46
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v48 : BitVec 32 := Scalar.muli v6 c1_i32_27
  let v49 : BitVec 32 := Scalar.addi v47 v48
  v49.toNat
def k0_off4 (d0 : Dev nD) (c64_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_30 : BitVec 32 := 512#32
  let v56 : BitVec 32 := Scalar.muli v5 c512_i32_30
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v22 : BitVec 32 := Scalar.addi v19 c64_i32
  let v57 : BitVec 32 := Scalar.addi v56 v22
  let c0_i32_36 : BitVec 32 := 0#32
  ![v57.toNat, 0]
def k0_off5 (d0 : Dev nD) (c64_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v22 : BitVec 32 := Scalar.addi v19 c64_i32
  let c0_i32_37 : BitVec 32 := 0#32
  ![v22.toNat, 0]
def k0_dev5 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v58 : BitVec 32 := Scalar.muli v2 c2_i32_33
  let v59 : BitVec 32 := Scalar.addi c0_i32_34 v58
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v60 : BitVec 32 := Scalar.muli v6 c1_i32_35
  let v61 : BitVec 32 := Scalar.addi v59 v60
  v61.toNat
def k0_dev6 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v70 : BitVec 32 := Scalar.muli v2 c2_i32_40
  let v71 : BitVec 32 := Scalar.addi c0_i32_41 v70
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_42 : BitVec 32 := 1#32
  let v72 : BitVec 32 := Scalar.muli v6 c1_i32_42
  let v73 : BitVec 32 := Scalar.addi v71 v72
  v73.toNat
def k0_dev7 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v82 : BitVec 32 := Scalar.muli v2 c2_i32_47
  let v83 : BitVec 32 := Scalar.addi c0_i32_48 v82
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_49 : BitVec 32 := 1#32
  let v84 : BitVec 32 := Scalar.muli v6 c1_i32_49
  let v85 : BitVec 32 := Scalar.addi v83 v84
  v85.toNat
def k0_off6 (d0 : Dev nD) (c136_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_52 : BitVec 32 := 512#32
  let v92 : BitVec 32 := Scalar.muli v5 c512_i32_52
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v25 : BitVec 32 := Scalar.addi v19 c136_i32
  let v93 : BitVec 32 := Scalar.addi v92 v25
  let c0_i32_57 : BitVec 32 := 0#32
  ![v93.toNat, 0]
def k0_off7 (d0 : Dev nD) (c136_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v25 : BitVec 32 := Scalar.addi v19 c136_i32
  let c0_i32_58 : BitVec 32 := 0#32
  ![v25.toNat, 0]
def k0_dev8 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v94 : BitVec 32 := Scalar.muli v2 c2_i32_54
  let v95 : BitVec 32 := Scalar.addi c0_i32_55 v94
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v96 : BitVec 32 := Scalar.muli v6 c1_i32_56
  let v97 : BitVec 32 := Scalar.addi v95 v96
  v97.toNat
def k0_dev9 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v106 : BitVec 32 := Scalar.muli v2 c2_i32_61
  let v107 : BitVec 32 := Scalar.addi c0_i32_62 v106
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v108 : BitVec 32 := Scalar.muli v6 c1_i32_63
  let v109 : BitVec 32 := Scalar.addi v107 v108
  v109.toNat
def k0_dev10 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v118 : BitVec 32 := Scalar.muli v2 c2_i32_68
  let v119 : BitVec 32 := Scalar.addi c0_i32_69 v118
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v120 : BitVec 32 := Scalar.muli v6 c1_i32_70
  let v121 : BitVec 32 := Scalar.addi v119 v120
  v121.toNat
def k0_off8 (d0 : Dev nD) (c184_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_73 : BitVec 32 := 512#32
  let v128 : BitVec 32 := Scalar.muli v5 c512_i32_73
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v28 : BitVec 32 := Scalar.addi v19 c184_i32
  let v129 : BitVec 32 := Scalar.addi v128 v28
  let c0_i32_78 : BitVec 32 := 0#32
  ![v129.toNat, 0]
def k0_off9 (d0 : Dev nD) (c184_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v28 : BitVec 32 := Scalar.addi v19 c184_i32
  let c0_i32_79 : BitVec 32 := 0#32
  ![v28.toNat, 0]
def k0_dev11 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v130 : BitVec 32 := Scalar.muli v2 c2_i32_75
  let v131 : BitVec 32 := Scalar.addi c0_i32_76 v130
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_77 : BitVec 32 := 1#32
  let v132 : BitVec 32 := Scalar.muli v6 c1_i32_77
  let v133 : BitVec 32 := Scalar.addi v131 v132
  v133.toNat
def k0_dev12 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v142 : BitVec 32 := Scalar.muli v2 c2_i32_82
  let v143 : BitVec 32 := Scalar.addi c0_i32_83 v142
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v144 : BitVec 32 := Scalar.muli v6 c1_i32_84
  let v145 : BitVec 32 := Scalar.addi v143 v144
  v145.toNat
def k0_dev13 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v154 : BitVec 32 := Scalar.muli v2 c2_i32_89
  let v155 : BitVec 32 := Scalar.addi c0_i32_90 v154
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_91 : BitVec 32 := 1#32
  let v156 : BitVec 32 := Scalar.muli v6 c1_i32_91
  let v157 : BitVec 32 := Scalar.addi v155 v156
  v157.toNat
def k0_dev14 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v166 : BitVec 32 := Scalar.muli v2 c2_i32_96
  let v167 : BitVec 32 := Scalar.addi c0_i32_97 v166
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_98 : BitVec 32 := 1#32
  let v168 : BitVec 32 := Scalar.muli v6 c1_i32_98
  let v169 : BitVec 32 := Scalar.addi v167 v168
  v169.toNat
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_101 : BitVec 32 := 512#32
  let v176 : BitVec 32 := Scalar.muli v5 c512_i32_101
  let c216_i32 : BitVec 32 := 216#32
  let v177 : BitVec 32 := Scalar.addi v176 c216_i32
  let c0_i32_106 : BitVec 32 := 0#32
  ![v177.toNat, 0]
def k0_dev15 (d0 : Dev nD) : Nat :=
  let c0_i32_104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_103 : BitVec 32 := 2#32
  let v178 : BitVec 32 := Scalar.muli v2 c2_i32_103
  let v179 : BitVec 32 := Scalar.addi c0_i32_104 v178
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_105 : BitVec 32 := 1#32
  let v180 : BitVec 32 := Scalar.muli v6 c1_i32_105
  let v181 : BitVec 32 := Scalar.addi v179 v180
  v181.toNat
def k0_off11 (d0 : Dev nD) (c0_i32_119 : BitVec 32) : Fin 2 → Nat :=
  let c1_i32_109 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v188 : BitVec 32 := Scalar.subi c1_i32_109 v5
  let c512_i32_110 : BitVec 32 := 512#32
  let v189 : BitVec 32 := Scalar.muli v188 c512_i32_110
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v200 : BitVec 32 := Scalar.addi v189 v19
  let v201 : BitVec 32 := Scalar.addi v200 c0_i32_119
  let c0_i32_125 : BitVec 32 := 0#32
  ![v201.toNat, 0]
def k0_dev16 (d0 : Dev nD) : Nat :=
  let c0_i32_123 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_122 : BitVec 32 := 2#32
  let v202 : BitVec 32 := Scalar.muli v7 c2_i32_122
  let v203 : BitVec 32 := Scalar.addi c0_i32_123 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v204 : BitVec 32 := Scalar.muli v5 c1_i32_124
  let v205 : BitVec 32 := Scalar.addi v203 v204
  v205.toNat
def k0_dev17 (d0 : Dev nD) : Nat :=
  let c0_i32_139 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_138 : BitVec 32 := 2#32
  let v224 : BitVec 32 := Scalar.muli v7 c2_i32_138
  let v225 : BitVec 32 := Scalar.addi c0_i32_139 v224
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v226 : BitVec 32 := Scalar.muli v5 c1_i32_140
  let v227 : BitVec 32 := Scalar.addi v225 v226
  v227.toNat
def k0_off12 (d0 : Dev nD) (c64_i32_151 : BitVec 32) : Fin 2 → Nat :=
  let c1_i32_109 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v188 : BitVec 32 := Scalar.subi c1_i32_109 v5
  let c512_i32_110 : BitVec 32 := 512#32
  let v189 : BitVec 32 := Scalar.muli v188 c512_i32_110
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v244 : BitVec 32 := Scalar.addi v189 v19
  let v245 : BitVec 32 := Scalar.addi v244 c64_i32_151
  let c0_i32_157 : BitVec 32 := 0#32
  ![v245.toNat, 0]
def k0_dev18 (d0 : Dev nD) : Nat :=
  let c0_i32_155 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_154 : BitVec 32 := 2#32
  let v246 : BitVec 32 := Scalar.muli v7 c2_i32_154
  let v247 : BitVec 32 := Scalar.addi c0_i32_155 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v248 : BitVec 32 := Scalar.muli v5 c1_i32_156
  let v249 : BitVec 32 := Scalar.addi v247 v248
  v249.toNat
def k0_dev19 (d0 : Dev nD) : Nat :=
  let c0_i32_171 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_170 : BitVec 32 := 2#32
  let v268 : BitVec 32 := Scalar.muli v7 c2_i32_170
  let v269 : BitVec 32 := Scalar.addi c0_i32_171 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_172 : BitVec 32 := 1#32
  let v270 : BitVec 32 := Scalar.muli v5 c1_i32_172
  let v271 : BitVec 32 := Scalar.addi v269 v270
  v271.toNat
def k0_dev20 (d0 : Dev nD) : Nat :=
  let c0_i32_187 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_186 : BitVec 32 := 2#32
  let v290 : BitVec 32 := Scalar.muli v7 c2_i32_186
  let v291 : BitVec 32 := Scalar.addi c0_i32_187 v290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_188 : BitVec 32 := 1#32
  let v292 : BitVec 32 := Scalar.muli v5 c1_i32_188
  let v293 : BitVec 32 := Scalar.addi v291 v292
  v293.toNat
def k0_off13 (d0 : Dev nD) (c136_i32_199 : BitVec 32) : Fin 2 → Nat :=
  let c1_i32_109 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v188 : BitVec 32 := Scalar.subi c1_i32_109 v5
  let c512_i32_110 : BitVec 32 := 512#32
  let v189 : BitVec 32 := Scalar.muli v188 c512_i32_110
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v310 : BitVec 32 := Scalar.addi v189 v19
  let v311 : BitVec 32 := Scalar.addi v310 c136_i32_199
  let c0_i32_205 : BitVec 32 := 0#32
  ![v311.toNat, 0]
def k0_dev21 (d0 : Dev nD) : Nat :=
  let c0_i32_203 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_202 : BitVec 32 := 2#32
  let v312 : BitVec 32 := Scalar.muli v7 c2_i32_202
  let v313 : BitVec 32 := Scalar.addi c0_i32_203 v312
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_204 : BitVec 32 := 1#32
  let v314 : BitVec 32 := Scalar.muli v5 c1_i32_204
  let v315 : BitVec 32 := Scalar.addi v313 v314
  v315.toNat
def k0_dev22 (d0 : Dev nD) : Nat :=
  let c0_i32_219 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_218 : BitVec 32 := 2#32
  let v334 : BitVec 32 := Scalar.muli v7 c2_i32_218
  let v335 : BitVec 32 := Scalar.addi c0_i32_219 v334
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v336 : BitVec 32 := Scalar.muli v5 c1_i32_220
  let v337 : BitVec 32 := Scalar.addi v335 v336
  v337.toNat
def k0_dev23 (d0 : Dev nD) : Nat :=
  let c0_i32_235 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_234 : BitVec 32 := 2#32
  let v356 : BitVec 32 := Scalar.muli v7 c2_i32_234
  let v357 : BitVec 32 := Scalar.addi c0_i32_235 v356
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v358 : BitVec 32 := Scalar.muli v5 c1_i32_236
  let v359 : BitVec 32 := Scalar.addi v357 v358
  v359.toNat
def k0_off14 (d0 : Dev nD) (c184_i32_247 : BitVec 32) : Fin 2 → Nat :=
  let c1_i32_109 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v188 : BitVec 32 := Scalar.subi c1_i32_109 v5
  let c512_i32_110 : BitVec 32 := 512#32
  let v189 : BitVec 32 := Scalar.muli v188 c512_i32_110
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c296_i32 : BitVec 32 := 296#32
  let v19 : BitVec 32 := Scalar.muli v2 c296_i32
  let v376 : BitVec 32 := Scalar.addi v189 v19
  let v377 : BitVec 32 := Scalar.addi v376 c184_i32_247
  let c0_i32_253 : BitVec 32 := 0#32
  ![v377.toNat, 0]
def k0_dev24 (d0 : Dev nD) : Nat :=
  let c0_i32_251 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_250 : BitVec 32 := 2#32
  let v378 : BitVec 32 := Scalar.muli v7 c2_i32_250
  let v379 : BitVec 32 := Scalar.addi c0_i32_251 v378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v380 : BitVec 32 := Scalar.muli v5 c1_i32_252
  let v381 : BitVec 32 := Scalar.addi v379 v380
  v381.toNat
def k0_dev25 (d0 : Dev nD) : Nat :=
  let c0_i32_267 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_266 : BitVec 32 := 2#32
  let v400 : BitVec 32 := Scalar.muli v7 c2_i32_266
  let v401 : BitVec 32 := Scalar.addi c0_i32_267 v400
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_268 : BitVec 32 := 1#32
  let v402 : BitVec 32 := Scalar.muli v5 c1_i32_268
  let v403 : BitVec 32 := Scalar.addi v401 v402
  v403.toNat
def k0_dev26 (d0 : Dev nD) : Nat :=
  let c0_i32_283 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_282 : BitVec 32 := 2#32
  let v422 : BitVec 32 := Scalar.muli v7 c2_i32_282
  let v423 : BitVec 32 := Scalar.addi c0_i32_283 v422
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_284 : BitVec 32 := 1#32
  let v424 : BitVec 32 := Scalar.muli v5 c1_i32_284
  let v425 : BitVec 32 := Scalar.addi v423 v424
  v425.toNat
def k0_dev27 (d0 : Dev nD) : Nat :=
  let c0_i32_299 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_298 : BitVec 32 := 2#32
  let v444 : BitVec 32 := Scalar.muli v7 c2_i32_298
  let v445 : BitVec 32 := Scalar.addi c0_i32_299 v444
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_300 : BitVec 32 := 1#32
  let v446 : BitVec 32 := Scalar.muli v5 c1_i32_300
  let v447 : BitVec 32 := Scalar.addi v445 v446
  v447.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S13_S1_0 : ∀ a, (![0] : Fin 1 → Nat) a + S1.size a ≤ S13.size a
  squeezes_S1_S_ : S1.Squeezes S_
  inb_S13_S1_1 : ∀ a, (![1] : Fin 1 → Nat) a + S1.size a ≤ S13.size a
  inb_S13_S1_2 : ∀ a, (![2] : Fin 1 → Nat) a + S1.size a ≤ S13.size a
  inb_S13_S1_3 : ∀ a, (![3] : Fin 1 → Nat) a + S1.size a ≤ S13.size a
  inb_S13_S1_4 : ∀ a, (![4] : Fin 1 → Nat) a + S1.size a ≤ S13.size a
  inb_S13_S1_5 : ∀ a, (![5] : Fin 1 → Nat) a + S1.size a ≤ S13.size a
  inb_S13_S1_6 : ∀ a, (![6] : Fin 1 → Nat) a + S1.size a ≤ S13.size a
  inb_S13_S1_7 : ∀ a, (![7] : Fin 1 → Nat) a + S1.size a ≤ S13.size a
  inb_S13_S1_8 : ∀ a, (![8] : Fin 1 → Nat) a + S1.size a ≤ S13.size a
  inb_S13_S1_9 : ∀ a, (![9] : Fin 1 → Nat) a + S1.size a ≤ S13.size a
  inb_S13_S1_10 : ∀ a, (![10] : Fin 1 → Nat) a + S1.size a ≤ S13.size a
  inb_S13_S1_11 : ∀ a, (![11] : Fin 1 → Nat) a + S1.size a ≤ S13.size a
  inb_S13_S1_12 : ∀ a, (![12] : Fin 1 → Nat) a + S1.size a ≤ S13.size a
  inb_S512x512_S80x512_216_0 : ∀ a, (![216, 0] : Fin 2 → Nat) a + S80x512.size a ≤ S512x512.size a
  inb_S12_S1_0 : ∀ a, (![0] : Fin 1 → Nat) a + S1.size a ≤ S12.size a
  inb_S12_S1_1 : ∀ a, (![1] : Fin 1 → Nat) a + S1.size a ≤ S12.size a
  inb_S12_S1_2 : ∀ a, (![2] : Fin 1 → Nat) a + S1.size a ≤ S12.size a
  inb_S12_S1_3 : ∀ a, (![3] : Fin 1 → Nat) a + S1.size a ≤ S12.size a
  inb_S12_S1_4 : ∀ a, (![4] : Fin 1 → Nat) a + S1.size a ≤ S12.size a
  inb_S12_S1_5 : ∀ a, (![5] : Fin 1 → Nat) a + S1.size a ≤ S12.size a
  inb_S12_S1_6 : ∀ a, (![6] : Fin 1 → Nat) a + S1.size a ≤ S12.size a
  inb_S12_S1_7 : ∀ a, (![7] : Fin 1 → Nat) a + S1.size a ≤ S12.size a
  inb_S12_S1_8 : ∀ a, (![8] : Fin 1 → Nat) a + S1.size a ≤ S12.size a
  inb_S12_S1_9 : ∀ a, (![9] : Fin 1 → Nat) a + S1.size a ≤ S12.size a
  inb_S12_S1_10 : ∀ a, (![10] : Fin 1 → Nat) a + S1.size a ≤ S12.size a
  inb_S12_S1_11 : ∀ a, (![11] : Fin 1 → Nat) a + S1.size a ≤ S12.size a
  hcc0_scratch0 : 2 + S_.numel ≤ 53
  hcc0_scratch1 : 3 + S13.numel ≤ 53
  hcc0_scratch2 : 16 + S13.numel ≤ 53
  hcc0_scratch3 : 29 + S12.numel ≤ 53
  hcc0_scratch4 : 41 + S12.numel ≤ 53
  k0_off1_inb : ∀ d0 : Dev nD, ∀ a, (k0_off1 d0) a + S512x512.size a ≤ S1024x512.size a
  k0_dev1_lt : ∀ d0 : Dev nD, (k0_dev1 d0) < nD
  k0_dev2_lt : ∀ d0 : Dev nD, (k0_dev2 d0) < nD
  k0_off2_inb : ∀ d0 : Dev nD, ∀ (r : Fin 2), ∀ a, (k0_off2 d0 (BitVec.ofNat 32 (32 * r.val))) a + S32x512.size a ≤ S1024x512.size a
  k0_off3_inb : ∀ d0 : Dev nD, ∀ (r : Fin 2), ∀ a, (k0_off3 d0 (BitVec.ofNat 32 (32 * r.val))) a + S32x512.size a ≤ S512x512.size a
  k0_dev3_lt : ∀ d0 : Dev nD, (k0_dev3 d0) < nD
  k0_dev4_lt : ∀ d0 : Dev nD, (k0_dev4 d0) < nD
  k0_off4_inb : ∀ d0 : Dev nD, ∀ (r : Fin 3), ∀ a, (k0_off4 d0 (BitVec.ofNat 32 (64 + 24 * r.val))) a + S24x512.size a ≤ S1024x512.size a
  k0_off5_inb : ∀ d0 : Dev nD, ∀ (r : Fin 3), ∀ a, (k0_off5 d0 (BitVec.ofNat 32 (64 + 24 * r.val))) a + S24x512.size a ≤ S512x512.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off6_inb : ∀ d0 : Dev nD, ∀ (r : Fin 3), ∀ a, (k0_off6 d0 (BitVec.ofNat 32 (136 + 16 * r.val))) a + S16x512.size a ≤ S1024x512.size a
  k0_off7_inb : ∀ d0 : Dev nD, ∀ (r : Fin 3), ∀ a, (k0_off7 d0 (BitVec.ofNat 32 (136 + 16 * r.val))) a + S16x512.size a ≤ S512x512.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off8_inb : ∀ d0 : Dev nD, ∀ (r : Fin 4), ∀ a, (k0_off8 d0 (BitVec.ofNat 32 (184 + 8 * r.val))) a + S8x512.size a ≤ S1024x512.size a
  k0_off9_inb : ∀ d0 : Dev nD, ∀ (r : Fin 4), ∀ a, (k0_off9 d0 (BitVec.ofNat 32 (184 + 8 * r.val))) a + S8x512.size a ≤ S512x512.size a
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off10_inb : ∀ d0 : Dev nD, ∀ a, (k0_off10 d0) a + S80x512.size a ≤ S1024x512.size a
  k0_dev15_lt : ∀ d0 : Dev nD, (k0_dev15 d0) < nD
  k0_off11_inb : ∀ d0 : Dev nD, ∀ (r : Fin 2), ∀ a, (k0_off11 d0 (BitVec.ofNat 32 (32 * r.val))) a + S32x512.size a ≤ S1024x512.size a
  k0_dev16_lt : ∀ d0 : Dev nD, (k0_dev16 d0) < nD
  k0_dev17_lt : ∀ d0 : Dev nD, (k0_dev17 d0) < nD
  k0_off12_inb : ∀ d0 : Dev nD, ∀ (r : Fin 3), ∀ a, (k0_off12 d0 (BitVec.ofNat 32 (64 + 24 * r.val))) a + S24x512.size a ≤ S1024x512.size a
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_off13_inb : ∀ d0 : Dev nD, ∀ (r : Fin 3), ∀ a, (k0_off13 d0 (BitVec.ofNat 32 (136 + 16 * r.val))) a + S16x512.size a ≤ S1024x512.size a
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_off14_inb : ∀ d0 : Dev nD, ∀ (r : Fin 4), ∀ a, (k0_off14 d0 (BitVec.ofNat 32 (184 + 8 * r.val))) a + S8x512.size a ≤ S1024x512.size a
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S13 := SemArray.consecutive 3 S13 hcc0_scratch1
abbrev cc0_scratch2 : DmaSems sig S13 := SemArray.consecutive 16 S13 hcc0_scratch2
abbrev cc0_scratch3 : DmaSems sig S12 := SemArray.consecutive 29 S12 hcc0_scratch3
abbrev cc0_scratch4 : DmaSems sig S12 := SemArray.consecutive 41 S12 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.RefRun.lean ====
/- The reference program's run. Its @main returns at once: there is no host operation and no kernel, on one
   device, so the result array is the argument array itself. Read as the empty line of host operations, its
   run leaves every buffer at its launch contents: every weakly fair execution terminates with the argument
   array unchanged. -/
import proofs.«900105_g7700000000000106_dist_ag_v7x_xy2x2_y_m512_n512_f32_1_alg».proof.Defs
import proofs.«900105_g7700000000000106_dist_ag_v7x_xy2x2_y_m512_n512_f32_1_alg».proof.Proof.Gen.ReferenceIdeal
import Idealize.ShloMosaic.Lib.StableHlo.Run

noncomputable section

namespace Cert.RefRun

open Idealize.ShloMosaic Idealize.SL.Sem Idealize.ShloMosaic.StableHlo

variable {F : FTy → Type} [FloatOps F]

/-- @main's operations: none. -/
abbrev ops : List (HloOp Cert.ReferenceIdeal.τ Cert.ReferenceIdeal.sig (Elt F)) := []

/-- A program that only returns is the empty line of operations. -/
theorem main_eq (c : Dev Cert.ReferenceIdeal.nD) : Cert.ReferenceIdeal.main (F := F) c = seq ops := rfl

/-- The signature scopes no buffer. -/
theorem scopedRefs_eq :
    (Finset.univ.filter fun b : Ref Cert.ReferenceIdeal.sig .tc => b.isScoped) = ∅ := by decide

/-- The signature scopes no semaphore (it has none). -/
theorem scopedSems_eq :
    (Finset.univ.filter fun sm : SemLoc Cert.ReferenceIdeal.sig => sm.isScoped .tc) = ∅ := by decide

/-- Every operation of the empty line touches only the TensorCore's buffers: there is nothing to check. -/
theorem ops_sub : (ops : List (HloOp Cert.ReferenceIdeal.τ Cert.ReferenceIdeal.sig (Elt F))).Forall
    fun op => op.bufs ⊆ tcRefs Cert.ReferenceIdeal.τ Cert.ReferenceIdeal.sig := trivial

/-- On the one device, for any float values, from any memory with zero counters: every weakly fair execution
    of @main terminates with the argument array (which is the result) at its launch contents. The fold of no
    operation over the launch contents is the launch contents. -/
theorem run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩
      (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run Cert.ReferenceIdeal.defs _ _).mono
    (fun _ h c => (h c Cert.ReferenceIdeal.main_arg0).trans rfl)
    (run_seq scopedRefs_eq scopedSems_eq Cert.ReferenceIdeal.defs Cert.ReferenceIdeal.main (fun _ => ops) main_eq
      (fun _ => ops_sub) m g (fun _ _ h => nomatch h))

/-- info: 'Cert.RefRun.run' depends on axioms: [propext, Classical.choice, Quot.sound] -/
#guard_msgs in #print axioms run

end Cert.RefRun

end
-- ==== Proof.LibRows.lean ====
/-
# Row ranges of a two-dimensional buffer with 512 columns

A buffer of `n` rows and 512 columns is cut into bands of consecutive rows. This file names the band of `len`
rows starting at row `a` as a finite set of indices (`rows`), identifies it with the element set of the
unit-stride rectangle that is whole on the column axis (`unit_set_rows`), and gives the set algebra of bands:
consecutive bands join, separated bands are disjoint, a band inside another is a subset. Then: what a band of a
destination buffer holds after a band of equal height of a source buffer is written onto it (`write_read_rows`,
`write_read_rows_of_not_mem`); a band cut at monotone row boundaries into consecutive pieces (`rows_chain`,
`rows_chain_disjoint`, and the same for a band by any natural-number coordinate, `band_chain`); and the points-to
assertion of a location on a set of its elements along such cuts (`pts_union`, `pts_congr`, `pts_chain`,
`pts_band_chain`).
-/
import Idealize.ShloMosaic.Shape
import Idealize.ShloMosaic.Signature.View
import Idealize.ShloMosaic.Signature.Memref
import Idealize.ShloMosaic.Rules.PointsTo

namespace Cert.LibRows

open Idealize.ShloMosaic

/-- The shape of a buffer of `n` rows and 512 columns. -/
abbrev SR (n : ℕ) : Shape := ⟨2, ![n, 512]⟩

/-- The band of `len` consecutive rows starting at row `a`: the indices whose row coordinate lies in
    `[a, a + len)`, every column. -/
def rows (n a len : ℕ) : Finset (SR n).Idx :=
  Finset.univ.filter fun i => a ≤ (i 0).val ∧ (i 0).val < a + len

/-- Membership in a band is the two bounds on the row coordinate. -/
theorem mem_rows {n a len : ℕ} {i : (SR n).Idx} :
    i ∈ rows n a len ↔ a ≤ (i 0).val ∧ (i 0).val < a + len := by
  simp [rows]

/-- The unit-stride rectangle of `r` rows and all 512 columns at row offset `off 0` (column offset zero) has
    the band of `r` rows from `off 0` as its element set: the column bound holds of every index. -/
theorem unit_set_rows {n r : ℕ} (off : Fin 2 → ℕ) (inb : ∀ a, off a + (SR r).size a ≤ (SR n).size a)
    (h1 : off 1 = 0) : (Rect.unit (s := SR n) off (SR r).size inb).set = rows n (off 0) r := by
  ext i
  rw [Rect.mem_set_unit, mem_rows, Fin.forall_fin_two]
  constructor
  · intro h; exact h.1
  · intro h
    refine ⟨h, ?_, ?_⟩
    · rw [h1]; exact Nat.zero_le _
    · have h512 : ((i 1 : Fin ((SR n).size 1)) : ℕ) < 512 := (i 1).isLt
      have hs : (SR r).size 1 = 512 := rfl
      rw [h1, hs]; omega

/-- A band of `l1 + l2` rows is the band of its first `l1` rows together with the band of the next `l2`. -/
theorem rows_union (n a l1 l2 : ℕ) : rows n a (l1 + l2) = rows n a l1 ∪ rows n (a + l1) l2 := by
  ext i
  simp only [Finset.mem_union, mem_rows]
  omega

/-- A band that ends no later than another begins is disjoint from it. -/
theorem rows_disjoint {n a l1 b l2 : ℕ} (h : a + l1 ≤ b) : Disjoint (rows n a l1) (rows n b l2) := by
  rw [Finset.disjoint_left]
  intro i h1 h2
  rw [mem_rows] at h1 h2
  omega

/-- A band lying inside another, bound by bound, is a subset of it. -/
theorem rows_subset {n a l a' l' : ℕ} (h : a ≤ a' ∧ a' + l' ≤ a + l) : rows n a' l' ⊆ rows n a l := by
  intro i hi
  rw [mem_rows] at hi ⊢
  omega

/-- A band of no rows is empty. -/
theorem rows_zero {n a : ℕ} : rows n a 0 = ∅ := by
  ext i
  simp only [mem_rows, Finset.notMem_empty, iff_false]
  omega

/-- The band of all `n` rows from row zero is every index. -/
theorem rows_all {n : ℕ} : rows n 0 n = Finset.univ := by
  ext i
  have hn : ((i 0 : Fin ((SR n).size 0)) : ℕ) < n := (i 0).isLt
  simp only [mem_rows, Finset.mem_univ, iff_true]
  omega

/-! ## The contents of a band after a copy between two bands of equal height

A copy moves the `r` rows of a source buffer starting at row `offs 0` onto the `r` rows of a destination buffer
starting at row `offd 0`, all 512 columns. Afterwards the destination holds, at row `x` of its band and column
`y`, what the source held at row `x - offd 0 + offs 0` and column `y`; off the band it is unchanged. -/

/-- The index of the `ns`-row buffer that a copy of a band brings to the index `i` of the `nd`-row buffer: row
    `(i 0) - offd + offs` (read modulo `ns`, which changes nothing when that row exists), column `i 1`. -/
def shiftRow {nd ns : ℕ} [NeZero ns] (offd offs : ℕ) (i : (SR nd).Idx) : (SR ns).Idx
  | 0 => (Fin.ofNat ns ((i 0).val - offd + offs) : Fin ns)
  | 1 => (i 1 : Fin 512)

/-- The row of the shifted index, when that row exists in the source buffer. -/
theorem shiftRow_row {nd ns : ℕ} [NeZero ns] {offd offs : ℕ} {i : (SR nd).Idx}
    (h : (i 0).val - offd + offs < ns) :
    ((shiftRow (ns := ns) offd offs i 0 : Fin ((SR ns).size 0)) : ℕ) = (i 0).val - offd + offs := by
  show ((i 0).val - offd + offs) % ns = _
  exact Nat.mod_eq_of_lt h

/-- The column of the shifted index is the column of the index. -/
theorem shiftRow_col {nd ns : ℕ} [NeZero ns] {offd offs : ℕ} {i : (SR nd).Idx} :
    ((shiftRow (ns := ns) offd offs i 1 : Fin ((SR ns).size 1)) : ℕ) = (i 1).val := rfl

section Copy

variable {sig : RefSig} {κs κd : Kind} {sps spd : Space} {Val : EltTy → Type} {e : EltTy} {ns nd r : ℕ}

/-- ON THE BAND. Writing, through the band of `r` rows at row `offd 0` of a view of `nd` rows, what the band of `r`
    rows at row `offs 0` of a view of `ns` rows reads, leaves under the index `i` of the destination band what the
    source view reads at the shifted index. (For a whole buffer `vd.emb i` is `i` and both casts are along `rfl`.) -/
theorem write_read_rows [NeZero ns] (vs : View sig κs sps (SR ns) e) (vd : View sig κd spd (SR nd) e)
    (offs offd : Fin 2 → ℕ) (inbs : ∀ a, offs a + (SR r).size a ≤ (SR ns).size a)
    (inbd : ∀ a, offd a + (SR r).size a ≤ (SR nd).size a) (hs1 : offs 1 = 0) (hd1 : offd 1 = 0)
    (fs : vs.ty.Contents Val) (fd : vd.ty.Contents Val) {i : (SR nd).Idx} (hi : i ∈ rows nd (offd 0) r) :
    (vd.slice (Rect.unit (s := SR nd) offd (SR r).size inbd)).write Val fd
        ((vs.slice (Rect.unit (s := SR ns) offs (SR r).size inbs)).read Val fs) Finset.univ (vd.emb i)
      = _root_.cast (congrArg Val vd.elt_eq.symm) (vs.read Val fs (shiftRow (offd 0) (offs 0) i)) := by
  -- the index lies in the destination rectangle: bounds on both axes
  have hin : ∀ a, offd a ≤ (i a).val ∧ (i a).val < offd a + (SR r).size a :=
    (Rect.mem_set_unit (inb := inbd)).mp (by rw [unit_set_rows offd inbd hd1]; exact hi)
  -- its coordinates inside the band
  let y : (SR r).Idx := fun a => ⟨(i a).val - offd a, by have := hin a; omega⟩
  have hy : (Rect.unit (s := SR nd) offd (SR r).size inbd).emb y = i := by
    funext a; apply Fin.ext
    show offd a + 1 * ((i a).val - offd a) = (i a).val
    have := hin a; omega
  -- the same coordinates placed in the source band are the shifted index
  have hsrc : (Rect.unit (s := SR ns) offs (SR r).size inbs).emb y = shiftRow (offd 0) (offs 0) i := by
    funext a; apply Fin.ext; revert a
    rw [Fin.forall_fin_two]
    constructor
    · have h0 := hin 0
      have hb := inbs 0
      have hr : (SR r).size 0 = r := rfl
      have hn : (SR ns).size 0 = ns := rfl
      rw [hr] at h0
      rw [hr, hn] at hb
      rw [shiftRow_row (by omega)]
      show offs 0 + 1 * ((i 0).val - offd 0) = (i 0).val - offd 0 + offs 0
      omega
    · rw [shiftRow_col]
      show offs 1 + 1 * ((i 1).val - offd 1) = (i 1).val
      rw [hs1, hd1]; omega
  have h := View.write_emb_of_mem (v := vd.slice (Rect.unit (s := SR nd) offd (SR r).size inbd)) (Val := Val) fd
    ((vs.slice (Rect.unit (s := SR ns) offs (SR r).size inbs)).read Val fs) (M := Finset.univ) (x := y)
    (Finset.mem_univ _)
  have e1 : (vd.slice (Rect.unit (s := SR nd) offd (SR r).size inbd)).emb y = vd.emb i := by
    rw [View.emb_slice, Function.Embedding.trans_apply, hy]
  rw [e1] at h
  rw [h]
  show _root_.cast _ (vs.read Val fs ((Rect.unit (s := SR ns) offs (SR r).size inbs).emb y)) = _
  rw [hsrc]

/-- OFF THE BAND. The same write leaves the destination's contents under an index outside the band unchanged. -/
theorem write_read_rows_of_not_mem (vs : View sig κs sps (SR ns) e) (vd : View sig κd spd (SR nd) e)
    (offs offd : Fin 2 → ℕ) (inbs : ∀ a, offs a + (SR r).size a ≤ (SR ns).size a)
    (inbd : ∀ a, offd a + (SR r).size a ≤ (SR nd).size a) (hd1 : offd 1 = 0)
    (fs : vs.ty.Contents Val) (fd : vd.ty.Contents Val) {i : (SR nd).Idx} (hi : i ∉ rows nd (offd 0) r) :
    (vd.slice (Rect.unit (s := SR nd) offd (SR r).size inbd)).write Val fd
        ((vs.slice (Rect.unit (s := SR ns) offs (SR r).size inbs)).read Val fs) Finset.univ (vd.emb i)
      = fd (vd.emb i) := by
  refine View.write_of_not_mem _ _ _ fun hmem => hi ?_
  rw [View.setOn_univ, View.set_slice, Finset.mem_map] at hmem
  obtain ⟨j, hj, hji⟩ := hmem
  have : j = i := vd.emb.injective hji
  rw [← this, ← unit_set_rows offd inbd hd1]
  exact hj

/-- A write through a band changes nothing outside the band, whatever is written: any payload, any index of the
    destination view outside the band. -/
theorem write_rows_of_not_mem (vd : View sig κd spd (SR nd) e) (offd : Fin 2 → ℕ)
    (inbd : ∀ a, offd a + (SR r).size a ≤ (SR nd).size a) (hd1 : offd 1 = 0)
    (fd : vd.ty.Contents Val) (w : (SR r).Idx → Val e) {i : (SR nd).Idx} (hi : i ∉ rows nd (offd 0) r) :
    (vd.slice (Rect.unit (s := SR nd) offd (SR r).size inbd)).write Val fd w Finset.univ (vd.emb i)
      = fd (vd.emb i) := by
  refine View.write_of_not_mem _ _ _ fun hmem => hi ?_
  rw [View.setOn_univ, View.set_slice, Finset.mem_map] at hmem
  obtain ⟨j, hj, hji⟩ := hmem
  have : j = i := vd.emb.injective hji
  rw [← this, ← unit_set_rows offd inbd hd1]
  exact hj

/-- The band of a view of `n` rows, as a set of the buffer's own indices: the image of the band under the view's
    placement is the element set of the slice through the band's rectangle. -/
theorem set_slice_rows (vd : View sig κd spd (SR nd) e) (offd : Fin 2 → ℕ)
    (inbd : ∀ a, offd a + (SR r).size a ≤ (SR nd).size a) (hd1 : offd 1 = 0) :
    (vd.slice (Rect.unit (s := SR nd) offd (SR r).size inbd)).set = (rows nd (offd 0) r).map vd.emb := by
  rw [View.set_slice, unit_set_rows offd inbd hd1]

end Copy

/-! ## A band cut into consecutive pieces

Row boundaries `b 0 ≤ b 1 ≤ … ≤ b k` cut the band from row `b 0` to row `b k` into the `k` bands from `b j` to
`b (j + 1)`: these are pairwise disjoint and their union is the whole band. -/

/-- The band of a finite type `X` by a coordinate `ρ : X → ℕ`: the elements whose coordinate lies in
    `[a, a + len)`. The row band of a buffer is the case `ρ i = i 0` (`rows_eq_band`). -/
def band {X : Type} [Fintype X] (ρ : X → ℕ) (a len : ℕ) : Finset X :=
  Finset.univ.filter fun x => a ≤ ρ x ∧ ρ x < a + len

/-- Membership in a band is the two bounds on the coordinate. -/
theorem mem_band {X : Type} [Fintype X] {ρ : X → ℕ} {a len : ℕ} {x : X} :
    x ∈ band ρ a len ↔ a ≤ ρ x ∧ ρ x < a + len := by
  simp [band]

/-- A row band is the band by the row coordinate. -/
theorem rows_eq_band (n a len : ℕ) : rows n a len = band (fun i : (SR n).Idx => (i 0).val) a len := rfl

section Band

variable {X : Type} [Fintype X] [DecidableEq X] (ρ : X → ℕ)

/-- A band of `l1 + l2` is the band of the first `l1` together with the band of the next `l2`. -/
theorem band_union (a l1 l2 : ℕ) : band ρ a (l1 + l2) = band ρ a l1 ∪ band ρ (a + l1) l2 := by
  ext x
  simp only [Finset.mem_union, mem_band]
  omega

/-- A band that ends no later than another begins is disjoint from it. -/
theorem band_disjoint {a l1 b l2 : ℕ} (h : a + l1 ≤ b) : Disjoint (band ρ a l1) (band ρ b l2) := by
  rw [Finset.disjoint_left]
  intro x h1 h2
  rw [mem_band] at h1 h2
  omega

/-- A band of length zero is empty. -/
theorem band_zero (a : ℕ) : band ρ a 0 = ∅ := by
  ext x
  simp only [mem_band, Finset.notMem_empty, iff_false]
  omega

/-- The band between the first and the last boundary is the union of the bands between consecutive boundaries. -/
theorem band_chain (b : ℕ → ℕ) (hb : Monotone b) (k : ℕ) :
    band ρ (b 0) (b k - b 0) = (Finset.range k).biUnion fun j => band ρ (b j) (b (j + 1) - b j) := by
  induction k with
  | zero => rw [Nat.sub_self, band_zero, Finset.range_zero, Finset.biUnion_empty]
  | succ k ih =>
    have h0 : b 0 ≤ b k := hb (Nat.zero_le k)
    have h1 : b k ≤ b (k + 1) := hb (Nat.le_succ k)
    have e : b (k + 1) - b 0 = (b k - b 0) + (b (k + 1) - b k) := by omega
    have e' : b 0 + (b k - b 0) = b k := by omega
    rw [Finset.range_add_one, Finset.biUnion_insert, e, band_union, e', ih, Finset.union_comm]

/-- Bands between different pairs of consecutive boundaries are disjoint. -/
theorem band_chain_disjoint (b : ℕ → ℕ) (hb : Monotone b) {j j' : ℕ} (h : j ≠ j') :
    Disjoint (band ρ (b j) (b (j + 1) - b j)) (band ρ (b j') (b (j' + 1) - b j')) := by
  rcases Nat.lt_or_gt_of_ne h with hlt | hgt
  · have h1 : b j ≤ b (j + 1) := hb (Nat.le_succ j)
    have h2 : b (j + 1) ≤ b j' := hb hlt
    exact band_disjoint ρ (by omega)
  · have h1 : b j' ≤ b (j' + 1) := hb (Nat.le_succ j')
    have h2 : b (j' + 1) ≤ b j := hb hgt
    exact (band_disjoint ρ (by omega)).symm

end Band

/-- The row band between the first and the last boundary is the union of the row bands between consecutive
    boundaries. -/
theorem rows_chain (n : ℕ) (b : ℕ → ℕ) (hb : Monotone b) (k : ℕ) :
    rows n (b 0) (b k - b 0) = (Finset.range k).biUnion fun j => rows n (b j) (b (j + 1) - b j) :=
  band_chain (fun i : (SR n).Idx => (i 0).val) b hb k

/-- Row bands between different pairs of consecutive boundaries are disjoint. -/
theorem rows_chain_disjoint (n : ℕ) (b : ℕ → ℕ) (hb : Monotone b) {j j' : ℕ} (h : j ≠ j') :
    Disjoint (rows n (b j) (b (j + 1) - b j)) (rows n (b j') (b (j' + 1) - b j')) :=
  band_chain_disjoint (fun i : (SR n).Idx => (i 0).val) b hb h

/-! ## Points-to assertions over element sets, and over a band cut into pieces

The points-to of a location on a set of its elements splits along a disjoint union and does not depend on the
contents off the set; over a family of pairwise disjoint sets indexed by `0 … k - 1` whose union is `R`, the
points-to on `R` is the separating conjunction of the points-to's on the pieces. In a buffer of shape `SR n` the
pieces of a band between consecutive boundaries are such a family (`rows_chain`, `rows_chain_disjoint`). -/

section Pts

open Idealize.SL
open Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {I J R : Finset (Idx ℓ)} {q : PosShare TreeShare} {f g : Buf Val ℓ}

/-- The points-to on a disjoint union is the separating conjunction of the points-to's on the two parts. -/
theorem pts_union (h : Disjoint I J) :
    (ℓ ↦[I ∪ J]{q} f : sProp 𝕄) ⊣⊢ iprop((ℓ ↦[I]{q} f) ∗ ℓ ↦[J]{q} f) :=
  pointsTo_union h

/-- The points-to on a set depends only on the contents on that set. -/
theorem pts_congr (h : ∀ i ∈ I, f i = g i) : (ℓ ↦[I]{q} f : sProp 𝕄) = ℓ ↦[I]{q} g :=
  pointsTo_congr h

/-- The points-to on the union of `k` pairwise disjoint sets is the separating conjunction of the `k` points-to's. -/
theorem pts_chain (K : ℕ → Finset (Idx ℓ)) (k : ℕ) (hR : R = (Finset.range k).biUnion K)
    (hK : ∀ j j', j ≠ j' → Disjoint (K j) (K j')) :
    (ℓ ↦[R]{q} f : sProp 𝕄) = bigSep (Finset.range k) fun j => ℓ ↦[K j]{q} f := by
  rw [hR]
  exact pointsTo_biUnion (Finset.range k) K fun j _ j' _ hne => hK j j' hne

/-- The same as an equivalence of assertions. -/
theorem pts_chain_equiv (K : ℕ → Finset (Idx ℓ)) (k : ℕ) (hR : R = (Finset.range k).biUnion K)
    (hK : ∀ j j', j ≠ j' → Disjoint (K j) (K j')) :
    (ℓ ↦[R]{q} f : sProp 𝕄) ⊣⊢ bigSep (Finset.range k) fun j => ℓ ↦[K j]{q} f :=
  BiEntails.of_eq (pts_chain K k hR hK)

/-- A BAND CUT INTO PIECES. For a coordinate `ρ` on the location's own indices and boundaries
    `b 0 ≤ b 1 ≤ … ≤ b k`, the points-to on the band from `b 0` to `b k` is the separating conjunction of the
    points-to's on the bands between consecutive boundaries. For a buffer of shape `SR n` and `ρ i = i 0` the bands
    are the row bands `rows n (b j) (b (j + 1) - b j)`. -/
theorem pts_band_chain (ρ : Idx ℓ → ℕ) (b : ℕ → ℕ) (hb : Monotone b) (k : ℕ) :
    (ℓ ↦[band ρ (b 0) (b k - b 0)]{q} f : sProp 𝕄)
      = bigSep (Finset.range k) fun j => ℓ ↦[band ρ (b j) (b (j + 1) - b j)]{q} f :=
  pts_chain (fun j => band ρ (b j) (b (j + 1) - b j)) k (band_chain ρ b hb k)
    fun _ _ hne => band_chain_disjoint ρ b hb hne

/-- The same as an equivalence of assertions. -/
theorem pts_band_chain_equiv (ρ : Idx ℓ → ℕ) (b : ℕ → ℕ) (hb : Monotone b) (k : ℕ) :
    (ℓ ↦[band ρ (b 0) (b k - b 0)]{q} f : sProp 𝕄)
      ⊣⊢ bigSep (Finset.range k) fun j => ℓ ↦[band ρ (b j) (b (j + 1) - b j)]{q} f :=
  BiEntails.of_eq (pts_band_chain ρ b hb k)

end Pts

end Cert.LibRows

/-- info: 'Cert.LibRows.write_read_rows' depends on axioms: [propext, Classical.choice, Quot.sound] -/
#guard_msgs in #print axioms Cert.LibRows.write_read_rows
-- ==== Proof.Proto.lean ====
/-
  The all-gather protocol of the four devices of a 2×2 mesh, as a schedule of rounds.

  Device `c` has mesh coordinates X = c / 2 and Y = c % 2. It holds block Y of the whole array (512 rows) and must end
  with both blocks. Its y-neighbour `yn c` (same X, other Y) holds the block it misses; its x-neighbour `xn c` (other X,
  same Y) holds the same block as `c` and misses the same one. Each device
    · copies its own block into rows [512·Y, 512·Y + 512) of its result (one local copy),
    · tells both neighbours it has entered (one unit on each neighbour's barrier semaphore) and waits for two units,
    · sends rows [296·X, 296·X + 216) ∪ [216, 296) of its block to its y-neighbour in thirteen chunks, to the same rows of
      the neighbour's missing block,
    · forwards each of the first twelve chunks it receives from its y-neighbour on to its x-neighbour, to the same rows,
    · waits for everything it receives and everything it sent.
  So the missing block of `c` is filled from `yn c` on 296 rows and, forwarded through `xn c`, from the device diagonal
  to `c` on the other 216.

  Every semaphore is a cell with ONE round. The barrier cell of `c` has two duties of one unit: `false`, paid by `yn c`,
  whose payload is the thirteen row ranges of `yn c`'s result that `c` will write; `true`, paid by `xn c`, whose payload
  is the twelve row ranges of `xn c`'s result that `c` will write. Every DMA cell has one duty: a receive cell's payload
  is the landed row range at its final contents, a send cell's payload is the source range back.
-/
import proofs.«900105_g7700000000000106_dist_ag_v7x_xy2x2_y_m512_n512_f32_1_alg».proof.Proof.Gen.KernelIdeal
import proofs.«900105_g7700000000000106_dist_ag_v7x_xy2x2_y_m512_n512_f32_1_alg».proof.Proof.Gen.KernelIdeal.Skeleton
import proofs.«900105_g7700000000000106_dist_ag_v7x_xy2x2_y_m512_n512_f32_1_alg».proof.Proof.Gen.KernelIdeal.Launch
import proofs.«900105_g7700000000000106_dist_ag_v7x_xy2x2_y_m512_n512_f32_1_alg».proof.Proof.Gen.KernelIdeal.Points
import proofs.«900105_g7700000000000106_dist_ag_v7x_xy2x2_y_m512_n512_f32_1_alg».proof.Proof.LibRows
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The mesh: the two neighbours and the diagonal -/

/-- Same X, other Y. -/
def yn (c : Dev nD) : Dev nD := ⟨(2 * (c.val / 2) + 1) - (c.val % 2), by have h : c.val < 4 := c.isLt; show _ < 4; omega⟩
/-- Other X, same Y. -/
def xn (c : Dev nD) : Dev nD := ⟨((c.val % 2) + 2) - 2 * (c.val / 2), by have h : c.val < 4 := c.isLt; show _ < 4; omega⟩
/-- Other X, other Y. -/
def dg (c : Dev nD) : Dev nD := yn (xn c)

theorem yn_yn (c : Dev nD) : yn (yn c) = c := by revert c; decide
theorem xn_xn (c : Dev nD) : xn (xn c) = c := by revert c; decide
theorem yn_xn (c : Dev nD) : yn (xn c) = xn (yn c) := by revert c; decide
theorem yn_ne_xn (c : Dev nD) : yn c ≠ xn c := by revert c; decide
theorem yn_ne (c : Dev nD) : yn c ≠ c := by revert c; decide
theorem xn_ne (c : Dev nD) : xn c ≠ c := by revert c; decide

def yEquiv : Dev nD ≃ Dev nD := ⟨yn, yn, yn_yn, yn_yn⟩
def xEquiv : Dev nD ≃ Dev nD := ⟨xn, xn, xn_xn, xn_xn⟩

/-- The printed device chains: the first signal and all thirteen sends along y name `yn c`, the second signal and the
    twelve forwards name `xn c`. -/
theorem devY (c : Dev nD) (n : ℕ) (h : n < nD) (e : n = (2 * (c.val / 2) + 1) - (c.val % 2)) : (⟨n, h⟩ : Dev nD) = yn c := Fin.ext e
theorem devX (c : Dev nD) (n : ℕ) (h : n < nD) (e : n = ((c.val % 2) + 2) - 2 * (c.val / 2)) : (⟨n, h⟩ : Dev nD) = xn c := Fin.ext e

/-! ## The buffers and the cells -/

abbrev xM : Memref sig .tc .vmem S512x512 .f32 := Memref.whole cc0_stg0_0
abbrev oM : Memref sig .tc .vmem S1024x512 .f32 := Memref.whole cc0_stg1_0

abbrev barS : Sem sig := (SemArray.scalar (sig.barrier 0 rfl) : Sems sig S_).sem

/-- DMA semaphore number `n` (2 the local copy's; 3–15 the sends along y; 16–28 their receives; 29–40 the forwards
    along x; 41–52 their receives). -/
abbrev dsem (n : ℕ) (h : n < 53 := by decide) : DmaSem sig := ⟨n, h⟩

abbrev barCell (c : Dev nD) : GSem nD τ sig := ((c : Thread nD τ), .reg barS)
abbrev dcell (c : Dev nD) (n : ℕ) (h : n < 53 := by decide) : GSem nD τ sig := ((c : Thread nD τ), .dma (dsem n h))

/-- The number of a semaphore location among the DMA semaphores, `none` for a regular semaphore. -/
def dnum : SemLoc sig → Option ℕ
  | .dma q => some q.val
  | .reg _ => none

/-! ## The chunks -/

/-- Rows of chunk `k` (the thirteenth, of 80 rows, only along y). -/
def clen (k : ℕ) : ℕ := if k < 2 then 32 else if k < 5 then 24 else if k < 8 then 16 else if k < 12 then 8 else 80
/-- First row of chunk `k` inside the forwarded range. -/
def coff (k : ℕ) : ℕ := if k < 2 then 32 * k else if k < 5 then 64 + 24 * (k - 2) else if k < 8 then 136 + 16 * (k - 5) else 184 + 8 * (k - 8)
/-- The sizes of chunk `k` as the printed slices spell them. -/
def csz (k : ℕ) : Fin 2 → ℕ := if k < 2 then S32x512.size else if k < 5 then S24x512.size else if k < 8 then S16x512.size else if k < 12 then S8x512.size else S80x512.size

/-- First row, in the sender's own block, of the chunk `k` it sends along y. -/
def ysrc (c : Dev nD) (k : ℕ) : ℕ := if k < 12 then 296 * (c.val / 2) + coff k else 216
/-- First row, in the RECEIVER's result, of the chunk `k` device `c` sends along y: the same row of the block `c` holds. -/
def ydst (c : Dev nD) (k : ℕ) : ℕ := 512 * (c.val % 2) + ysrc c k
/-- First row, in its own result and in the receiver's, of the chunk `j` device `c` forwards along x. -/
def xrow (c : Dev nD) (j : ℕ) : ℕ := 512 * (1 - c.val % 2) + 296 * (c.val / 2) + coff j

/-- The credit a transfer into a row range of the result buffer with sizes `sz` brings. -/
def crd (sz : Fin 2 → ℕ) : ℕ := sig.dmaCredit .tc (Kind.table .tc .vmem) (oM : Memref sig .tc .vmem S1024x512 .f32).view.buf ⟨2, sz⟩ .f32

theorem crd_pos (k : ℕ) : 0 < crd (csz k) := by
  unfold crd
  refine sig.dmaCredit_pos _ _ _ _ _ ?_
  unfold csz; (repeat' split) <;> decide

/-- The credit of a DMA cell by its number: the copy of the whole block; the chunk's for the rest. -/
def amt (n : ℕ) : ℕ :=
  if n = 2 then crd S512x512.size else if n < 16 then crd (csz (n - 3)) else if n < 29 then crd (csz (n - 16))
  else if n < 41 then crd (csz (n - 29)) else crd (csz (n - 41))

theorem amt_pos (n : ℕ) : 0 < amt n := by
  unfold amt
  split
  · unfold crd; exact sig.dmaCredit_pos _ _ _ _ _ (by decide)
  · (repeat' split) <;> exact crd_pos _

/-! ## Contents -/

/-- Device `c`'s block, as its staging buffer holds it during the body. -/
def xstg (c : Dev nD) : (cc0_stg0_0 : Ref sig .tc).ty.Contents (Elt F) :=
  (win0_0.blk (0 : Fin 1)).view.read (Elt F) ((s₀ m ρ).mem ((c : Thread nD τ).loc main_arg0))

/-- Row `r % 512`, same column: the place inside a block of a place of the result. -/
def lowIdx (i : S1024x512.Idx) : S512x512.Idx := fun a =>
  match a with
  | ⟨0, _⟩ => (⟨(i 0).val % 512, Nat.mod_lt _ (by decide)⟩ : Fin 512)
  | ⟨1, _⟩ => (⟨(i 1).val, (i 1).isLt⟩ : Fin 512)

/-- Whether row `r` of the missing block reaches device `c` straight from its y-neighbour (else it is forwarded). -/
def fromY (c : Dev nD) (r : ℕ) : Prop := if c.val / 2 = 0 then r < 296 else 216 ≤ r
instance (c : Dev nD) (r : ℕ) : Decidable (fromY c r) := by unfold fromY; infer_instance

/-- What device `c`'s result holds at the end: its own block in place; the missing block from `yn c` on the rows sent
    straight, from the diagonal device on the forwarded rows. -/
def gath (c : Dev nD) : (cc0_stg1_0 : Ref sig .tc).ty.Contents (Elt F) := fun i =>
  if (i 0).val / 512 = c.val % 2 then xstg m ρ c (lowIdx i)
  else if fromY c ((i 0).val % 512) then xstg m ρ (yn c) (lowIdx i) else xstg m ρ (dg c) (lowIdx i)

/-! ## Row ranges held -/

/-- Rows `[a, a + l)` of `c`'s result buffer, held outright at contents `f`. -/
def oPts (c : Dev nD) (a l : ℕ) (f : (cc0_stg1_0 : Ref sig .tc).ty.Contents (Elt F)) : sProp 𝕄 :=
  (((c : Thread nD τ).loc cc0_stg1_0) ↦[rows 1024 a l]{fullShare} f)
/-- Rows `[a, a + l)` of `c`'s block buffer at its contents, at share `q`. -/
def xPts (c : Dev nD) (a l : ℕ) (q : PosShare TreeShare) : sProp 𝕄 :=
  (((c : Thread nD τ).loc cc0_stg0_0) ↦[rows 512 a l]{q} xstg m ρ c)

omit [FloatOps F] in
instance oPts_storable (c : Dev nD) (a l : ℕ) (f) : BI.Storable (upEmb : UEmb _ 𝕄) (oPts (F := F) c a l f) := by unfold oPts; infer_instance
omit [FloatOps F] in
instance xPts_storable (c : Dev nD) (a l : ℕ) (q) : BI.Storable (upEmb : UEmb _ 𝕄) (xPts (F := F) m ρ c a l q) := by unfold xPts; infer_instance

/-- The chunk numbers, in program order. -/
abbrev ks13 : List ℕ := [0, 1, 2, 3, 4, 5, 6, 7, 8, 9, 10, 11, 12]
abbrev ks12 : List ℕ := [0, 1, 2, 3, 4, 5, 6, 7, 8, 9, 10, 11]

/-- The thirteen row ranges of `yn c`'s result that `c` writes along y, at whatever they hold. -/
def landY (c : Dev nD) : sProp 𝕄 := bigSep (Finset.range 13) fun k => iprop(∃ f, oPts (yn c) (ydst c k) (clen k) f)
/-- The twelve row ranges of `xn c`'s result that `c` writes along x. -/
def landX (c : Dev nD) : sProp 𝕄 := bigSep (Finset.range 12) fun j => iprop(∃ f, oPts (xn c) (xrow c j) (clen j) f)

omit [FloatOps F] in
instance landY_storable (c : Dev nD) : BI.Storable (upEmb : UEmb _ 𝕄) (landY (F := F) c) := by unfold landY; infer_instance
omit [FloatOps F] in
instance landX_storable (c : Dev nD) : BI.Storable (upEmb : UEmb _ 𝕄) (landX (F := F) c) := by unfold landX; infer_instance

/-! ## The schedule -/

/-- The payload of DMA cell number `n` of device `c`. -/
def dpay (c : Dev nD) (n : ℕ) : sProp 𝕄 :=
  if n = 2 then iprop(oPts c (512 * (c.val % 2)) 512 (gath m ρ c) ∗ xPts m ρ c 0 512 fullShare.left)
  else if n < 16 then xPts m ρ c (ysrc c (n - 3)) (clen (n - 3)) fullShare.right
  else if n < 29 then oPts c (ydst (yn c) (n - 16)) (clen (n - 16)) (gath m ρ c)
  else if n < 41 then oPts c (xrow c (n - 29)) (clen (n - 29)) (gath m ρ c)
  else oPts c (xrow (xn c) (n - 41)) (clen (n - 41)) (gath m ρ c)

omit [FloatOps F] in
instance dpay_storable (c : Dev nD) (n : ℕ) : BI.Storable (upEmb : UEmb _ 𝕄) (dpay (F := F) m ρ c n) := by
  unfold dpay; (repeat' split) <;> infer_instance

abbrev IsBar (g : GSem nD τ sig) : Prop := g.1.2 = .tc ∧ g.2 = .reg barS
/-- One of the protocol's DMA cells: on a TensorCore, numbered 2 or more (0 and 1 are the pipeline's staging semaphores). -/
abbrev IsD (g : GSem nD τ sig) : Prop := g.1.2 = .tc ∧ ∃ n, dnum g.2 = some n ∧ 2 ≤ n

instance (g : GSem nD τ sig) : Decidable (IsD g) := by
  unfold IsD
  cases h : dnum g.2 with
  | none => exact isFalse (fun ⟨_, n, hn, _⟩ => by cases hn)
  | some k =>
    by_cases h2 : g.1.2 = .tc ∧ 2 ≤ k
    · exact isTrue ⟨h2.1, k, rfl, h2.2⟩
    · exact isFalse (fun ⟨h1, n, hn, hk⟩ => h2 ⟨h1, by cases hn; exact hk⟩)

/-- One round: a barrier cell has the duties `false` (from `yn`) and `true` (from `xn`) of one unit; a DMA cell the
    duty `false` of its transfer's credit. -/
def agRd : Rounds.Schedule (GSem nD τ sig) Bool 𝕄 where
  duties g r := if r = 0 ∧ IsBar g then Finset.univ else if r = 0 ∧ IsD g then {false} else ∅
  unitless _ := False
  amount g _ _ := match dnum g.2 with | none => 1 | some n => amt n
  payload g _ d :=
    match dnum g.2 with
    | none => if d then landX g.1.1 else landY g.1.1
    | some n => dpay m ρ g.1.1 n
  amount_pos g _ _ _ := by
    cases h : dnum g.2 with
    | none => simp only; exact Nat.one_pos
    | some n => simp only; exact amt_pos n

instance agRd_payload_storable (g : GSem nD τ sig) (r : ℕ) (d : Bool) :
    BI.Storable (upEmb : UEmb _ 𝕄) ((agRd (F := F) m ρ).payload g r d) := by
  show BI.Storable upEmb (match dnum g.2 with
    | none => if d then landX g.1.1 else landY g.1.1
    | some n => dpay m ρ g.1.1 n)
  cases dnum g.2 with
  | none => simp only; split <;> infer_instance
  | some n => simp only; infer_instance

section Sched
variable (c : Dev nD)

omit [FloatOps F] in
theorem duties_bar : (agRd (F := F) m ρ).duties (barCell c) 0 = Finset.univ := by dsimp only [agRd]; exact if_pos ⟨rfl, rfl, rfl⟩
omit [FloatOps F] in
theorem not_bar_d (n : ℕ) (h : n < 53) : ¬ IsBar (dcell c n h) := fun hb => by cases hb.2
omit [FloatOps F] in
theorem isD_d (n : ℕ) (h : n < 53) (h2 : 2 ≤ n) : IsD (dcell c n h) := ⟨rfl, n, rfl, h2⟩
omit [FloatOps F] in
theorem duties_d (n : ℕ) (h : n < 53) (h2 : 2 ≤ n) : (agRd (F := F) m ρ).duties (dcell c n h) 0 = {false} := by
  dsimp only [agRd]; rw [if_neg (fun hh => not_bar_d c n h hh.2)]; exact if_pos ⟨rfl, isD_d c n h h2⟩
omit [FloatOps F] in
theorem duties_later (g : GSem nD τ sig) : ∀ r, 1 ≤ r → (agRd (F := F) m ρ).duties g r = ∅ :=
  fun r hr => by dsimp only [agRd]; rw [if_neg fun h => by omega, if_neg fun h => by omega]

omit [FloatOps F] in
theorem amount_bar (d : Bool) : (agRd (F := F) m ρ).amount (barCell c) 0 d = 1 := rfl
omit [FloatOps F] in
theorem amount_d (n : ℕ) (h : n < 53) (d : Bool) : (agRd (F := F) m ρ).amount (dcell c n h) 0 d = amt n := rfl

omit [FloatOps F] in
theorem expect_bar : (agRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_d (n : ℕ) (h : n < 53) (h2 : 2 ≤ n) : (agRd (F := F) m ρ).expect (dcell c n h) 0 = amt n := by
  unfold Schedule.expect Schedule.amountOf; rw [duties_d m ρ c n h h2, Finset.sum_singleton, amount_d]

omit [FloatOps F] in
theorem payload_bar_true : (agRd (F := F) m ρ).payload (barCell c) 0 true = landX c := rfl
omit [FloatOps F] in
theorem payload_bar_false : (agRd (F := F) m ρ).payload (barCell c) 0 false = landY c := rfl
omit [FloatOps F] in
theorem payload_d (n : ℕ) (h : n < 53) (d : Bool) : (agRd (F := F) m ρ).payload (dcell c n h) 0 d = dpay m ρ c n := rfl

omit [FloatOps F] in
/-- The whole round of the barrier cell: both neighbours' landing ranges. -/
theorem rest_bar : bigSep ((agRd (F := F) m ρ).duties (barCell c) 0 \ ∅) (fun d => (agRd (F := F) m ρ).payload (barCell c) 0 d) = iprop(landY c ∗ landX c) := by
  rw [Finset.sdiff_empty, duties_bar, bigSep_univ_eq_bigSepL [false, true] (by decide) (by decide), bigSepL_cons_cons, bigSepL_singleton,
    payload_bar_false, payload_bar_true]
  rfl
omit [FloatOps F] in
theorem rest_d (n : ℕ) (h : n < 53) (h2 : 2 ≤ n) :
    bigSep ((agRd (F := F) m ρ).duties (dcell c n h) 0 \ ∅) (fun d => (agRd (F := F) m ρ).payload (dcell c n h) 0 d) = dpay m ρ c n := by
  rw [Finset.sdiff_empty, duties_d m ρ c n h h2, bigSep_singleton, payload_d]

end Sched

/-! ## What each device owes at launch; the levels -/

/-- The credit of chunk `j` owed to the x-neighbour's receive cell. -/
def TX (c : Dev nD) (j : ℕ) : CellTallies nD τ sig Unit := if h : 41 + j < 53 then tallyAt (dcell (xn c) (41 + j) h) () (crd (csz j)) else 0
/-- The credit of chunk `k` owed to the y-neighbour's receive cell. -/
def TY (c : Dev nD) (k : ℕ) : CellTallies nD τ sig Unit := if h : 16 + k < 53 then tallyAt (dcell (yn c) (16 + k) h) () (crd (csz k)) else 0

/-- What is still owed along x when `n` forwards remain: summed so that the next forward peels the last summand. -/
def OX (c : Dev nD) : ℕ → CellTallies nD τ sig Unit
  | 0 => 0
  | n + 1 => OX c n + TX c (11 - n)
/-- What is still owed when `n` sends along y remain (all twelve forwards still to come). -/
def OY (c : Dev nD) : ℕ → CellTallies nD τ sig Unit
  | 0 => OX c 12
  | n + 1 => OY c n + TY c (12 - n)

/-- After the first signal. -/
def O₁ (c : Dev nD) : CellTallies nD τ sig Unit := OY c 13 + tallyAt (barCell (xn c)) () 1
/-- At launch. -/
def O₀ (c : Dev nD) : CellTallies nD τ sig Unit := O₁ c + tallyAt (barCell (yn c)) () 1

def L (g : GSem nD τ sig) : Finset Unit := if g.1.2 = .tc then {()} else ∅
/-- Barrier cells at 1, receive cells along y at 2, receive cells along x at 3, everything else at 0. -/
def lv (g : GSem nD τ sig) (_ : Unit) : ℕ :=
  match dnum g.2 with
  | none => 1
  | some n => if 16 ≤ n ∧ n < 29 then 2 else if 41 ≤ n then 3 else 0

theorem L_of_ne (g : GSem nD τ sig) (h : g.1.2 ≠ .tc) : L g = ∅ := if_neg h
theorem L_tc (c : Dev nD) (sm : SemLoc sig) : L ((c : Thread nD τ), sm) = {()} := if_pos rfl

/-- A tally all of whose positive entries are at TensorCore cells of level above `b`. -/
def Above (b : ℕ) (O : CellTallies nD τ sig Unit) : Prop := ∀ g u, 0 < O g u → g.1.2 = .tc ∧ b < lv g u

theorem above_zero (b : ℕ) : Above b (0 : CellTallies nD τ sig Unit) := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  rcases Nat.pos_of_ne_zero (fun h0 => by omega) |> fun (_ : 0 < O g u + O' g u) => (Nat.add_pos_iff_pos_or_pos.mp hg) with h1 | h1
  · exact h g u h1
  · exact h' g u h1
theorem above_tallyAt {b : ℕ} (c : Dev nD) (sm : SemLoc sig) (k : ℕ) (h : b < lv ((c : Thread nD τ), sm) ()) :
    Above b (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem above_TX (c : Dev nD) (j : ℕ) : Above 2 (TX c j) := by
  unfold TX; split
  · exact above_tallyAt _ _ _ (by show 2 < (if 16 ≤ 41 + j ∧ 41 + j < 29 then 2 else if 41 ≤ 41 + j then 3 else 0); rw [if_neg (by omega), if_pos (by omega)]; decide)
  · exact above_zero _
theorem above_TY (c : Dev nD) (k : ℕ) (hk : k < 13) : Above 1 (TY c k) := by
  unfold TY; split
  · exact above_tallyAt _ _ _ (by show 1 < (if 16 ≤ 16 + k ∧ 16 + k < 29 then 2 else if 41 ≤ 16 + k then 3 else 0); rw [if_pos (by omega)]; decide)
  · exact above_zero _
theorem above_OX (c : Dev nD) : ∀ n, Above 2 (OX c n)
  | 0 => above_zero _
  | n + 1 => above_add (above_OX c n) (above_TX c _)
theorem above_mono {b b' : ℕ} (hb : b ≤ b') {O : CellTallies nD τ sig Unit} (h : Above b' O) : Above b O :=
  fun g u hg => ⟨(h g u hg).1, lt_of_le_of_lt hb (h g u hg).2⟩
theorem above_OY (c : Dev nD) : ∀ n, n ≤ 13 → Above 1 (OY c n)
  | 0, _ => above_mono (by decide) (above_OX c 12)
  | n + 1, h => above_add (above_OY c n (by omega)) (above_TY c _ (by omega))
theorem above_O₀ (c : Dev nD) : Above 0 (O₀ c) :=
  above_add (above_add (above_mono (by decide) (above_OY c 13 (le_refl _))) (above_tallyAt _ _ _ (show 0 < 1 by decide))) (above_tallyAt _ _ _ (show 0 < 1 by decide))

omit [FloatOps F] in
/-- A wait on a cell of level at most `b` while everything still owed sits above `b`. -/
theorem mayWait_above (c : Dev nD) (sm : SemLoc sig) (b : ℕ) (hb : lv ((c : Thread nD τ), sm) () ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by
      have := (hO g u hg).1
      obtain ⟨⟨d, pk⟩, s⟩ := g
      simp only at this; subst this
      rw [show L ((d, Proc.tc), s) = {()} from if_pos rfl]; exact Finset.mem_singleton_self _)
    (fun p hp => by rw [Finset.mem_singleton.mp hp]; exact hb)
    (fun g u hg => (hO g u hg).2)

/-! ## The ghost state a device's body starts from -/

/-- DMA cell number `n` of device `c` (total in `n`; past the last it is the barrier cell, never used). -/
def dcN (c : Dev nD) (n : ℕ) : GSem nD τ sig := if h : n < 53 then dcell c n h else barCell c
theorem dcN_lt (c : Dev nD) (n : ℕ) (h : n < 53) : dcN c n = dcell c n h := dif_pos h

/-- The protocol's fifty-two cells of a device: its barrier cell, then its DMA cells 2 … 52. -/
def kcell (ck : Dev nD × Fin 52) : GSem nD τ sig := if ck.2.val = 0 then barCell ck.1 else dcN ck.1 (ck.2.val + 1)

/-- The cell whose single duty device `c` pays with its DMA number `n`: its own copy and send cells, its neighbours'
    receive cells. -/
def payCell (c : Dev nD) (n : ℕ) : GSem nD τ sig :=
  if n < 16 then dcN c n else if n < 29 then dcN (yn c) n else if n < 41 then dcN c n else dcN (xn c) n

/-- Every cell's invariant, under the names the launch allocated them at, and that every cell is at round 0. -/
def records (K : Dev nD × Fin 52 → ℕ) : sProp 𝕄 :=
  iprop((bigSep Finset.univ fun ck : Dev nD × Fin 52 => cellInv ER (agRd m ρ) (K ck) (kcell ck))
    ∗ bigSep Finset.univ fun ck : Dev nD × Fin 52 => reached ER (kcell ck) 0)

instance records_persistent (K : Dev nD × Fin 52 → ℕ) : BI.Persistent (records m ρ K) := by unfold records; infer_instance

/-- What stays with device `c`: its positions in its own cells, and the tokens of the duties IT pays. -/
def linear (c : Dev nD) : sProp 𝕄 :=
  iprop(atPos ER (barCell c) 0 ∅ 0 ∗ (bigSep (Finset.range 51) fun i => atPos ER (dcN c (i + 2)) 0 ∅ 0)
    ∗ dutyTok ER (barCell (yn c)) 0 false ∗ dutyTok ER (barCell (xn c)) 0 true
    ∗ bigSep (Finset.range 51) fun i => dutyTok ER (payCell c (i + 2)) 0 false)

def ghost (K : Dev nD × Fin 52 → ℕ) (c : Dev nD) : sProp 𝕄 := iprop(records m ρ K ∗ linear c)

/-- The credit a device is dealt at launch for what the others owe its cells: two barrier units, the thirteen chunks it
    receives along y, the twelve along x. -/
def creds (c : Dev nD) : sProp 𝕄 :=
  iprop(cred (tallyAt (barCell c) () 2) ∗ (bigSep (Finset.range 13) fun k => cred (tallyAt (dcN c (16 + k)) () (amt (16 + k))))
    ∗ bigSep (Finset.range 12) fun j => cred (tallyAt (dcN c (41 + j)) () (amt (41 + j))))

def start (c : Dev nD) : sProp 𝕄 := iprop((∃ K, ghost m ρ K c) ∗ creds c ∗ levAts L lv)

def Φ₀ (c : Dev nD) : sProp 𝕄 := start m ρ c
/-- After the body: the fifty-one own DMA cells at zero, closed. -/
def Φ₁ (c : Dev nD) : sProp 𝕄 := bigSep (Finset.range 51) fun i => semVal (dcN c (i + 2)) 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gath m ρ c))

end Cert.KernelIdeal.AG

end
-- ==== Proof.Steps.lean ====
/-
  The rules of the protocol's steps at this schedule: one transfer along y, one forward along x, the local copy, a wait on a
  DMA cell, a cell's closing — each stated once, for a symbolic device and chunk.
-/
import proofs.«900105_g7700000000000106_dist_ag_v7x_xy2x2_y_m512_n512_f32_1_alg».proof.Proof.Proto

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed offsets, in the protocol's words -/

section Offs
theorem k0_off3_row (c : Dev nD) (r : Fin 2) : k0_off3 c (BitVec.ofNat 32 (32 * r.val)) 0 = ysrc c r.val := by
  rw [k0_off3_eq]; revert c r; decide
theorem k0_off3_col (c : Dev nD) (r : Fin 2) : k0_off3 c (BitVec.ofNat 32 (32 * r.val)) 1 = 0 := by
  rw [k0_off3_eq]; rfl
theorem k0_off5_row (c : Dev nD) (r : Fin 3) : k0_off5 c (BitVec.ofNat 32 (64 + 24 * r.val)) 0 = ysrc c (2 + r.val) := by
  rw [k0_off5_eq]; revert c r; decide
theorem k0_off5_col (c : Dev nD) (r : Fin 3) : k0_off5 c (BitVec.ofNat 32 (64 + 24 * r.val)) 1 = 0 := by
  rw [k0_off5_eq]; rfl
theorem k0_off7_row (c : Dev nD) (r : Fin 3) : k0_off7 c (BitVec.ofNat 32 (136 + 16 * r.val)) 0 = ysrc c (5 + r.val) := by
  rw [k0_off7_eq]; revert c r; decide
theorem k0_off7_col (c : Dev nD) (r : Fin 3) : k0_off7 c (BitVec.ofNat 32 (136 + 16 * r.val)) 1 = 0 := by
  rw [k0_off7_eq]; rfl
theorem k0_off9_row (c : Dev nD) (r : Fin 4) : k0_off9 c (BitVec.ofNat 32 (184 + 8 * r.val)) 0 = ysrc c (8 + r.val) := by
  rw [k0_off9_eq]; revert c r; decide
theorem k0_off9_col (c : Dev nD) (r : Fin 4) : k0_off9 c (BitVec.ofNat 32 (184 + 8 * r.val)) 1 = 0 := by
  rw [k0_off9_eq]; rfl
theorem k0_off2_row (c : Dev nD) (r : Fin 2) : k0_off2 c (BitVec.ofNat 32 (32 * r.val)) 0 = ydst c r.val := by
  rw [k0_off2_eq]; revert c r; decide
theorem k0_off2_col (c : Dev nD) (r : Fin 2) : k0_off2 c (BitVec.ofNat 32 (32 * r.val)) 1 = 0 := by
  rw [k0_off2_eq]; rfl
theorem k0_off4_row (c : Dev nD) (r : Fin 3) : k0_off4 c (BitVec.ofNat 32 (64 + 24 * r.val)) 0 = ydst c (2 + r.val) := by
  rw [k0_off4_eq]; revert c r; decide
theorem k0_off4_col (c : Dev nD) (r : Fin 3) : k0_off4 c (BitVec.ofNat 32 (64 + 24 * r.val)) 1 = 0 := by
  rw [k0_off4_eq]; rfl
theorem k0_off6_row (c : Dev nD) (r : Fin 3) : k0_off6 c (BitVec.ofNat 32 (136 + 16 * r.val)) 0 = ydst c (5 + r.val) := by
  rw [k0_off6_eq]; revert c r; decide
theorem k0_off6_col (c : Dev nD) (r : Fin 3) : k0_off6 c (BitVec.ofNat 32 (136 + 16 * r.val)) 1 = 0 := by
  rw [k0_off6_eq]; rfl
theorem k0_off8_row (c : Dev nD) (r : Fin 4) : k0_off8 c (BitVec.ofNat 32 (184 + 8 * r.val)) 0 = ydst c (8 + r.val) := by
  rw [k0_off8_eq]; revert c r; decide
theorem k0_off8_col (c : Dev nD) (r : Fin 4) : k0_off8 c (BitVec.ofNat 32 (184 + 8 * r.val)) 1 = 0 := by
  rw [k0_off8_eq]; rfl
theorem k0_off11_row (c : Dev nD) (r : Fin 2) : k0_off11 c (BitVec.ofNat 32 (32 * r.val)) 0 = xrow c r.val := by
  rw [k0_off11_eq]; revert c r; decide
theorem k0_off11_col (c : Dev nD) (r : Fin 2) : k0_off11 c (BitVec.ofNat 32 (32 * r.val)) 1 = 0 := by
  rw [k0_off11_eq]; rfl
theorem k0_off12_row (c : Dev nD) (r : Fin 3) : k0_off12 c (BitVec.ofNat 32 (64 + 24 * r.val)) 0 = xrow c (2 + r.val) := by
  rw [k0_off12_eq]; revert c r; decide
theorem k0_off12_col (c : Dev nD) (r : Fin 3) : k0_off12 c (BitVec.ofNat 32 (64 + 24 * r.val)) 1 = 0 := by
  rw [k0_off12_eq]; rfl
theorem k0_off13_row (c : Dev nD) (r : Fin 3) : k0_off13 c (BitVec.ofNat 32 (136 + 16 * r.val)) 0 = xrow c (5 + r.val) := by
  rw [k0_off13_eq]; revert c r; decide
theorem k0_off13_col (c : Dev nD) (r : Fin 3) : k0_off13 c (BitVec.ofNat 32 (136 + 16 * r.val)) 1 = 0 := by
  rw [k0_off13_eq]; rfl
theorem k0_off14_row (c : Dev nD) (r : Fin 4) : k0_off14 c (BitVec.ofNat 32 (184 + 8 * r.val)) 0 = xrow c (8 + r.val) := by
  rw [k0_off14_eq]; revert c r; decide
theorem k0_off14_col (c : Dev nD) (r : Fin 4) : k0_off14 c (BitVec.ofNat 32 (184 + 8 * r.val)) 1 = 0 := by
  rw [k0_off14_eq]; rfl
theorem k0_off10_row (c : Dev nD) : k0_off10 c 0 = ydst c 12 := by rw [k0_off10_eq]; revert c; decide
theorem k0_off10_col (c : Dev nD) : k0_off10 c 1 = 0 := by rw [k0_off10_eq]; rfl
theorem k0_off1_row (c : Dev nD) : k0_off1 c 0 = 512 * (c.val % 2) := by rw [k0_off1_eq]; rfl
theorem k0_off1_col (c : Dev nD) : k0_off1 c 1 = 0 := by rw [k0_off1_eq]; rfl
end Offs

/-! ## The credits by cell number -/

theorem csz_eq (k : ℕ) : csz k = (SR (clen k)).size := by
  unfold csz clen
  by_cases h1 : k < 2
  · simp only [if_pos h1]
  by_cases h2 : k < 5
  · simp only [if_neg h1, if_pos h2]
  by_cases h3 : k < 8
  · simp only [if_neg h1, if_neg h2, if_pos h3]
  by_cases h4 : k < 12
  · simp only [if_neg h1, if_neg h2, if_neg h3, if_pos h4]
  · simp only [if_neg h1, if_neg h2, if_neg h3, if_neg h4]
theorem amt_ys (k : ℕ) (hk : k < 13) : amt (3 + k) = crd (SR (clen k)).size := by
  unfold amt; rw [if_neg (by omega), if_pos (by omega), show 3 + k - 3 = k by omega, csz_eq]
theorem amt_yr (k : ℕ) (hk : k < 13) : amt (16 + k) = crd (SR (clen k)).size := by
  unfold amt; rw [if_neg (by omega), if_neg (by omega), if_pos (by omega), show 16 + k - 16 = k by omega, csz_eq]
theorem amt_xs (j : ℕ) (hj : j < 12) : amt (29 + j) = crd (SR (clen j)).size := by
  unfold amt; rw [if_neg (by omega), if_neg (by omega), if_neg (by omega), if_pos (by omega), show 29 + j - 29 = j by omega, csz_eq]
theorem amt_xr (j : ℕ) (hj : j < 12) : amt (41 + j) = crd (SR (clen j)).size := by
  unfold amt; rw [if_neg (by omega), if_neg (by omega), if_neg (by omega), if_neg (by omega), show 41 + j - 41 = j by omega, csz_eq]
theorem amt_copy : amt 2 = crd (SR 512).size := by unfold amt; rw [if_pos rfl]

/-! ## A cell's invariant and round out of the records -/

theorem kcell_d (c : Dev nD) (n : ℕ) (h : n < 53) (h2 : 2 ≤ n) : kcell (c, (⟨n - 1, by omega⟩ : Fin 52)) = dcell c n h := by
  unfold kcell; rw [if_neg (by simp only; omega)]; simp only; rw [show n - 1 + 1 = n by omega]; exact dcN_lt c n h
theorem kcell_bar (c : Dev nD) : kcell (c, (0 : Fin 52)) = barCell c := by unfold kcell; exact if_pos rfl

omit [FloatOps F] in
theorem inv_at (K : Dev nD × Fin 52 → ℕ) (ck : Dev nD × Fin 52) : records m ρ K ⊢ cellInv ER (agRd m ρ) (K ck) (kcell ck) := by
  unfold records
  exact (show _ ⊢ (bigSep Finset.univ fun ck : Dev nD × Fin 52 => cellInv ER (agRd m ρ) (K ck) (kcell ck) : sProp 𝕄) from by iintro ⟨H, -⟩; iexact H).trans
    (bigSep_elim (Finset.mem_univ ck))
omit [FloatOps F] in
theorem reached_at (K : Dev nD × Fin 52 → ℕ) (ck : Dev nD × Fin 52) : records m ρ K ⊢ (reached ER (kcell ck) 0 : sProp 𝕄) := by
  unfold records
  exact (show _ ⊢ (bigSep Finset.univ fun ck : Dev nD × Fin 52 => reached ER (kcell ck) 0 : sProp 𝕄) from by iintro ⟨-, H⟩; iexact H).trans
    (bigSep_elim (Finset.mem_univ ck))

/-- The name the launch gave DMA cell `n` of `c`. -/
abbrev Kd (K : Dev nD × Fin 52 → ℕ) (c : Dev nD) (n : ℕ) (h : n < 53 := by omega) : ℕ := K (c, (⟨n - 1, by omega⟩ : Fin 52))

omit [FloatOps F] in
theorem inv_d (K : Dev nD × Fin 52 → ℕ) (c : Dev nD) (n : ℕ) (h : n < 53) (h2 : 2 ≤ n) :
    records m ρ K ⊢ cellInv ER (agRd m ρ) (Kd K c n h) (dcell c n h) := by
  have := inv_at m ρ K (c, (⟨n - 1, by omega⟩ : Fin 52)); rw [kcell_d c n h h2] at this; exact this
omit [FloatOps F] in
theorem reached_d (K : Dev nD × Fin 52 → ℕ) (c : Dev nD) (n : ℕ) (h : n < 53) (h2 : 2 ≤ n) :
    records m ρ K ⊢ (reached ER (dcell c n h) 0 : sProp 𝕄) := by
  have := reached_at m ρ K (c, (⟨n - 1, by omega⟩ : Fin 52)); rw [kcell_d c n h h2] at this; exact this
omit [FloatOps F] in
theorem inv_bar (K : Dev nD × Fin 52 → ℕ) (c : Dev nD) : records m ρ K ⊢ cellInv ER (agRd m ρ) (K (c, 0)) (barCell c) := by
  have := inv_at m ρ K (c, (0 : Fin 52)); rw [kcell_bar] at this; exact this
omit [FloatOps F] in
theorem reached_bar (K : Dev nD × Fin 52 → ℕ) (c : Dev nD) : records m ρ K ⊢ (reached ER (barCell c) 0 : sProp 𝕄) := by
  have := reached_at m ρ K (c, (0 : Fin 52)); rw [kcell_bar] at this; exact this

/-! ## The row range under a printed slice -/

omit [FloatOps F] in
theorem xslice_set {r : ℕ} (offs : Fin 2 → ℕ) (inbs : ∀ a, offs a + (SR r).size a ≤ (SR 512).size a) (hs1 : offs 1 = 0) :
    ((xM : Memref sig .tc .vmem S512x512 .f32).slice (Rect.unit (s := SR 512) offs (SR r).size inbs) (fun _ => rfl)).view.set = rows 512 (offs 0) r := by
  exact (View.set_slice_whole cc0_stg0_0 _).trans (unit_set_rows offs inbs hs1)
omit [FloatOps F] in
theorem oslice_set {κ : Kind} {r : ℕ} (offd : Fin 2 → ℕ) (inbd : ∀ a, offd a + (SR r).size a ≤ (SR 1024).size a) (hd1 : offd 1 = 0) :
    ((Memref.whole cc0_stg1_0 : Memref sig .tc .vmem S1024x512 .f32).slice (Rect.unit (s := SR 1024) offd (SR r).size inbd) (fun _ => rfl)).view.set = rows 1024 (offd 0) r := by
  exact (View.set_slice_whole cc0_stg1_0 _).trans (unit_set_rows offd inbd hd1)

omit [FloatOps F] in
/-- The credit of a transfer into a row slice of the result buffer. -/
theorem dmaCredit_oslice (r : ℕ) (offd : Fin 2 → ℕ) (inbd : ∀ a, offd a + (SR r).size a ≤ (SR 1024).size a) :
    ((Memref.whole cc0_stg1_0 : Memref sig .tc .vmem S1024x512 .f32).slice (Rect.unit (s := SR 1024) offd (SR r).size inbd) (fun _ => rfl)).view.dmaCredit
      = crd (SR r).size := rfl

omit [FloatOps F] in
/-- The credit of a transfer counted on a row slice of the block buffer: the same, the credit depends on shape and element type only. -/
theorem dmaCredit_xslice (r : ℕ) (offs : Fin 2 → ℕ) (inbs : ∀ a, offs a + (SR r).size a ≤ (SR 512).size a) :
    ((xM : Memref sig .tc .vmem S512x512 .f32).slice (Rect.unit (s := SR 512) offs (SR r).size inbs) (fun _ => rfl)).view.dmaCredit
      = crd (SR r).size := rfl

/-! ## One transfer along y -/

set_option maxHeartbeats 1600000 in
/-- Chunk `k` sent to the y-neighbour: the sender hands in the right half of the source rows, the destination rows of the
    neighbour's result (which it holds since the barrier), the two duty tokens, and pays the chunk's credit off what it owes;
    it gets credit on its send cell. -/
theorem wp_ysend (K : Dev nD × Fin 52 → ℕ) (c n : Dev nD) (hn : n = yn c) (k : ℕ) (hk : k < 13) (r : ℕ) (hr : r = clen k)
    {offs offd : Fin 2 → ℕ} {inbs : ∀ a, offs a + (SR r).size a ≤ (SR 512).size a} {inbd : ∀ a, offd a + (SR r).size a ≤ (SR 1024).size a}
    (hs0 : offs 0 = ysrc c k) (hs1 : offs 1 = 0) (hd0 : offd 0 = ydst c k) (hd1 : offd 1 = 0)
    (sS sR : DmaSem sig) (hsS : sS = dsem (3 + k) (by omega)) (hsR : sR = dsem (16 + k) (by omega))
    (hval : ∀ i ∈ rows 1024 (ydst c k) (clen k), gath m ρ (yn c) i = xstg m ρ c (shiftRow (ns := 512) (ydst c k) (ysrc c k) i))
    {hsc : ((Memref.whole cc0_stg1_0 : Memref sig (Dev.tc n : Thread nD τ).2.kind .vmem S1024x512 .f32).slice (Rect.unit (s := SR 1024) offd (SR r).size inbd) (fun _ => rfl)).view.ref.isScScratch = false}
    {hsrc : ((xM : Memref sig .tc .vmem S512x512 .f32).slice (Rect.unit (s := SR 512) offs (SR r).size inbs) (fun _ => rfl)).view.WordExact}
    {hdst : ((Memref.whole cc0_stg1_0 : Memref sig .tc .vmem S1024x512 .f32).slice (Rect.unit (s := SR 1024) offd (SR r).size inbd) (fun _ => rfl)).view.WordExact}
    {hsem : DmaTarget.Typed .vmem (.dma sR) (.remote (Dev.tc n : Thread nD τ) ((Memref.whole cc0_stg1_0 : Memref sig .tc .vmem S1024x512 .f32).slice (Rect.unit (s := SR 1024) offd (SR r).size inbd) (fun _ => rfl)) (.dma sS) hsc)}
    {α : Type} {Q : α → sProp 𝕄} {k' : PUnit → Prog (TpuEff nD τ sig (Elt F) Λ₀ .tc) α}
    (fd : (cc0_stg1_0 : Ref sig .tc).ty.Contents (Elt F)) (O : CellTallies nD τ sig Unit) (W : Waits sig Unit) :
    iprop(records m ρ K ∗ xPts m ρ c (ysrc c k) (clen k) fullShare.right ∗ oPts (yn c) (ydst c k) (clen k) fd
        ∗ owes (c : Thread nD τ) (O + TY c k) W
        ∗ dutyTok ER (dcell c (3 + k) (by omega)) 0 false ∗ dutyTok ER (dcell (yn c) (16 + k) (by omega)) 0 false)
      ⊢ iprop(((cred (tallyAt (dcell c (3 + k) (by omega)) () (crd (SR (clen k)).size)) ∗ owes (c : Thread nD τ) O W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma ((xM : Memref sig .tc .vmem S512x512 .f32).slice (Rect.unit (s := SR 512) offs (SR r).size inbs) (fun _ => rfl))
                (.remote (Dev.tc n : Thread nD τ) ((Memref.whole cc0_stg1_0 : Memref sig .tc .vmem S1024x512 .f32).slice (Rect.unit (s := SR 1024) offd (SR r).size inbd) (fun _ => rfl)) (.dma sS) hsc)
                (.dma sR) hsrc hdst hsem) k') Q) := by
  subst hn hsS hsR hr
  have h3 : 3 + k < 53 := by omega
  have h3' : 2 ≤ 3 + k := by omega
  have h16 : 16 + k < 53 := by omega
  have h16' : 2 ≤ 16 + k := by omega
  rw [show TY c k = tallyAt (dcell (yn c) (16 + k) (by omega)) () (crd (SR (clen k)).size) from by unfold TY; rw [dif_pos (by omega), csz_eq]]
  iintro ⟨#HR, Hsrc, Hdst, HO, Ht1, Ht2⟩
  iapply (Rounds.wp_send_pointsTo 𝒱₀ ER (agRd m ρ) (c : Thread nD τ) none (κ₁ := Kd K c (3 + k)) (κ₂ := Kd K (yn c) (16 + k))
      (r₁ := 0) (r₂ := 0) (d₁ := false) (d₂ := false) (q := fullShare.right) (fs := xstg m ρ c) (fd := fd)
      (by simp only [duties_d m ρ c (3 + k) h3 h3', Finset.mem_singleton])
      (by simp only [duties_d m ρ (yn c) (16 + k) h16 h16', Finset.mem_singleton])
      () () (crd (SR (clen k)).size) rfl ((amount_d m ρ c (3 + k) h3 false).trans (amt_ys k hk))
      ((amount_d m ρ (yn c) (16 + k) h16 false).trans (amt_yr k hk)) O
      rfl (W := W)
      (by
        rw [payload_d]; unfold dpay
        rw [if_neg (by omega), if_pos (by omega), show 3 + k - 3 = k by omega]
        unfold xPts; rw [xslice_set offs inbs hs1, hs0])
      (by
        rw [payload_d]; unfold dpay
        rw [if_neg (by omega), if_neg (by omega), if_pos (by omega), show 16 + k - 16 = k by omega, yn_yn]
        unfold oPts; rw [oslice_set (κ := .tc) offd inbd hd1, hd0]
        refine Entails.of_eq (pts_congr (ℓ := ((yn c : Dev nD) : Thread nD τ).loc cc0_stg1_0) fun i hi => ?_)
        rw [hval i hi, ← hd0, ← hs0]
        exact write_read_rows (ns := 512) (nd := 1024) (r := clen k) (View.whole cc0_stg0_0) (View.whole cc0_stg1_0) offs offd inbs inbd hs1 hd1
          (xstg m ρ c) fd (by rw [hd0]; exact hi))) $$ [Hsrc Hdst HO Ht1 Ht2]
  · unfold xPts oPts
    rw [xslice_set offs inbs hs1, hs0, oslice_set (κ := .tc) offd inbd hd1, hd0]
    isplitr; · iapply (inv_d m ρ K c (3 + k) h3 h3'); iexact HR
    isplitr; · iapply (inv_d m ρ K (yn c) (16 + k) h16 h16'); iexact HR
    isplitl [Hsrc]; · iexact Hsrc
    isplitl [Hdst]; · iexact Hdst
    isplitl [HO]; · iexact HO
    isplitl [Ht1]; · iexact Ht1
    isplitr; · iapply (reached_d m ρ K c (3 + k) h3 h3'); iexact HR
    isplitl [Ht2]; · iexact Ht2
    iapply (reached_d m ρ K (yn c) (16 + k) h16 h16'); iexact HR

/-! ## One forward along x -/

set_option maxHeartbeats 1600000 in
/-- Chunk `j`, received along y, forwarded to the x-neighbour from the sender's own result buffer to the same rows of the
    neighbour's: the sender hands in the source rows (at their final contents), the destination rows, the two duty tokens, and
    pays the chunk's credit off what it owes. -/
theorem wp_xsend (K : Dev nD × Fin 52 → ℕ) (c n : Dev nD) (hn : n = xn c) (k : ℕ) (hk : k < 12) (r : ℕ) (hr : r = clen k)
    {offs offd : Fin 2 → ℕ} {inbs : ∀ a, offs a + (SR r).size a ≤ (SR 1024).size a} {inbd : ∀ a, offd a + (SR r).size a ≤ (SR 1024).size a}
    (hs0 : offs 0 = xrow c k) (hs1 : offs 1 = 0) (hd0 : offd 0 = xrow c k) (hd1 : offd 1 = 0)
    (sS sR : DmaSem sig) (hsS : sS = dsem (29 + k) (by omega)) (hsR : sR = dsem (41 + k) (by omega))
    (hval : ∀ i ∈ rows 1024 (xrow c k) (clen k), gath m ρ (xn c) i = gath m ρ c (shiftRow (ns := 1024) (xrow c k) (xrow c k) i))
    {hsc : ((Memref.whole cc0_stg1_0 : Memref sig (Dev.tc n : Thread nD τ).2.kind .vmem S1024x512 .f32).slice (Rect.unit (s := SR 1024) offd (SR r).size inbd) (fun _ => rfl)).view.ref.isScScratch = false}
    {hsrc : ((Memref.whole cc0_stg1_0 : Memref sig .tc .vmem S1024x512 .f32).slice (Rect.unit (s := SR 1024) offs (SR r).size inbs) (fun _ => rfl)).view.WordExact}
    {hdst : ((Memref.whole cc0_stg1_0 : Memref sig .tc .vmem S1024x512 .f32).slice (Rect.unit (s := SR 1024) offd (SR r).size inbd) (fun _ => rfl)).view.WordExact}
    {hsem : DmaTarget.Typed .vmem (.dma sR) (.remote (Dev.tc n : Thread nD τ) ((Memref.whole cc0_stg1_0 : Memref sig .tc .vmem S1024x512 .f32).slice (Rect.unit (s := SR 1024) offd (SR r).size inbd) (fun _ => rfl)) (.dma sS) hsc)}
    {α : Type} {Q : α → sProp 𝕄} {k' : PUnit → Prog (TpuEff nD τ sig (Elt F) Λ₀ .tc) α}
    (fd : (cc0_stg1_0 : Ref sig .tc).ty.Contents (Elt F)) (O : CellTallies nD τ sig Unit) (W : Waits sig Unit) :
    iprop(records m ρ K ∗ oPts c (xrow c k) (clen k) (gath m ρ c) ∗ oPts (xn c) (xrow c k) (clen k) fd
        ∗ owes (c : Thread nD τ) (O + TX c k) W
        ∗ dutyTok ER (dcell c (29 + k) (by omega)) 0 false ∗ dutyTok ER (dcell (xn c) (41 + k) (by omega)) 0 false)
      ⊢ iprop(((cred (tallyAt (dcell c (29 + k) (by omega)) () (crd (SR (clen k)).size)) ∗ owes (c : Thread nD τ) O W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma ((Memref.whole cc0_stg1_0 : Memref sig .tc .vmem S1024x512 .f32).slice (Rect.unit (s := SR 1024) offs (SR r).size inbs) (fun _ => rfl))
                (.remote (Dev.tc n : Thread nD τ) ((Memref.whole cc0_stg1_0 : Memref sig .tc .vmem S1024x512 .f32).slice (Rect.unit (s := SR 1024) offd (SR r).size inbd) (fun _ => rfl)) (.dma sS) hsc)
                (.dma sR) hsrc hdst hsem) k') Q) := by
  subst hn hsS hsR hr
  have h3 : 29 + k < 53 := by omega
  have h3' : 2 ≤ 29 + k := by omega
  have h16 : 41 + k < 53 := by omega
  have h16' : 2 ≤ 41 + k := by omega
  rw [show TX c k = tallyAt (dcell (xn c) (41 + k) (by omega)) () (crd (SR (clen k)).size) from by unfold TX; rw [dif_pos (by omega), csz_eq]]
  iintro ⟨#HR, Hsrc, Hdst, HO, Ht1, Ht2⟩
  iapply (Rounds.wp_send_pointsTo 𝒱₀ ER (agRd m ρ) (c : Thread nD τ) none (κ₁ := Kd K c (29 + k)) (κ₂ := Kd K (xn c) (41 + k))
      (r₁ := 0) (r₂ := 0) (d₁ := false) (d₂ := false) (q := fullShare) (fs := gath m ρ c) (fd := fd)
      (by simp only [duties_d m ρ c (29 + k) h3 h3', Finset.mem_singleton])
      (by simp only [duties_d m ρ (xn c) (41 + k) h16 h16', Finset.mem_singleton])
      () () (crd (SR (clen k)).size) rfl ((amount_d m ρ c (29 + k) h3 false).trans (amt_xs k hk))
      ((amount_d m ρ (xn c) (41 + k) h16 false).trans (amt_xr k hk)) O
      rfl (W := W)
      (by
        rw [payload_d]; unfold dpay
        rw [if_neg (by omega), if_neg (by omega), if_neg (by omega), if_pos (by omega), show 29 + k - 29 = k by omega]
        unfold oPts; rw [oslice_set (κ := .tc) offs inbs hs1, hs0])
      (by
        rw [payload_d]; unfold dpay
        rw [if_neg (by omega), if_neg (by omega), if_neg (by omega), if_neg (by omega), show 41 + k - 41 = k by omega, xn_xn]
        unfold oPts; rw [oslice_set (κ := .tc) offd inbd hd1, hd0]
        refine Entails.of_eq (pts_congr (ℓ := ((xn c : Dev nD) : Thread nD τ).loc cc0_stg1_0) fun i hi => ?_)
        rw [hval i hi]
        have hw := write_read_rows (ns := 1024) (nd := 1024) (r := clen k) (View.whole cc0_stg1_0) (View.whole cc0_stg1_0) offs offd inbs inbd hs1 hd1
          (gath m ρ c) fd (i := i) (by rw [hd0]; exact hi)
        rw [hd0, hs0] at hw
        exact hw)) $$ [Hsrc Hdst HO Ht1 Ht2]
  · unfold oPts
    rw [oslice_set (κ := .tc) offs inbs hs1, hs0, oslice_set (κ := .tc) offd inbd hd1, hd0]
    isplitr; · iapply (inv_d m ρ K c (29 + k) h3 h3'); iexact HR
    isplitr; · iapply (inv_d m ρ K (xn c) (41 + k) h16 h16'); iexact HR
    isplitl [Hsrc]; · iexact Hsrc
    isplitl [Hdst]; · iexact Hdst
    isplitl [HO]; · iexact HO
    isplitl [Ht1]; · iexact Ht1
    isplitr; · iapply (reached_d m ρ K c (29 + k) h3 h3'); iexact HR
    isplitl [Ht2]; · iexact Ht2
    iapply (reached_d m ρ K (xn c) (41 + k) h16 h16'); iexact HR

/-! ## The local copy -/

set_option maxHeartbeats 1600000 in
/-- The copy of the device's own block into its rows of the result: it takes the left half of the block buffer and the
    destination rows, and pays the one duty of the copy's cell. -/
theorem wp_copy0 (K : Dev nD × Fin 52 → ℕ) (c : Dev nD)
    {offd : Fin 2 → ℕ} {inbd : ∀ a, offd a + (SR 512).size a ≤ (SR 1024).size a}
    (hd0 : offd 0 = 512 * (c.val % 2)) (hd1 : offd 1 = 0)
    (sC : DmaSem sig) (hsC : sC = dsem 2)
    (fd : (cc0_stg1_0 : Ref sig .tc).ty.Contents (Elt F))
    (hval : ∀ i ∈ rows 1024 (512 * (c.val % 2)) 512,
      (((Memref.whole cc0_stg1_0 : Memref sig .tc .vmem S1024x512 .f32).slice (Rect.unit (s := SR 1024) offd (SR 512).size inbd) (fun _ => rfl)).view.write (Elt F) fd
        ((xM : Memref sig .tc .vmem S512x512 .f32).view.read (Elt F) (xstg m ρ c)) Finset.univ) i = gath m ρ c i)
    {hsrc : (xM : Memref sig .tc .vmem S512x512 .f32).view.WordExact}
    {hdst : ((Memref.whole cc0_stg1_0 : Memref sig .tc .vmem S1024x512 .f32).slice (Rect.unit (s := SR 1024) offd (SR 512).size inbd) (fun _ => rfl)).view.WordExact}
    {hsem : DmaTarget.Typed (nD := nD) .vmem (.dma sC) (DmaTarget.here (τ := τ) (p := Proc.tc) ((Memref.whole cc0_stg1_0 : Memref sig .tc .vmem S1024x512 .f32).slice (Rect.unit (s := SR 1024) offd (SR 512).size inbd) (fun _ => rfl)))}
    {α : Type} {Q : α → sProp 𝕄} {k' : PUnit → Prog (TpuEff nD τ sig (Elt F) Λ₀ .tc) α} :
    iprop(records m ρ K ∗ xPts m ρ c 0 512 fullShare.left ∗ oPts c (512 * (c.val % 2)) 512 fd ∗ dutyTok ER (dcell c 2) 0 false)
      ⊢ iprop((cred (tallyAt (dcell c 2) () (amt 2)) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (xM : Memref sig .tc .vmem S512x512 .f32)
                (.here ((Memref.whole cc0_stg1_0 : Memref sig .tc .vmem S1024x512 .f32).slice (Rect.unit (s := SR 1024) offd (SR 512).size inbd) (fun _ => rfl)))
                (.dma sC) hsrc hdst hsem) k') Q) := by
  subst hsC
  have hxs : (xM : Memref sig .tc .vmem S512x512 .f32).view.set = rows 512 0 512 := by
    exact (View.set_whole cc0_stg0_0).trans rows_all.symm
  iintro ⟨#HR, Hsrc, Hdst, Ht⟩
  iapply (Rounds.wp_copy_pointsTo 𝒱₀ ER (agRd m ρ) (c : Thread nD τ) none (κ := Kd K c 2) (r := 0) (d := false)
      (q := fullShare.left) (fs := xstg m ρ c) (fd := fd)
      (by simp only [duties_d m ρ c 2 (by decide) (by decide), Finset.mem_singleton])
      () (amt 2) (by exact amt_copy.symm) (amount_d m ρ c 2 _ false)
      (by
        rw [payload_d]; unfold dpay
        rw [if_pos rfl]
        unfold oPts xPts; rw [oslice_set (κ := .tc) offd inbd hd1, hd0, hxs]
        refine sep_mono_left (Entails.of_eq (pts_congr (ℓ := ((c : Dev nD) : Thread nD τ).loc cc0_stg1_0) fun i hi => hval i hi)))) $$ [Hsrc Hdst Ht]
  · unfold xPts oPts
    rw [oslice_set (κ := .tc) offd inbd hd1, hd0, hxs]
    isplitr; · iapply (inv_d m ρ K c 2 _ (by decide)); iexact HR
    isplitl [Hsrc]; · iexact Hsrc
    isplitl [Hdst]; · iexact Hdst
    isplitl [Ht]; · iexact Ht
    iapply (reached_d m ρ K c 2 _ (by decide)); iexact HR

/-! ## A wait on one of the device's DMA cells -/

set_option maxHeartbeats 800000 in
/-- The wait for the whole round of DMA cell `n`: with the cell's credit, at a level below everything still owed, the
    device gets the cell's payload and stands at round 1. -/
theorem wp_dwait (K : Dev nD × Fin 52 → ℕ) (c : Dev nD) (n : ℕ) (h : n < 53) (h2 : 2 ≤ n)
    {w : TpuEff nD τ sig (Elt F) Λ₀ .tc PUnit}
    (hw : ∀ Kk : PUnit → sProp 𝕄, wpE' (defs₀ (F := F)) 𝒱₀ (c : Thread nD τ) none PendingWaitsCtx.empty Set.univ w Kk
      = waitSpec (c : Thread nD τ) Set.univ (.dma (dsem n h)) (amt n) Kk)
    (O : CellTallies nD τ sig Unit) (W : Waits sig Unit) (b : ℕ) (hb : lv (dcell c n h) () ≤ b) (hO : Above b O)
    {α : Type} {Q : α → sProp 𝕄} {k' : PUnit → Prog (TpuEff nD τ sig (Elt F) Λ₀ .tc) α} :
    iprop(records m ρ K ∗ levAts L lv ∗ cred (tallyAt (dcell c n h) () (amt n)) ∗ owes (c : Thread nD τ) O W ∗ atPos ER (dcell c n h) 0 ∅ 0)
      ⊢ iprop(((owes (c : Thread nD τ) O (insert (SemLoc.dma (dsem n h), ()) W) ∗ atPos ER (dcell c n h) 1 ∅ 0 ∗ dpay m ρ c n)
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  iintro ⟨#HR, #Hlev, Hc, HO, Hat⟩ Hk
  iapply (Rounds.wp_wait_rest_token 𝒱₀ ER (agRd m ρ) (c : Thread nD τ) none (κ := Kd K c n)
      hw (Set.mem_univ _) () (O := O) (W := W) (R := 0) (m := 0) (T := ∅)
      (by rw [Nat.zero_add, expect_d m ρ c n h h2])) $$ [Hc HO Hat]
  · isplitr; · iapply (inv_d m ρ K c n h h2); iexact HR
    isplitl [Hc]; · iexact Hc
    isplitl [HO]; · iexact HO
    isplitr; · iapply (mayWait_above c _ b hb O hO); iexact Hlev
    iexact Hat
  iintro ⟨HO, Hat, -, Hpay⟩
  iapply Hk
  isplitl [HO]; · iexact HO
  isplitl [Hat]; · iexact Hat
  iapply (Entails.of_eq (rest_d m ρ c n h h2)); iexact Hpay

/-! ## Closing an own cell -/

/-- A DMA cell whose one round is over goes back to the device as a counter at zero. -/
theorem close_d (K : Dev nD × Fin 52 → ℕ) (c : Dev nD) (n : ℕ) (h : n < 53) (h2 : 2 ≤ n) :
    iprop(records m ρ K ∗ atPos ER (dcell c n h) 1 ∅ 0) ⊢ (|={Set.univ}=> semVal (dcell c n h) 0 : sProp 𝕄) := by
  iintro ⟨#HR, Hat⟩
  imod (Rounds.cell_close ER (agRd m ρ) (Set.mem_univ (Kd K c n)) (fun h => h) (R := 0 + 1) (duties_later m ρ (dcell c n h))) $$ [Hat] with Hz
  · isplitr; · iapply (inv_d m ρ K c n h h2); iexact HR
    iexact Hat
  imodintro; iexact Hz

end Cert.KernelIdeal.AG

end
-- ==== Proof.Vals.lean ====
/-
  The contents a landed transfer leaves, against the final contents `gath`: index arithmetic only.
-/
import proofs.«900105_g7700000000000106_dist_ag_v7x_xy2x2_y_m512_n512_f32_1_alg».proof.Proof.Proto

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each of the first twelve chunks lies inside the 216 forwarded rows. -/
theorem coff_add_clen_le : ∀ k, k < 12 → coff k + clen k ≤ 216 := by decide

/-- The thirteenth chunk has 80 rows. -/
theorem clen_twelve : clen 12 = 80 := by decide

/-- The y-neighbour's number: same `c / 2`, other `c % 2`. -/
theorem yn_val (c : Dev nD) : (yn c).val = 2 * (c.val / 2) + 1 - c.val % 2 := rfl
/-- The x-neighbour's number: other `c / 2`, same `c % 2`. -/
theorem xn_val (c : Dev nD) : (xn c).val = c.val % 2 + 2 - 2 * (c.val / 2) := rfl

/-- The neighbours' coordinates. -/
theorem yn_mod (c : Dev nD) : (yn c).val % 2 = 1 - c.val % 2 := by revert c; decide
theorem yn_div (c : Dev nD) : (yn c).val / 2 = c.val / 2 := by revert c; decide
theorem xn_mod (c : Dev nD) : (xn c).val % 2 = c.val % 2 := by revert c; decide
theorem xn_div (c : Dev nD) : (xn c).val / 2 = 1 - c.val / 2 := by revert c; decide

/-- Reaching straight from the y-neighbour, spelt as a disjunction over the device's X. -/
theorem fromY_iff (c : Dev nD) (r : ℕ) : fromY c r ↔ (c.val / 2 = 0 ∧ r < 296) ∨ (c.val / 2 ≠ 0 ∧ 216 ≤ r) := by
  unfold fromY
  by_cases h : c.val / 2 = 0 <;> simp [h]

/-- A row `r` inside a forwarded chunk — rows `[296·X + s, 296·X + s + l)` of block `1 - Y`, with `s + l ≤ 216` — lies in
    block `1 - Y`, below row 216 of it when `X = 0` and from row 296 on when `X = 1`. -/
theorem fwd_row (X Y r s l : ℕ) (hX : X ≤ 1) (hY : Y ≤ 1) (hlo : 512 * (1 - Y) + 296 * X + s ≤ r)
    (hhi : r < 512 * (1 - Y) + 296 * X + s + l) (hsl : s + l ≤ 216) :
    r / 512 ≠ Y ∧ ¬ ((1 - X = 0 ∧ r % 512 < 296) ∨ (1 - X ≠ 0 ∧ 216 ≤ r % 512))
      ∧ ((X = 0 ∧ r % 512 < 296) ∨ (X ≠ 0 ∧ 216 ≤ r % 512)) := by
  rcases Nat.le_one_iff_eq_zero_or_eq_one.mp hX with rfl | rfl <;>
    rcases Nat.le_one_iff_eq_zero_or_eq_one.mp hY with rfl | rfl <;> omega

/-- Where a chunk sent along y starts and ends inside the sender's block: inside the block; below row 296 when the
    sender has X = 0, from row 216 on when it has X = 1. -/
theorem ysrc_bounds (c : Dev nD) (k : ℕ) (hk : k < 13) :
    ysrc c k + clen k ≤ 512 ∧ (c.val / 2 = 0 → ysrc c k + clen k ≤ 296) ∧ (c.val / 2 ≠ 0 → 216 ≤ ysrc c k) := by
  have h4 : c.val < 4 := c.isLt
  unfold ysrc
  split
  · next h => have := coff_add_clen_le k h; omega
  · next h =>
    have hk12 : k = 12 := by omega
    subst hk12
    rw [clen_twelve]; omega

/-- The place inside a block of a place of the result, as a shifted index: for an index whose row lies in the block
    starting at row `512 * y`, `lowIdx` is the shift by `a` rows down and `a - 512 * y` rows up. -/
theorem lowIdx_eq_shiftRow (i : S1024x512.Idx) (y a s : ℕ) (ha : 512 * y + s = a) (hlo : a ≤ (i 0).val)
    (hhi : (i 0).val < 512 * y + 512) : lowIdx i = shiftRow (ns := 512) a s i := by
  have key : ∀ b : Fin 2, (lowIdx i b).val = (shiftRow (ns := 512) a s i b).val := by
    rw [Fin.forall_fin_two]
    constructor
    · rw [shiftRow_row (by omega)]
      show (i 0).val % 512 = _
      omega
    · rw [shiftRow_col]; rfl
  funext b; exact Fin.ext (key b)

omit [FloatOps F] in
/-- A chunk landed along y in `yn c`'s result holds, at each of its places, `c`'s block at the same row of the block. -/
theorem landY_val (c : Dev nD) (k : ℕ) (hk : k < 13) (i : S1024x512.Idx) (hi : i ∈ rows 1024 (ydst c k) (clen k)) :
    gath m ρ (yn c) i = xstg m ρ c (shiftRow (ns := 512) (ydst c k) (ysrc c k) i) := by
  have h4 : c.val < 4 := c.isLt
  have hr := mem_rows.mp hi
  obtain ⟨hb1, hb2, hb3⟩ := ysrc_bounds c k hk
  have hyd : ydst c k = 512 * (c.val % 2) + ysrc c k := rfl
  rw [hyd] at hr
  -- the row lies in block `c % 2`, which is not the block `yn c` holds
  have h1 : ¬ (i 0).val / 512 = (yn c).val % 2 := by rw [yn_val]; omega
  -- and among the rows that reach `yn c` straight from `c`
  have h2 : fromY (yn c) ((i 0).val % 512) := by
    unfold fromY
    rw [yn_val]
    split
    · next hX => have := hb2 (by omega); omega
    · next hX => have := hb3 (by omega); omega
  unfold gath
  rw [if_neg h1, if_pos h2, yn_yn]
  exact congrArg (xstg m ρ c) (lowIdx_eq_shiftRow i (c.val % 2) (ydst c k) (ysrc c k) hyd.symm (by omega) (by omega))

omit [FloatOps F] in
/-- A chunk forwarded along x lands in `xn c`'s result at the rows it had in `c`'s, with the contents `c`'s result has there. -/
theorem landX_val (c : Dev nD) (j : ℕ) (hj : j < 12) (i : S1024x512.Idx) (hi : i ∈ rows 1024 (xrow c j) (clen j)) :
    gath m ρ (xn c) i = gath m ρ c (shiftRow (ns := 1024) (xrow c j) (xrow c j) i) := by
  have h4 : c.val < 4 := c.isLt
  have hr := mem_rows.mp hi
  have hc := coff_add_clen_le j hj
  have hx : xrow c j = 512 * (1 - c.val % 2) + 296 * (c.val / 2) + coff j := rfl
  rw [hx] at hr
  -- shifting by the same row down and up is the identity
  have hid : shiftRow (ns := 1024) (xrow c j) (xrow c j) i = i := by
    have hlt : (i 0).val < 1024 := (i 0).isLt
    have key : ∀ b : Fin 2, (shiftRow (ns := 1024) (xrow c j) (xrow c j) i b).val = (i b).val := by
      rw [Fin.forall_fin_two]
      constructor
      · rw [shiftRow_row (by rw [hx]; omega), hx]; omega
      · rw [shiftRow_col]
    funext b; exact Fin.ext (key b)
  rw [hid]
  -- the row lies in the block neither `c` nor `xn c` holds; it reaches `c` straight from `yn c`, and `xn c` forwarded
  obtain ⟨f1, f2, f3⟩ := fwd_row (c.val / 2) (c.val % 2) (i 0).val (coff j) (clen j) (by omega) (by omega) hr.1 hr.2 hc
  have h1 : ¬ (i 0).val / 512 = (xn c).val % 2 := by rw [xn_mod]; exact f1
  have h2 : ¬ fromY (xn c) ((i 0).val % 512) := by rw [fromY_iff, xn_div]; exact f2
  have h3 : ¬ (i 0).val / 512 = c.val % 2 := f1
  have h4' : fromY c ((i 0).val % 512) := by rw [fromY_iff]; exact f3
  have hdg : dg (xn c) = yn c := by show yn (xn (xn c)) = yn c; rw [xn_xn]
  unfold gath
  rw [if_neg h1, if_neg h2, if_neg h3, if_pos h4', hdg]

omit [FloatOps F] in
/-- The local copy puts `c`'s own block at rows [512·Y, 512·Y + 512) of its result. -/
theorem copy_val (c : Dev nD) (i : S1024x512.Idx) (hi : i ∈ rows 1024 (512 * (c.val % 2)) 512) :
    gath m ρ c i = xstg m ρ c (shiftRow (ns := 512) (512 * (c.val % 2)) 0 i) := by
  have hr := mem_rows.mp hi
  have h1 : (i 0).val / 512 = c.val % 2 := by omega
  unfold gath
  rw [if_pos h1]
  exact congrArg (xstg m ρ c) (lowIdx_eq_shiftRow i (c.val % 2) (512 * (c.val % 2)) 0 rfl (by omega) (by omega))

/-- The rows device `c` forwards along x are the rows it received chunk `j` on along y. -/
theorem xrow_eq (c : Dev nD) (j : ℕ) (hj : j < 12) : xrow c j = ydst (yn c) j := by
  have h4 : c.val < 4 := c.isLt
  unfold xrow ydst ysrc
  rw [if_pos hj, yn_val]
  omega

end Cert.KernelIdeal.AG

end

/-- info: 'Cert.KernelIdeal.AG.landX_val' depends on axioms: [propext, Classical.choice, Quot.sound] -/
#guard_msgs in #print axioms Cert.KernelIdeal.AG.landX_val
-- ==== Proof.CopyVal.lean ====
/-
  What the local copy of the whole block leaves in the rows it is written to.
-/
import proofs.«900105_g7700000000000106_dist_ag_v7x_xy2x2_y_m512_n512_f32_1_alg».proof.Proof.Proto

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The whole block buffer copied into 512 rows of the result buffer: each place of those rows holds the block's entry at the
    same column and at the row counted from the range's first. -/
theorem copy_write (offd : Fin 2 → ℕ) (inbd : ∀ a, offd a + (SR 512).size a ≤ (SR 1024).size a) (hd1 : offd 1 = 0)
    (fs : (cc0_stg0_0 : Ref sig .tc).ty.Contents (Elt F)) (fd : (cc0_stg1_0 : Ref sig .tc).ty.Contents (Elt F))
    (i : S1024x512.Idx) (hi : i ∈ rows 1024 (offd 0) 512) :
    (((Memref.whole cc0_stg1_0 : Memref sig .tc .vmem S1024x512 .f32).slice (Rect.unit (s := SR 1024) offd (SR 512).size inbd) (fun _ => rfl)).view.write (Elt F) fd
      ((xM : Memref sig .tc .vmem S512x512 .f32).view.read (Elt F) fs) Finset.univ) i = fs (shiftRow (ns := 512) (offd 0) 0 i) := by
  -- the whole block is its slice through the rectangle of all its rows at offset zero
  have h := write_read_rows (Val := Elt F) (ns := 512) (nd := 1024) (r := 512) (View.whole cc0_stg0_0) (View.whole cc0_stg1_0)
    (fun _ => 0) offd (fun a => Nat.le_of_eq (Nat.zero_add _)) inbd rfl hd1 fs fd hi
  -- through that rectangle the source reads its contents
  have hs : ((View.whole (cc0_stg0_0 : Ref sig .tc)).slice (Rect.unit (s := SR 512) (fun _ => 0) (SR 512).size
      (fun a => Nat.le_of_eq (Nat.zero_add _)))).read (Elt F) fs = fs :=
    Memref.read_access_whole (Elt F) cc0_stg0_0 fs
  rw [hs] at h
  exact h

end Cert.KernelIdeal.AG

end

/-- info: 'Cert.KernelIdeal.AG.copy_write' depends on axioms: [propext, Classical.choice, Quot.sound] -/
#guard_msgs in #print axioms Cert.KernelIdeal.AG.copy_write
-- ==== Proof.Regions.lean ====
/-
  The two staging buffers cut into the row ranges the transfers move, and put together again.
-/
import proofs.«900105_g7700000000000106_dist_ag_v7x_xy2x2_y_m512_n512_f32_1_alg».proof.Proof.Proto

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Arithmetic of the cut

Inside a block of 512 rows starting at row `B`, for `X ∈ {0, 1}`: the 80 rows from `B + 216`, the 216 rows from
`B + 296·X` and the 216 rows from `B + 296·(1 - X)` are pairwise apart and fill the block. The twelve chunks
`[coff j, coff j + clen j)` are pairwise apart and fill 216 rows. -/

namespace Rg

theorem clen12 : clen 12 = 80 := by decide
theorem chunk_le : ∀ k, k < 12 → coff k + clen k ≤ 216 := by decide
theorem chunk_sep : ∀ j', j' < 12 → ∀ j, j < j' → coff j + clen j ≤ coff j' := by decide

/-- Every one of the 216 rows lies in one of the twelve chunks. -/
theorem chunk_cover (t : ℕ) (ht : t < 216) : ∃ j, j < 12 ∧ coff j ≤ t ∧ t < coff j + clen j := by
  by_cases h0 : t < 32; · exact ⟨0, by decide, by simp [coff], by simp [coff, clen]; omega⟩
  by_cases h1 : t < 64; · exact ⟨1, by decide, by simp [coff]; omega, by simp [coff, clen]; omega⟩
  by_cases h2 : t < 88; · exact ⟨2, by decide, by simp [coff]; omega, by simp [coff, clen]; omega⟩
  by_cases h3 : t < 112; · exact ⟨3, by decide, by simp [coff]; omega, by simp [coff, clen]; omega⟩
  by_cases h4 : t < 136; · exact ⟨4, by decide, by simp [coff]; omega, by simp [coff, clen]; omega⟩
  by_cases h5 : t < 152; · exact ⟨5, by decide, by simp [coff]; omega, by simp [coff, clen]; omega⟩
  by_cases h6 : t < 168; · exact ⟨6, by decide, by simp [coff]; omega, by simp [coff, clen]; omega⟩
  by_cases h7 : t < 184; · exact ⟨7, by decide, by simp [coff]; omega, by simp [coff, clen]; omega⟩
  by_cases h8 : t < 192; · exact ⟨8, by decide, by simp [coff]; omega, by simp [coff, clen]; omega⟩
  by_cases h9 : t < 200; · exact ⟨9, by decide, by simp [coff]; omega, by simp [coff, clen]; omega⟩
  by_cases h10 : t < 208; · exact ⟨10, by decide, by simp [coff]; omega, by simp [coff, clen]; omega⟩
  exact ⟨11, by decide, by simp [coff]; omega, by simp [coff, clen]; omega⟩

theorem yn_mod (c : Dev nD) : (yn c).val % 2 = 1 - c.val % 2 := by revert c; decide
theorem yn_div (c : Dev nD) : (yn c).val / 2 = c.val / 2 := by revert c; decide
theorem xn_mod (c : Dev nD) : (xn c).val % 2 = c.val % 2 := by revert c; decide
theorem xn_div (c : Dev nD) : (xn c).val / 2 = 1 - c.val / 2 := by revert c; decide

/-- The twelve chunks placed from row `base` fill the 216 rows from `base`. -/
theorem chunks_biUnion (n base : ℕ) :
    (Finset.range 12).biUnion (fun j => rows n (base + coff j) (clen j)) = rows n base 216 := by
  ext i
  simp only [Finset.mem_biUnion, Finset.mem_range, mem_rows]
  constructor
  · rintro ⟨j, hj, h1, h2⟩
    have := chunk_le j hj
    omega
  · rintro ⟨h1, h2⟩
    obtain ⟨j, hj, h3, h4⟩ := chunk_cover ((i 0).val - base) (by omega)
    exact ⟨j, hj, by omega, by omega⟩

/-- Different chunks are disjoint. -/
theorem chunks_disjoint (n base : ℕ) {j j' : ℕ} (hj : j < 12) (hj' : j' < 12) (h : j ≠ j') :
    Disjoint (rows n (base + coff j) (clen j)) (rows n (base + coff j') (clen j')) := by
  rcases Nat.lt_or_gt_of_ne h with hlt | hgt
  · have := chunk_sep j' hj' j hlt
    exact rows_disjoint (by omega)
  · have := chunk_sep j hj j' hgt
    exact (rows_disjoint (by omega)).symm

/-- The three ranges of a block fill it. -/
theorem three_eq (n B X : ℕ) (hX : X ≤ 1) :
    rows n B 512 = (rows n (B + 216) 80 ∪ rows n (B + 296 * X) 216) ∪ rows n (B + 296 * (1 - X)) 216 := by
  ext i
  simp only [Finset.mem_union, mem_rows]
  rcases Nat.le_one_iff_eq_zero_or_eq_one.mp hX with rfl | rfl <;> omega

theorem three_d3 (n B X : ℕ) (hX : X ≤ 1) : Disjoint (rows n (B + 216) 80) (rows n (B + 296 * X) 216) := by
  rw [Finset.disjoint_left]
  intro i h1 h2
  rw [mem_rows] at h1 h2
  rcases Nat.le_one_iff_eq_zero_or_eq_one.mp hX with rfl | rfl <;> omega

theorem three_d2 (n B X : ℕ) (hX : X ≤ 1) :
    Disjoint (rows n (B + 216) 80 ∪ rows n (B + 296 * X) 216) (rows n (B + 296 * (1 - X)) 216) := by
  rw [Finset.disjoint_left]
  intro i h1 h2
  rw [Finset.mem_union, mem_rows, mem_rows] at h1
  rw [mem_rows] at h2
  rcases Nat.le_one_iff_eq_zero_or_eq_one.mp hX with rfl | rfl <;> omega

/-- The two blocks of the result fill it and are apart. -/
theorem blocks_eq (Y : ℕ) (hY : Y ≤ 1) :
    (Finset.univ : Finset (SR 1024).Idx) = rows 1024 (512 * Y) 512 ∪ rows 1024 (512 * (1 - Y)) 512 := by
  ext i
  have hlt : (i 0).val < 1024 := (i 0).isLt
  simp only [Finset.mem_univ, Finset.mem_union, mem_rows, true_iff]
  rcases Nat.le_one_iff_eq_zero_or_eq_one.mp hY with rfl | rfl <;> omega

theorem blocks_disjoint (Y : ℕ) (hY : Y ≤ 1) :
    Disjoint (rows 1024 (512 * Y) 512) (rows 1024 (512 * (1 - Y)) 512) := by
  rw [Finset.disjoint_left]
  intro i h1 h2
  rw [mem_rows] at h1 h2
  rcases Nat.le_one_iff_eq_zero_or_eq_one.mp hY with rfl | rfl <;> omega

end Rg

/-! ## Points-to along the cut, as equations -/

section Eq

variable {ℓ : Loc nD τ sig} {I J P Q R S : Finset (Idx ℓ)} {q : PosShare TreeShare} {f : Buf (Elt F) ℓ}

omit [FloatOps F] in
/-- The points-to on a disjoint union is the separating conjunction of the two, as an equation. -/
theorem pts_union_eq (h : Disjoint I J) :
    ((ℓ ↦[I ∪ J]{q} f) : sProp 𝕄) = iprop((ℓ ↦[I]{q} f) ∗ ℓ ↦[J]{q} f) :=
  BI.equiv_iff.mp ⟨(pointsTo_union h).1, (pointsTo_union h).2⟩

omit [FloatOps F] in
/-- A set that is the union of three pairwise disjoint sets. -/
theorem pts_three (hS : S = (P ∪ Q) ∪ R) (d3 : Disjoint P Q) (d2 : Disjoint (P ∪ Q) R) :
    ((ℓ ↦[S]{q} f) : sProp 𝕄) = iprop(((ℓ ↦[P]{q} f) ∗ ℓ ↦[Q]{q} f) ∗ ℓ ↦[R]{q} f) := by
  subst hS
  rw [pts_union_eq d2, pts_union_eq d3]

end Eq

omit [FloatOps F] in
/-- 216 rows of the result buffer from row `base`, cut into the twelve chunks. -/
theorem oPts_chunks (c : Dev nD) (base : ℕ) (f : (cc0_stg1_0 : Ref sig .tc).ty.Contents (Elt F)) :
    oPts (F := F) c base 216 f = bigSep (Finset.range 12) fun j => oPts c (base + coff j) (clen j) f := by
  have h := pointsTo_biUnion (Val := Elt F) (Ix := Unit) (Name := ℕ) (U := UU) (Lvl := ℕ)
    (ℓ := ((c : Thread nD τ).loc cc0_stg1_0)) (q := fullShare) (f := f)
    (Finset.range 12) (fun j => rows 1024 (base + coff j) (clen j))
    (fun j hj j' hj' hne => Rg.chunks_disjoint 1024 base (Finset.mem_range.mp hj) (Finset.mem_range.mp hj') hne)
  exact (congrArg (fun S : Finset (Idx ((c : Thread nD τ).loc cc0_stg1_0)) =>
    ((((c : Thread nD τ).loc cc0_stg1_0) ↦[S]{fullShare} f) : sProp 𝕄)) (Rg.chunks_biUnion 1024 base).symm).trans h

omit [FloatOps F] in
/-- 216 rows of the block buffer from row `base`, cut into the twelve chunks. -/
theorem xPts_chunks (c : Dev nD) (base : ℕ) (q : PosShare TreeShare) :
    xPts (F := F) m ρ c base 216 q = bigSep (Finset.range 12) fun j => xPts m ρ c (base + coff j) (clen j) q := by
  have h := pointsTo_biUnion (Val := Elt F) (Ix := Unit) (Name := ℕ) (U := UU) (Lvl := ℕ)
    (ℓ := ((c : Thread nD τ).loc cc0_stg0_0)) (q := q) (f := xstg m ρ c)
    (Finset.range 12) (fun j => rows 512 (base + coff j) (clen j))
    (fun j hj j' hj' hne => Rg.chunks_disjoint 512 base (Finset.mem_range.mp hj) (Finset.mem_range.mp hj') hne)
  exact (congrArg (fun S : Finset (Idx ((c : Thread nD τ).loc cc0_stg0_0)) =>
    ((((c : Thread nD τ).loc cc0_stg0_0) ↦[S]{q} xstg m ρ c) : sProp 𝕄)) (Rg.chunks_biUnion 512 base).symm).trans h

/-- The right half of the rows of `c`'s block that it sends nowhere along y. -/
def xRest (c : Dev nD) : sProp 𝕄 :=
  if c.val / 2 = 0 then xPts m ρ c 296 216 fullShare.right else xPts m ρ c 0 216 fullShare.right

omit [FloatOps F] in
/-- The result buffer of `c`, at any contents, is the range of its own block, the thirteen ranges its y-neighbour writes
    and the twelve its x-neighbour writes. -/
theorem split_out (c : Dev nD) (f : (cc0_stg1_0 : Ref sig .tc).ty.Contents (Elt F)) :
    ((((c : Thread nD τ).loc cc0_stg1_0) ↦{fullShare} f : sProp 𝕄))
      ⊣⊢ iprop(oPts c (512 * (c.val % 2)) 512 f ∗ (bigSep (Finset.range 13) fun k => oPts c (ydst (yn c) k) (clen k) f)
          ∗ bigSep (Finset.range 12) fun j => oPts c (xrow (xn c) j) (clen j) f) := by
  have h4 : c.val < 4 := c.isLt
  have hX : c.val / 2 ≤ 1 := by omega
  have hY : c.val % 2 ≤ 1 := by omega
  -- where the neighbours' ranges start, in terms of `c`'s own coordinates
  have ey12 : ydst (yn c) 12 = 512 * (1 - c.val % 2) + 216 := by
    unfold ydst ysrc; rw [if_neg (by decide), Rg.yn_mod]
  have eyk : ∀ k, k < 12 → ydst (yn c) k = 512 * (1 - c.val % 2) + 296 * (c.val / 2) + coff k := by
    intro k hk; unfold ydst ysrc
    rw [if_pos hk, Rg.yn_mod, Rg.yn_div]; exact (Nat.add_assoc _ _ _).symm
  have exj : ∀ j, xrow (xn c) j = 512 * (1 - c.val % 2) + 296 * (1 - c.val / 2) + coff j := by
    intro j; unfold xrow; rw [Rg.xn_mod, Rg.xn_div]
  -- the thirteen ranges: the 80 rows and the twelve chunks of 216 rows
  have e13 : (bigSep (Finset.range 13) fun k => oPts (F := F) c (ydst (yn c) k) (clen k) f)
      = iprop(oPts c (512 * (1 - c.val % 2) + 216) 80 f ∗ oPts c (512 * (1 - c.val % 2) + 296 * (c.val / 2)) 216 f) := by
    rw [Finset.range_add_one, bigSep_insert (by simp), ey12, Rg.clen12, oPts_chunks]
    refine congrArg (fun z => iprop(oPts c (512 * (1 - c.val % 2) + 216) 80 f ∗ z)) ?_
    exact bigSep_congr fun k hk => by rw [eyk k (Finset.mem_range.mp hk)]
  -- the twelve ranges: the twelve chunks of the other 216 rows
  have e12 : (bigSep (Finset.range 12) fun j => oPts (F := F) c (xrow (xn c) j) (clen j) f)
      = oPts c (512 * (1 - c.val % 2) + 296 * (1 - c.val / 2)) 216 f := by
    rw [oPts_chunks]
    exact bigSep_congr fun j hj => by rw [exj j]
  rw [e13, e12]
  refine BiEntails.of_eq ?_
  -- the whole buffer is its two blocks
  have s1 : (((((c : Thread nD τ).loc cc0_stg1_0) ↦{fullShare} f) : sProp 𝕄))
      = iprop(oPts c (512 * (c.val % 2)) 512 f ∗ oPts c (512 * (1 - c.val % 2)) 512 f) :=
    (congrArg (fun S : Finset (Idx ((c : Thread nD τ).loc cc0_stg1_0)) =>
      ((((c : Thread nD τ).loc cc0_stg1_0) ↦[S]{fullShare} f) : sProp 𝕄)) (Rg.blocks_eq _ hY)).trans
      (pts_union_eq (ℓ := ((c : Thread nD τ).loc cc0_stg1_0)) (Rg.blocks_disjoint _ hY))
  -- the other block is the three ranges
  have s2 : oPts (F := F) c (512 * (1 - c.val % 2)) 512 f
      = iprop((oPts c (512 * (1 - c.val % 2) + 216) 80 f ∗ oPts c (512 * (1 - c.val % 2) + 296 * (c.val / 2)) 216 f)
          ∗ oPts c (512 * (1 - c.val % 2) + 296 * (1 - c.val / 2)) 216 f) :=
    pts_three (ℓ := ((c : Thread nD τ).loc cc0_stg1_0)) (Rg.three_eq 1024 _ _ hX) (Rg.three_d3 1024 _ _ hX) (Rg.three_d2 1024 _ _ hX)
  exact s1.trans (congrArg (fun z => iprop(oPts c (512 * (c.val % 2)) 512 f ∗ z)) s2)

omit [FloatOps F] in
/-- The block buffer of `c`: one half whole (read by the local copy), the other half in the thirteen ranges sent along y and
    the rest. -/
theorem split_in (c : Dev nD) :
    ((((c : Thread nD τ).loc cc0_stg0_0) ↦{fullShare} xstg m ρ c : sProp 𝕄))
      ⊣⊢ iprop(xPts m ρ c 0 512 fullShare.left ∗ (bigSep (Finset.range 13) fun k => xPts m ρ c (ysrc c k) (clen k) fullShare.right)
          ∗ xRest m ρ c) := by
  have h4 : c.val < 4 := c.isLt
  have hX : c.val / 2 ≤ 1 := by omega
  have es12 : ysrc c 12 = 0 + 216 := by unfold ysrc; rw [if_neg (by decide)]
  have esk : ∀ k, k < 12 → ysrc c k = 0 + 296 * (c.val / 2) + coff k := by
    intro k hk; unfold ysrc; rw [if_pos hk, Nat.zero_add]
  -- the thirteen ranges sent along y: the 80 rows and the twelve chunks of 216 rows
  have e13 : (bigSep (Finset.range 13) fun k => xPts (F := F) m ρ c (ysrc c k) (clen k) fullShare.right)
      = iprop(xPts m ρ c (0 + 216) 80 fullShare.right ∗ xPts m ρ c (0 + 296 * (c.val / 2)) 216 fullShare.right) := by
    rw [Finset.range_add_one, bigSep_insert (by simp), es12, Rg.clen12, xPts_chunks]
    refine congrArg (fun z => iprop(xPts m ρ c (0 + 216) 80 fullShare.right ∗ z)) ?_
    exact bigSep_congr fun k hk => by rw [esk k (Finset.mem_range.mp hk)]
  -- the rows sent nowhere along y
  have er : xRest (F := F) m ρ c = xPts m ρ c (0 + 296 * (1 - c.val / 2)) 216 fullShare.right := by
    unfold xRest
    split
    · next h => rw [h]
    · next h =>
      have h1 : c.val / 2 = 1 := by omega
      rw [h1]
  rw [e13, er]
  refine BiEntails.of_eq ?_
  -- the two halves of the share
  have sh := pointsTo_share (Val := Elt F) (Ix := Unit) (Name := ℕ) (U := UU) (Lvl := ℕ)
    (ℓ := ((c : Thread nD τ).loc cc0_stg0_0)) (I := Finset.univ) (f := xstg m ρ c)
    (PosShare.mem_left_op_right fullShare)
  have s0 : (((((c : Thread nD τ).loc cc0_stg0_0) ↦{fullShare} xstg m ρ c) : sProp 𝕄))
      = iprop((((c : Thread nD τ).loc cc0_stg0_0) ↦{fullShare.left} xstg m ρ c)
          ∗ (((c : Thread nD τ).loc cc0_stg0_0) ↦{fullShare.right} xstg m ρ c)) :=
    BI.equiv_iff.mp ⟨sh.1, sh.2⟩
  -- the left half stays whole
  have sL : (((((c : Thread nD τ).loc cc0_stg0_0) ↦{fullShare.left} xstg m ρ c) : sProp 𝕄))
      = xPts m ρ c 0 512 fullShare.left :=
    congrArg (fun S : Finset (Idx ((c : Thread nD τ).loc cc0_stg0_0)) =>
      ((((c : Thread nD τ).loc cc0_stg0_0) ↦[S]{fullShare.left} xstg m ρ c) : sProp 𝕄)) (rows_all (n := 512)).symm
  -- the right half is the three ranges
  have sR : (((((c : Thread nD τ).loc cc0_stg0_0) ↦{fullShare.right} xstg m ρ c) : sProp 𝕄))
      = iprop((xPts m ρ c (0 + 216) 80 fullShare.right ∗ xPts m ρ c (0 + 296 * (c.val / 2)) 216 fullShare.right)
          ∗ xPts m ρ c (0 + 296 * (1 - c.val / 2)) 216 fullShare.right) :=
    (congrArg (fun S : Finset (Idx ((c : Thread nD τ).loc cc0_stg0_0)) =>
      ((((c : Thread nD τ).loc cc0_stg0_0) ↦[S]{fullShare.right} xstg m ρ c) : sProp 𝕄)) (rows_all (n := 512)).symm).trans
      (pts_three (ℓ := ((c : Thread nD τ).loc cc0_stg0_0)) (Rg.three_eq 512 0 _ hX) (Rg.three_d3 512 0 _ hX) (Rg.three_d2 512 0 _ hX))
  rw [s0, sL, sR]

end Cert.KernelIdeal.AG

end

/-- info: 'Cert.KernelIdeal.AG.split_out' depends on axioms: [propext, Classical.choice, Quot.sound] -/
#guard_msgs in #print axioms Cert.KernelIdeal.AG.split_out
-- ==== Proof.BodyKit.lean ====
/-
  What the body's proof is cut from: the protocol's steps as tactics, the program's later stretches by name, and the
  state a device holds between them.
-/
import proofs.«900105_g7700000000000106_dist_ag_v7x_xy2x2_y_m512_n512_f32_1_alg».proof.Proof.Steps
import proofs.«900105_g7700000000000106_dist_ag_v7x_xy2x2_y_m512_n512_f32_1_alg».proof.Proof.Vals
import proofs.«900105_g7700000000000106_dist_ag_v7x_xy2x2_y_m512_n512_f32_1_alg».proof.Proof.CopyVal
import proofs.«900105_g7700000000000106_dist_ag_v7x_xy2x2_y_m512_n512_f32_1_alg».proof.Proof.Regions

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## What a device hands its neighbours at the barrier -/

omit [FloatOps F] in
/-- The thirteen ranges of its own result that the y-neighbour will write are that neighbour's landing ranges. -/
theorem landY_intro (c : Dev nD) (f : (cc0_stg1_0 : Ref sig .tc).ty.Contents (Elt F)) :
    (bigSep (Finset.range 13) fun k => oPts c (ydst (yn c) k) (clen k) f : sProp 𝕄) ⊢ landY (yn c) := by
  unfold landY; rw [yn_yn]
  exact bigSep_mono fun k _ => exists_intro (Φ := fun f => oPts c (ydst (yn c) k) (clen k) f) f
omit [FloatOps F] in
/-- The twelve ranges the x-neighbour will write are that neighbour's landing ranges. -/
theorem landX_intro (c : Dev nD) (f : (cc0_stg1_0 : Ref sig .tc).ty.Contents (Elt F)) :
    (bigSep (Finset.range 12) fun j => oPts c (xrow (xn c) j) (clen j) f : sProp 𝕄) ⊢ landX (xn c) := by
  unfold landX; rw [xn_xn]
  exact bigSep_mono fun j _ => exists_intro (Φ := fun f => oPts c (xrow (xn c) j) (clen j) f) f

omit [FloatOps F] in
theorem r51 (Φ : ℕ → sProp 𝕄) : bigSep (Finset.range 51) Φ = bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50] Φ := bigSep_eq_bigSepL_of_eq _ (by decide) (by decide) Φ
omit [FloatOps F] in
theorem r13 (Φ : ℕ → sProp 𝕄) : bigSep (Finset.range 13) Φ = bigSepL [0, 1, 2, 3, 4, 5, 6, 7, 8, 9, 10, 11, 12] Φ := bigSep_eq_bigSepL_of_eq _ (by decide) (by decide) Φ
omit [FloatOps F] in
theorem r12 (Φ : ℕ → sProp 𝕄) : bigSep (Finset.range 12) Φ = bigSepL [0, 1, 2, 3, 4, 5, 6, 7, 8, 9, 10, 11] Φ := bigSep_eq_bigSepL_of_eq _ (by decide) (by decide) Φ

omit [FloatOps F] in
theorem sepE (A B : sProp 𝕄) : BI.sep A B = iprop(A ∗ B) := rfl

theorem devE1 (c : Dev nD) : (⟨k0_dev1 c, k0_dev1_lt c⟩ : Dev nD) = yn c := Fin.ext (k0_dev1_eq c)
theorem devE2 (c : Dev nD) : (⟨k0_dev2 c, k0_dev2_lt c⟩ : Dev nD) = xn c := Fin.ext (k0_dev2_eq c)

/-! ## The payload of each DMA cell, spelt out -/

omit [FloatOps F] in
theorem dpay_c (c : Dev nD) : dpay m ρ c 2 = iprop(oPts c (512 * (c.val % 2)) 512 (gath m ρ c) ∗ xPts m ρ c 0 512 fullShare.left) := by
  unfold dpay; rw [if_pos rfl]
omit [FloatOps F] in
theorem dpay_ys (c : Dev nD) (k : ℕ) (hk : k < 13) : dpay m ρ c (3 + k) = xPts m ρ c (ysrc c k) (clen k) fullShare.right := by
  unfold dpay; rw [if_neg (by omega), if_pos (by omega), show 3 + k - 3 = k by omega]
omit [FloatOps F] in
theorem dpay_yr (c : Dev nD) (k : ℕ) (hk : k < 12) : dpay m ρ c (16 + k) = oPts c (xrow c k) (clen k) (gath m ρ c) := by
  unfold dpay; rw [if_neg (by omega), if_neg (by omega), if_pos (by omega), show 16 + k - 16 = k by omega, xrow_eq c k hk]
omit [FloatOps F] in
theorem dpay_yr12 (c : Dev nD) : dpay m ρ c 28 = oPts c (ydst (yn c) 12) (clen 12) (gath m ρ c) := by
  unfold dpay; rw [if_neg (by omega), if_neg (by omega), if_pos (by omega)]
omit [FloatOps F] in
theorem dpay_xs (c : Dev nD) (j : ℕ) (hj : j < 12) : dpay m ρ c (29 + j) = oPts c (xrow c j) (clen j) (gath m ρ c) := by
  unfold dpay; rw [if_neg (by omega), if_neg (by omega), if_neg (by omega), if_pos (by omega), show 29 + j - 29 = j by omega]
omit [FloatOps F] in
theorem dpay_xr (c : Dev nD) (j : ℕ) (hj : j < 12) : dpay m ρ c (41 + j) = oPts c (xrow (xn c) j) (clen j) (gath m ρ c) := by
  unfold dpay; rw [if_neg (by omega), if_neg (by omega), if_neg (by omega), if_neg (by omega), show 41 + j - 41 = j by omega]

/-! ## The steps, as the body meets them -/

set_option hygiene false in
/-- Chunk `k` sent along y: the source rows `hx`, the neighbour's rows `hd`, the two tokens; leaves the send cell's credit `hc`. -/
macro "ysend" k:num r:num hs0:term:max hs1:term:max hd0:term:max hd1:term:max hdev:term:max fd:term:max Onext:term:max
    hx:ident hd:ident ht1:ident ht2:ident hc:ident : tactic =>
  `(tactic| (
    irename $hx => Hsrc
    irename $hd => Hdst
    irename $ht1 => Htk1
    irename $ht2 => Htk2
    iapply (wp_ysend m ρ K c _ (Fin.ext $hdev) $k (by decide) $r rfl $hs0 $hs1 $hd0 $hd1 _ _ rfl rfl
        (landY_val m ρ c $k (by decide)) $fd $Onext _) $$ [Hsrc Hdst HO Htk1 Htk2]
    · isplitr; · iexact HR
      isplitl [Hsrc]; · iexact Hsrc
      isplitl [Hdst]; · iexact Hdst
      isplitl [HO]; · iexact HO
      isplitl [Htk1]; · iexact Htk1
      iexact Htk2
    iintro ⟨Hnew, HO⟩
    irename Hnew => $hc))

set_option hygiene false in
/-- Chunk `j` forwarded along x: the source rows `hx` (just received), the neighbour's rows `hd`, the two tokens; leaves the
    send cell's credit `hc`. -/
macro "xsend" k:num r:num hs0:term:max hs1:term:max hdev:term:max fd:term:max Onext:term:max
    hx:ident hd:ident ht1:ident ht2:ident hc:ident : tactic =>
  `(tactic| (
    irename $hx => Hsrc
    irename $hd => Hdst
    irename $ht1 => Htk1
    irename $ht2 => Htk2
    iapply (wp_xsend m ρ K c _ (Fin.ext $hdev) $k (by decide) $r rfl $hs0 $hs1 $hs0 $hs1 _ _ rfl rfl
        (landX_val m ρ c $k (by decide)) $fd $Onext _) $$ [Hsrc Hdst HO Htk1 Htk2]
    · isplitr; · iexact HR
      isplitl [Hsrc]; · iexact Hsrc
      isplitl [Hdst]; · iexact Hdst
      isplitl [HO]; · iexact HO
      isplitl [Htk1]; · iexact Htk1
      iexact Htk2
    iintro ⟨Hnew, HO⟩
    irename Hnew => $hc))

set_option hygiene false in
/-- The wait on DMA cell `n`, owing `O` (all above level `b`): spends the credit `hcr`, moves the position `hat` to round 1,
    and leaves the cell's payload, spelt by `eq`, as `hpay`. -/
macro "dwait" n:num O:term:max b:num hO:term:max eq:term:max hcr:ident hat:ident hpay:ident : tactic =>
  `(tactic| (
    irename $hcr => Hcr
    irename $hat => Hat
    iapply (wp_dwait m ρ K c $n (by decide) (by decide) (wpE_waitDma2_eq 𝒱₀ (c : Thread nD τ) none Set.univ) $O _ $b (le_refl _) $hO)
      $$ [Hcr HO Hat]
    · isplitr; · iexact HR
      isplitr; · iexact Hlev
      isplitl [Hcr]; · iexact Hcr
      isplitl [HO]; · iexact HO
      iexact Hat
    rw [$eq:term]
    iintro ⟨HO, Hat, Hpay⟩
    irename Hat => $hat
    irename Hpay => $hpay))

set_option hygiene false in
/-- Hand over the next conjunct of the goal from the hypothesis `h`. -/
macro "give" h:ident : tactic => `(tactic| (isplitl [$h]; · iexact $h))

/-! ## The later stretches of the body, by name -/

section Rest
variable (arg0 : Memref sig .tc .vmem S512x512 .f32) (harg0 : arg0.IsWhole) (arg1 : Memref sig .tc .vmem S1024x512 .f32) (harg1 : arg1.IsWhole)
  (arg2 : DmaSems sig S_) (arg3 : DmaSems sig S13) (arg4 : DmaSems sig S13) (arg5 : DmaSems sig S12) (arg6 : DmaSems sig S12)

/-- From the waits on the last four chunks sent along y to the end. -/
def rest19 (d0 : Dev nD) : Prog (TpuEff nD τ sig (Elt F) Λ₀ .tc) PUnit := do
  k0_part19 arg0 harg0 arg1 harg1 arg2 arg3 arg4 arg5 arg6 d0
  k0_part20 arg0 harg0 arg1 harg1 arg2 arg3 arg4 arg5 arg6 d0
  k0_part21 arg0 harg0 arg1 harg1 arg2 arg3 arg4 arg5 arg6 d0
  let v646 : DmaSems sig S1 := arg5.slice (Rect.unit (s := S12) ![9] S1.size inb_S12_S1_9)
  let v647 : DmaSems sig S_ := v646.squeeze S_ squeezes_S1_S_
  let v648 : Memref sig .tc .vmem S8x512 .f32 := arg1.slice (Rect.unit (s := S1024x512) (k0_off14 d0 192#32) S8x512.size (k0_off14_inb d0 1)) (fun _ => rfl)
  let v649 : Memref sig .tc .vmem S8x512 .f32 := arg1.slice (Rect.unit (s := S1024x512) (k0_off14 d0 192#32) S8x512.size (k0_off14_inb d0 1)) (fun _ => rfl)
  Prog.lift (.waitDma2 v647.sem v649 v648 (View.wordExact_bits rfl) (View.wordExact_bits rfl))
  let v650 : DmaSems sig S1 := arg5.slice (Rect.unit (s := S12) ![10] S1.size inb_S12_S1_10)
  let v651 : DmaSems sig S_ := v650.squeeze S_ squeezes_S1_S_
  let v652 : Memref sig .tc .vmem S8x512 .f32 := arg1.slice (Rect.unit (s := S1024x512) (k0_off14 d0 200#32) S8x512.size (k0_off14_inb d0 2)) (fun _ => rfl)
  let v653 : Memref sig .tc .vmem S8x512 .f32 := arg1.slice (Rect.unit (s := S1024x512) (k0_off14 d0 200#32) S8x512.size (k0_off14_inb d0 2)) (fun _ => rfl)
  Prog.lift (.waitDma2 v651.sem v653 v652 (View.wordExact_bits rfl) (View.wordExact_bits rfl))
  let v654 : DmaSems sig S1 := arg5.slice (Rect.unit (s := S12) ![11] S1.size inb_S12_S1_11)
  let v655 : DmaSems sig S_ := v654.squeeze S_ squeezes_S1_S_
  let v656 : Memref sig .tc .vmem S8x512 .f32 := arg1.slice (Rect.unit (s := S1024x512) (k0_off14 d0 208#32) S8x512.size (k0_off14_inb d0 3)) (fun _ => rfl)
  let v657 : Memref sig .tc .vmem S8x512 .f32 := arg1.slice (Rect.unit (s := S1024x512) (k0_off14 d0 208#32) S8x512.size (k0_off14_inb d0 3)) (fun _ => rfl)
  Prog.lift (.waitDma2 v655.sem v657 v656 (View.wordExact_bits rfl) (View.wordExact_bits rfl))
  let v658 : Memref sig .tc .vmem S512x512 .f32 := arg1.slice (Rect.unit (s := S1024x512) (k0_off1 d0) S512x512.size (k0_off1_inb d0)) (fun _ => rfl)
  Prog.lift (.waitDma2 arg2.sem arg0 v658 harg0.wordExact (View.wordExact_bits rfl))
  pure ⟨⟩

/-- From the wait on the thirteenth chunk received along y. -/
def rest15 (d0 : Dev nD) (v5 v7 : BitVec 32) : Prog (TpuEff nD τ sig (Elt F) Λ₀ .tc) PUnit := do
  let ⟨v487, v488⟩ : Σ' (v487 : BitVec 32), BitVec 32 ← k0_part15 arg0 harg0 arg1 harg1 arg2 arg3 arg4 arg5 arg6 d0 v5 v7
  let v518 : BitVec 32 ← k0_part16 arg0 harg0 arg1 harg1 arg2 arg3 arg4 arg5 arg6 d0 v5 v7 v487 v488
  k0_part17 arg0 harg0 arg1 harg1 arg2 arg3 arg4 arg5 arg6 d0 v5 v7 v518
  k0_part18 arg0 harg0 arg1 harg1 arg2 arg3 arg4 arg5 arg6 d0 v5 v7
  rest19 arg0 harg0 arg1 harg1 arg2 arg3 arg4 arg5 arg6 d0

/-- From the seventh forward along x. -/
def rest11 (d0 : Dev nD) (v2 v5 v6 v7 v19 v189 : BitVec 32) : Prog (TpuEff nD τ sig (Elt F) Λ₀ .tc) PUnit := do
  k0_part11 arg0 harg0 arg1 harg1 arg2 arg3 arg4 arg5 arg6 d0 v2 v5 v6 v7 v19 v189
  k0_part12 arg0 harg0 arg1 harg1 arg2 arg3 arg4 arg5 arg6 d0 v2 v5 v6 v7 v19 v189
  k0_part13 arg0 harg0 arg1 harg1 arg2 arg3 arg4 arg5 arg6 d0 v2 v5 v6 v7 v19 v189
  k0_part14 arg0 harg0 arg1 harg1 arg2 arg3 arg4 arg5 arg6 d0 v2 v5 v6 v7 v19 v189
  rest15 arg0 harg0 arg1 harg1 arg2 arg3 arg4 arg5 arg6 d0 v5 v7

/-- From the first receive wait and forward along x. -/
def rest7 (d0 : Dev nD) (v2 v5 v6 v7 v19 v189 : BitVec 32) : Prog (TpuEff nD τ sig (Elt F) Λ₀ .tc) PUnit := do
  k0_part7 arg0 harg0 arg1 harg1 arg2 arg3 arg4 arg5 arg6 d0 v2 v5 v6 v7 v19 v189
  k0_part8 arg0 harg0 arg1 harg1 arg2 arg3 arg4 arg5 arg6 d0 v2 v5 v6 v7 v19 v189
  k0_part9 arg0 harg0 arg1 harg1 arg2 arg3 arg4 arg5 arg6 d0 v2 v5 v6 v7 v19 v189
  k0_part10 arg0 harg0 arg1 harg1 arg2 arg3 arg4 arg5 arg6 d0 v2 v5 v6 v7 v19 v189
  rest11 arg0 harg0 arg1 harg1 arg2 arg3 arg4 arg5 arg6 d0 v2 v5 v6 v7 v19 v189

end Rest

abbrev R7 (c : Dev nD) (v2 v5 v6 v7 v19 v189 : BitVec 32) : Prog (TpuEff nD τ sig (Elt F) Λ₀ .tc) PUnit := rest7 (Memref.whole cc0_stg0_0) (Memref.isWhole_whole _) (Memref.whole cc0_stg1_0) (Memref.isWhole_whole _) cc0_scratch0 cc0_scratch1 cc0_scratch2 cc0_scratch3 cc0_scratch4 c v2 v5 v6 v7 v19 v189
abbrev R11 (c : Dev nD) (v2 v5 v6 v7 v19 v189 : BitVec 32) : Prog (TpuEff nD τ sig (Elt F) Λ₀ .tc) PUnit := rest11 (Memref.whole cc0_stg0_0) (Memref.isWhole_whole _) (Memref.whole cc0_stg1_0) (Memref.isWhole_whole _) cc0_scratch0 cc0_scratch1 cc0_scratch2 cc0_scratch3 cc0_scratch4 c v2 v5 v6 v7 v19 v189
abbrev R15 (c : Dev nD) (v5 v7 : BitVec 32) : Prog (TpuEff nD τ sig (Elt F) Λ₀ .tc) PUnit := rest15 (Memref.whole cc0_stg0_0) (Memref.isWhole_whole _) (Memref.whole cc0_stg1_0) (Memref.isWhole_whole _) cc0_scratch0 cc0_scratch1 cc0_scratch2 cc0_scratch3 cc0_scratch4 c v5 v7
abbrev R19 (c : Dev nD) : Prog (TpuEff nD τ sig (Elt F) Λ₀ .tc) PUnit := rest19 (Memref.whole cc0_stg0_0) (Memref.isWhole_whole _) (Memref.whole cc0_stg1_0) (Memref.isWhole_whole _) cc0_scratch0 cc0_scratch1 cc0_scratch2 cc0_scratch3 cc0_scratch4 c

/-! ## What a device holds between the stretches -/

/-- Before the first receive wait: every own cell at round 0, the tokens of the twelve forwards, the credit of everything it
    will receive and of the thirteen chunks sent, the twelve ranges of the x-neighbour's result it will write. -/
def StB1 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 3) 0 ∅ 0
    ∗ atPos ER (dcell c 4) 0 ∅ 0
    ∗ atPos ER (dcell c 5) 0 ∅ 0
    ∗ atPos ER (dcell c 6) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 16) 0 ∅ 0
    ∗ atPos ER (dcell c 17) 0 ∅ 0
    ∗ atPos ER (dcell c 18) 0 ∅ 0
    ∗ atPos ER (dcell c 19) 0 ∅ 0
    ∗ atPos ER (dcell c 20) 0 ∅ 0
    ∗ atPos ER (dcell c 21) 0 ∅ 0
    ∗ atPos ER (dcell c 22) 0 ∅ 0
    ∗ atPos ER (dcell c 23) 0 ∅ 0
    ∗ atPos ER (dcell c 24) 0 ∅ 0
    ∗ atPos ER (dcell c 25) 0 ∅ 0
    ∗ atPos ER (dcell c 26) 0 ∅ 0
    ∗ atPos ER (dcell c 27) 0 ∅ 0
    ∗ atPos ER (dcell c 28) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 41) 0 ∅ 0
    ∗ atPos ER (dcell c 42) 0 ∅ 0
    ∗ atPos ER (dcell c 43) 0 ∅ 0
    ∗ atPos ER (dcell c 44) 0 ∅ 0
    ∗ atPos ER (dcell c 45) 0 ∅ 0
    ∗ atPos ER (dcell c 46) 0 ∅ 0
    ∗ atPos ER (dcell c 47) 0 ∅ 0
    ∗ atPos ER (dcell c 48) 0 ∅ 0
    ∗ atPos ER (dcell c 49) 0 ∅ 0
    ∗ atPos ER (dcell c 50) 0 ∅ 0
    ∗ atPos ER (dcell c 51) 0 ∅ 0
    ∗ atPos ER (dcell c 52) 0 ∅ 0
    ∗ dutyTok ER (dcell c 29) 0 false
    ∗ dutyTok ER (dcell c 30) 0 false
    ∗ dutyTok ER (dcell c 31) 0 false
    ∗ dutyTok ER (dcell c 32) 0 false
    ∗ dutyTok ER (dcell c 33) 0 false
    ∗ dutyTok ER (dcell c 34) 0 false
    ∗ dutyTok ER (dcell c 35) 0 false
    ∗ dutyTok ER (dcell c 36) 0 false
    ∗ dutyTok ER (dcell c 37) 0 false
    ∗ dutyTok ER (dcell c 38) 0 false
    ∗ dutyTok ER (dcell c 39) 0 false
    ∗ dutyTok ER (dcell c 40) 0 false
    ∗ dutyTok ER (dcell (xn c) 41) 0 false
    ∗ dutyTok ER (dcell (xn c) 42) 0 false
    ∗ dutyTok ER (dcell (xn c) 43) 0 false
    ∗ dutyTok ER (dcell (xn c) 44) 0 false
    ∗ dutyTok ER (dcell (xn c) 45) 0 false
    ∗ dutyTok ER (dcell (xn c) 46) 0 false
    ∗ dutyTok ER (dcell (xn c) 47) 0 false
    ∗ dutyTok ER (dcell (xn c) 48) 0 false
    ∗ dutyTok ER (dcell (xn c) 49) 0 false
    ∗ dutyTok ER (dcell (xn c) 50) 0 false
    ∗ dutyTok ER (dcell (xn c) 51) 0 false
    ∗ dutyTok ER (dcell (xn c) 52) 0 false
    ∗ cred (tallyAt (dcell c 16) () (amt 16))
    ∗ cred (tallyAt (dcell c 17) () (amt 17))
    ∗ cred (tallyAt (dcell c 18) () (amt 18))
    ∗ cred (tallyAt (dcell c 19) () (amt 19))
    ∗ cred (tallyAt (dcell c 20) () (amt 20))
    ∗ cred (tallyAt (dcell c 21) () (amt 21))
    ∗ cred (tallyAt (dcell c 22) () (amt 22))
    ∗ cred (tallyAt (dcell c 23) () (amt 23))
    ∗ cred (tallyAt (dcell c 24) () (amt 24))
    ∗ cred (tallyAt (dcell c 25) () (amt 25))
    ∗ cred (tallyAt (dcell c 26) () (amt 26))
    ∗ cred (tallyAt (dcell c 27) () (amt 27))
    ∗ cred (tallyAt (dcell c 28) () (amt 28))
    ∗ cred (tallyAt (dcell c 41) () (amt 41))
    ∗ cred (tallyAt (dcell c 42) () (amt 42))
    ∗ cred (tallyAt (dcell c 43) () (amt 43))
    ∗ cred (tallyAt (dcell c 44) () (amt 44))
    ∗ cred (tallyAt (dcell c 45) () (amt 45))
    ∗ cred (tallyAt (dcell c 46) () (amt 46))
    ∗ cred (tallyAt (dcell c 47) () (amt 47))
    ∗ cred (tallyAt (dcell c 48) () (amt 48))
    ∗ cred (tallyAt (dcell c 49) () (amt 49))
    ∗ cred (tallyAt (dcell c 50) () (amt 50))
    ∗ cred (tallyAt (dcell c 51) () (amt 51))
    ∗ cred (tallyAt (dcell c 52) () (amt 52))
    ∗ xRest m ρ c
    ∗ cred (tallyAt (dcell c 2) () (amt 2))
    ∗ cred (tallyAt (dcell c 3) () (crd (SR (clen 0)).size))
    ∗ cred (tallyAt (dcell c 4) () (crd (SR (clen 1)).size))
    ∗ cred (tallyAt (dcell c 5) () (crd (SR (clen 2)).size))
    ∗ cred (tallyAt (dcell c 6) () (crd (SR (clen 3)).size))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ oPts (xn c) (xrow c 0) (clen 0) (fx 0)
    ∗ oPts (xn c) (xrow c 1) (clen 1) (fx 1)
    ∗ oPts (xn c) (xrow c 2) (clen 2) (fx 2)
    ∗ oPts (xn c) (xrow c 3) (clen 3) (fx 3)
    ∗ oPts (xn c) (xrow c 4) (clen 4) (fx 4)
    ∗ oPts (xn c) (xrow c 5) (clen 5) (fx 5)
    ∗ oPts (xn c) (xrow c 6) (clen 6) (fx 6)
    ∗ oPts (xn c) (xrow c 7) (clen 7) (fx 7)
    ∗ oPts (xn c) (xrow c 8) (clen 8) (fx 8)
    ∗ oPts (xn c) (xrow c 9) (clen 9) (fx 9)
    ∗ oPts (xn c) (xrow c 10) (clen 10) (fx 10)
    ∗ oPts (xn c) (xrow c 11) (clen 11) (fx 11)
    ∗ owes (c : Thread nD τ) (OX c 12) W)

/-- After six forwards. -/
def StB2 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 3) 0 ∅ 0
    ∗ atPos ER (dcell c 4) 0 ∅ 0
    ∗ atPos ER (dcell c 5) 0 ∅ 0
    ∗ atPos ER (dcell c 6) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 22) 0 ∅ 0
    ∗ atPos ER (dcell c 23) 0 ∅ 0
    ∗ atPos ER (dcell c 24) 0 ∅ 0
    ∗ atPos ER (dcell c 25) 0 ∅ 0
    ∗ atPos ER (dcell c 26) 0 ∅ 0
    ∗ atPos ER (dcell c 27) 0 ∅ 0
    ∗ atPos ER (dcell c 28) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 41) 0 ∅ 0
    ∗ atPos ER (dcell c 42) 0 ∅ 0
    ∗ atPos ER (dcell c 43) 0 ∅ 0
    ∗ atPos ER (dcell c 44) 0 ∅ 0
    ∗ atPos ER (dcell c 45) 0 ∅ 0
    ∗ atPos ER (dcell c 46) 0 ∅ 0
    ∗ atPos ER (dcell c 47) 0 ∅ 0
    ∗ atPos ER (dcell c 48) 0 ∅ 0
    ∗ atPos ER (dcell c 49) 0 ∅ 0
    ∗ atPos ER (dcell c 50) 0 ∅ 0
    ∗ atPos ER (dcell c 51) 0 ∅ 0
    ∗ atPos ER (dcell c 52) 0 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ dutyTok ER (dcell c 35) 0 false
    ∗ dutyTok ER (dcell c 36) 0 false
    ∗ dutyTok ER (dcell c 37) 0 false
    ∗ dutyTok ER (dcell c 38) 0 false
    ∗ dutyTok ER (dcell c 39) 0 false
    ∗ dutyTok ER (dcell c 40) 0 false
    ∗ dutyTok ER (dcell (xn c) 47) 0 false
    ∗ dutyTok ER (dcell (xn c) 48) 0 false
    ∗ dutyTok ER (dcell (xn c) 49) 0 false
    ∗ dutyTok ER (dcell (xn c) 50) 0 false
    ∗ dutyTok ER (dcell (xn c) 51) 0 false
    ∗ dutyTok ER (dcell (xn c) 52) 0 false
    ∗ cred (tallyAt (dcell c 22) () (amt 22))
    ∗ cred (tallyAt (dcell c 23) () (amt 23))
    ∗ cred (tallyAt (dcell c 24) () (amt 24))
    ∗ cred (tallyAt (dcell c 25) () (amt 25))
    ∗ cred (tallyAt (dcell c 26) () (amt 26))
    ∗ cred (tallyAt (dcell c 27) () (amt 27))
    ∗ cred (tallyAt (dcell c 28) () (amt 28))
    ∗ cred (tallyAt (dcell c 41) () (amt 41))
    ∗ cred (tallyAt (dcell c 42) () (amt 42))
    ∗ cred (tallyAt (dcell c 43) () (amt 43))
    ∗ cred (tallyAt (dcell c 44) () (amt 44))
    ∗ cred (tallyAt (dcell c 45) () (amt 45))
    ∗ cred (tallyAt (dcell c 46) () (amt 46))
    ∗ cred (tallyAt (dcell c 47) () (amt 47))
    ∗ cred (tallyAt (dcell c 48) () (amt 48))
    ∗ cred (tallyAt (dcell c 49) () (amt 49))
    ∗ cred (tallyAt (dcell c 50) () (amt 50))
    ∗ cred (tallyAt (dcell c 51) () (amt 51))
    ∗ cred (tallyAt (dcell c 52) () (amt 52))
    ∗ xRest m ρ c
    ∗ cred (tallyAt (dcell c 2) () (amt 2))
    ∗ cred (tallyAt (dcell c 3) () (crd (SR (clen 0)).size))
    ∗ cred (tallyAt (dcell c 4) () (crd (SR (clen 1)).size))
    ∗ cred (tallyAt (dcell c 5) () (crd (SR (clen 2)).size))
    ∗ cred (tallyAt (dcell c 6) () (crd (SR (clen 3)).size))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ cred (tallyAt (dcell c 29) () (crd (SR (clen 0)).size))
    ∗ cred (tallyAt (dcell c 30) () (crd (SR (clen 1)).size))
    ∗ cred (tallyAt (dcell c 31) () (crd (SR (clen 2)).size))
    ∗ cred (tallyAt (dcell c 32) () (crd (SR (clen 3)).size))
    ∗ cred (tallyAt (dcell c 33) () (crd (SR (clen 4)).size))
    ∗ cred (tallyAt (dcell c 34) () (crd (SR (clen 5)).size))
    ∗ oPts (xn c) (xrow c 6) (clen 6) (fx 6)
    ∗ oPts (xn c) (xrow c 7) (clen 7) (fx 7)
    ∗ oPts (xn c) (xrow c 8) (clen 8) (fx 8)
    ∗ oPts (xn c) (xrow c 9) (clen 9) (fx 9)
    ∗ oPts (xn c) (xrow c 10) (clen 10) (fx 10)
    ∗ oPts (xn c) (xrow c 11) (clen 11) (fx 11)
    ∗ owes (c : Thread nD τ) (OX c 6) W)

/-- After the twelve forwards. -/
def StC1 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 3) 0 ∅ 0
    ∗ atPos ER (dcell c 4) 0 ∅ 0
    ∗ atPos ER (dcell c 5) 0 ∅ 0
    ∗ atPos ER (dcell c 6) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 28) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 41) 0 ∅ 0
    ∗ atPos ER (dcell c 42) 0 ∅ 0
    ∗ atPos ER (dcell c 43) 0 ∅ 0
    ∗ atPos ER (dcell c 44) 0 ∅ 0
    ∗ atPos ER (dcell c 45) 0 ∅ 0
    ∗ atPos ER (dcell c 46) 0 ∅ 0
    ∗ atPos ER (dcell c 47) 0 ∅ 0
    ∗ atPos ER (dcell c 48) 0 ∅ 0
    ∗ atPos ER (dcell c 49) 0 ∅ 0
    ∗ atPos ER (dcell c 50) 0 ∅ 0
    ∗ atPos ER (dcell c 51) 0 ∅ 0
    ∗ atPos ER (dcell c 52) 0 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ atPos ER (dcell c 22) 1 ∅ 0
    ∗ atPos ER (dcell c 23) 1 ∅ 0
    ∗ atPos ER (dcell c 24) 1 ∅ 0
    ∗ atPos ER (dcell c 25) 1 ∅ 0
    ∗ atPos ER (dcell c 26) 1 ∅ 0
    ∗ atPos ER (dcell c 27) 1 ∅ 0
    ∗ cred (tallyAt (dcell c 28) () (amt 28))
    ∗ cred (tallyAt (dcell c 41) () (amt 41))
    ∗ cred (tallyAt (dcell c 42) () (amt 42))
    ∗ cred (tallyAt (dcell c 43) () (amt 43))
    ∗ cred (tallyAt (dcell c 44) () (amt 44))
    ∗ cred (tallyAt (dcell c 45) () (amt 45))
    ∗ cred (tallyAt (dcell c 46) () (amt 46))
    ∗ cred (tallyAt (dcell c 47) () (amt 47))
    ∗ cred (tallyAt (dcell c 48) () (amt 48))
    ∗ cred (tallyAt (dcell c 49) () (amt 49))
    ∗ cred (tallyAt (dcell c 50) () (amt 50))
    ∗ cred (tallyAt (dcell c 51) () (amt 51))
    ∗ cred (tallyAt (dcell c 52) () (amt 52))
    ∗ xRest m ρ c
    ∗ cred (tallyAt (dcell c 2) () (amt 2))
    ∗ cred (tallyAt (dcell c 3) () (crd (SR (clen 0)).size))
    ∗ cred (tallyAt (dcell c 4) () (crd (SR (clen 1)).size))
    ∗ cred (tallyAt (dcell c 5) () (crd (SR (clen 2)).size))
    ∗ cred (tallyAt (dcell c 6) () (crd (SR (clen 3)).size))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ cred (tallyAt (dcell c 29) () (crd (SR (clen 0)).size))
    ∗ cred (tallyAt (dcell c 30) () (crd (SR (clen 1)).size))
    ∗ cred (tallyAt (dcell c 31) () (crd (SR (clen 2)).size))
    ∗ cred (tallyAt (dcell c 32) () (crd (SR (clen 3)).size))
    ∗ cred (tallyAt (dcell c 33) () (crd (SR (clen 4)).size))
    ∗ cred (tallyAt (dcell c 34) () (crd (SR (clen 5)).size))
    ∗ cred (tallyAt (dcell c 35) () (crd (SR (clen 6)).size))
    ∗ cred (tallyAt (dcell c 36) () (crd (SR (clen 7)).size))
    ∗ cred (tallyAt (dcell c 37) () (crd (SR (clen 8)).size))
    ∗ cred (tallyAt (dcell c 38) () (crd (SR (clen 9)).size))
    ∗ cred (tallyAt (dcell c 39) () (crd (SR (clen 10)).size))
    ∗ cred (tallyAt (dcell c 40) () (crd (SR (clen 11)).size))
    ∗ owes (c : Thread nD τ) (OX c 0) W)

/-- After the waits on everything received and on the first four chunks sent along y. -/
def StC2 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 3) 1 ∅ 0
    ∗ atPos ER (dcell c 4) 1 ∅ 0
    ∗ atPos ER (dcell c 5) 1 ∅ 0
    ∗ atPos ER (dcell c 6) 1 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ atPos ER (dcell c 22) 1 ∅ 0
    ∗ atPos ER (dcell c 23) 1 ∅ 0
    ∗ atPos ER (dcell c 24) 1 ∅ 0
    ∗ atPos ER (dcell c 25) 1 ∅ 0
    ∗ atPos ER (dcell c 26) 1 ∅ 0
    ∗ atPos ER (dcell c 27) 1 ∅ 0
    ∗ atPos ER (dcell c 28) 1 ∅ 0
    ∗ atPos ER (dcell c 41) 1 ∅ 0
    ∗ atPos ER (dcell c 42) 1 ∅ 0
    ∗ atPos ER (dcell c 43) 1 ∅ 0
    ∗ atPos ER (dcell c 44) 1 ∅ 0
    ∗ atPos ER (dcell c 45) 1 ∅ 0
    ∗ atPos ER (dcell c 46) 1 ∅ 0
    ∗ atPos ER (dcell c 47) 1 ∅ 0
    ∗ atPos ER (dcell c 48) 1 ∅ 0
    ∗ atPos ER (dcell c 49) 1 ∅ 0
    ∗ atPos ER (dcell c 50) 1 ∅ 0
    ∗ atPos ER (dcell c 51) 1 ∅ 0
    ∗ atPos ER (dcell c 52) 1 ∅ 0
    ∗ xRest m ρ c
    ∗ cred (tallyAt (dcell c 2) () (amt 2))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ cred (tallyAt (dcell c 29) () (crd (SR (clen 0)).size))
    ∗ cred (tallyAt (dcell c 30) () (crd (SR (clen 1)).size))
    ∗ cred (tallyAt (dcell c 31) () (crd (SR (clen 2)).size))
    ∗ cred (tallyAt (dcell c 32) () (crd (SR (clen 3)).size))
    ∗ cred (tallyAt (dcell c 33) () (crd (SR (clen 4)).size))
    ∗ cred (tallyAt (dcell c 34) () (crd (SR (clen 5)).size))
    ∗ cred (tallyAt (dcell c 35) () (crd (SR (clen 6)).size))
    ∗ cred (tallyAt (dcell c 36) () (crd (SR (clen 7)).size))
    ∗ cred (tallyAt (dcell c 37) () (crd (SR (clen 8)).size))
    ∗ cred (tallyAt (dcell c 38) () (crd (SR (clen 9)).size))
    ∗ cred (tallyAt (dcell c 39) () (crd (SR (clen 10)).size))
    ∗ cred (tallyAt (dcell c 40) () (crd (SR (clen 11)).size))
    ∗ oPts c (ydst (yn c) 12) (clen 12) (gath m ρ c)
    ∗ oPts c (xrow (xn c) 0) (clen 0) (gath m ρ c)
    ∗ oPts c (xrow (xn c) 1) (clen 1) (gath m ρ c)
    ∗ oPts c (xrow (xn c) 2) (clen 2) (gath m ρ c)
    ∗ oPts c (xrow (xn c) 3) (clen 3) (gath m ρ c)
    ∗ oPts c (xrow (xn c) 4) (clen 4) (gath m ρ c)
    ∗ oPts c (xrow (xn c) 5) (clen 5) (gath m ρ c)
    ∗ oPts c (xrow (xn c) 6) (clen 6) (gath m ρ c)
    ∗ oPts c (xrow (xn c) 7) (clen 7) (gath m ρ c)
    ∗ oPts c (xrow (xn c) 8) (clen 8) (gath m ρ c)
    ∗ oPts c (xrow (xn c) 9) (clen 9) (gath m ρ c)
    ∗ oPts c (xrow (xn c) 10) (clen 10) (gath m ρ c)
    ∗ oPts c (xrow (xn c) 11) (clen 11) (gath m ρ c)
    ∗ xPts m ρ c (ysrc c 0) (clen 0) fullShare.right
    ∗ xPts m ρ c (ysrc c 1) (clen 1) fullShare.right
    ∗ xPts m ρ c (ysrc c 2) (clen 2) fullShare.right
    ∗ xPts m ρ c (ysrc c 3) (clen 3) fullShare.right
    ∗ owes (c : Thread nD τ) (OX c 0) W)

/-- After the last wait: every own cell at round 1, every range of the two buffers back, the result's at their final contents. -/
def StD (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 1 ∅ 0
    ∗ atPos ER (dcell c 3) 1 ∅ 0
    ∗ atPos ER (dcell c 4) 1 ∅ 0
    ∗ atPos ER (dcell c 5) 1 ∅ 0
    ∗ atPos ER (dcell c 6) 1 ∅ 0
    ∗ atPos ER (dcell c 7) 1 ∅ 0
    ∗ atPos ER (dcell c 8) 1 ∅ 0
    ∗ atPos ER (dcell c 9) 1 ∅ 0
    ∗ atPos ER (dcell c 10) 1 ∅ 0
    ∗ atPos ER (dcell c 11) 1 ∅ 0
    ∗ atPos ER (dcell c 12) 1 ∅ 0
    ∗ atPos ER (dcell c 13) 1 ∅ 0
    ∗ atPos ER (dcell c 14) 1 ∅ 0
    ∗ atPos ER (dcell c 15) 1 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ atPos ER (dcell c 22) 1 ∅ 0
    ∗ atPos ER (dcell c 23) 1 ∅ 0
    ∗ atPos ER (dcell c 24) 1 ∅ 0
    ∗ atPos ER (dcell c 25) 1 ∅ 0
    ∗ atPos ER (dcell c 26) 1 ∅ 0
    ∗ atPos ER (dcell c 27) 1 ∅ 0
    ∗ atPos ER (dcell c 28) 1 ∅ 0
    ∗ atPos ER (dcell c 29) 1 ∅ 0
    ∗ atPos ER (dcell c 30) 1 ∅ 0
    ∗ atPos ER (dcell c 31) 1 ∅ 0
    ∗ atPos ER (dcell c 32) 1 ∅ 0
    ∗ atPos ER (dcell c 33) 1 ∅ 0
    ∗ atPos ER (dcell c 34) 1 ∅ 0
    ∗ atPos ER (dcell c 35) 1 ∅ 0
    ∗ atPos ER (dcell c 36) 1 ∅ 0
    ∗ atPos ER (dcell c 37) 1 ∅ 0
    ∗ atPos ER (dcell c 38) 1 ∅ 0
    ∗ atPos ER (dcell c 39) 1 ∅ 0
    ∗ atPos ER (dcell c 40) 1 ∅ 0
    ∗ atPos ER (dcell c 41) 1 ∅ 0
    ∗ atPos ER (dcell c 42) 1 ∅ 0
    ∗ atPos ER (dcell c 43) 1 ∅ 0
    ∗ atPos ER (dcell c 44) 1 ∅ 0
    ∗ atPos ER (dcell c 45) 1 ∅ 0
    ∗ atPos ER (dcell c 46) 1 ∅ 0
    ∗ atPos ER (dcell c 47) 1 ∅ 0
    ∗ atPos ER (dcell c 48) 1 ∅ 0
    ∗ atPos ER (dcell c 49) 1 ∅ 0
    ∗ atPos ER (dcell c 50) 1 ∅ 0
    ∗ atPos ER (dcell c 51) 1 ∅ 0
    ∗ atPos ER (dcell c 52) 1 ∅ 0
    ∗ xRest m ρ c
    ∗ oPts c (ydst (yn c) 12) (clen 12) (gath m ρ c)
    ∗ oPts c (xrow (xn c) 0) (clen 0) (gath m ρ c)
    ∗ oPts c (xrow (xn c) 1) (clen 1) (gath m ρ c)
    ∗ oPts c (xrow (xn c) 2) (clen 2) (gath m ρ c)
    ∗ oPts c (xrow (xn c) 3) (clen 3) (gath m ρ c)
    ∗ oPts c (xrow (xn c) 4) (clen 4) (gath m ρ c)
    ∗ oPts c (xrow (xn c) 5) (clen 5) (gath m ρ c)
    ∗ oPts c (xrow (xn c) 6) (clen 6) (gath m ρ c)
    ∗ oPts c (xrow (xn c) 7) (clen 7) (gath m ρ c)
    ∗ oPts c (xrow (xn c) 8) (clen 8) (gath m ρ c)
    ∗ oPts c (xrow (xn c) 9) (clen 9) (gath m ρ c)
    ∗ oPts c (xrow (xn c) 10) (clen 10) (gath m ρ c)
    ∗ oPts c (xrow (xn c) 11) (clen 11) (gath m ρ c)
    ∗ xPts m ρ c (ysrc c 0) (clen 0) fullShare.right
    ∗ xPts m ρ c (ysrc c 1) (clen 1) fullShare.right
    ∗ xPts m ρ c (ysrc c 2) (clen 2) fullShare.right
    ∗ xPts m ρ c (ysrc c 3) (clen 3) fullShare.right
    ∗ xPts m ρ c (ysrc c 4) (clen 4) fullShare.right
    ∗ xPts m ρ c (ysrc c 5) (clen 5) fullShare.right
    ∗ xPts m ρ c (ysrc c 6) (clen 6) fullShare.right
    ∗ xPts m ρ c (ysrc c 7) (clen 7) fullShare.right
    ∗ xPts m ρ c (ysrc c 8) (clen 8) fullShare.right
    ∗ xPts m ρ c (ysrc c 9) (clen 9) fullShare.right
    ∗ xPts m ρ c (ysrc c 10) (clen 10) fullShare.right
    ∗ xPts m ρ c (ysrc c 11) (clen 11) fullShare.right
    ∗ xPts m ρ c (ysrc c 12) (clen 12) fullShare.right
    ∗ oPts c (xrow c 0) (clen 0) (gath m ρ c)
    ∗ oPts c (xrow c 1) (clen 1) (gath m ρ c)
    ∗ oPts c (xrow c 2) (clen 2) (gath m ρ c)
    ∗ oPts c (xrow c 3) (clen 3) (gath m ρ c)
    ∗ oPts c (xrow c 4) (clen 4) (gath m ρ c)
    ∗ oPts c (xrow c 5) (clen 5) (gath m ρ c)
    ∗ oPts c (xrow c 6) (clen 6) (gath m ρ c)
    ∗ oPts c (xrow c 7) (clen 7) (gath m ρ c)
    ∗ oPts c (xrow c 8) (clen 8) (gath m ρ c)
    ∗ oPts c (xrow c 9) (clen 9) (gath m ρ c)
    ∗ oPts c (xrow c 10) (clen 10) (gath m ρ c)
    ∗ oPts c (xrow c 11) (clen 11) (gath m ρ c)
    ∗ oPts c (512 * (c.val % 2)) 512 (gath m ρ c)
    ∗ xPts m ρ c 0 512 fullShare.left
    ∗ owes (c : Thread nD τ) (OX c 0) W)

/-! ## Closing all own cells at once -/

theorem close_all (K : Dev nD × Fin 52 → ℕ) (c : Dev nD) :
    iprop(records m ρ K ∗ bigSep (Finset.range 51) fun i => atPos ER (dcN c (i + 2)) 1 ∅ 0) ⊢ (|={Set.univ}=> Φ₁ c : sProp 𝕄) := by
  unfold Φ₁
  refine BI.Entails.trans ?_ (bigSep_fupd _ _)
  refine BI.Entails.trans (sep_mono_left (BI.bigSep_of_persistent (Finset.range 51) (records m ρ K))) ?_
  rw [← bigSep_sep']
  refine bigSep_mono fun i hi => ?_
  have h : i + 2 < 53 := by have := Finset.mem_range.mp hi; omega
  rw [dcN_lt c (i + 2) h]
  exact close_d m ρ K c (i + 2) h (by omega)

omit [FloatOps F] in
/-- What is owed, all paid, under whatever waits were taken. -/
theorem owes_done (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

end Cert.KernelIdeal.AG

end
-- ==== Proof.BodyB1.lean ====
/-
  The first six receive waits along y, each followed by its forward along x.
-/
import proofs.«900105_g7700000000000106_dist_ag_v7x_xy2x2_y_m512_n512_f32_1_alg».proof.Proof.BodyKit

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseB1 (K : Dev nD × Fin 52 → ℕ) (c : Dev nD) (fx : ℕ → (cc0_stg1_0 : Ref sig .tc).ty.Contents (Elt F))
    (hnext : ∀ (W : Waits sig Unit) (v2 v5 v6 v7 v19 v189 : BitVec 32), StB2 m ρ K c W fx ⊢ wp frame (wpE (defs₀ (F := F)) 𝒱₀ c none) Set.univ (R11 c v2 v5 v6 v7 v19 v189) (fun _ => bodyPost m ρ c)) :
    ∀ (W : Waits sig Unit) (v2 v5 v6 v7 v19 v189 : BitVec 32), StB1 m ρ K c W fx ⊢ wp frame (wpE (defs₀ (F := F)) 𝒱₀ c none) Set.univ (R7 c v2 v5 v6 v7 v19 v189) (fun _ => bodyPost m ρ c) := by
  intro W v2 v5 v6 v7 v19 v189
  unfold StB1 R7 rest7
  simp only [k0_part7, k0_part8, k0_part9, k0_part10, Prog.lift, Prog.bind_op, Prog.bind_ret, Prog.pure_eq_ret]
  iintro ⟨#HR, #Hlev, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, Ht29, Ht30, Ht31, Ht32, Ht33, Ht34, Ht35, Ht36, Ht37, Ht38, Ht39, Ht40, Ht41, Ht42, Ht43, Ht44, Ht45, Ht46, Ht47, Ht48, Ht49, Ht50, Ht51, Ht52, Hcy0, Hcy1, Hcy2, Hcy3, Hcy4, Hcy5, Hcy6, Hcy7, Hcy8, Hcy9, Hcy10, Hcy11, Hcy12, Hcx0, Hcx1, Hcx2, Hcx3, Hcx4, Hcx5, Hcx6, Hcx7, Hcx8, Hcx9, Hcx10, Hcx11, HxRest, HcC, Hcs0, Hcs1, Hcs2, Hcs3, Hcs4, Hcs5, Hcs6, Hcs7, Hcs8, Hcs9, Hcs10, Hcs11, Hcs12, Hdx0, Hdx1, Hdx2, Hdx3, Hdx4, Hdx5, Hdx6, Hdx7, Hdx8, Hdx9, Hdx10, Hdx11, HO⟩
  dwait 16 (OX c 12) 2 (above_OX c 12) (dpay_yr m ρ c 0 (by decide)) Hcy0 Ha16 Hfy0
  xsend 0 32 (k0_off11_row c 0) (k0_off11_col c 0) (k0_dev16_eq c) (fx 0) (OX c 11) Hfy0 Hdx0 Ht29 Ht41 Hcxs0
  dwait 17 (OX c 11) 2 (above_OX c 11) (dpay_yr m ρ c 1 (by decide)) Hcy1 Ha17 Hfy1
  xsend 1 32 (k0_off11_row c 1) (k0_off11_col c 1) (k0_dev17_eq c) (fx 1) (OX c 10) Hfy1 Hdx1 Ht30 Ht42 Hcxs1
  dwait 18 (OX c 10) 2 (above_OX c 10) (dpay_yr m ρ c 2 (by decide)) Hcy2 Ha18 Hfy2
  xsend 2 24 (k0_off12_row c 0) (k0_off12_col c 0) (k0_dev18_eq c) (fx 2) (OX c 9) Hfy2 Hdx2 Ht31 Ht43 Hcxs2
  dwait 19 (OX c 9) 2 (above_OX c 9) (dpay_yr m ρ c 3 (by decide)) Hcy3 Ha19 Hfy3
  xsend 3 24 (k0_off12_row c 1) (k0_off12_col c 1) (k0_dev19_eq c) (fx 3) (OX c 8) Hfy3 Hdx3 Ht32 Ht44 Hcxs3
  dwait 20 (OX c 8) 2 (above_OX c 8) (dpay_yr m ρ c 4 (by decide)) Hcy4 Ha20 Hfy4
  xsend 4 24 (k0_off12_row c 2) (k0_off12_col c 2) (k0_dev20_eq c) (fx 4) (OX c 7) Hfy4 Hdx4 Ht33 Ht45 Hcxs4
  dwait 21 (OX c 7) 2 (above_OX c 7) (dpay_yr m ρ c 5 (by decide)) Hcy5 Ha21 Hfy5
  xsend 5 16 (k0_off13_row c 0) (k0_off13_col c 0) (k0_dev21_eq c) (fx 5) (OX c 6) Hfy5 Hdx5 Ht34 Ht46 Hcxs5
  iapply (hnext _ _ _ _ _ _ _)
  unfold StB2
  isplitr; · iexact HR
  isplitr; · iexact Hlev
  give Ha2
  give Ha3
  give Ha4
  give Ha5
  give Ha6
  give Ha7
  give Ha8
  give Ha9
  give Ha10
  give Ha11
  give Ha12
  give Ha13
  give Ha14
  give Ha15
  give Ha22
  give Ha23
  give Ha24
  give Ha25
  give Ha26
  give Ha27
  give Ha28
  give Ha29
  give Ha30
  give Ha31
  give Ha32
  give Ha33
  give Ha34
  give Ha35
  give Ha36
  give Ha37
  give Ha38
  give Ha39
  give Ha40
  give Ha41
  give Ha42
  give Ha43
  give Ha44
  give Ha45
  give Ha46
  give Ha47
  give Ha48
  give Ha49
  give Ha50
  give Ha51
  give Ha52
  give Ha16
  give Ha17
  give Ha18
  give Ha19
  give Ha20
  give Ha21
  give Ht35
  give Ht36
  give Ht37
  give Ht38
  give Ht39
  give Ht40
  give Ht47
  give Ht48
  give Ht49
  give Ht50
  give Ht51
  give Ht52
  give Hcy6
  give Hcy7
  give Hcy8
  give Hcy9
  give Hcy10
  give Hcy11
  give Hcy12
  give Hcx0
  give Hcx1
  give Hcx2
  give Hcx3
  give Hcx4
  give Hcx5
  give Hcx6
  give Hcx7
  give Hcx8
  give Hcx9
  give Hcx10
  give Hcx11
  give HxRest
  give HcC
  give Hcs0
  give Hcs1
  give Hcs2
  give Hcs3
  give Hcs4
  give Hcs5
  give Hcs6
  give Hcs7
  give Hcs8
  give Hcs9
  give Hcs10
  give Hcs11
  give Hcs12
  give Hcxs0
  give Hcxs1
  give Hcxs2
  give Hcxs3
  give Hcxs4
  give Hcxs5
  give Hdx6
  give Hdx7
  give Hdx8
  give Hdx9
  give Hdx10
  give Hdx11
  iexact HO

end Cert.KernelIdeal.AG

end
-- ==== Proof.BodyB2.lean ====
/-
  The last six receive waits along y of the forwarded chunks, each followed by its forward along x.
-/
import proofs.«900105_g7700000000000106_dist_ag_v7x_xy2x2_y_m512_n512_f32_1_alg».proof.Proof.BodyKit

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseB2 (K : Dev nD × Fin 52 → ℕ) (c : Dev nD) (fx : ℕ → (cc0_stg1_0 : Ref sig .tc).ty.Contents (Elt F))
    (hnext : ∀ (W : Waits sig Unit) (v5 v7 : BitVec 32), StC1 m ρ K c W fx ⊢ wp frame (wpE (defs₀ (F := F)) 𝒱₀ c none) Set.univ (R15 c v5 v7) (fun _ => bodyPost m ρ c)) :
    ∀ (W : Waits sig Unit) (v2 v5 v6 v7 v19 v189 : BitVec 32), StB2 m ρ K c W fx ⊢ wp frame (wpE (defs₀ (F := F)) 𝒱₀ c none) Set.univ (R11 c v2 v5 v6 v7 v19 v189) (fun _ => bodyPost m ρ c) := by
  intro W v2 v5 v6 v7 v19 v189
  unfold StB2 R11 rest11
  simp only [k0_part11, k0_part12, k0_part13, k0_part14, Prog.lift, Prog.bind_op, Prog.bind_ret, Prog.pure_eq_ret]
  iintro ⟨#HR, #Hlev, Ha2, Ha3, Ha4, Ha5, Ha6, Ha7, Ha8, Ha9, Ha10, Ha11, Ha12, Ha13, Ha14, Ha15, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, Ha16, Ha17, Ha18, Ha19, Ha20, Ha21, Ht35, Ht36, Ht37, Ht38, Ht39, Ht40, Ht47, Ht48, Ht49, Ht50, Ht51, Ht52, Hcy6, Hcy7, Hcy8, Hcy9, Hcy10, Hcy11, Hcy12, Hcx0, Hcx1, Hcx2, Hcx3, Hcx4, Hcx5, Hcx6, Hcx7, Hcx8, Hcx9, Hcx10, Hcx11, HxRest, HcC, Hcs0, Hcs1, Hcs2, Hcs3, Hcs4, Hcs5, Hcs6, Hcs7, Hcs8, Hcs9, Hcs10, Hcs11, Hcs12, Hcxs0, Hcxs1, Hcxs2, Hcxs3, Hcxs4, Hcxs5, Hdx6, Hdx7, Hdx8, Hdx9, Hdx10, Hdx11, HO⟩
  dwait 22 (OX c 6) 2 (above_OX c 6) (dpay_yr m ρ c 6 (by decide)) Hcy6 Ha22 Hfy6
  xsend 6 16 (k0_off13_row c 1) (k0_off13_col c 1) (k0_dev22_eq c) (fx 6) (OX c 5) Hfy6 Hdx6 Ht35 Ht47 Hcxs6
  dwait 23 (OX c 5) 2 (above_OX c 5) (dpay_yr m ρ c 7 (by decide)) Hcy7 Ha23 Hfy7
  xsend 7 16 (k0_off13_row c 2) (k0_off13_col c 2) (k0_dev23_eq c) (fx 7) (OX c 4) Hfy7 Hdx7 Ht36 Ht48 Hcxs7
  dwait 24 (OX c 4) 2 (above_OX c 4) (dpay_yr m ρ c 8 (by decide)) Hcy8 Ha24 Hfy8
  xsend 8 8 (k0_off14_row c 0) (k0_off14_col c 0) (k0_dev24_eq c) (fx 8) (OX c 3) Hfy8 Hdx8 Ht37 Ht49 Hcxs8
  dwait 25 (OX c 3) 2 (above_OX c 3) (dpay_yr m ρ c 9 (by decide)) Hcy9 Ha25 Hfy9
  xsend 9 8 (k0_off14_row c 1) (k0_off14_col c 1) (k0_dev25_eq c) (fx 9) (OX c 2) Hfy9 Hdx9 Ht38 Ht50 Hcxs9
  dwait 26 (OX c 2) 2 (above_OX c 2) (dpay_yr m ρ c 10 (by decide)) Hcy10 Ha26 Hfy10
  xsend 10 8 (k0_off14_row c 2) (k0_off14_col c 2) (k0_dev26_eq c) (fx 10) (OX c 1) Hfy10 Hdx10 Ht39 Ht51 Hcxs10
  dwait 27 (OX c 1) 2 (above_OX c 1) (dpay_yr m ρ c 11 (by decide)) Hcy11 Ha27 Hfy11
  xsend 11 8 (k0_off14_row c 3) (k0_off14_col c 3) (k0_dev27_eq c) (fx 11) (OX c 0) Hfy11 Hdx11 Ht40 Ht52 Hcxs11
  iapply (hnext _ _ _)
  unfold StC1
  isplitr; · iexact HR
  isplitr; · iexact Hlev
  give Ha2
  give Ha3
  give Ha4
  give Ha5
  give Ha6
  give Ha7
  give Ha8
  give Ha9
  give Ha10
  give Ha11
  give Ha12
  give Ha13
  give Ha14
  give Ha15
  give Ha28
  give Ha29
  give Ha30
  give Ha31
  give Ha32
  give Ha33
  give Ha34
  give Ha35
  give Ha36
  give Ha37
  give Ha38
  give Ha39
  give Ha40
  give Ha41
  give Ha42
  give Ha43
  give Ha44
  give Ha45
  give Ha46
  give Ha47
  give Ha48
  give Ha49
  give Ha50
  give Ha51
  give Ha52
  give Ha16
  give Ha17
  give Ha18
  give Ha19
  give Ha20
  give Ha21
  give Ha22
  give Ha23
  give Ha24
  give Ha25
  give Ha26
  give Ha27
  give Hcy12
  give Hcx0
  give Hcx1
  give Hcx2
  give Hcx3
  give Hcx4
  give Hcx5
  give Hcx6
  give Hcx7
  give Hcx8
  give Hcx9
  give Hcx10
  give Hcx11
  give HxRest
  give HcC
  give Hcs0
  give Hcs1
  give Hcs2
  give Hcs3
  give Hcs4
  give Hcs5
  give Hcs6
  give Hcs7
  give Hcs8
  give Hcs9
  give Hcs10
  give Hcs11
  give Hcs12
  give Hcxs0
  give Hcxs1
  give Hcxs2
  give Hcxs3
  give Hcxs4
  give Hcxs5
  give Hcxs6
  give Hcxs7
  give Hcxs8
  give Hcxs9
  give Hcxs10
  give Hcxs11
  iexact HO

end Cert.KernelIdeal.AG

end
-- ==== Proof.BodyC1.lean ====
/-
  The waits on everything received, and on the first four chunks sent along y.
-/
import proofs.«900105_g7700000000000106_dist_ag_v7x_xy2x2_y_m512_n512_f32_1_alg».proof.Proof.BodyKit

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseC1 (K : Dev nD × Fin 52 → ℕ) (c : Dev nD) (fx : ℕ → (cc0_stg1_0 : Ref sig .tc).ty.Contents (Elt F))
    (hnext : ∀ W : Waits sig Unit, StC2 m ρ K c W fx ⊢ wp frame (wpE (defs₀ (F := F)) 𝒱₀ c none) Set.univ (R19 c) (fun _ => bodyPost m ρ c)) :
    ∀ (W : Waits sig Unit) (v5 v7 : BitVec 32), StC1 m ρ K c W fx ⊢ wp frame (wpE (defs₀ (F := F)) 𝒱₀ c none) Set.univ (R15 c v5 v7) (fun _ => bodyPost m ρ c) := by
  intro W v5 v7
  unfold StC1 R15 rest15
  simp only [k0_part15, k0_part16, k0_part17, k0_part18, Prog.lift, Prog.bind_op, Prog.bind_ret, Prog.pure_eq_ret]
  iintro ⟨#HR, #Hlev, Ha2, Ha3, Ha4, Ha5, Ha6, Ha7, Ha8, Ha9, Ha10, Ha11, Ha12, Ha13, Ha14, Ha15, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, Ha16, Ha17, Ha18, Ha19, Ha20, Ha21, Ha22, Ha23, Ha24, Ha25, Ha26, Ha27, Hcy12, Hcx0, Hcx1, Hcx2, Hcx3, Hcx4, Hcx5, Hcx6, Hcx7, Hcx8, Hcx9, Hcx10, Hcx11, HxRest, HcC, Hcs0, Hcs1, Hcs2, Hcs3, Hcs4, Hcs5, Hcs6, Hcs7, Hcs8, Hcs9, Hcs10, Hcs11, Hcs12, Hcxs0, Hcxs1, Hcxs2, Hcxs3, Hcxs4, Hcxs5, Hcxs6, Hcxs7, Hcxs8, Hcxs9, Hcxs10, Hcxs11, HO⟩
  dwait 28 (OX c 0) 2 (above_OX c 0) (dpay_yr12 m ρ c) Hcy12 Ha28 Hfy12
  dwait 41 (OX c 0) 3 (above_zero _) (dpay_xr m ρ c 0 (by decide)) Hcx0 Ha41 Hfx0
  dwait 42 (OX c 0) 3 (above_zero _) (dpay_xr m ρ c 1 (by decide)) Hcx1 Ha42 Hfx1
  dwait 43 (OX c 0) 3 (above_zero _) (dpay_xr m ρ c 2 (by decide)) Hcx2 Ha43 Hfx2
  dwait 44 (OX c 0) 3 (above_zero _) (dpay_xr m ρ c 3 (by decide)) Hcx3 Ha44 Hfx3
  dwait 45 (OX c 0) 3 (above_zero _) (dpay_xr m ρ c 4 (by decide)) Hcx4 Ha45 Hfx4
  dwait 46 (OX c 0) 3 (above_zero _) (dpay_xr m ρ c 5 (by decide)) Hcx5 Ha46 Hfx5
  dwait 47 (OX c 0) 3 (above_zero _) (dpay_xr m ρ c 6 (by decide)) Hcx6 Ha47 Hfx6
  dwait 48 (OX c 0) 3 (above_zero _) (dpay_xr m ρ c 7 (by decide)) Hcx7 Ha48 Hfx7
  dwait 49 (OX c 0) 3 (above_zero _) (dpay_xr m ρ c 8 (by decide)) Hcx8 Ha49 Hfx8
  dwait 50 (OX c 0) 3 (above_zero _) (dpay_xr m ρ c 9 (by decide)) Hcx9 Ha50 Hfx9
  dwait 51 (OX c 0) 3 (above_zero _) (dpay_xr m ρ c 10 (by decide)) Hcx10 Ha51 Hfx10
  dwait 52 (OX c 0) 3 (above_zero _) (dpay_xr m ρ c 11 (by decide)) Hcx11 Ha52 Hfx11
  dwait 3 (OX c 0) 0 (above_zero _) (dpay_ys m ρ c 0 (by decide)) Hcs0 Ha3 Hxy0
  dwait 4 (OX c 0) 0 (above_zero _) (dpay_ys m ρ c 1 (by decide)) Hcs1 Ha4 Hxy1
  dwait 5 (OX c 0) 0 (above_zero _) (dpay_ys m ρ c 2 (by decide)) Hcs2 Ha5 Hxy2
  dwait 6 (OX c 0) 0 (above_zero _) (dpay_ys m ρ c 3 (by decide)) Hcs3 Ha6 Hxy3
  iapply (hnext _)
  unfold StC2
  isplitr; · iexact HR
  isplitr; · iexact Hlev
  give Ha2
  give Ha7
  give Ha8
  give Ha9
  give Ha10
  give Ha11
  give Ha12
  give Ha13
  give Ha14
  give Ha15
  give Ha29
  give Ha30
  give Ha31
  give Ha32
  give Ha33
  give Ha34
  give Ha35
  give Ha36
  give Ha37
  give Ha38
  give Ha39
  give Ha40
  give Ha3
  give Ha4
  give Ha5
  give Ha6
  give Ha16
  give Ha17
  give Ha18
  give Ha19
  give Ha20
  give Ha21
  give Ha22
  give Ha23
  give Ha24
  give Ha25
  give Ha26
  give Ha27
  give Ha28
  give Ha41
  give Ha42
  give Ha43
  give Ha44
  give Ha45
  give Ha46
  give Ha47
  give Ha48
  give Ha49
  give Ha50
  give Ha51
  give Ha52
  give HxRest
  give HcC
  give Hcs4
  give Hcs5
  give Hcs6
  give Hcs7
  give Hcs8
  give Hcs9
  give Hcs10
  give Hcs11
  give Hcs12
  give Hcxs0
  give Hcxs1
  give Hcxs2
  give Hcxs3
  give Hcxs4
  give Hcxs5
  give Hcxs6
  give Hcxs7
  give Hcxs8
  give Hcxs9
  give Hcxs10
  give Hcxs11
  give Hfy12
  give Hfx0
  give Hfx1
  give Hfx2
  give Hfx3
  give Hfx4
  give Hfx5
  give Hfx6
  give Hfx7
  give Hfx8
  give Hfx9
  give Hfx10
  give Hfx11
  give Hxy0
  give Hxy1
  give Hxy2
  give Hxy3
  iexact HO

end Cert.KernelIdeal.AG

end
-- ==== Proof.BodyC2.lean ====
/-
  The waits on the chunks sent, on the forwards and on the local copy.
-/
import proofs.«900105_g7700000000000106_dist_ag_v7x_xy2x2_y_m512_n512_f32_1_alg».proof.Proof.BodyKit

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseC2 (K : Dev nD × Fin 52 → ℕ) (c : Dev nD) (fx : ℕ → (cc0_stg1_0 : Ref sig .tc).ty.Contents (Elt F))
    (hD : ∀ W : Waits sig Unit, StD m ρ K c W fx ⊢ (|={Set.univ}=> bodyPost m ρ c : sProp 𝕄)) :
    ∀ W : Waits sig Unit, StC2 m ρ K c W fx ⊢ wp frame (wpE (defs₀ (F := F)) 𝒱₀ c none) Set.univ (R19 c) (fun _ => bodyPost m ρ c) := by
  intro W
  unfold StC2 R19 rest19
  simp only [k0_part19, k0_part20, k0_part21, Prog.lift, Prog.bind_op, Prog.bind_ret, Prog.pure_eq_ret]
  iintro ⟨#HR, #Hlev, Ha2, Ha7, Ha8, Ha9, Ha10, Ha11, Ha12, Ha13, Ha14, Ha15, Ha29, Ha30, Ha31, Ha32, Ha33, Ha34, Ha35, Ha36, Ha37, Ha38, Ha39, Ha40, Ha3, Ha4, Ha5, Ha6, Ha16, Ha17, Ha18, Ha19, Ha20, Ha21, Ha22, Ha23, Ha24, Ha25, Ha26, Ha27, Ha28, Ha41, Ha42, Ha43, Ha44, Ha45, Ha46, Ha47, Ha48, Ha49, Ha50, Ha51, Ha52, HxRest, HcC, Hcs4, Hcs5, Hcs6, Hcs7, Hcs8, Hcs9, Hcs10, Hcs11, Hcs12, Hcxs0, Hcxs1, Hcxs2, Hcxs3, Hcxs4, Hcxs5, Hcxs6, Hcxs7, Hcxs8, Hcxs9, Hcxs10, Hcxs11, Hfy12, Hfx0, Hfx1, Hfx2, Hfx3, Hfx4, Hfx5, Hfx6, Hfx7, Hfx8, Hfx9, Hfx10, Hfx11, Hxy0, Hxy1, Hxy2, Hxy3, HO⟩
  dwait 7 (OX c 0) 0 (above_zero _) (dpay_ys m ρ c 4 (by decide)) Hcs4 Ha7 Hxy4
  dwait 8 (OX c 0) 0 (above_zero _) (dpay_ys m ρ c 5 (by decide)) Hcs5 Ha8 Hxy5
  dwait 9 (OX c 0) 0 (above_zero _) (dpay_ys m ρ c 6 (by decide)) Hcs6 Ha9 Hxy6
  dwait 10 (OX c 0) 0 (above_zero _) (dpay_ys m ρ c 7 (by decide)) Hcs7 Ha10 Hxy7
  dwait 11 (OX c 0) 0 (above_zero _) (dpay_ys m ρ c 8 (by decide)) Hcs8 Ha11 Hxy8
  dwait 12 (OX c 0) 0 (above_zero _) (dpay_ys m ρ c 9 (by decide)) Hcs9 Ha12 Hxy9
  dwait 13 (OX c 0) 0 (above_zero _) (dpay_ys m ρ c 10 (by decide)) Hcs10 Ha13 Hxy10
  dwait 14 (OX c 0) 0 (above_zero _) (dpay_ys m ρ c 11 (by decide)) Hcs11 Ha14 Hxy11
  dwait 15 (OX c 0) 0 (above_zero _) (dpay_ys m ρ c 12 (by decide)) Hcs12 Ha15 Hxy12
  dwait 29 (OX c 0) 0 (above_zero _) (dpay_xs m ρ c 0 (by decide)) Hcxs0 Ha29 Hox0
  dwait 30 (OX c 0) 0 (above_zero _) (dpay_xs m ρ c 1 (by decide)) Hcxs1 Ha30 Hox1
  dwait 31 (OX c 0) 0 (above_zero _) (dpay_xs m ρ c 2 (by decide)) Hcxs2 Ha31 Hox2
  dwait 32 (OX c 0) 0 (above_zero _) (dpay_xs m ρ c 3 (by decide)) Hcxs3 Ha32 Hox3
  dwait 33 (OX c 0) 0 (above_zero _) (dpay_xs m ρ c 4 (by decide)) Hcxs4 Ha33 Hox4
  dwait 34 (OX c 0) 0 (above_zero _) (dpay_xs m ρ c 5 (by decide)) Hcxs5 Ha34 Hox5
  dwait 35 (OX c 0) 0 (above_zero _) (dpay_xs m ρ c 6 (by decide)) Hcxs6 Ha35 Hox6
  dwait 36 (OX c 0) 0 (above_zero _) (dpay_xs m ρ c 7 (by decide)) Hcxs7 Ha36 Hox7
  dwait 37 (OX c 0) 0 (above_zero _) (dpay_xs m ρ c 8 (by decide)) Hcxs8 Ha37 Hox8
  dwait 38 (OX c 0) 0 (above_zero _) (dpay_xs m ρ c 9 (by decide)) Hcxs9 Ha38 Hox9
  dwait 39 (OX c 0) 0 (above_zero _) (dpay_xs m ρ c 10 (by decide)) Hcxs10 Ha39 Hox10
  dwait 40 (OX c 0) 0 (above_zero _) (dpay_xs m ρ c 11 (by decide)) Hcxs11 Ha40 Hox11
  dwait 2 (OX c 0) 0 (above_zero _) (dpay_c m ρ c) HcC Ha2 Hcp
  icases Hcp with ⟨HoOwn, HxL⟩
  imod (hD _) $$ [Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39 Ha40 Ha41 Ha42 Ha43 Ha44 Ha45 Ha46 Ha47 Ha48 Ha49 Ha50 Ha51 Ha52 HxRest Hfy12 Hfx0 Hfx1 Hfx2 Hfx3 Hfx4 Hfx5 Hfx6 Hfx7 Hfx8 Hfx9 Hfx10 Hfx11 Hxy0 Hxy1 Hxy2 Hxy3 Hxy4 Hxy5 Hxy6 Hxy7 Hxy8 Hxy9 Hxy10 Hxy11 Hxy12 Hox0 Hox1 Hox2 Hox3 Hox4 Hox5 Hox6 Hox7 Hox8 Hox9 Hox10 Hox11 HoOwn HxL HO] with Hpost
  · unfold StD
    isplitr; · iexact HR
    isplitr; · iexact Hlev
    give Ha2
    give Ha3
    give Ha4
    give Ha5
    give Ha6
    give Ha7
    give Ha8
    give Ha9
    give Ha10
    give Ha11
    give Ha12
    give Ha13
    give Ha14
    give Ha15
    give Ha16
    give Ha17
    give Ha18
    give Ha19
    give Ha20
    give Ha21
    give Ha22
    give Ha23
    give Ha24
    give Ha25
    give Ha26
    give Ha27
    give Ha28
    give Ha29
    give Ha30
    give Ha31
    give Ha32
    give Ha33
    give Ha34
    give Ha35
    give Ha36
    give Ha37
    give Ha38
    give Ha39
    give Ha40
    give Ha41
    give Ha42
    give Ha43
    give Ha44
    give Ha45
    give Ha46
    give Ha47
    give Ha48
    give Ha49
    give Ha50
    give Ha51
    give Ha52
    give HxRest
    give Hfy12
    give Hfx0
    give Hfx1
    give Hfx2
    give Hfx3
    give Hfx4
    give Hfx5
    give Hfx6
    give Hfx7
    give Hfx8
    give Hfx9
    give Hfx10
    give Hfx11
    give Hxy0
    give Hxy1
    give Hxy2
    give Hxy3
    give Hxy4
    give Hxy5
    give Hxy6
    give Hxy7
    give Hxy8
    give Hxy9
    give Hxy10
    give Hxy11
    give Hxy12
    give Hox0
    give Hox1
    give Hox2
    give Hox3
    give Hox4
    give Hox5
    give Hox6
    give Hox7
    give Hox8
    give Hox9
    give Hox10
    give Hox11
    give HoOwn
    give HxL
    iexact HO
  rw [wp_ret]; imodintro; iexact Hpost

end Cert.KernelIdeal.AG

end
-- ==== Proof.BodyD.lean ====
/-
  The end of the body: the own cells closed, the two staging buffers put together again.
-/
import proofs.«900105_g7700000000000106_dist_ag_v7x_xy2x2_y_m512_n512_f32_1_alg».proof.Proof.BodyKit

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
set_option maxRecDepth 16384 in
/-- From the state after the last wait to the body's post. -/
theorem phaseD (K : Dev nD × Fin 52 → ℕ) (c : Dev nD) (fx : ℕ → (cc0_stg1_0 : Ref sig .tc).ty.Contents (Elt F)) :
    ∀ W : Waits sig Unit, StD m ρ K c W fx ⊢ (|={Set.univ}=> bodyPost m ρ c : sProp 𝕄) := by
  intro W
  unfold StD
  iintro ⟨#HR, #Hlev, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, HxRest, Hfy12, Hfx0, Hfx1, Hfx2, Hfx3, Hfx4, Hfx5, Hfx6, Hfx7, Hfx8, Hfx9, Hfx10, Hfx11, Hxy0, Hxy1, Hxy2, Hxy3, Hxy4, Hxy5, Hxy6, Hxy7, Hxy8, Hxy9, Hxy10, Hxy11, Hxy12, Hox0, Hox1, Hox2, Hox3, Hox4, Hox5, Hox6, Hox7, Hox8, Hox9, Hox10, Hox11, HoOwn, HxL, HO⟩
  -- the fifty-one own cells, their one round over, close
  imod (close_all m ρ K c) $$ [Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39 Ha40 Ha41 Ha42 Ha43 Ha44 Ha45 Ha46 Ha47 Ha48 Ha49 Ha50 Ha51 Ha52] with HΦ
  · isplitr; · iexact HR
    simp only [r51, bigSepL_cons_cons, bigSepL_singleton, sepE]
    give Ha2
    give Ha3
    give Ha4
    give Ha5
    give Ha6
    give Ha7
    give Ha8
    give Ha9
    give Ha10
    give Ha11
    give Ha12
    give Ha13
    give Ha14
    give Ha15
    give Ha16
    give Ha17
    give Ha18
    give Ha19
    give Ha20
    give Ha21
    give Ha22
    give Ha23
    give Ha24
    give Ha25
    give Ha26
    give Ha27
    give Ha28
    give Ha29
    give Ha30
    give Ha31
    give Ha32
    give Ha33
    give Ha34
    give Ha35
    give Ha36
    give Ha37
    give Ha38
    give Ha39
    give Ha40
    give Ha41
    give Ha42
    give Ha43
    give Ha44
    give Ha45
    give Ha46
    give Ha47
    give Ha48
    give Ha49
    give Ha50
    give Ha51
    iexact Ha52
  -- the block buffer put together again
  ihave Hx := (split_in m ρ c).2 $$ [HxL Hxy0 Hxy1 Hxy2 Hxy3 Hxy4 Hxy5 Hxy6 Hxy7 Hxy8 Hxy9 Hxy10 Hxy11 Hxy12 HxRest]
  · simp only [r13, bigSepL_cons_cons, bigSepL_singleton, sepE]
    give HxL
    isplitl [Hxy0 Hxy1 Hxy2 Hxy3 Hxy4 Hxy5 Hxy6 Hxy7 Hxy8 Hxy9 Hxy10 Hxy11 Hxy12]
    · give Hxy0
      give Hxy1
      give Hxy2
      give Hxy3
      give Hxy4
      give Hxy5
      give Hxy6
      give Hxy7
      give Hxy8
      give Hxy9
      give Hxy10
      give Hxy11
      iexact Hxy12
    iexact HxRest
  -- the result buffer: the own block, the thirteen ranges received along y (twelve of them back from their forwards),
  -- the twelve received along x
  ihave Hout := (split_out c (gath m ρ c)).2 $$ [HoOwn Hox0 Hox1 Hox2 Hox3 Hox4 Hox5 Hox6 Hox7 Hox8 Hox9 Hox10 Hox11 Hfy12 Hfx0 Hfx1 Hfx2 Hfx3 Hfx4 Hfx5 Hfx6 Hfx7 Hfx8 Hfx9 Hfx10 Hfx11]
  · simp only [r13, r12, bigSepL_cons_cons, bigSepL_singleton, sepE]
    give HoOwn
    isplitl [Hox0 Hox1 Hox2 Hox3 Hox4 Hox5 Hox6 Hox7 Hox8 Hox9 Hox10 Hox11 Hfy12]
    · isplitl [Hox0]; · rw [← xrow_eq c 0 (by decide)]; iexact Hox0
      isplitl [Hox1]; · rw [← xrow_eq c 1 (by decide)]; iexact Hox1
      isplitl [Hox2]; · rw [← xrow_eq c 2 (by decide)]; iexact Hox2
      isplitl [Hox3]; · rw [← xrow_eq c 3 (by decide)]; iexact Hox3
      isplitl [Hox4]; · rw [← xrow_eq c 4 (by decide)]; iexact Hox4
      isplitl [Hox5]; · rw [← xrow_eq c 5 (by decide)]; iexact Hox5
      isplitl [Hox6]; · rw [← xrow_eq c 6 (by decide)]; iexact Hox6
      isplitl [Hox7]; · rw [← xrow_eq c 7 (by decide)]; iexact Hox7
      isplitl [Hox8]; · rw [← xrow_eq c 8 (by decide)]; iexact Hox8
      isplitl [Hox9]; · rw [← xrow_eq c 9 (by decide)]; iexact Hox9
      isplitl [Hox10]; · rw [← xrow_eq c 10 (by decide)]; iexact Hox10
      isplitl [Hox11]; · rw [← xrow_eq c 11 (by decide)]; iexact Hox11
      iexact Hfy12
    give Hfx0
    give Hfx1
    give Hfx2
    give Hfx3
    give Hfx4
    give Hfx5
    give Hfx6
    give Hfx7
    give Hfx8
    give Hfx9
    give Hfx10
    iexact Hfx11
  imodintro
  unfold bodyPost
  isplitl [HΦ]; · iexact HΦ
  isplitl [HO]; · iapply (owes_done m ρ c _); iexact HO
  isplitl [Hx]
  · iexists _; isplitr; · (ipureintro; rfl)
    iexact Hx
  iexists _; isplitr; · (ipureintro; rfl)
  iexact Hout

end Cert.KernelIdeal.AG

end
-- ==== Proof.Body.lean ====
/-
  One device's body: the copy of its own block, the entry handshake and the thirteen sends along y, stepped here; the
  later stretches are the lemmas of the modules BodyB1 … BodyD, and `sound_body` puts them in a row.
-/
import proofs.«900105_g7700000000000106_dist_ag_v7x_xy2x2_y_m512_n512_f32_1_alg».proof.Proof.BodyKit
import proofs.«900105_g7700000000000106_dist_ag_v7x_xy2x2_y_m512_n512_f32_1_alg».proof.Proof.BodyB1
import proofs.«900105_g7700000000000106_dist_ag_v7x_xy2x2_y_m512_n512_f32_1_alg».proof.Proof.BodyB2
import proofs.«900105_g7700000000000106_dist_ag_v7x_xy2x2_y_m512_n512_f32_1_alg».proof.Proof.BodyC1
import proofs.«900105_g7700000000000106_dist_ag_v7x_xy2x2_y_m512_n512_f32_1_alg».proof.Proof.BodyC2
import proofs.«900105_g7700000000000106_dist_ag_v7x_xy2x2_y_m512_n512_f32_1_alg».proof.Proof.BodyD

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
set_option maxRecDepth 16384 in
/-- From the body's precondition through the thirteenth send along y. -/
theorem phaseA (c : Dev nD)
    (hnext : ∀ (K : Dev nD × Fin 52 → ℕ) (fx : ℕ → (cc0_stg1_0 : Ref sig .tc).ty.Contents (Elt F)) (W : Waits sig Unit) (v2 v5 v6 v7 v19 v189 : BitVec 32),
      StB1 m ρ K c W fx ⊢ wp frame (wpE (defs₀ (F := F)) 𝒱₀ c none) Set.univ (R7 c v2 v5 v6 v7 v19 v189) (fun _ => bodyPost m ρ c)) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4) (fun _ => bodyPost m ρ c) := by
  simp only [cc0_body_eq_skeleton]; unfold cc0_body_skel
  simp only [k0_part1, semSignalWord, semWaitWord, Prog.lift, Prog.bind_op, Prog.bind_ret, Prog.pure_eq_ret, wp_deviceId]
  unfold bodyPre Φ₀ start ghost linear creds
  simp only [r51, r13, r12, bigSepL_cons_cons, bigSepL_singleton, sepE]
  iintro ⟨⟨⟨%K, #HR, HaB, ⟨Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52⟩, HtBY, HtBX, ⟨Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52⟩⟩, ⟨HcB, ⟨Hcy0, Hcy1, Hcy2, Hcy3, Hcy4, Hcy5, Hcy6, Hcy7, Hcy8, Hcy9, Hcy10, Hcy11, Hcy12⟩, ⟨Hcx0, Hcx1, Hcx2, Hcx3, Hcx4, Hcx5, Hcx6, Hcx7, Hcx8, Hcx9, Hcx10, Hcx11⟩⟩, #Hlev⟩,
    Ho, ⟨%d0, %g0, %hg0, Hx⟩, ⟨%d1, %g1, %hg1, Hout⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the two staging buffers cut into the ranges the transfers move
  ihave Hxs := (split_in m ρ c).1 $$ Hx
  simp only [r13, bigSepL_cons_cons, bigSepL_singleton, sepE]
  icases Hxs with ⟨HxL, ⟨Hxy0, Hxy1, Hxy2, Hxy3, Hxy4, Hxy5, Hxy6, Hxy7, Hxy8, Hxy9, Hxy10, Hxy11, Hxy12⟩, HxRest⟩
  ihave Hos := (split_out c g1).1 $$ Hout
  icases Hos with ⟨HoOwn, HoYs, HoXs⟩
  ihave HlY := (landY_intro c g1) $$ HoYs
  ihave HlX := (landX_intro c g1) $$ HoXs
  -- the copy of the own block
  iapply (wp_copy0 m ρ K c (k0_off1_row c) (k0_off1_col c) _ rfl g1
      (fun i hi => (copy_write (k0_off1 c) _ (k0_off1_col c) (xstg m ρ c) g1 i (by rw [k0_off1_row]; exact hi)).trans
        (by rw [k0_off1_row]; exact (copy_val m ρ c i hi).symm))) $$ [HxL HoOwn Ht2]
  · isplitr; · iexact HR
    isplitl [HxL]; · iexact HxL
    isplitl [HoOwn]; · iexact HoOwn
    iexact Ht2
  iintro HcC
  simp only [devE1 c, devE2 c]
  -- the signal to the y-neighbour's barrier: its duty `false`, with the thirteen ranges it will write
  unfold O₀
  iapply (Rounds.wp_signal 𝒱₀ ER (agRd m ρ) (c : Thread nD τ) none (dst := (yn c : Thread nD τ)) (κ := K (yn c, 0))
      (d := false) (by rw [duties_bar]; exact Finset.mem_univ _) ((amount_bar m ρ (yn c) false).trans (by decide)) () (O₁ c) rfl)
    $$ [HO HtBY HlY]
  · isplitr; · iapply (inv_bar m ρ K (yn c)); iexact HR
    isplitl [HO]; · iexact HO
    isplitl [HtBY]; · iexact HtBY
    isplitl [HlY]; · rw [payload_bar_false]; iexact HlY
    iapply (reached_bar m ρ K (yn c)); iexact HR
  iintro HO
  -- the signal to the x-neighbour's barrier: its duty `true`, with the twelve ranges it will write
  unfold O₁
  iapply (Rounds.wp_signal 𝒱₀ ER (agRd m ρ) (c : Thread nD τ) none (dst := (xn c : Thread nD τ)) (κ := K (xn c, 0))
      (d := true) (by rw [duties_bar]; exact Finset.mem_univ _) ((amount_bar m ρ (xn c) true).trans (by decide)) () (OY c 13) rfl)
    $$ [HO HtBX HlX]
  · isplitr; · iapply (inv_bar m ρ K (xn c)); iexact HR
    isplitl [HO]; · iexact HO
    isplitl [HtBX]; · iexact HtBX
    isplitl [HlX]; · rw [payload_bar_true]; iexact HlX
    iapply (reached_bar m ρ K (xn c)); iexact HR
  iintro HO
  -- the wait for both neighbours: with it come the ranges of their results this device writes
  iapply (Rounds.wp_wait_rest_token 𝒱₀ ER (agRd m ρ) (c : Thread nD τ) none (κ := K (c, 0))
      (wpE_semWait_eq 𝒱₀ (c : Thread nD τ) none Set.univ) (Set.mem_univ _) () (O := OY c 13) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_above c (.reg barS) 1 (le_refl _) (OY c 13) (above_OY c 13 (le_refl _))); iexact Hlev
    iexact HaB
  iintro ⟨HO, HaB, -, Hpay⟩
  ihave Hp := (Entails.of_eq (rest_bar m ρ c)) $$ Hpay
  unfold landY landX
  simp only [r13, r12, bigSepL_cons_cons, bigSepL_singleton, sepE]
  icases Hp with ⟨⟨⟨%fy0, Hdy0⟩, ⟨%fy1, Hdy1⟩, ⟨%fy2, Hdy2⟩, ⟨%fy3, Hdy3⟩, ⟨%fy4, Hdy4⟩, ⟨%fy5, Hdy5⟩, ⟨%fy6, Hdy6⟩, ⟨%fy7, Hdy7⟩, ⟨%fy8, Hdy8⟩, ⟨%fy9, Hdy9⟩, ⟨%fy10, Hdy10⟩, ⟨%fy11, Hdy11⟩, ⟨%fy12, Hdy12⟩⟩, ⟨⟨%fx0, Hdx0⟩, ⟨%fx1, Hdx1⟩, ⟨%fx2, Hdx2⟩, ⟨%fx3, Hdx3⟩, ⟨%fx4, Hdx4⟩, ⟨%fx5, Hdx5⟩, ⟨%fx6, Hdx6⟩, ⟨%fx7, Hdx7⟩, ⟨%fx8, Hdx8⟩, ⟨%fx9, Hdx9⟩, ⟨%fx10, Hdx10⟩, ⟨%fx11, Hdx11⟩⟩⟩
  simp only [k0_part2, Prog.lift, Prog.bind_op, Prog.bind_ret, Prog.pure_eq_ret]
  ysend 0 32 (k0_off3_row c 0) (k0_off3_col c 0) (k0_off2_row c 0) (k0_off2_col c 0) (k0_dev3_eq c) fy0 (OY c 12) Hxy0 Hdy0 Ht3 Ht16 Hcs0
  ysend 1 32 (k0_off3_row c 1) (k0_off3_col c 1) (k0_off2_row c 1) (k0_off2_col c 1) (k0_dev4_eq c) fy1 (OY c 11) Hxy1 Hdy1 Ht4 Ht17 Hcs1
  simp only [k0_part3, Prog.lift, Prog.bind_op, Prog.bind_ret, Prog.pure_eq_ret]
  ysend 2 24 (k0_off5_row c 0) (k0_off5_col c 0) (k0_off4_row c 0) (k0_off4_col c 0) (k0_dev5_eq c) fy2 (OY c 10) Hxy2 Hdy2 Ht5 Ht18 Hcs2
  ysend 3 24 (k0_off5_row c 1) (k0_off5_col c 1) (k0_off4_row c 1) (k0_off4_col c 1) (k0_dev6_eq c) fy3 (OY c 9) Hxy3 Hdy3 Ht6 Ht19 Hcs3
  ysend 4 24 (k0_off5_row c 2) (k0_off5_col c 2) (k0_off4_row c 2) (k0_off4_col c 2) (k0_dev7_eq c) fy4 (OY c 8) Hxy4 Hdy4 Ht7 Ht20 Hcs4
  simp only [k0_part4, Prog.lift, Prog.bind_op, Prog.bind_ret, Prog.pure_eq_ret]
  ysend 5 16 (k0_off7_row c 0) (k0_off7_col c 0) (k0_off6_row c 0) (k0_off6_col c 0) (k0_dev8_eq c) fy5 (OY c 7) Hxy5 Hdy5 Ht8 Ht21 Hcs5
  ysend 6 16 (k0_off7_row c 1) (k0_off7_col c 1) (k0_off6_row c 1) (k0_off6_col c 1) (k0_dev9_eq c) fy6 (OY c 6) Hxy6 Hdy6 Ht9 Ht22 Hcs6
  ysend 7 16 (k0_off7_row c 2) (k0_off7_col c 2) (k0_off6_row c 2) (k0_off6_col c 2) (k0_dev10_eq c) fy7 (OY c 5) Hxy7 Hdy7 Ht10 Ht23 Hcs7
  simp only [k0_part5, Prog.lift, Prog.bind_op, Prog.bind_ret, Prog.pure_eq_ret]
  ysend 8 8 (k0_off9_row c 0) (k0_off9_col c 0) (k0_off8_row c 0) (k0_off8_col c 0) (k0_dev11_eq c) fy8 (OY c 4) Hxy8 Hdy8 Ht11 Ht24 Hcs8
  ysend 9 8 (k0_off9_row c 1) (k0_off9_col c 1) (k0_off8_row c 1) (k0_off8_col c 1) (k0_dev12_eq c) fy9 (OY c 3) Hxy9 Hdy9 Ht12 Ht25 Hcs9
  ysend 10 8 (k0_off9_row c 2) (k0_off9_col c 2) (k0_off8_row c 2) (k0_off8_col c 2) (k0_dev13_eq c) fy10 (OY c 2) Hxy10 Hdy10 Ht13 Ht26 Hcs10
  simp only [k0_part6, Prog.lift, Prog.bind_op, Prog.bind_ret, Prog.pure_eq_ret]
  ysend 11 8 (k0_off9_row c 3) (k0_off9_col c 3) (k0_off8_row c 3) (k0_off8_col c 3) (k0_dev14_eq c) fy11 (OY c 1) Hxy11 Hdy11 Ht14 Ht27 Hcs11
  ysend 12 80 rfl rfl (k0_off10_row c) (k0_off10_col c) (k0_dev15_eq c) fy12 (OY c 0) Hxy12 Hdy12 Ht15 Ht28 Hcs12
  rw [show OY c 0 = OX c 12 from rfl]
  iapply (hnext K (fun j => [fx0, fx1, fx2, fx3, fx4, fx5, fx6, fx7, fx8, fx9, fx10, fx11].getD j fx0) _ _ _ _ _ _ _)
  unfold StB1
  isplitr; · iexact HR
  isplitr; · iexact Hlev
  give Ha2
  give Ha3
  give Ha4
  give Ha5
  give Ha6
  give Ha7
  give Ha8
  give Ha9
  give Ha10
  give Ha11
  give Ha12
  give Ha13
  give Ha14
  give Ha15
  give Ha16
  give Ha17
  give Ha18
  give Ha19
  give Ha20
  give Ha21
  give Ha22
  give Ha23
  give Ha24
  give Ha25
  give Ha26
  give Ha27
  give Ha28
  give Ha29
  give Ha30
  give Ha31
  give Ha32
  give Ha33
  give Ha34
  give Ha35
  give Ha36
  give Ha37
  give Ha38
  give Ha39
  give Ha40
  give Ha41
  give Ha42
  give Ha43
  give Ha44
  give Ha45
  give Ha46
  give Ha47
  give Ha48
  give Ha49
  give Ha50
  give Ha51
  give Ha52
  give Ht29
  give Ht30
  give Ht31
  give Ht32
  give Ht33
  give Ht34
  give Ht35
  give Ht36
  give Ht37
  give Ht38
  give Ht39
  give Ht40
  give Ht41
  give Ht42
  give Ht43
  give Ht44
  give Ht45
  give Ht46
  give Ht47
  give Ht48
  give Ht49
  give Ht50
  give Ht51
  give Ht52
  give Hcy0
  give Hcy1
  give Hcy2
  give Hcy3
  give Hcy4
  give Hcy5
  give Hcy6
  give Hcy7
  give Hcy8
  give Hcy9
  give Hcy10
  give Hcy11
  give Hcy12
  give Hcx0
  give Hcx1
  give Hcx2
  give Hcx3
  give Hcx4
  give Hcx5
  give Hcx6
  give Hcx7
  give Hcx8
  give Hcx9
  give Hcx10
  give Hcx11
  give HxRest
  give HcC
  give Hcs0
  give Hcs1
  give Hcs2
  give Hcs3
  give Hcs4
  give Hcs5
  give Hcs6
  give Hcs7
  give Hcs8
  give Hcs9
  give Hcs10
  give Hcs11
  give Hcs12
  give Hdx0
  give Hdx1
  give Hdx2
  give Hdx3
  give Hdx4
  give Hdx5
  give Hdx6
  give Hdx7
  give Hdx8
  give Hdx9
  give Hdx10
  give Hdx11
  iexact HO

/-- The body on device `c`, from `bodyPre` to `bodyPost`. -/
theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4) (fun _ => bodyPost m ρ c) :=
  phaseA m ρ c fun K fx => phaseB1 m ρ K c fx (phaseB2 m ρ K c fx (phaseC1 m ρ K c fx (phaseC2 m ρ K c fx (phaseD m ρ K c fx))))

end Cert.KernelIdeal.AG

end
-- ==== Proof.Launch.lean ====
/-
  The launch: the four devices' bodies under the protocol's schedule give the run of @main.
-/
import proofs.«900105_g7700000000000106_dist_ag_v7x_xy2x2_y_m512_n512_f32_1_alg».proof.Proof.Body
import Mathlib.Data.Finset.Image
import Mathlib.Data.Fintype.Fin

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over an initial segment of the naturals -/

section Big
variable {M : Type} [URA M]

/-- Over `Fin n` or over the naturals below `n`: the same conjunction. -/
theorem bigSep_fin_range (n : ℕ) (Ψ : ℕ → sProp M) :
    bigSep (Finset.univ : Finset (Fin n)) (fun i => Ψ i.val) = bigSep (Finset.range n) Ψ := by
  have h : Finset.range n = (Finset.univ : Finset (Fin n)).map Fin.valEmbedding := by
    ext i
    rw [Finset.mem_range, Finset.mem_map]
    exact ⟨fun hi => ⟨⟨i, hi⟩, Finset.mem_univ _, rfl⟩, fun ⟨k, _, hk⟩ => hk ▸ k.isLt⟩
  calc bigSep (Finset.univ : Finset (Fin n)) (fun i => Ψ i.val)
      = bigSep ((Finset.univ : Finset (Fin n)).map Fin.valEmbedding) Ψ := (bigSep_map Fin.valEmbedding).symm
    _ = bigSep (Finset.range n) Ψ := by rw [h]

/-- The first conjunct apart. -/
theorem bigSep_range_peel (n : ℕ) (Ψ : ℕ → sProp M) :
    bigSep (Finset.range (n + 1)) Ψ = iprop(Ψ 0 ∗ bigSep (Finset.range n) fun i => Ψ (i + 1)) := by
  have h0 : (0 : ℕ) ∉ (Finset.range n).map ⟨fun i => i + 1, fun i j h => Nat.succ.inj h⟩ := fun h => by
    obtain ⟨i, _, hi⟩ := Finset.mem_map.mp h
    exact Nat.succ_ne_zero i hi
  rw [Finset.range_add_one', bigSep_insert h0]
  exact congrArg (fun X => iprop(Ψ 0 ∗ X)) (bigSep_map _)

theorem bigSep_fin_peel1 (n : ℕ) (Ψ : ℕ → sProp M) :
    bigSep (Finset.univ : Finset (Fin (n + 1))) (fun i => Ψ i.val) = iprop(Ψ 0 ∗ bigSep (Finset.range n) fun i => Ψ (i + 1)) := by
  rw [bigSep_fin_range, bigSep_range_peel]

theorem bigSep_fin_peel2 (n : ℕ) (Ψ : ℕ → sProp M) :
    bigSep (Finset.univ : Finset (Fin (n + 2))) (fun i => Ψ i.val) = iprop(Ψ 0 ∗ Ψ 1 ∗ bigSep (Finset.range n) fun i => Ψ (i + 2)) := by
  rw [bigSep_fin_range, bigSep_range_peel, bigSep_range_peel]

/-- The last conjunct apart. -/
theorem bigSep_range_last (n : ℕ) (Ψ : ℕ → sProp M) :
    bigSep (Finset.range (n + 1)) Ψ = iprop(Ψ n ∗ bigSep (Finset.range n) Ψ) := by
  rw [Finset.range_add_one]; exact bigSep_insert Finset.notMem_range_self

/-- Counting down instead of up. -/
theorem bigSep_range_reflect12 (Ψ : ℕ → sProp M) : bigSep (Finset.range 12) (fun i => Ψ (11 - i)) = bigSep (Finset.range 12) Ψ := by
  have h : (Finset.range 12).image (fun i => 11 - i) = Finset.range 12 := by decide
  rw [← bigSep_image_of_injOn (f := fun i => 11 - i) (s := Finset.range 12) (fun a ha b hb e => by
    have ha' := Finset.mem_range.mp ha; have hb' := Finset.mem_range.mp hb; simp only at e; omega) Ψ, h]

theorem bigSep_range_reflect13 (Ψ : ℕ → sProp M) : bigSep (Finset.range 13) (fun i => Ψ (12 - i)) = bigSep (Finset.range 13) Ψ := by
  have h : (Finset.range 13).image (fun i => 12 - i) = Finset.range 13 := by decide
  rw [← bigSep_image_of_injOn (f := fun i => 12 - i) (s := Finset.range 13) (fun a ha b hb e => by
    have ha' := Finset.mem_range.mp ha; have hb' := Finset.mem_range.mp hb; simp only at e; omega) Ψ, h]

end Big

/-! ## The body obligation -/

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 32000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  exact sound_body m ρ c

/-! ## The launch -/

/-- The kernel's own (scoped) semaphores as the launch indexes them: the DMA semaphores 2 … 52. -/
abbrev osem : Fin 51 → SemLoc sig := fun i => .dma (dsem (i.val + 2) (by have := i.isLt; omega))

theorem ownSemFacts : Pipeline.OwnSemFacts cfg0.spec osem :=
  ⟨by decide, fun a b h => Fin.ext (by have : a.val + 2 = b.val + 2 := Option.some.inj (congrArg dnum h); omega), by decide⟩

theorem share_eq (c : Dev nD) (w : Fin cfg0.W) : (dats m ρ 0 c).share w = fullShare := by unfold Dat.share; split <;> rfl

/-! ### The cells -/

theorem dcN_dev (c : Dev nD) (n : ℕ) : (dcN c n).1.1 = c := by unfold dcN; split <;> rfl

/-- A cell's number among a device's fifty-two: the barrier cell 0, DMA cell `n` at `n - 1`. -/
def gnum (g : GSem nD τ sig) : ℕ := match dnum g.2 with | none => 0 | some n => n - 1

theorem kcell_dev (ck : Dev nD × Fin 52) : (kcell ck).1.1 = ck.1 := by
  unfold kcell; split
  · rfl
  · exact dcN_dev _ _

theorem kcell_gnum (ck : Dev nD × Fin 52) : gnum (kcell ck) = ck.2.val := by
  have hk := ck.2.isLt
  unfold kcell; split
  · show (0 : ℕ) = ck.2.val; omega
  · rw [dcN_lt _ _ (by omega)]; show ck.2.val + 1 - 1 = ck.2.val; omega

theorem kcell_injective : Function.Injective (kcell : Dev nD × Fin 52 → GSem nD τ sig) := fun a b h =>
  Prod.ext (by have : (kcell a).1.1 = (kcell b).1.1 := congrArg (fun g : GSem nD τ sig => g.1.1) h
               rwa [kcell_dev, kcell_dev] at this)
    (Fin.ext (by have : gnum (kcell a) = gnum (kcell b) := congrArg gnum h
                 rwa [kcell_gnum, kcell_gnum] at this))

def agCells : Finset (GSem nD τ sig) := Finset.univ.map ⟨kcell, kcell_injective⟩

/-- A device's cells one by one: its barrier cell, then its DMA cells 2 … 52. -/
theorem bigSep_kcells (Ψ : GSem nD τ sig → sProp 𝕄) (c : Dev nD) :
    bigSep Finset.univ (fun k : Fin 52 => Ψ (kcell (c, k))) = iprop(Ψ (barCell c) ∗ bigSep (Finset.range 51) fun i => Ψ (dcN c (i + 2))) :=
  (bigSep_fin_peel1 51 (fun n : ℕ => Ψ (if n = 0 then barCell c else dcN c (n + 1)))).trans
    (congrArg (fun X => iprop(Ψ (barCell c) ∗ X)) (bigSep_congr fun i _ => by
      show Ψ (if i + 1 = 0 then barCell c else dcN c (i + 1 + 1)) = Ψ (dcN c (i + 2))
      rw [if_neg (Nat.succ_ne_zero i)]))

/-! ### The duty tokens, as minted and as dealt -/

/-- The three ways a duty's payer is found from the cell's device: itself, its y-neighbour, its x-neighbour. -/
def act : Fin 3 → Dev nD → Dev nD
  | 0, c => c
  | 1, c => yn c
  | 2, c => xn c

theorem act_act (k : Fin 3) (c : Dev nD) : act k (act k c) = c := by revert k c; decide

/-- Which of the three, by the token's number: 0 the barrier's `false`, 1 its `true`, `n ≥ 2` DMA cell `n`'s. -/
def pk (j : ℕ) : Fin 3 := if j = 0 then 1 else if j = 1 then 2 else if j < 16 then 0 else if j < 29 then 1 else if j < 41 then 0 else 2

def payEquiv : Dev nD × Fin 53 ≃ Dev nD × Fin 53 where
  toFun cj := (act (pk cj.2.val) cj.1, cj.2)
  invFun cj := (act (pk cj.2.val) cj.1, cj.2)
  left_inv cj := Prod.ext (act_act _ _) rfl
  right_inv cj := Prod.ext (act_act _ _) rfl

/-- Token number `j` of device `c`'s cells. -/
def tokN (c : Dev nD) (j : ℕ) : GSem nD τ sig × ℕ × Bool :=
  if j = 0 then (barCell c, 0, false) else if j = 1 then (barCell c, 0, true) else (dcN c j, 0, false)
def tokOf (cj : Dev nD × Fin 53) : GSem nD τ sig × ℕ × Bool := tokN cj.1 cj.2.val

def tnum (x : GSem nD τ sig × ℕ × Bool) : ℕ := match dnum x.1.2 with | none => if x.2.2 then 1 else 0 | some n => n

theorem tokN_dev (c : Dev nD) (j : ℕ) : (tokN c j).1.1.1 = c := by
  unfold tokN; split
  · rfl
  split
  · rfl
  exact dcN_dev c j

theorem tokN_num (c : Dev nD) (j : ℕ) (h : j < 53) : tnum (tokN c j) = j := by
  unfold tokN; split
  · show (0 : ℕ) = j; omega
  split
  · show (1 : ℕ) = j; omega
  rw [dcN_lt c j h]; rfl

theorem tokOf_injective : Function.Injective (tokOf : Dev nD × Fin 53 → GSem nD τ sig × ℕ × Bool) := fun a b h =>
  Prod.ext (by have : (tokOf a).1.1.1 = (tokOf b).1.1.1 := congrArg (fun x : GSem nD τ sig × ℕ × Bool => x.1.1.1) h
               rwa [show (tokOf a).1.1.1 = a.1 from tokN_dev _ _, show (tokOf b).1.1.1 = b.1 from tokN_dev _ _] at this)
    (Fin.ext (by have : tnum (tokOf a) = tnum (tokOf b) := congrArg tnum h
                 rwa [show tnum (tokOf a) = a.2.val from tokN_num _ _ a.2.isLt,
                   show tnum (tokOf b) = b.2.val from tokN_num _ _ b.2.isLt] at this))

def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

def tokP (x : GSem nD τ sig × ℕ × Bool) : sProp 𝕄 := dutyTok ER x.1 x.2.1 x.2.2
/-- The duty tokens of device `c`'s own cells. -/
def toks (c : Dev nD) : sProp 𝕄 := bigSep Finset.univ fun j : Fin 53 => tokP (tokOf (c, j))
/-- The duty tokens device `c` pays. -/
def payToks (c : Dev nD) : sProp 𝕄 := bigSep Finset.univ fun j : Fin 53 => tokP (tokOf (payEquiv (c, j)))

theorem toks_around : (bigSep Finset.univ fun c : Dev nD => (toks c : sProp 𝕄)) = bigSep Finset.univ fun c : Dev nD => payToks c := by
  unfold toks payToks
  rw [← bigSep_univ_prod (fun cj : Dev nD × Fin 53 => (tokP (tokOf cj) : sProp 𝕄)),
    ← bigSep_univ_prod (fun cj : Dev nD × Fin 53 => (tokP (tokOf (payEquiv cj)) : sProp 𝕄)),
    bigSep_univ_equiv payEquiv (fun cj : Dev nD × Fin 53 => (tokP (tokOf cj) : sProp 𝕄))]

theorem payCell_eq (c : Dev nD) (n : ℕ) (h : 2 ≤ n) : payCell c n = dcN (act (pk n) c) n := by
  unfold payCell pk
  rw [if_neg (show ¬ n = 0 by omega), if_neg (show ¬ n = 1 by omega)]
  by_cases h1 : n < 16
  · rw [if_pos h1, if_pos h1]; rfl
  rw [if_neg h1, if_neg h1]
  by_cases h2 : n < 29
  · rw [if_pos h2, if_pos h2]; rfl
  rw [if_neg h2, if_neg h2]
  by_cases h3 : n < 41
  · rw [if_pos h3, if_pos h3]; rfl
  rw [if_neg h3, if_neg h3]; rfl

theorem payToks_eq (c : Dev nD) : (payToks c : sProp 𝕄)
    = iprop(dutyTok ER (barCell (yn c)) 0 false ∗ dutyTok ER (barCell (xn c)) 0 true
        ∗ bigSep (Finset.range 51) fun i => dutyTok ER (payCell c (i + 2)) 0 false) := by
  refine (show (payToks c : sProp 𝕄) = bigSep Finset.univ (fun j : Fin 53 => (fun n : ℕ => (tokP (tokN (act (pk n) c) n) : sProp 𝕄)) j.val) from rfl).trans
    ((bigSep_fin_peel2 51 (fun n : ℕ => (tokP (tokN (act (pk n) c) n) : sProp 𝕄))).trans ?_)
  refine congrArg₂ (fun A B => iprop(A ∗ B)) rfl (congrArg₂ (fun A B => iprop(A ∗ B)) rfl (bigSep_congr fun i _ => ?_))
  show tokP (tokN (act (pk (i + 2)) c) (i + 2)) = dutyTok ER (payCell c (i + 2)) 0 false
  rw [payCell_eq c (i + 2) (by omega)]
  unfold tokN
  rw [if_neg (show ¬ i + 2 = 0 by omega), if_neg (show ¬ i + 2 = 1 by omega)]
  rfl

/-! ### What the launch element deals, and the global step -/

/-- What the launch element deals device `c` (the theorem's `G`). -/
def G (c : Dev nD) : sProp 𝕄 :=
  iprop((bigSep Finset.univ fun k : Fin 52 => roundState ER (agRd m ρ) (kcell (c, k)) 0)
    ∗ (bigSep Finset.univ fun k : Fin 52 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 52 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The fifty-one DMA semaphores are the kernel's own; -/
theorem ownSems0_eq (c : Dev nD) : (Pipeline.ownSems0 (Ix := Unit) (Name := ℕ) (U := UU) (Lvl := ℕ) (Val := Elt F) (τ := τ) osem c : sProp 𝕄)
    = bigSep (Finset.range 51) fun i => semVal (dcN c (i + 2)) 0 :=
  (show (Pipeline.ownSems0 (Ix := Unit) (Name := ℕ) (U := UU) (Lvl := ℕ) (Val := Elt F) (τ := τ) osem c : sProp 𝕄)
      = bigSep Finset.univ (fun k : Fin 51 => (fun n : ℕ => (semVal (dcN c (n + 2)) 0 : sProp 𝕄)) k.val) from
    bigSep_congr fun k _ => by
      show (semVal ((c : Thread nD τ), osem k) 0 : sProp 𝕄) = semVal (dcN c (k.val + 2)) 0
      rw [dcN_lt c (k.val + 2) (by have := k.isLt; omega)]).trans (bigSep_fin_range 51 (fun n : ℕ => (semVal (dcN c (n + 2)) 0 : sProp 𝕄)))

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 52 => semVal (kcell (c, k)) 0 : sProp 𝕄) := by
  rw [ownSems0_eq, unscopedSems0_eq, bigSep_kcells (fun g => (semVal g 0 : sProp 𝕄)) c]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 52 => iprop(∃ κ : ℕ, cellInv ER (agRd m ρ) κ (kcell (c, k))))
          ∗ (bigSep Finset.univ fun k : Fin 52 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 52 => semVal (kcell (c, k)) 0) ∗ bigSep Finset.univ fun k : Fin 52 => roundState ER (agRd m ρ) (kcell (c, k)) 0)
      ⊢ (|={Set.univ}=> bigSep Finset.univ fun k : Fin 52 => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 52 → ℕ) (c : Dev nD) : iprop(records m ρ K ∗ linear c) ⊢ G' m ρ c := by
  unfold G' ghost
  iintro H
  iexists K
  iexact H

theorem linear_intro (c : Dev nD) :
    iprop((bigSep Finset.univ fun k : Fin 52 => (atPos ER (kcell (c, k)) 0 ∅ 0 : sProp 𝕄)) ∗ payToks c) ⊢ linear c := by
  rw [bigSep_kcells (fun g => (atPos ER g 0 ∅ 0 : sProp 𝕄)) c, payToks_eq]
  unfold linear
  iintro ⟨⟨HA, HB⟩, H1, H2, H3⟩
  isplitl [HA]; · iexact HA
  isplitl [HB]; · iexact HB
  isplitl [H1]; · iexact H1
  isplitl [H2]; · iexact H2
  iexact H3

theorem regroup :
    (bigSep Finset.univ fun c : Dev nD => iprop((bigSep Finset.univ fun k : Fin 52 => iprop(∃ κ : ℕ, cellInv ER (agRd m ρ) κ (kcell (c, k))))
          ∗ (bigSep Finset.univ fun k : Fin 52 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 52 => iprop(∃ κ : ℕ, cellInv ER (agRd m ρ) κ (kcell ck))),
    bigSep_congr (s := Finset.univ) (fun (c : Dev nD) _ => bigSep_sep' Finset.univ (fun k : Fin 52 => (atPos ER (kcell (c, k)) 0 ∅ 0 : sProp 𝕄)) (fun k => reached ER (kcell (c, k)) 0)),
    bigSep_sep', ← bigSep_univ_prod (fun ck : Dev nD × Fin 52 => (reached ER (kcell ck) 0 : sProp 𝕄))]
  iintro ⟨HI, ⟨Hat, #HR⟩, Htok⟩
  ihave HK := (BI.bigSep_exists_pi Finset.univ (fun (ck : Dev nD × Fin 52) (κ : ℕ) => (cellInv ER (agRd m ρ) κ (kcell ck) : sProp 𝕄))) $$ HI
  icases HK with ⟨%K, #HI⟩
  ihave Htk := (Entails.of_eq (toks_around (F := F))) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 52 => (atPos ER (kcell (c, k)) 0 ∅ 0 : sProp 𝕄)) (payToks (F := F))).symm).trans
      (bigSep_mono fun c _ => linear_intro c))
    isplitl [Hat]; · iexact Hat
    iexact Htk

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem amt_x (j : ℕ) : amt (41 + j) = crd (csz j) := by
  unfold amt
  rw [if_neg (by omega), if_neg (by omega), if_neg (by omega), if_neg (by omega), Nat.add_sub_cancel_left]
theorem amt_y (k : ℕ) (hk : k < 13) : amt (16 + k) = crd (csz k) := by
  unfold amt
  rw [if_neg (by omega), if_neg (by omega), if_pos (by omega), Nat.add_sub_cancel_left]

/-- Every device owes chunk `j` to its x-neighbour's receive cell: device `c` is dealt that credit on its own. -/
theorem cred_TX (c : Dev nD) (j : ℕ) (hj : j < 12) :
    (Pipeline.launchCred (fun d => TX d j) c : sProp 𝕄) ⊢ cred (tallyAt (dcN c (41 + j)) () (amt (41 + j))) := by
  have h : 41 + j < 53 := by omega
  rw [show (fun d : Dev nD => TX d j) = fun d => tallyAt (((xn d : Dev nD) : Thread nD τ), SemLoc.dma (dsem (41 + j) h)) () (crd (csz j)) from
    funext fun d => by unfold TX; rw [dif_pos h], dcN_lt c _ h, amt_x]
  exact Pipeline.launchCred_tallyAt (SemLoc.dma (dsem (41 + j) h)) xn xn xn_xn xn_xn () _ c

theorem cred_TY (c : Dev nD) (k : ℕ) (hk : k < 13) :
    (Pipeline.launchCred (fun d => TY d k) c : sProp 𝕄) ⊢ cred (tallyAt (dcN c (16 + k)) () (amt (16 + k))) := by
  have h : 16 + k < 53 := by omega
  rw [show (fun d : Dev nD => TY d k) = fun d => tallyAt (((yn d : Dev nD) : Thread nD τ), SemLoc.dma (dsem (16 + k) h)) () (crd (csz k)) from
    funext fun d => by unfold TY; rw [dif_pos h], dcN_lt c _ h, amt_y k hk]
  exact Pipeline.launchCred_tallyAt (SemLoc.dma (dsem (16 + k) h)) yn yn yn_yn yn_yn () _ c

theorem cred_OX (c : Dev nD) : ∀ n, n ≤ 12 →
    (Pipeline.launchCred (fun d => OX d n) c : sProp 𝕄)
      ⊢ bigSep (Finset.range n) fun i => cred (tallyAt (dcN c (41 + (11 - i))) () (amt (41 + (11 - i))))
  | 0, _ => Entails.of_eq (by
      rw [show (fun d : Dev nD => OX d 0) = fun _ => (0 : CellTallies nD τ sig Unit) from rfl, Pipeline.launchCred_zero, Finset.range_zero, bigSep_empty]; rfl)
  | n + 1, h => by
    rw [show (fun d : Dev nD => OX d (n + 1)) = fun d => OX d n + TX d (11 - n) from rfl, Pipeline.launchCred_add, bigSep_range_last]
    iintro ⟨H1, H2⟩
    isplitl [H2]
    · iapply (cred_TX (F := F) c (11 - n) (by omega)); iexact H2
    · iapply (cred_OX c n (by omega)); iexact H1

theorem cred_OX12 (c : Dev nD) :
    (Pipeline.launchCred (fun d => OX d 12) c : sProp 𝕄) ⊢ bigSep (Finset.range 12) fun j => cred (tallyAt (dcN c (41 + j)) () (amt (41 + j))) :=
  (cred_OX c 12 (le_refl _)).trans
    (Entails.of_eq (bigSep_range_reflect12 fun j => (cred (tallyAt (dcN c (41 + j)) () (amt (41 + j))) : sProp 𝕄)))

theorem cred_OY (c : Dev nD) : ∀ n, n ≤ 13 →
    (Pipeline.launchCred (fun d => OY d n) c : sProp 𝕄)
      ⊢ iprop((bigSep (Finset.range n) fun i => cred (tallyAt (dcN c (16 + (12 - i))) () (amt (16 + (12 - i)))))
          ∗ bigSep (Finset.range 12) fun j => cred (tallyAt (dcN c (41 + j)) () (amt (41 + j))))
  | 0, _ => by
    rw [show (fun d : Dev nD => OY d 0) = fun d => OX d 12 from rfl, Finset.range_zero, bigSep_empty]
    iintro H
    isplitr
    · iempintro
    · iapply (cred_OX12 (F := F) c); iexact H
  | n + 1, h => by
    rw [show (fun d : Dev nD => OY d (n + 1)) = fun d => OY d n + TY d (12 - n) from rfl, Pipeline.launchCred_add, bigSep_range_last]
    iintro ⟨H1, H2⟩
    ihave H := (cred_OY c n (by omega)) $$ H1
    icases H with ⟨HY, HX⟩
    isplitr [HX]
    · isplitl [H2]
      · iapply (cred_TY (F := F) c (12 - n) (by omega)); iexact H2
      · iexact HY
    · iexact HX

theorem cred_OY13 (c : Dev nD) :
    (Pipeline.launchCred (fun d => OY d 13) c : sProp 𝕄)
      ⊢ iprop((bigSep (Finset.range 13) fun k => cred (tallyAt (dcN c (16 + k)) () (amt (16 + k))))
          ∗ bigSep (Finset.range 12) fun j => cred (tallyAt (dcN c (41 + j)) () (amt (41 + j)))) :=
  (cred_OY c 13 (le_refl _)).trans
    (sep_mono_left (Entails.of_eq (bigSep_range_reflect13 fun k => (cred (tallyAt (dcN c (16 + k)) () (amt (16 + k))) : sProp 𝕄))))

/-- The two barrier units, one from each neighbour, as one credit of two. -/
theorem cred_bar2 (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add _ () 1 1).symm]
  exact (cred_add _ _).2

/-- What the other devices owe device `c`'s cells, as the credit its body starts from. -/
theorem creds_intro (c : Dev nD) : (Pipeline.launchCred O₀ c : sProp 𝕄) ⊢ creds c := by
  rw [show (O₀ : Dev nD → CellTallies nD τ sig Unit) = fun d => (OY d 13 + tallyAt (barCell (xn d)) () 1) + tallyAt (barCell (yn d)) () 1 from rfl,
    Pipeline.launchCred_add, Pipeline.launchCred_add]
  unfold creds
  iintro ⟨⟨HO, HBx⟩, HBy⟩
  ihave HO' := (cred_OY13 (F := F) c) $$ HO
  icases HO' with ⟨HY, HX⟩
  ihave Hx := (Pipeline.launchCred_tallyAt (SemLoc.reg barS) xn xn xn_xn xn_xn () 1 c) $$ HBx
  ihave Hy := (Pipeline.launchCred_tallyAt (SemLoc.reg barS) yn yn yn_yn yn_yn () 1 c) $$ HBy
  isplitl [Hx Hy]
  · iapply (cred_bar2 (F := F) c)
    isplitl [Hx] <;> iassumption
  isplitl [HY]; · iexact HY
  iexact HX

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro H
  isplitr; · iempintro
  isplitl [H]; · iexact H
  iempintro

/-- The pipeline's staging cells sit at level 0. -/
theorem lv_stage (c : Dev nD) (w : Fin (cfgs 0).W) (s : Fin ((cfgs 0).win w).nbuf) :
    lv ((c : Thread nD τ), SemLoc.dma (((cfgs 0).win w).sem s)) () ≤ 0 := by
  fin_cases w <;> fin_cases s <;> (revert c; decide)

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (lv_stage c w s) _ (by
      rcases t with ⟨_ | _, ht⟩
      · exact above_O₀ c
      · exact above_zero 0)

/-! ### The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of @main on the four devices terminates, and every
    final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AG.run_main' depends on axioms: [propext, Classical.choice, Quot.sound] -/
#guard_msgs in #print axioms run_main

end Cert.KernelIdeal.AG

end
-- ==== Proof.Final.lean ====
/-
  The run of @main, read back: on every device the argument array ends as launched, and the result array ends at the
  gathered contents. The argument's window is an input, never written back. The result's window is the whole array as one
  block, written back at the one grid point from what the body left in its staging buffer.
-/
import proofs.«900105_g7700000000000106_dist_ag_v7x_xy2x2_y_m512_n512_f32_1_alg».proof.Proof.Launch

noncomputable section

namespace Cert.KernelIdeal.AG

open Cert.KernelIdeal Cert.KernelIdeal.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array after the run holds what it held: an input window's array is never written back. -/
theorem finalA_x (c : Dev nD) : finalA m ρ c (0 : Fin 2) = m ((c : Thread nD τ).loc main_arg0) :=
  (dats (F := F) m ρ 0 c).arrAt_in (0 : Fin 2) rfl _

/-- The result array after the run holds the gathered contents: its one block is the whole array, read through zero
    offsets, and the one write-back overwrites all of it with what the body left in the staging buffer. -/
theorem finalA_o (c : Dev nD) : finalA m ρ c (1 : Fin 2) = gath m ρ c := by
  unfold finalA
  rw [show cfg0.N = (t₀ : Fin cfg0.N).val + 1 from rfl, (dats (F := F) m ρ 0 c).arrAt_succ (1 : Fin 2) t₀,
    flush0_1 t₀, if_pos rfl]
  have hz : (fun a => win0_1.index t₀ a * main_v1.ty.shape.size a) = fun _ => 0 := funext fun a => by fin_cases a <;> decide
  exact Memref.write_access_unit_zero_univ (Elt F) main_v1 hz (fun a => by rw [congrFun hz a]; simp) _ _

/-- The frame: every weakly fair execution of @main terminates with the argument array unchanged on every device. -/
theorem frame_run : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 2)).trans (finalA_x m ρ c)) (run_main m ρ)

/-- The value: every weakly fair execution of @main terminates with the result array at the gathered contents and the
    argument array unchanged, on every device. -/
theorem value_run : θ_run defs (onTc (τ := τ) (main (F := F))) ⟨m, fun _ => 0, ρ⟩ (fun r => ∀ c : Dev nD,
    r.2.mem ((c.tc : Thread nD τ).loc main_v1) = gath m ρ c
    ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans (finalA_x m ρ c)⟩)
    (run_main m ρ)

/-- info: 'Cert.KernelIdeal.AG.finalA_x' depends on axioms: [propext, Classical.choice, Quot.sound] -/
#guard_msgs in #print axioms finalA_x

/-- info: 'Cert.KernelIdeal.AG.finalA_o' depends on axioms: [propext, Classical.choice, Quot.sound] -/
#guard_msgs in #print axioms finalA_o

/-- info: 'Cert.KernelIdeal.AG.value_run' depends on axioms: [propext, Classical.choice, Quot.sound] -/
#guard_msgs in #print axioms value_run

end Cert.KernelIdeal.AG

end
-- ==== Proof.KProto.lean ====
/-
  The all-gather protocol of the four devices of a 2×2 mesh, as a schedule of rounds.

  Device `c` has mesh coordinates X = c / 2 and Y = c % 2. It holds block Y of the whole array (512 rows) and must end
  with both blocks. Its y-neighbour `yn c` (same X, other Y) holds the block it misses; its x-neighbour `xn c` (other X,
  same Y) holds the same block as `c` and misses the same one. Each device
    · copies its own block into rows [512·Y, 512·Y + 512) of its result (one local copy),
    · tells both neighbours it has entered (one unit on each neighbour's barrier semaphore) and waits for two units,
    · sends rows [296·X, 296·X + 216) ∪ [216, 296) of its block to its y-neighbour in thirteen chunks, to the same rows of
      the neighbour's missing block,
    · forwards each of the first twelve chunks it receives from its y-neighbour on to its x-neighbour, to the same rows,
    · waits for everything it receives and everything it sent.
  So the missing block of `c` is filled from `yn c` on 296 rows and, forwarded through `xn c`, from the device diagonal
  to `c` on the other 216.

  Every semaphore is a cell with ONE round. The barrier cell of `c` has two duties of one unit: `false`, paid by `yn c`,
  whose payload is the thirteen row ranges of `yn c`'s result that `c` will write; `true`, paid by `xn c`, whose payload
  is the twelve row ranges of `xn c`'s result that `c` will write. Every DMA cell has one duty: a receive cell's payload
  is the landed row range at its final contents, a send cell's payload is the source range back.
-/
import proofs.«900105_g7700000000000106_dist_ag_v7x_xy2x2_y_m512_n512_f32_1_alg».proof.Proof.Gen.Kernel
import proofs.«900105_g7700000000000106_dist_ag_v7x_xy2x2_y_m512_n512_f32_1_alg».proof.Proof.Gen.Kernel.Skeleton
import proofs.«900105_g7700000000000106_dist_ag_v7x_xy2x2_y_m512_n512_f32_1_alg».proof.Proof.Gen.Kernel.Launch
import proofs.«900105_g7700000000000106_dist_ag_v7x_xy2x2_y_m512_n512_f32_1_alg».proof.Proof.Gen.Kernel.Points
import proofs.«900105_g7700000000000106_dist_ag_v7x_xy2x2_y_m512_n512_f32_1_alg».proof.Proof.LibRows
import Idealize.ShloMosaic.Lib.Pipeline.Launch
import Idealize.ShloMosaic.Lib.Pipeline.Kit
import Idealize.ShloMosaic.Lib.Tactic

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The mesh: the two neighbours and the diagonal -/

/-- Same X, other Y. -/
def yn (c : Dev nD) : Dev nD := ⟨(2 * (c.val / 2) + 1) - (c.val % 2), by have h : c.val < 4 := c.isLt; show _ < 4; omega⟩
/-- Other X, same Y. -/
def xn (c : Dev nD) : Dev nD := ⟨((c.val % 2) + 2) - 2 * (c.val / 2), by have h : c.val < 4 := c.isLt; show _ < 4; omega⟩
/-- Other X, other Y. -/
def dg (c : Dev nD) : Dev nD := yn (xn c)

theorem yn_yn (c : Dev nD) : yn (yn c) = c := by revert c; decide
theorem xn_xn (c : Dev nD) : xn (xn c) = c := by revert c; decide
theorem yn_xn (c : Dev nD) : yn (xn c) = xn (yn c) := by revert c; decide
theorem yn_ne_xn (c : Dev nD) : yn c ≠ xn c := by revert c; decide
theorem yn_ne (c : Dev nD) : yn c ≠ c := by revert c; decide
theorem xn_ne (c : Dev nD) : xn c ≠ c := by revert c; decide

def yEquiv : Dev nD ≃ Dev nD := ⟨yn, yn, yn_yn, yn_yn⟩
def xEquiv : Dev nD ≃ Dev nD := ⟨xn, xn, xn_xn, xn_xn⟩

/-- The printed device chains: the first signal and all thirteen sends along y name `yn c`, the second signal and the
    twelve forwards name `xn c`. -/
theorem devY (c : Dev nD) (n : ℕ) (h : n < nD) (e : n = (2 * (c.val / 2) + 1) - (c.val % 2)) : (⟨n, h⟩ : Dev nD) = yn c := Fin.ext e
theorem devX (c : Dev nD) (n : ℕ) (h : n < nD) (e : n = ((c.val % 2) + 2) - 2 * (c.val / 2)) : (⟨n, h⟩ : Dev nD) = xn c := Fin.ext e

/-! ## The buffers and the cells -/

abbrev xM : Memref sig .tc .vmem S512x512 .f32 := Memref.whole cc0_stg0_0
abbrev oM : Memref sig .tc .vmem S1024x512 .f32 := Memref.whole cc0_stg1_0

abbrev barS : Sem sig := (SemArray.scalar (sig.barrier 0 rfl) : Sems sig S_).sem

/-- DMA semaphore number `n` (2 the local copy's; 3–15 the sends along y; 16–28 their receives; 29–40 the forwards
    along x; 41–52 their receives). -/
abbrev dsem (n : ℕ) (h : n < 53 := by decide) : DmaSem sig := ⟨n, h⟩

abbrev barCell (c : Dev nD) : GSem nD τ sig := ((c : Thread nD τ), .reg barS)
abbrev dcell (c : Dev nD) (n : ℕ) (h : n < 53 := by decide) : GSem nD τ sig := ((c : Thread nD τ), .dma (dsem n h))

/-- The number of a semaphore location among the DMA semaphores, `none` for a regular semaphore. -/
def dnum : SemLoc sig → Option ℕ
  | .dma q => some q.val
  | .reg _ => none

/-! ## The chunks -/

/-- Rows of chunk `k` (the thirteenth, of 80 rows, only along y). -/
def clen (k : ℕ) : ℕ := if k < 2 then 32 else if k < 5 then 24 else if k < 8 then 16 else if k < 12 then 8 else 80
/-- First row of chunk `k` inside the forwarded range. -/
def coff (k : ℕ) : ℕ := if k < 2 then 32 * k else if k < 5 then 64 + 24 * (k - 2) else if k < 8 then 136 + 16 * (k - 5) else 184 + 8 * (k - 8)
/-- The sizes of chunk `k` as the printed slices spell them. -/
def csz (k : ℕ) : Fin 2 → ℕ := if k < 2 then S32x512.size else if k < 5 then S24x512.size else if k < 8 then S16x512.size else if k < 12 then S8x512.size else S80x512.size

/-- First row, in the sender's own block, of the chunk `k` it sends along y. -/
def ysrc (c : Dev nD) (k : ℕ) : ℕ := if k < 12 then 296 * (c.val / 2) + coff k else 216
/-- First row, in the RECEIVER's result, of the chunk `k` device `c` sends along y: the same row of the block `c` holds. -/
def ydst (c : Dev nD) (k : ℕ) : ℕ := 512 * (c.val % 2) + ysrc c k
/-- First row, in its own result and in the receiver's, of the chunk `j` device `c` forwards along x. -/
def xrow (c : Dev nD) (j : ℕ) : ℕ := 512 * (1 - c.val % 2) + 296 * (c.val / 2) + coff j

/-- The credit a transfer into a row range of the result buffer with sizes `sz` brings. -/
def crd (sz : Fin 2 → ℕ) : ℕ := sig.dmaCredit .tc (Kind.table .tc .vmem) (oM : Memref sig .tc .vmem S1024x512 .f32).view.buf ⟨2, sz⟩ .f32

theorem crd_pos (k : ℕ) : 0 < crd (csz k) := by
  unfold crd
  refine sig.dmaCredit_pos _ _ _ _ _ ?_
  unfold csz; (repeat' split) <;> decide

/-- The credit of a DMA cell by its number: the copy of the whole block; the chunk's for the rest. -/
def amt (n : ℕ) : ℕ :=
  if n = 2 then crd S512x512.size else if n < 16 then crd (csz (n - 3)) else if n < 29 then crd (csz (n - 16))
  else if n < 41 then crd (csz (n - 29)) else crd (csz (n - 41))

theorem amt_pos (n : ℕ) : 0 < amt n := by
  unfold amt
  split
  · unfold crd; exact sig.dmaCredit_pos _ _ _ _ _ (by decide)
  · (repeat' split) <;> exact crd_pos _

/-! ## Contents -/

/-- Device `c`'s block, as its staging buffer holds it during the body. -/
def xstg (c : Dev nD) : (cc0_stg0_0 : Ref sig .tc).ty.Contents (Elt F) :=
  (win0_0.blk (0 : Fin 1)).view.read (Elt F) ((s₀ m ρ).mem ((c : Thread nD τ).loc main_arg0))

/-- Row `r % 512`, same column: the place inside a block of a place of the result. -/
def lowIdx (i : S1024x512.Idx) : S512x512.Idx := fun a =>
  match a with
  | ⟨0, _⟩ => (⟨(i 0).val % 512, Nat.mod_lt _ (by decide)⟩ : Fin 512)
  | ⟨1, _⟩ => (⟨(i 1).val, (i 1).isLt⟩ : Fin 512)

/-- Whether row `r` of the missing block reaches device `c` straight from its y-neighbour (else it is forwarded). -/
def fromY (c : Dev nD) (r : ℕ) : Prop := if c.val / 2 = 0 then r < 296 else 216 ≤ r
instance (c : Dev nD) (r : ℕ) : Decidable (fromY c r) := by unfold fromY; infer_instance

/-- What device `c`'s result holds at the end: its own block in place; the missing block from `yn c` on the rows sent
    straight, from the diagonal device on the forwarded rows. -/
def gath (c : Dev nD) : (cc0_stg1_0 : Ref sig .tc).ty.Contents (Elt F) := fun i =>
  if (i 0).val / 512 = c.val % 2 then xstg m ρ c (lowIdx i)
  else if fromY c ((i 0).val % 512) then xstg m ρ (yn c) (lowIdx i) else xstg m ρ (dg c) (lowIdx i)

/-! ## Row ranges held -/

/-- Rows `[a, a + l)` of `c`'s result buffer, held outright at contents `f`. -/
def oPts (c : Dev nD) (a l : ℕ) (f : (cc0_stg1_0 : Ref sig .tc).ty.Contents (Elt F)) : sProp 𝕄 :=
  (((c : Thread nD τ).loc cc0_stg1_0) ↦[rows 1024 a l]{fullShare} f)
/-- Rows `[a, a + l)` of `c`'s block buffer at its contents, at share `q`. -/
def xPts (c : Dev nD) (a l : ℕ) (q : PosShare TreeShare) : sProp 𝕄 :=
  (((c : Thread nD τ).loc cc0_stg0_0) ↦[rows 512 a l]{q} xstg m ρ c)

omit [FloatOps F] in
instance oPts_storable (c : Dev nD) (a l : ℕ) (f) : BI.Storable (upEmb : UEmb _ 𝕄) (oPts (F := F) c a l f) := by unfold oPts; infer_instance
omit [FloatOps F] in
instance xPts_storable (c : Dev nD) (a l : ℕ) (q) : BI.Storable (upEmb : UEmb _ 𝕄) (xPts (F := F) m ρ c a l q) := by unfold xPts; infer_instance

/-- The chunk numbers, in program order. -/
abbrev ks13 : List ℕ := [0, 1, 2, 3, 4, 5, 6, 7, 8, 9, 10, 11, 12]
abbrev ks12 : List ℕ := [0, 1, 2, 3, 4, 5, 6, 7, 8, 9, 10, 11]

/-- The thirteen row ranges of `yn c`'s result that `c` writes along y, at whatever they hold. -/
def landY (c : Dev nD) : sProp 𝕄 := bigSep (Finset.range 13) fun k => iprop(∃ f, oPts (yn c) (ydst c k) (clen k) f)
/-- The twelve row ranges of `xn c`'s result that `c` writes along x. -/
def landX (c : Dev nD) : sProp 𝕄 := bigSep (Finset.range 12) fun j => iprop(∃ f, oPts (xn c) (xrow c j) (clen j) f)

omit [FloatOps F] in
instance landY_storable (c : Dev nD) : BI.Storable (upEmb : UEmb _ 𝕄) (landY (F := F) c) := by unfold landY; infer_instance
omit [FloatOps F] in
instance landX_storable (c : Dev nD) : BI.Storable (upEmb : UEmb _ 𝕄) (landX (F := F) c) := by unfold landX; infer_instance

/-! ## The schedule -/

/-- The payload of DMA cell number `n` of device `c`. -/
def dpay (c : Dev nD) (n : ℕ) : sProp 𝕄 :=
  if n = 2 then iprop(oPts c (512 * (c.val % 2)) 512 (gath m ρ c) ∗ xPts m ρ c 0 512 fullShare.left)
  else if n < 16 then xPts m ρ c (ysrc c (n - 3)) (clen (n - 3)) fullShare.right
  else if n < 29 then oPts c (ydst (yn c) (n - 16)) (clen (n - 16)) (gath m ρ c)
  else if n < 41 then oPts c (xrow c (n - 29)) (clen (n - 29)) (gath m ρ c)
  else oPts c (xrow (xn c) (n - 41)) (clen (n - 41)) (gath m ρ c)

omit [FloatOps F] in
instance dpay_storable (c : Dev nD) (n : ℕ) : BI.Storable (upEmb : UEmb _ 𝕄) (dpay (F := F) m ρ c n) := by
  unfold dpay; (repeat' split) <;> infer_instance

abbrev IsBar (g : GSem nD τ sig) : Prop := g.1.2 = .tc ∧ g.2 = .reg barS
/-- One of the protocol's DMA cells: on a TensorCore, numbered 2 or more (0 and 1 are the pipeline's staging semaphores). -/
abbrev IsD (g : GSem nD τ sig) : Prop := g.1.2 = .tc ∧ ∃ n, dnum g.2 = some n ∧ 2 ≤ n

instance (g : GSem nD τ sig) : Decidable (IsD g) := by
  unfold IsD
  cases h : dnum g.2 with
  | none => exact isFalse (fun ⟨_, n, hn, _⟩ => by cases hn)
  | some k =>
    by_cases h2 : g.1.2 = .tc ∧ 2 ≤ k
    · exact isTrue ⟨h2.1, k, rfl, h2.2⟩
    · exact isFalse (fun ⟨h1, n, hn, hk⟩ => h2 ⟨h1, by cases hn; exact hk⟩)

/-- One round: a barrier cell has the duties `false` (from `yn`) and `true` (from `xn`) of one unit; a DMA cell the
    duty `false` of its transfer's credit. -/
def agRd : Rounds.Schedule (GSem nD τ sig) Bool 𝕄 where
  duties g r := if r = 0 ∧ IsBar g then Finset.univ else if r = 0 ∧ IsD g then {false} else ∅
  unitless _ := False
  amount g _ _ := match dnum g.2 with | none => 1 | some n => amt n
  payload g _ d :=
    match dnum g.2 with
    | none => if d then landX g.1.1 else landY g.1.1
    | some n => dpay m ρ g.1.1 n
  amount_pos g _ _ _ := by
    cases h : dnum g.2 with
    | none => simp only; exact Nat.one_pos
    | some n => simp only; exact amt_pos n

instance agRd_payload_storable (g : GSem nD τ sig) (r : ℕ) (d : Bool) :
    BI.Storable (upEmb : UEmb _ 𝕄) ((agRd (F := F) m ρ).payload g r d) := by
  show BI.Storable upEmb (match dnum g.2 with
    | none => if d then landX g.1.1 else landY g.1.1
    | some n => dpay m ρ g.1.1 n)
  cases dnum g.2 with
  | none => simp only; split <;> infer_instance
  | some n => simp only; infer_instance

section Sched
variable (c : Dev nD)

omit [FloatOps F] in
theorem duties_bar : (agRd (F := F) m ρ).duties (barCell c) 0 = Finset.univ := by dsimp only [agRd]; exact if_pos ⟨rfl, rfl, rfl⟩
omit [FloatOps F] in
theorem not_bar_d (n : ℕ) (h : n < 53) : ¬ IsBar (dcell c n h) := fun hb => by cases hb.2
omit [FloatOps F] in
theorem isD_d (n : ℕ) (h : n < 53) (h2 : 2 ≤ n) : IsD (dcell c n h) := ⟨rfl, n, rfl, h2⟩
omit [FloatOps F] in
theorem duties_d (n : ℕ) (h : n < 53) (h2 : 2 ≤ n) : (agRd (F := F) m ρ).duties (dcell c n h) 0 = {false} := by
  dsimp only [agRd]; rw [if_neg (fun hh => not_bar_d c n h hh.2)]; exact if_pos ⟨rfl, isD_d c n h h2⟩
omit [FloatOps F] in
theorem duties_later (g : GSem nD τ sig) : ∀ r, 1 ≤ r → (agRd (F := F) m ρ).duties g r = ∅ :=
  fun r hr => by dsimp only [agRd]; rw [if_neg fun h => by omega, if_neg fun h => by omega]

omit [FloatOps F] in
theorem amount_bar (d : Bool) : (agRd (F := F) m ρ).amount (barCell c) 0 d = 1 := rfl
omit [FloatOps F] in
theorem amount_d (n : ℕ) (h : n < 53) (d : Bool) : (agRd (F := F) m ρ).amount (dcell c n h) 0 d = amt n := rfl

omit [FloatOps F] in
theorem expect_bar : (agRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_d (n : ℕ) (h : n < 53) (h2 : 2 ≤ n) : (agRd (F := F) m ρ).expect (dcell c n h) 0 = amt n := by
  unfold Schedule.expect Schedule.amountOf; rw [duties_d m ρ c n h h2, Finset.sum_singleton, amount_d]

omit [FloatOps F] in
theorem payload_bar_true : (agRd (F := F) m ρ).payload (barCell c) 0 true = landX c := rfl
omit [FloatOps F] in
theorem payload_bar_false : (agRd (F := F) m ρ).payload (barCell c) 0 false = landY c := rfl
omit [FloatOps F] in
theorem payload_d (n : ℕ) (h : n < 53) (d : Bool) : (agRd (F := F) m ρ).payload (dcell c n h) 0 d = dpay m ρ c n := rfl

omit [FloatOps F] in
/-- The whole round of the barrier cell: both neighbours' landing ranges. -/
theorem rest_bar : bigSep ((agRd (F := F) m ρ).duties (barCell c) 0 \ ∅) (fun d => (agRd (F := F) m ρ).payload (barCell c) 0 d) = iprop(landY c ∗ landX c) := by
  rw [Finset.sdiff_empty, duties_bar, bigSep_univ_eq_bigSepL [false, true] (by decide) (by decide), bigSepL_cons_cons, bigSepL_singleton,
    payload_bar_false, payload_bar_true]
  rfl
omit [FloatOps F] in
theorem rest_d (n : ℕ) (h : n < 53) (h2 : 2 ≤ n) :
    bigSep ((agRd (F := F) m ρ).duties (dcell c n h) 0 \ ∅) (fun d => (agRd (F := F) m ρ).payload (dcell c n h) 0 d) = dpay m ρ c n := by
  rw [Finset.sdiff_empty, duties_d m ρ c n h h2, bigSep_singleton, payload_d]

end Sched

/-! ## What each device owes at launch; the levels -/

/-- The credit of chunk `j` owed to the x-neighbour's receive cell. -/
def TX (c : Dev nD) (j : ℕ) : CellTallies nD τ sig Unit := if h : 41 + j < 53 then tallyAt (dcell (xn c) (41 + j) h) () (crd (csz j)) else 0
/-- The credit of chunk `k` owed to the y-neighbour's receive cell. -/
def TY (c : Dev nD) (k : ℕ) : CellTallies nD τ sig Unit := if h : 16 + k < 53 then tallyAt (dcell (yn c) (16 + k) h) () (crd (csz k)) else 0

/-- What is still owed along x when `n` forwards remain: summed so that the next forward peels the last summand. -/
def OX (c : Dev nD) : ℕ → CellTallies nD τ sig Unit
  | 0 => 0
  | n + 1 => OX c n + TX c (11 - n)
/-- What is still owed when `n` sends along y remain (all twelve forwards still to come). -/
def OY (c : Dev nD) : ℕ → CellTallies nD τ sig Unit
  | 0 => OX c 12
  | n + 1 => OY c n + TY c (12 - n)

/-- After the first signal. -/
def O₁ (c : Dev nD) : CellTallies nD τ sig Unit := OY c 13 + tallyAt (barCell (xn c)) () 1
/-- At launch. -/
def O₀ (c : Dev nD) : CellTallies nD τ sig Unit := O₁ c + tallyAt (barCell (yn c)) () 1

def L (g : GSem nD τ sig) : Finset Unit := if g.1.2 = .tc then {()} else ∅
/-- Barrier cells at 1, receive cells along y at 2, receive cells along x at 3, everything else at 0. -/
def lv (g : GSem nD τ sig) (_ : Unit) : ℕ :=
  match dnum g.2 with
  | none => 1
  | some n => if 16 ≤ n ∧ n < 29 then 2 else if 41 ≤ n then 3 else 0

theorem L_of_ne (g : GSem nD τ sig) (h : g.1.2 ≠ .tc) : L g = ∅ := if_neg h
theorem L_tc (c : Dev nD) (sm : SemLoc sig) : L ((c : Thread nD τ), sm) = {()} := if_pos rfl

/-- A tally all of whose positive entries are at TensorCore cells of level above `b`. -/
def Above (b : ℕ) (O : CellTallies nD τ sig Unit) : Prop := ∀ g u, 0 < O g u → g.1.2 = .tc ∧ b < lv g u

theorem above_zero (b : ℕ) : Above b (0 : CellTallies nD τ sig Unit) := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  rcases Nat.pos_of_ne_zero (fun h0 => by omega) |> fun (_ : 0 < O g u + O' g u) => (Nat.add_pos_iff_pos_or_pos.mp hg) with h1 | h1
  · exact h g u h1
  · exact h' g u h1
theorem above_tallyAt {b : ℕ} (c : Dev nD) (sm : SemLoc sig) (k : ℕ) (h : b < lv ((c : Thread nD τ), sm) ()) :
    Above b (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem above_TX (c : Dev nD) (j : ℕ) : Above 2 (TX c j) := by
  unfold TX; split
  · exact above_tallyAt _ _ _ (by show 2 < (if 16 ≤ 41 + j ∧ 41 + j < 29 then 2 else if 41 ≤ 41 + j then 3 else 0); rw [if_neg (by omega), if_pos (by omega)]; decide)
  · exact above_zero _
theorem above_TY (c : Dev nD) (k : ℕ) (hk : k < 13) : Above 1 (TY c k) := by
  unfold TY; split
  · exact above_tallyAt _ _ _ (by show 1 < (if 16 ≤ 16 + k ∧ 16 + k < 29 then 2 else if 41 ≤ 16 + k then 3 else 0); rw [if_pos (by omega)]; decide)
  · exact above_zero _
theorem above_OX (c : Dev nD) : ∀ n, Above 2 (OX c n)
  | 0 => above_zero _
  | n + 1 => above_add (above_OX c n) (above_TX c _)
theorem above_mono {b b' : ℕ} (hb : b ≤ b') {O : CellTallies nD τ sig Unit} (h : Above b' O) : Above b O :=
  fun g u hg => ⟨(h g u hg).1, lt_of_le_of_lt hb (h g u hg).2⟩
theorem above_OY (c : Dev nD) : ∀ n, n ≤ 13 → Above 1 (OY c n)
  | 0, _ => above_mono (by decide) (above_OX c 12)
  | n + 1, h => above_add (above_OY c n (by omega)) (above_TY c _ (by omega))
theorem above_O₀ (c : Dev nD) : Above 0 (O₀ c) :=
  above_add (above_add (above_mono (by decide) (above_OY c 13 (le_refl _))) (above_tallyAt _ _ _ (show 0 < 1 by decide))) (above_tallyAt _ _ _ (show 0 < 1 by decide))

omit [FloatOps F] in
/-- A wait on a cell of level at most `b` while everything still owed sits above `b`. -/
theorem mayWait_above (c : Dev nD) (sm : SemLoc sig) (b : ℕ) (hb : lv ((c : Thread nD τ), sm) () ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by
      have := (hO g u hg).1
      obtain ⟨⟨d, pk⟩, s⟩ := g
      simp only at this; subst this
      rw [show L ((d, Proc.tc), s) = {()} from if_pos rfl]; exact Finset.mem_singleton_self _)
    (fun p hp => by rw [Finset.mem_singleton.mp hp]; exact hb)
    (fun g u hg => (hO g u hg).2)

/-! ## The ghost state a device's body starts from -/

/-- DMA cell number `n` of device `c` (total in `n`; past the last it is the barrier cell, never used). -/
def dcN (c : Dev nD) (n : ℕ) : GSem nD τ sig := if h : n < 53 then dcell c n h else barCell c
theorem dcN_lt (c : Dev nD) (n : ℕ) (h : n < 53) : dcN c n = dcell c n h := dif_pos h

/-- The protocol's fifty-two cells of a device: its barrier cell, then its DMA cells 2 … 52. -/
def kcell (ck : Dev nD × Fin 52) : GSem nD τ sig := if ck.2.val = 0 then barCell ck.1 else dcN ck.1 (ck.2.val + 1)

/-- The cell whose single duty device `c` pays with its DMA number `n`: its own copy and send cells, its neighbours'
    receive cells. -/
def payCell (c : Dev nD) (n : ℕ) : GSem nD τ sig :=
  if n < 16 then dcN c n else if n < 29 then dcN (yn c) n else if n < 41 then dcN c n else dcN (xn c) n

/-- Every cell's invariant, under the names the launch allocated them at, and that every cell is at round 0. -/
def records (K : Dev nD × Fin 52 → ℕ) : sProp 𝕄 :=
  iprop((bigSep Finset.univ fun ck : Dev nD × Fin 52 => cellInv ER (agRd m ρ) (K ck) (kcell ck))
    ∗ bigSep Finset.univ fun ck : Dev nD × Fin 52 => reached ER (kcell ck) 0)

instance records_persistent (K : Dev nD × Fin 52 → ℕ) : BI.Persistent (records m ρ K) := by unfold records; infer_instance

/-- What stays with device `c`: its positions in its own cells, and the tokens of the duties IT pays. -/
def linear (c : Dev nD) : sProp 𝕄 :=
  iprop(atPos ER (barCell c) 0 ∅ 0 ∗ (bigSep (Finset.range 51) fun i => atPos ER (dcN c (i + 2)) 0 ∅ 0)
    ∗ dutyTok ER (barCell (yn c)) 0 false ∗ dutyTok ER (barCell (xn c)) 0 true
    ∗ bigSep (Finset.range 51) fun i => dutyTok ER (payCell c (i + 2)) 0 false)

def ghost (K : Dev nD × Fin 52 → ℕ) (c : Dev nD) : sProp 𝕄 := iprop(records m ρ K ∗ linear c)

/-- The credit a device is dealt at launch for what the others owe its cells: two barrier units, the thirteen chunks it
    receives along y, the twelve along x. -/
def creds (c : Dev nD) : sProp 𝕄 :=
  iprop(cred (tallyAt (barCell c) () 2) ∗ (bigSep (Finset.range 13) fun k => cred (tallyAt (dcN c (16 + k)) () (amt (16 + k))))
    ∗ bigSep (Finset.range 12) fun j => cred (tallyAt (dcN c (41 + j)) () (amt (41 + j))))

def start (c : Dev nD) : sProp 𝕄 := iprop((∃ K, ghost m ρ K c) ∗ creds c ∗ levAts L lv)

def Φ₀ (c : Dev nD) : sProp 𝕄 := start m ρ c
/-- After the body: the fifty-one own DMA cells at zero, closed. -/
def Φ₁ (c : Dev nD) : sProp 𝕄 := bigSep (Finset.range 51) fun i => semVal (dcN c (i + 2)) 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (gath m ρ c))

end Cert.Kernel.AG

end
-- ==== Proof.KSteps.lean ====
/-
  The rules of the protocol's steps at this schedule: one transfer along y, one forward along x, the local copy, a wait on a
  DMA cell, a cell's closing — each stated once, for a symbolic device and chunk.
-/
import proofs.«900105_g7700000000000106_dist_ag_v7x_xy2x2_y_m512_n512_f32_1_alg».proof.Proof.KProto

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed offsets, in the protocol's words -/

section Offs
theorem k0_off3_row (c : Dev nD) (r : Fin 2) : k0_off3 c (BitVec.ofNat 32 (32 * r.val)) 0 = ysrc c r.val := by
  rw [k0_off3_eq]; revert c r; decide
theorem k0_off3_col (c : Dev nD) (r : Fin 2) : k0_off3 c (BitVec.ofNat 32 (32 * r.val)) 1 = 0 := by
  rw [k0_off3_eq]; rfl
theorem k0_off5_row (c : Dev nD) (r : Fin 3) : k0_off5 c (BitVec.ofNat 32 (64 + 24 * r.val)) 0 = ysrc c (2 + r.val) := by
  rw [k0_off5_eq]; revert c r; decide
theorem k0_off5_col (c : Dev nD) (r : Fin 3) : k0_off5 c (BitVec.ofNat 32 (64 + 24 * r.val)) 1 = 0 := by
  rw [k0_off5_eq]; rfl
theorem k0_off7_row (c : Dev nD) (r : Fin 3) : k0_off7 c (BitVec.ofNat 32 (136 + 16 * r.val)) 0 = ysrc c (5 + r.val) := by
  rw [k0_off7_eq]; revert c r; decide
theorem k0_off7_col (c : Dev nD) (r : Fin 3) : k0_off7 c (BitVec.ofNat 32 (136 + 16 * r.val)) 1 = 0 := by
  rw [k0_off7_eq]; rfl
theorem k0_off9_row (c : Dev nD) (r : Fin 4) : k0_off9 c (BitVec.ofNat 32 (184 + 8 * r.val)) 0 = ysrc c (8 + r.val) := by
  rw [k0_off9_eq]; revert c r; decide
theorem k0_off9_col (c : Dev nD) (r : Fin 4) : k0_off9 c (BitVec.ofNat 32 (184 + 8 * r.val)) 1 = 0 := by
  rw [k0_off9_eq]; rfl
theorem k0_off2_row (c : Dev nD) (r : Fin 2) : k0_off2 c (BitVec.ofNat 32 (32 * r.val)) 0 = ydst c r.val := by
  rw [k0_off2_eq]; revert c r; decide
theorem k0_off2_col (c : Dev nD) (r : Fin 2) : k0_off2 c (BitVec.ofNat 32 (32 * r.val)) 1 = 0 := by
  rw [k0_off2_eq]; rfl
theorem k0_off4_row (c : Dev nD) (r : Fin 3) : k0_off4 c (BitVec.ofNat 32 (64 + 24 * r.val)) 0 = ydst c (2 + r.val) := by
  rw [k0_off4_eq]; revert c r; decide
theorem k0_off4_col (c : Dev nD) (r : Fin 3) : k0_off4 c (BitVec.ofNat 32 (64 + 24 * r.val)) 1 = 0 := by
  rw [k0_off4_eq]; rfl
theorem k0_off6_row (c : Dev nD) (r : Fin 3) : k0_off6 c (BitVec.ofNat 32 (136 + 16 * r.val)) 0 = ydst c (5 + r.val) := by
  rw [k0_off6_eq]; revert c r; decide
theorem k0_off6_col (c : Dev nD) (r : Fin 3) : k0_off6 c (BitVec.ofNat 32 (136 + 16 * r.val)) 1 = 0 := by
  rw [k0_off6_eq]; rfl
theorem k0_off8_row (c : Dev nD) (r : Fin 4) : k0_off8 c (BitVec.ofNat 32 (184 + 8 * r.val)) 0 = ydst c (8 + r.val) := by
  rw [k0_off8_eq]; revert c r; decide
theorem k0_off8_col (c : Dev nD) (r : Fin 4) : k0_off8 c (BitVec.ofNat 32 (184 + 8 * r.val)) 1 = 0 := by
  rw [k0_off8_eq]; rfl
theorem k0_off11_row (c : Dev nD) (r : Fin 2) : k0_off11 c (BitVec.ofNat 32 (32 * r.val)) 0 = xrow c r.val := by
  rw [k0_off11_eq]; revert c r; decide
theorem k0_off11_col (c : Dev nD) (r : Fin 2) : k0_off11 c (BitVec.ofNat 32 (32 * r.val)) 1 = 0 := by
  rw [k0_off11_eq]; rfl
theorem k0_off12_row (c : Dev nD) (r : Fin 3) : k0_off12 c (BitVec.ofNat 32 (64 + 24 * r.val)) 0 = xrow c (2 + r.val) := by
  rw [k0_off12_eq]; revert c r; decide
theorem k0_off12_col (c : Dev nD) (r : Fin 3) : k0_off12 c (BitVec.ofNat 32 (64 + 24 * r.val)) 1 = 0 := by
  rw [k0_off12_eq]; rfl
theorem k0_off13_row (c : Dev nD) (r : Fin 3) : k0_off13 c (BitVec.ofNat 32 (136 + 16 * r.val)) 0 = xrow c (5 + r.val) := by
  rw [k0_off13_eq]; revert c r; decide
theorem k0_off13_col (c : Dev nD) (r : Fin 3) : k0_off13 c (BitVec.ofNat 32 (136 + 16 * r.val)) 1 = 0 := by
  rw [k0_off13_eq]; rfl
theorem k0_off14_row (c : Dev nD) (r : Fin 4) : k0_off14 c (BitVec.ofNat 32 (184 + 8 * r.val)) 0 = xrow c (8 + r.val) := by
  rw [k0_off14_eq]; revert c r; decide
theorem k0_off14_col (c : Dev nD) (r : Fin 4) : k0_off14 c (BitVec.ofNat 32 (184 + 8 * r.val)) 1 = 0 := by
  rw [k0_off14_eq]; rfl
theorem k0_off10_row (c : Dev nD) : k0_off10 c 0 = ydst c 12 := by rw [k0_off10_eq]; revert c; decide
theorem k0_off10_col (c : Dev nD) : k0_off10 c 1 = 0 := by rw [k0_off10_eq]; rfl
theorem k0_off1_row (c : Dev nD) : k0_off1 c 0 = 512 * (c.val % 2) := by rw [k0_off1_eq]; rfl
theorem k0_off1_col (c : Dev nD) : k0_off1 c 1 = 0 := by rw [k0_off1_eq]; rfl
end Offs

/-! ## The credits by cell number -/

theorem csz_eq (k : ℕ) : csz k = (SR (clen k)).size := by
  unfold csz clen
  by_cases h1 : k < 2
  · simp only [if_pos h1]
  by_cases h2 : k < 5
  · simp only [if_neg h1, if_pos h2]
  by_cases h3 : k < 8
  · simp only [if_neg h1, if_neg h2, if_pos h3]
  by_cases h4 : k < 12
  · simp only [if_neg h1, if_neg h2, if_neg h3, if_pos h4]
  · simp only [if_neg h1, if_neg h2, if_neg h3, if_neg h4]
theorem amt_ys (k : ℕ) (hk : k < 13) : amt (3 + k) = crd (SR (clen k)).size := by
  unfold amt; rw [if_neg (by omega), if_pos (by omega), show 3 + k - 3 = k by omega, csz_eq]
theorem amt_yr (k : ℕ) (hk : k < 13) : amt (16 + k) = crd (SR (clen k)).size := by
  unfold amt; rw [if_neg (by omega), if_neg (by omega), if_pos (by omega), show 16 + k - 16 = k by omega, csz_eq]
theorem amt_xs (j : ℕ) (hj : j < 12) : amt (29 + j) = crd (SR (clen j)).size := by
  unfold amt; rw [if_neg (by omega), if_neg (by omega), if_neg (by omega), if_pos (by omega), show 29 + j - 29 = j by omega, csz_eq]
theorem amt_xr (j : ℕ) (hj : j < 12) : amt (41 + j) = crd (SR (clen j)).size := by
  unfold amt; rw [if_neg (by omega), if_neg (by omega), if_neg (by omega), if_neg (by omega), show 41 + j - 41 = j by omega, csz_eq]
theorem amt_copy : amt 2 = crd (SR 512).size := by unfold amt; rw [if_pos rfl]

/-! ## A cell's invariant and round out of the records -/

theorem kcell_d (c : Dev nD) (n : ℕ) (h : n < 53) (h2 : 2 ≤ n) : kcell (c, (⟨n - 1, by omega⟩ : Fin 52)) = dcell c n h := by
  unfold kcell; rw [if_neg (by simp only; omega)]; simp only; rw [show n - 1 + 1 = n by omega]; exact dcN_lt c n h
theorem kcell_bar (c : Dev nD) : kcell (c, (0 : Fin 52)) = barCell c := by unfold kcell; exact if_pos rfl

omit [FloatOps F] in
theorem inv_at (K : Dev nD × Fin 52 → ℕ) (ck : Dev nD × Fin 52) : records m ρ K ⊢ cellInv ER (agRd m ρ) (K ck) (kcell ck) := by
  unfold records
  exact (show _ ⊢ (bigSep Finset.univ fun ck : Dev nD × Fin 52 => cellInv ER (agRd m ρ) (K ck) (kcell ck) : sProp 𝕄) from by iintro ⟨H, -⟩; iexact H).trans
    (bigSep_elim (Finset.mem_univ ck))
omit [FloatOps F] in
theorem reached_at (K : Dev nD × Fin 52 → ℕ) (ck : Dev nD × Fin 52) : records m ρ K ⊢ (reached ER (kcell ck) 0 : sProp 𝕄) := by
  unfold records
  exact (show _ ⊢ (bigSep Finset.univ fun ck : Dev nD × Fin 52 => reached ER (kcell ck) 0 : sProp 𝕄) from by iintro ⟨-, H⟩; iexact H).trans
    (bigSep_elim (Finset.mem_univ ck))

/-- The name the launch gave DMA cell `n` of `c`. -/
abbrev Kd (K : Dev nD × Fin 52 → ℕ) (c : Dev nD) (n : ℕ) (h : n < 53 := by omega) : ℕ := K (c, (⟨n - 1, by omega⟩ : Fin 52))

omit [FloatOps F] in
theorem inv_d (K : Dev nD × Fin 52 → ℕ) (c : Dev nD) (n : ℕ) (h : n < 53) (h2 : 2 ≤ n) :
    records m ρ K ⊢ cellInv ER (agRd m ρ) (Kd K c n h) (dcell c n h) := by
  have := inv_at m ρ K (c, (⟨n - 1, by omega⟩ : Fin 52)); rw [kcell_d c n h h2] at this; exact this
omit [FloatOps F] in
theorem reached_d (K : Dev nD × Fin 52 → ℕ) (c : Dev nD) (n : ℕ) (h : n < 53) (h2 : 2 ≤ n) :
    records m ρ K ⊢ (reached ER (dcell c n h) 0 : sProp 𝕄) := by
  have := reached_at m ρ K (c, (⟨n - 1, by omega⟩ : Fin 52)); rw [kcell_d c n h h2] at this; exact this
omit [FloatOps F] in
theorem inv_bar (K : Dev nD × Fin 52 → ℕ) (c : Dev nD) : records m ρ K ⊢ cellInv ER (agRd m ρ) (K (c, 0)) (barCell c) := by
  have := inv_at m ρ K (c, (0 : Fin 52)); rw [kcell_bar] at this; exact this
omit [FloatOps F] in
theorem reached_bar (K : Dev nD × Fin 52 → ℕ) (c : Dev nD) : records m ρ K ⊢ (reached ER (barCell c) 0 : sProp 𝕄) := by
  have := reached_at m ρ K (c, (0 : Fin 52)); rw [kcell_bar] at this; exact this

/-! ## The row range under a printed slice -/

omit [FloatOps F] in
theorem xslice_set {r : ℕ} (offs : Fin 2 → ℕ) (inbs : ∀ a, offs a + (SR r).size a ≤ (SR 512).size a) (hs1 : offs 1 = 0) :
    ((xM : Memref sig .tc .vmem S512x512 .f32).slice (Rect.unit (s := SR 512) offs (SR r).size inbs) (fun _ => rfl)).view.set = rows 512 (offs 0) r := by
  exact (View.set_slice_whole cc0_stg0_0 _).trans (unit_set_rows offs inbs hs1)
omit [FloatOps F] in
theorem oslice_set {κ : Kind} {r : ℕ} (offd : Fin 2 → ℕ) (inbd : ∀ a, offd a + (SR r).size a ≤ (SR 1024).size a) (hd1 : offd 1 = 0) :
    ((Memref.whole cc0_stg1_0 : Memref sig .tc .vmem S1024x512 .f32).slice (Rect.unit (s := SR 1024) offd (SR r).size inbd) (fun _ => rfl)).view.set = rows 1024 (offd 0) r := by
  exact (View.set_slice_whole cc0_stg1_0 _).trans (unit_set_rows offd inbd hd1)

omit [FloatOps F] in
/-- The credit of a transfer into a row slice of the result buffer. -/
theorem dmaCredit_oslice (r : ℕ) (offd : Fin 2 → ℕ) (inbd : ∀ a, offd a + (SR r).size a ≤ (SR 1024).size a) :
    ((Memref.whole cc0_stg1_0 : Memref sig .tc .vmem S1024x512 .f32).slice (Rect.unit (s := SR 1024) offd (SR r).size inbd) (fun _ => rfl)).view.dmaCredit
      = crd (SR r).size := rfl

omit [FloatOps F] in
/-- The credit of a transfer counted on a row slice of the block buffer: the same, the credit depends on shape and element type only. -/
theorem dmaCredit_xslice (r : ℕ) (offs : Fin 2 → ℕ) (inbs : ∀ a, offs a + (SR r).size a ≤ (SR 512).size a) :
    ((xM : Memref sig .tc .vmem S512x512 .f32).slice (Rect.unit (s := SR 512) offs (SR r).size inbs) (fun _ => rfl)).view.dmaCredit
      = crd (SR r).size := rfl

/-! ## One transfer along y -/

set_option maxHeartbeats 1600000 in
/-- Chunk `k` sent to the y-neighbour: the sender hands in the right half of the source rows, the destination rows of the
    neighbour's result (which it holds since the barrier), the two duty tokens, and pays the chunk's credit off what it owes;
    it gets credit on its send cell. -/
theorem wp_ysend (K : Dev nD × Fin 52 → ℕ) (c n : Dev nD) (hn : n = yn c) (k : ℕ) (hk : k < 13) (r : ℕ) (hr : r = clen k)
    {offs offd : Fin 2 → ℕ} {inbs : ∀ a, offs a + (SR r).size a ≤ (SR 512).size a} {inbd : ∀ a, offd a + (SR r).size a ≤ (SR 1024).size a}
    (hs0 : offs 0 = ysrc c k) (hs1 : offs 1 = 0) (hd0 : offd 0 = ydst c k) (hd1 : offd 1 = 0)
    (sS sR : DmaSem sig) (hsS : sS = dsem (3 + k) (by omega)) (hsR : sR = dsem (16 + k) (by omega))
    (hval : ∀ i ∈ rows 1024 (ydst c k) (clen k), gath m ρ (yn c) i = xstg m ρ c (shiftRow (ns := 512) (ydst c k) (ysrc c k) i))
    {hsc : ((Memref.whole cc0_stg1_0 : Memref sig (Dev.tc n : Thread nD τ).2.kind .vmem S1024x512 .f32).slice (Rect.unit (s := SR 1024) offd (SR r).size inbd) (fun _ => rfl)).view.ref.isScScratch = false}
    {hsrc : ((xM : Memref sig .tc .vmem S512x512 .f32).slice (Rect.unit (s := SR 512) offs (SR r).size inbs) (fun _ => rfl)).view.WordExact}
    {hdst : ((Memref.whole cc0_stg1_0 : Memref sig .tc .vmem S1024x512 .f32).slice (Rect.unit (s := SR 1024) offd (SR r).size inbd) (fun _ => rfl)).view.WordExact}
    {hsem : DmaTarget.Typed .vmem (.dma sR) (.remote (Dev.tc n : Thread nD τ) ((Memref.whole cc0_stg1_0 : Memref sig .tc .vmem S1024x512 .f32).slice (Rect.unit (s := SR 1024) offd (SR r).size inbd) (fun _ => rfl)) (.dma sS) hsc)}
    {α : Type} {Q : α → sProp 𝕄} {k' : PUnit → Prog (TpuEff nD τ sig (Elt F) Λ₀ .tc) α}
    (fd : (cc0_stg1_0 : Ref sig .tc).ty.Contents (Elt F)) (O : CellTallies nD τ sig Unit) (W : Waits sig Unit) :
    iprop(records m ρ K ∗ xPts m ρ c (ysrc c k) (clen k) fullShare.right ∗ oPts (yn c) (ydst c k) (clen k) fd
        ∗ owes (c : Thread nD τ) (O + TY c k) W
        ∗ dutyTok ER (dcell c (3 + k) (by omega)) 0 false ∗ dutyTok ER (dcell (yn c) (16 + k) (by omega)) 0 false)
      ⊢ iprop(((cred (tallyAt (dcell c (3 + k) (by omega)) () (crd (SR (clen k)).size)) ∗ owes (c : Thread nD τ) O W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma ((xM : Memref sig .tc .vmem S512x512 .f32).slice (Rect.unit (s := SR 512) offs (SR r).size inbs) (fun _ => rfl))
                (.remote (Dev.tc n : Thread nD τ) ((Memref.whole cc0_stg1_0 : Memref sig .tc .vmem S1024x512 .f32).slice (Rect.unit (s := SR 1024) offd (SR r).size inbd) (fun _ => rfl)) (.dma sS) hsc)
                (.dma sR) hsrc hdst hsem) k') Q) := by
  subst hn hsS hsR hr
  have h3 : 3 + k < 53 := by omega
  have h3' : 2 ≤ 3 + k := by omega
  have h16 : 16 + k < 53 := by omega
  have h16' : 2 ≤ 16 + k := by omega
  rw [show TY c k = tallyAt (dcell (yn c) (16 + k) (by omega)) () (crd (SR (clen k)).size) from by unfold TY; rw [dif_pos (by omega), csz_eq]]
  iintro ⟨#HR, Hsrc, Hdst, HO, Ht1, Ht2⟩
  iapply (Rounds.wp_send_pointsTo 𝒱₀ ER (agRd m ρ) (c : Thread nD τ) none (κ₁ := Kd K c (3 + k)) (κ₂ := Kd K (yn c) (16 + k))
      (r₁ := 0) (r₂ := 0) (d₁ := false) (d₂ := false) (q := fullShare.right) (fs := xstg m ρ c) (fd := fd)
      (by simp only [duties_d m ρ c (3 + k) h3 h3', Finset.mem_singleton])
      (by simp only [duties_d m ρ (yn c) (16 + k) h16 h16', Finset.mem_singleton])
      () () (crd (SR (clen k)).size) rfl ((amount_d m ρ c (3 + k) h3 false).trans (amt_ys k hk))
      ((amount_d m ρ (yn c) (16 + k) h16 false).trans (amt_yr k hk)) O
      rfl (W := W)
      (by
        rw [payload_d]; unfold dpay
        rw [if_neg (by omega), if_pos (by omega), show 3 + k - 3 = k by omega]
        unfold xPts; rw [xslice_set offs inbs hs1, hs0])
      (by
        rw [payload_d]; unfold dpay
        rw [if_neg (by omega), if_neg (by omega), if_pos (by omega), show 16 + k - 16 = k by omega, yn_yn]
        unfold oPts; rw [oslice_set (κ := .tc) offd inbd hd1, hd0]
        refine Entails.of_eq (pts_congr (ℓ := ((yn c : Dev nD) : Thread nD τ).loc cc0_stg1_0) fun i hi => ?_)
        rw [hval i hi, ← hd0, ← hs0]
        exact write_read_rows (ns := 512) (nd := 1024) (r := clen k) (View.whole cc0_stg0_0) (View.whole cc0_stg1_0) offs offd inbs inbd hs1 hd1
          (xstg m ρ c) fd (by rw [hd0]; exact hi))) $$ [Hsrc Hdst HO Ht1 Ht2]
  · unfold xPts oPts
    rw [xslice_set offs inbs hs1, hs0, oslice_set (κ := .tc) offd inbd hd1, hd0]
    isplitr; · iapply (inv_d m ρ K c (3 + k) h3 h3'); iexact HR
    isplitr; · iapply (inv_d m ρ K (yn c) (16 + k) h16 h16'); iexact HR
    isplitl [Hsrc]; · iexact Hsrc
    isplitl [Hdst]; · iexact Hdst
    isplitl [HO]; · iexact HO
    isplitl [Ht1]; · iexact Ht1
    isplitr; · iapply (reached_d m ρ K c (3 + k) h3 h3'); iexact HR
    isplitl [Ht2]; · iexact Ht2
    iapply (reached_d m ρ K (yn c) (16 + k) h16 h16'); iexact HR

/-! ## One forward along x -/

set_option maxHeartbeats 1600000 in
/-- Chunk `j`, received along y, forwarded to the x-neighbour from the sender's own result buffer to the same rows of the
    neighbour's: the sender hands in the source rows (at their final contents), the destination rows, the two duty tokens, and
    pays the chunk's credit off what it owes. -/
theorem wp_xsend (K : Dev nD × Fin 52 → ℕ) (c n : Dev nD) (hn : n = xn c) (k : ℕ) (hk : k < 12) (r : ℕ) (hr : r = clen k)
    {offs offd : Fin 2 → ℕ} {inbs : ∀ a, offs a + (SR r).size a ≤ (SR 1024).size a} {inbd : ∀ a, offd a + (SR r).size a ≤ (SR 1024).size a}
    (hs0 : offs 0 = xrow c k) (hs1 : offs 1 = 0) (hd0 : offd 0 = xrow c k) (hd1 : offd 1 = 0)
    (sS sR : DmaSem sig) (hsS : sS = dsem (29 + k) (by omega)) (hsR : sR = dsem (41 + k) (by omega))
    (hval : ∀ i ∈ rows 1024 (xrow c k) (clen k), gath m ρ (xn c) i = gath m ρ c (shiftRow (ns := 1024) (xrow c k) (xrow c k) i))
    {hsc : ((Memref.whole cc0_stg1_0 : Memref sig (Dev.tc n : Thread nD τ).2.kind .vmem S1024x512 .f32).slice (Rect.unit (s := SR 1024) offd (SR r).size inbd) (fun _ => rfl)).view.ref.isScScratch = false}
    {hsrc : ((Memref.whole cc0_stg1_0 : Memref sig .tc .vmem S1024x512 .f32).slice (Rect.unit (s := SR 1024) offs (SR r).size inbs) (fun _ => rfl)).view.WordExact}
    {hdst : ((Memref.whole cc0_stg1_0 : Memref sig .tc .vmem S1024x512 .f32).slice (Rect.unit (s := SR 1024) offd (SR r).size inbd) (fun _ => rfl)).view.WordExact}
    {hsem : DmaTarget.Typed .vmem (.dma sR) (.remote (Dev.tc n : Thread nD τ) ((Memref.whole cc0_stg1_0 : Memref sig .tc .vmem S1024x512 .f32).slice (Rect.unit (s := SR 1024) offd (SR r).size inbd) (fun _ => rfl)) (.dma sS) hsc)}
    {α : Type} {Q : α → sProp 𝕄} {k' : PUnit → Prog (TpuEff nD τ sig (Elt F) Λ₀ .tc) α}
    (fd : (cc0_stg1_0 : Ref sig .tc).ty.Contents (Elt F)) (O : CellTallies nD τ sig Unit) (W : Waits sig Unit) :
    iprop(records m ρ K ∗ oPts c (xrow c k) (clen k) (gath m ρ c) ∗ oPts (xn c) (xrow c k) (clen k) fd
        ∗ owes (c : Thread nD τ) (O + TX c k) W
        ∗ dutyTok ER (dcell c (29 + k) (by omega)) 0 false ∗ dutyTok ER (dcell (xn c) (41 + k) (by omega)) 0 false)
      ⊢ iprop(((cred (tallyAt (dcell c (29 + k) (by omega)) () (crd (SR (clen k)).size)) ∗ owes (c : Thread nD τ) O W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma ((Memref.whole cc0_stg1_0 : Memref sig .tc .vmem S1024x512 .f32).slice (Rect.unit (s := SR 1024) offs (SR r).size inbs) (fun _ => rfl))
                (.remote (Dev.tc n : Thread nD τ) ((Memref.whole cc0_stg1_0 : Memref sig .tc .vmem S1024x512 .f32).slice (Rect.unit (s := SR 1024) offd (SR r).size inbd) (fun _ => rfl)) (.dma sS) hsc)
                (.dma sR) hsrc hdst hsem) k') Q) := by
  subst hn hsS hsR hr
  have h3 : 29 + k < 53 := by omega
  have h3' : 2 ≤ 29 + k := by omega
  have h16 : 41 + k < 53 := by omega
  have h16' : 2 ≤ 41 + k := by omega
  rw [show TX c k = tallyAt (dcell (xn c) (41 + k) (by omega)) () (crd (SR (clen k)).size) from by unfold TX; rw [dif_pos (by omega), csz_eq]]
  iintro ⟨#HR, Hsrc, Hdst, HO, Ht1, Ht2⟩
  iapply (Rounds.wp_send_pointsTo 𝒱₀ ER (agRd m ρ) (c : Thread nD τ) none (κ₁ := Kd K c (29 + k)) (κ₂ := Kd K (xn c) (41 + k))
      (r₁ := 0) (r₂ := 0) (d₁ := false) (d₂ := false) (q := fullShare) (fs := gath m ρ c) (fd := fd)
      (by simp only [duties_d m ρ c (29 + k) h3 h3', Finset.mem_singleton])
      (by simp only [duties_d m ρ (xn c) (41 + k) h16 h16', Finset.mem_singleton])
      () () (crd (SR (clen k)).size) rfl ((amount_d m ρ c (29 + k) h3 false).trans (amt_xs k hk))
      ((amount_d m ρ (xn c) (41 + k) h16 false).trans (amt_xr k hk)) O
      rfl (W := W)
      (by
        rw [payload_d]; unfold dpay
        rw [if_neg (by omega), if_neg (by omega), if_neg (by omega), if_pos (by omega), show 29 + k - 29 = k by omega]
        unfold oPts; rw [oslice_set (κ := .tc) offs inbs hs1, hs0])
      (by
        rw [payload_d]; unfold dpay
        rw [if_neg (by omega), if_neg (by omega), if_neg (by omega), if_neg (by omega), show 41 + k - 41 = k by omega, xn_xn]
        unfold oPts; rw [oslice_set (κ := .tc) offd inbd hd1, hd0]
        refine Entails.of_eq (pts_congr (ℓ := ((xn c : Dev nD) : Thread nD τ).loc cc0_stg1_0) fun i hi => ?_)
        rw [hval i hi]
        have hw := write_read_rows (ns := 1024) (nd := 1024) (r := clen k) (View.whole cc0_stg1_0) (View.whole cc0_stg1_0) offs offd inbs inbd hs1 hd1
          (gath m ρ c) fd (i := i) (by rw [hd0]; exact hi)
        rw [hd0, hs0] at hw
        exact hw)) $$ [Hsrc Hdst HO Ht1 Ht2]
  · unfold oPts
    rw [oslice_set (κ := .tc) offs inbs hs1, hs0, oslice_set (κ := .tc) offd inbd hd1, hd0]
    isplitr; · iapply (inv_d m ρ K c (29 + k) h3 h3'); iexact HR
    isplitr; · iapply (inv_d m ρ K (xn c) (41 + k) h16 h16'); iexact HR
    isplitl [Hsrc]; · iexact Hsrc
    isplitl [Hdst]; · iexact Hdst
    isplitl [HO]; · iexact HO
    isplitl [Ht1]; · iexact Ht1
    isplitr; · iapply (reached_d m ρ K c (29 + k) h3 h3'); iexact HR
    isplitl [Ht2]; · iexact Ht2
    iapply (reached_d m ρ K (xn c) (41 + k) h16 h16'); iexact HR

/-! ## The local copy -/

set_option maxHeartbeats 1600000 in
/-- The copy of the device's own block into its rows of the result: it takes the left half of the block buffer and the
    destination rows, and pays the one duty of the copy's cell. -/
theorem wp_copy0 (K : Dev nD × Fin 52 → ℕ) (c : Dev nD)
    {offd : Fin 2 → ℕ} {inbd : ∀ a, offd a + (SR 512).size a ≤ (SR 1024).size a}
    (hd0 : offd 0 = 512 * (c.val % 2)) (hd1 : offd 1 = 0)
    (sC : DmaSem sig) (hsC : sC = dsem 2)
    (fd : (cc0_stg1_0 : Ref sig .tc).ty.Contents (Elt F))
    (hval : ∀ i ∈ rows 1024 (512 * (c.val % 2)) 512,
      (((Memref.whole cc0_stg1_0 : Memref sig .tc .vmem S1024x512 .f32).slice (Rect.unit (s := SR 1024) offd (SR 512).size inbd) (fun _ => rfl)).view.write (Elt F) fd
        ((xM : Memref sig .tc .vmem S512x512 .f32).view.read (Elt F) (xstg m ρ c)) Finset.univ) i = gath m ρ c i)
    {hsrc : (xM : Memref sig .tc .vmem S512x512 .f32).view.WordExact}
    {hdst : ((Memref.whole cc0_stg1_0 : Memref sig .tc .vmem S1024x512 .f32).slice (Rect.unit (s := SR 1024) offd (SR 512).size inbd) (fun _ => rfl)).view.WordExact}
    {hsem : DmaTarget.Typed (nD := nD) .vmem (.dma sC) (DmaTarget.here (τ := τ) (p := Proc.tc) ((Memref.whole cc0_stg1_0 : Memref sig .tc .vmem S1024x512 .f32).slice (Rect.unit (s := SR 1024) offd (SR 512).size inbd) (fun _ => rfl)))}
    {α : Type} {Q : α → sProp 𝕄} {k' : PUnit → Prog (TpuEff nD τ sig (Elt F) Λ₀ .tc) α} :
    iprop(records m ρ K ∗ xPts m ρ c 0 512 fullShare.left ∗ oPts c (512 * (c.val % 2)) 512 fd ∗ dutyTok ER (dcell c 2) 0 false)
      ⊢ iprop((cred (tallyAt (dcell c 2) () (amt 2)) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (xM : Memref sig .tc .vmem S512x512 .f32)
                (.here ((Memref.whole cc0_stg1_0 : Memref sig .tc .vmem S1024x512 .f32).slice (Rect.unit (s := SR 1024) offd (SR 512).size inbd) (fun _ => rfl)))
                (.dma sC) hsrc hdst hsem) k') Q) := by
  subst hsC
  have hxs : (xM : Memref sig .tc .vmem S512x512 .f32).view.set = rows 512 0 512 := by
    exact (View.set_whole cc0_stg0_0).trans rows_all.symm
  iintro ⟨#HR, Hsrc, Hdst, Ht⟩
  iapply (Rounds.wp_copy_pointsTo 𝒱₀ ER (agRd m ρ) (c : Thread nD τ) none (κ := Kd K c 2) (r := 0) (d := false)
      (q := fullShare.left) (fs := xstg m ρ c) (fd := fd)
      (by simp only [duties_d m ρ c 2 (by decide) (by decide), Finset.mem_singleton])
      () (amt 2) (by exact amt_copy.symm) (amount_d m ρ c 2 _ false)
      (by
        rw [payload_d]; unfold dpay
        rw [if_pos rfl]
        unfold oPts xPts; rw [oslice_set (κ := .tc) offd inbd hd1, hd0, hxs]
        refine sep_mono_left (Entails.of_eq (pts_congr (ℓ := ((c : Dev nD) : Thread nD τ).loc cc0_stg1_0) fun i hi => hval i hi)))) $$ [Hsrc Hdst Ht]
  · unfold xPts oPts
    rw [oslice_set (κ := .tc) offd inbd hd1, hd0, hxs]
    isplitr; · iapply (inv_d m ρ K c 2 _ (by decide)); iexact HR
    isplitl [Hsrc]; · iexact Hsrc
    isplitl [Hdst]; · iexact Hdst
    isplitl [Ht]; · iexact Ht
    iapply (reached_d m ρ K c 2 _ (by decide)); iexact HR

/-! ## A wait on one of the device's DMA cells -/

set_option maxHeartbeats 800000 in
/-- The wait for the whole round of DMA cell `n`: with the cell's credit, at a level below everything still owed, the
    device gets the cell's payload and stands at round 1. -/
theorem wp_dwait (K : Dev nD × Fin 52 → ℕ) (c : Dev nD) (n : ℕ) (h : n < 53) (h2 : 2 ≤ n)
    {w : TpuEff nD τ sig (Elt F) Λ₀ .tc PUnit}
    (hw : ∀ Kk : PUnit → sProp 𝕄, wpE' (defs₀ (F := F)) 𝒱₀ (c : Thread nD τ) none PendingWaitsCtx.empty Set.univ w Kk
      = waitSpec (c : Thread nD τ) Set.univ (.dma (dsem n h)) (amt n) Kk)
    (O : CellTallies nD τ sig Unit) (W : Waits sig Unit) (b : ℕ) (hb : lv (dcell c n h) () ≤ b) (hO : Above b O)
    {α : Type} {Q : α → sProp 𝕄} {k' : PUnit → Prog (TpuEff nD τ sig (Elt F) Λ₀ .tc) α} :
    iprop(records m ρ K ∗ levAts L lv ∗ cred (tallyAt (dcell c n h) () (amt n)) ∗ owes (c : Thread nD τ) O W ∗ atPos ER (dcell c n h) 0 ∅ 0)
      ⊢ iprop(((owes (c : Thread nD τ) O (insert (SemLoc.dma (dsem n h), ()) W) ∗ atPos ER (dcell c n h) 1 ∅ 0 ∗ dpay m ρ c n)
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  iintro ⟨#HR, #Hlev, Hc, HO, Hat⟩ Hk
  iapply (Rounds.wp_wait_rest_token 𝒱₀ ER (agRd m ρ) (c : Thread nD τ) none (κ := Kd K c n)
      hw (Set.mem_univ _) () (O := O) (W := W) (R := 0) (m := 0) (T := ∅)
      (by rw [Nat.zero_add, expect_d m ρ c n h h2])) $$ [Hc HO Hat]
  · isplitr; · iapply (inv_d m ρ K c n h h2); iexact HR
    isplitl [Hc]; · iexact Hc
    isplitl [HO]; · iexact HO
    isplitr; · iapply (mayWait_above c _ b hb O hO); iexact Hlev
    iexact Hat
  iintro ⟨HO, Hat, -, Hpay⟩
  iapply Hk
  isplitl [HO]; · iexact HO
  isplitl [Hat]; · iexact Hat
  iapply (Entails.of_eq (rest_d m ρ c n h h2)); iexact Hpay

/-! ## Closing an own cell -/

/-- A DMA cell whose one round is over goes back to the device as a counter at zero. -/
theorem close_d (K : Dev nD × Fin 52 → ℕ) (c : Dev nD) (n : ℕ) (h : n < 53) (h2 : 2 ≤ n) :
    iprop(records m ρ K ∗ atPos ER (dcell c n h) 1 ∅ 0) ⊢ (|={Set.univ}=> semVal (dcell c n h) 0 : sProp 𝕄) := by
  iintro ⟨#HR, Hat⟩
  imod (Rounds.cell_close ER (agRd m ρ) (Set.mem_univ (Kd K c n)) (fun h => h) (R := 0 + 1) (duties_later m ρ (dcell c n h))) $$ [Hat] with Hz
  · isplitr; · iapply (inv_d m ρ K c n h h2); iexact HR
    iexact Hat
  imodintro; iexact Hz

end Cert.Kernel.AG

end
-- ==== Proof.KVals.lean ====
/-
  The contents a landed transfer leaves, against the final contents `gath`: index arithmetic only.
-/
import proofs.«900105_g7700000000000106_dist_ag_v7x_xy2x2_y_m512_n512_f32_1_alg».proof.Proof.KProto

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each of the first twelve chunks lies inside the 216 forwarded rows. -/
theorem coff_add_clen_le : ∀ k, k < 12 → coff k + clen k ≤ 216 := by decide

/-- The thirteenth chunk has 80 rows. -/
theorem clen_twelve : clen 12 = 80 := by decide

/-- The y-neighbour's number: same `c / 2`, other `c % 2`. -/
theorem yn_val (c : Dev nD) : (yn c).val = 2 * (c.val / 2) + 1 - c.val % 2 := rfl
/-- The x-neighbour's number: other `c / 2`, same `c % 2`. -/
theorem xn_val (c : Dev nD) : (xn c).val = c.val % 2 + 2 - 2 * (c.val / 2) := rfl

/-- The neighbours' coordinates. -/
theorem yn_mod (c : Dev nD) : (yn c).val % 2 = 1 - c.val % 2 := by revert c; decide
theorem yn_div (c : Dev nD) : (yn c).val / 2 = c.val / 2 := by revert c; decide
theorem xn_mod (c : Dev nD) : (xn c).val % 2 = c.val % 2 := by revert c; decide
theorem xn_div (c : Dev nD) : (xn c).val / 2 = 1 - c.val / 2 := by revert c; decide

/-- Reaching straight from the y-neighbour, spelt as a disjunction over the device's X. -/
theorem fromY_iff (c : Dev nD) (r : ℕ) : fromY c r ↔ (c.val / 2 = 0 ∧ r < 296) ∨ (c.val / 2 ≠ 0 ∧ 216 ≤ r) := by
  unfold fromY
  by_cases h : c.val / 2 = 0 <;> simp [h]

/-- A row `r` inside a forwarded chunk — rows `[296·X + s, 296·X + s + l)` of block `1 - Y`, with `s + l ≤ 216` — lies in
    block `1 - Y`, below row 216 of it when `X = 0` and from row 296 on when `X = 1`. -/
theorem fwd_row (X Y r s l : ℕ) (hX : X ≤ 1) (hY : Y ≤ 1) (hlo : 512 * (1 - Y) + 296 * X + s ≤ r)
    (hhi : r < 512 * (1 - Y) + 296 * X + s + l) (hsl : s + l ≤ 216) :
    r / 512 ≠ Y ∧ ¬ ((1 - X = 0 ∧ r % 512 < 296) ∨ (1 - X ≠ 0 ∧ 216 ≤ r % 512))
      ∧ ((X = 0 ∧ r % 512 < 296) ∨ (X ≠ 0 ∧ 216 ≤ r % 512)) := by
  rcases Nat.le_one_iff_eq_zero_or_eq_one.mp hX with rfl | rfl <;>
    rcases Nat.le_one_iff_eq_zero_or_eq_one.mp hY with rfl | rfl <;> omega

/-- Where a chunk sent along y starts and ends inside the sender's block: inside the block; below row 296 when the
    sender has X = 0, from row 216 on when it has X = 1. -/
theorem ysrc_bounds (c : Dev nD) (k : ℕ) (hk : k < 13) :
    ysrc c k + clen k ≤ 512 ∧ (c.val / 2 = 0 → ysrc c k + clen k ≤ 296) ∧ (c.val / 2 ≠ 0 → 216 ≤ ysrc c k) := by
  have h4 : c.val < 4 := c.isLt
  unfold ysrc
  split
  · next h => have := coff_add_clen_le k h; omega
  · next h =>
    have hk12 : k = 12 := by omega
    subst hk12
    rw [clen_twelve]; omega

/-- The place inside a block of a place of the result, as a shifted index: for an index whose row lies in the block
    starting at row `512 * y`, `lowIdx` is the shift by `a` rows down and `a - 512 * y` rows up. -/
theorem lowIdx_eq_shiftRow (i : S1024x512.Idx) (y a s : ℕ) (ha : 512 * y + s = a) (hlo : a ≤ (i 0).val)
    (hhi : (i 0).val < 512 * y + 512) : lowIdx i = shiftRow (ns := 512) a s i := by
  have key : ∀ b : Fin 2, (lowIdx i b).val = (shiftRow (ns := 512) a s i b).val := by
    rw [Fin.forall_fin_two]
    constructor
    · rw [shiftRow_row (by omega)]
      show (i 0).val % 512 = _
      omega
    · rw [shiftRow_col]; rfl
  funext b; exact Fin.ext (key b)

omit [FloatOps F] in
/-- A chunk landed along y in `yn c`'s result holds, at each of its places, `c`'s block at the same row of the block. -/
theorem landY_val (c : Dev nD) (k : ℕ) (hk : k < 13) (i : S1024x512.Idx) (hi : i ∈ rows 1024 (ydst c k) (clen k)) :
    gath m ρ (yn c) i = xstg m ρ c (shiftRow (ns := 512) (ydst c k) (ysrc c k) i) := by
  have h4 : c.val < 4 := c.isLt
  have hr := mem_rows.mp hi
  obtain ⟨hb1, hb2, hb3⟩ := ysrc_bounds c k hk
  have hyd : ydst c k = 512 * (c.val % 2) + ysrc c k := rfl
  rw [hyd] at hr
  -- the row lies in block `c % 2`, which is not the block `yn c` holds
  have h1 : ¬ (i 0).val / 512 = (yn c).val % 2 := by rw [yn_val]; omega
  -- and among the rows that reach `yn c` straight from `c`
  have h2 : fromY (yn c) ((i 0).val % 512) := by
    unfold fromY
    rw [yn_val]
    split
    · next hX => have := hb2 (by omega); omega
    · next hX => have := hb3 (by omega); omega
  unfold gath
  rw [if_neg h1, if_pos h2, yn_yn]
  exact congrArg (xstg m ρ c) (lowIdx_eq_shiftRow i (c.val % 2) (ydst c k) (ysrc c k) hyd.symm (by omega) (by omega))

omit [FloatOps F] in
/-- A chunk forwarded along x lands in `xn c`'s result at the rows it had in `c`'s, with the contents `c`'s result has there. -/
theorem landX_val (c : Dev nD) (j : ℕ) (hj : j < 12) (i : S1024x512.Idx) (hi : i ∈ rows 1024 (xrow c j) (clen j)) :
    gath m ρ (xn c) i = gath m ρ c (shiftRow (ns := 1024) (xrow c j) (xrow c j) i) := by
  have h4 : c.val < 4 := c.isLt
  have hr := mem_rows.mp hi
  have hc := coff_add_clen_le j hj
  have hx : xrow c j = 512 * (1 - c.val % 2) + 296 * (c.val / 2) + coff j := rfl
  rw [hx] at hr
  -- shifting by the same row down and up is the identity
  have hid : shiftRow (ns := 1024) (xrow c j) (xrow c j) i = i := by
    have hlt : (i 0).val < 1024 := (i 0).isLt
    have key : ∀ b : Fin 2, (shiftRow (ns := 1024) (xrow c j) (xrow c j) i b).val = (i b).val := by
      rw [Fin.forall_fin_two]
      constructor
      · rw [shiftRow_row (by rw [hx]; omega), hx]; omega
      · rw [shiftRow_col]
    funext b; exact Fin.ext (key b)
  rw [hid]
  -- the row lies in the block neither `c` nor `xn c` holds; it reaches `c` straight from `yn c`, and `xn c` forwarded
  obtain ⟨f1, f2, f3⟩ := fwd_row (c.val / 2) (c.val % 2) (i 0).val (coff j) (clen j) (by omega) (by omega) hr.1 hr.2 hc
  have h1 : ¬ (i 0).val / 512 = (xn c).val % 2 := by rw [xn_mod]; exact f1
  have h2 : ¬ fromY (xn c) ((i 0).val % 512) := by rw [fromY_iff, xn_div]; exact f2
  have h3 : ¬ (i 0).val / 512 = c.val % 2 := f1
  have h4' : fromY c ((i 0).val % 512) := by rw [fromY_iff]; exact f3
  have hdg : dg (xn c) = yn c := by show yn (xn (xn c)) = yn c; rw [xn_xn]
  unfold gath
  rw [if_neg h1, if_neg h2, if_neg h3, if_pos h4', hdg]

omit [FloatOps F] in
/-- The local copy puts `c`'s own block at rows [512·Y, 512·Y + 512) of its result. -/
theorem copy_val (c : Dev nD) (i : S1024x512.Idx) (hi : i ∈ rows 1024 (512 * (c.val % 2)) 512) :
    gath m ρ c i = xstg m ρ c (shiftRow (ns := 512) (512 * (c.val % 2)) 0 i) := by
  have hr := mem_rows.mp hi
  have h1 : (i 0).val / 512 = c.val % 2 := by omega
  unfold gath
  rw [if_pos h1]
  exact congrArg (xstg m ρ c) (lowIdx_eq_shiftRow i (c.val % 2) (512 * (c.val % 2)) 0 rfl (by omega) (by omega))

/-- The rows device `c` forwards along x are the rows it received chunk `j` on along y. -/
theorem xrow_eq (c : Dev nD) (j : ℕ) (hj : j < 12) : xrow c j = ydst (yn c) j := by
  have h4 : c.val < 4 := c.isLt
  unfold xrow ydst ysrc
  rw [if_pos hj, yn_val]
  omega

end Cert.Kernel.AG

end

/-- info: 'Cert.Kernel.AG.landX_val' depends on axioms: [propext, Classical.choice, Quot.sound] -/
#guard_msgs in #print axioms Cert.Kernel.AG.landX_val
-- ==== Proof.KCopyVal.lean ====
/-
  What the local copy of the whole block leaves in the rows it is written to.
-/
import proofs.«900105_g7700000000000106_dist_ag_v7x_xy2x2_y_m512_n512_f32_1_alg».proof.Proof.KProto

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The whole block buffer copied into 512 rows of the result buffer: each place of those rows holds the block's entry at the
    same column and at the row counted from the range's first. -/
theorem copy_write (offd : Fin 2 → ℕ) (inbd : ∀ a, offd a + (SR 512).size a ≤ (SR 1024).size a) (hd1 : offd 1 = 0)
    (fs : (cc0_stg0_0 : Ref sig .tc).ty.Contents (Elt F)) (fd : (cc0_stg1_0 : Ref sig .tc).ty.Contents (Elt F))
    (i : S1024x512.Idx) (hi : i ∈ rows 1024 (offd 0) 512) :
    (((Memref.whole cc0_stg1_0 : Memref sig .tc .vmem S1024x512 .f32).slice (Rect.unit (s := SR 1024) offd (SR 512).size inbd) (fun _ => rfl)).view.write (Elt F) fd
      ((xM : Memref sig .tc .vmem S512x512 .f32).view.read (Elt F) fs) Finset.univ) i = fs (shiftRow (ns := 512) (offd 0) 0 i) := by
  -- the whole block is its slice through the rectangle of all its rows at offset zero
  have h := write_read_rows (Val := Elt F) (ns := 512) (nd := 1024) (r := 512) (View.whole cc0_stg0_0) (View.whole cc0_stg1_0)
    (fun _ => 0) offd (fun a => Nat.le_of_eq (Nat.zero_add _)) inbd rfl hd1 fs fd hi
  -- through that rectangle the source reads its contents
  have hs : ((View.whole (cc0_stg0_0 : Ref sig .tc)).slice (Rect.unit (s := SR 512) (fun _ => 0) (SR 512).size
      (fun a => Nat.le_of_eq (Nat.zero_add _)))).read (Elt F) fs = fs :=
    Memref.read_access_whole (Elt F) cc0_stg0_0 fs
  rw [hs] at h
  exact h

end Cert.Kernel.AG

end

/-- info: 'Cert.Kernel.AG.copy_write' depends on axioms: [propext, Classical.choice, Quot.sound] -/
#guard_msgs in #print axioms Cert.Kernel.AG.copy_write
-- ==== Proof.KRegions.lean ====
/-
  The two staging buffers cut into the row ranges the transfers move, and put together again.
-/
import proofs.«900105_g7700000000000106_dist_ag_v7x_xy2x2_y_m512_n512_f32_1_alg».proof.Proof.KProto

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Arithmetic of the cut

Inside a block of 512 rows starting at row `B`, for `X ∈ {0, 1}`: the 80 rows from `B + 216`, the 216 rows from
`B + 296·X` and the 216 rows from `B + 296·(1 - X)` are pairwise apart and fill the block. The twelve chunks
`[coff j, coff j + clen j)` are pairwise apart and fill 216 rows. -/

namespace Rg

theorem clen12 : clen 12 = 80 := by decide
theorem chunk_le : ∀ k, k < 12 → coff k + clen k ≤ 216 := by decide
theorem chunk_sep : ∀ j', j' < 12 → ∀ j, j < j' → coff j + clen j ≤ coff j' := by decide

/-- Every one of the 216 rows lies in one of the twelve chunks. -/
theorem chunk_cover (t : ℕ) (ht : t < 216) : ∃ j, j < 12 ∧ coff j ≤ t ∧ t < coff j + clen j := by
  by_cases h0 : t < 32; · exact ⟨0, by decide, by simp [coff], by simp [coff, clen]; omega⟩
  by_cases h1 : t < 64; · exact ⟨1, by decide, by simp [coff]; omega, by simp [coff, clen]; omega⟩
  by_cases h2 : t < 88; · exact ⟨2, by decide, by simp [coff]; omega, by simp [coff, clen]; omega⟩
  by_cases h3 : t < 112; · exact ⟨3, by decide, by simp [coff]; omega, by simp [coff, clen]; omega⟩
  by_cases h4 : t < 136; · exact ⟨4, by decide, by simp [coff]; omega, by simp [coff, clen]; omega⟩
  by_cases h5 : t < 152; · exact ⟨5, by decide, by simp [coff]; omega, by simp [coff, clen]; omega⟩
  by_cases h6 : t < 168; · exact ⟨6, by decide, by simp [coff]; omega, by simp [coff, clen]; omega⟩
  by_cases h7 : t < 184; · exact ⟨7, by decide, by simp [coff]; omega, by simp [coff, clen]; omega⟩
  by_cases h8 : t < 192; · exact ⟨8, by decide, by simp [coff]; omega, by simp [coff, clen]; omega⟩
  by_cases h9 : t < 200; · exact ⟨9, by decide, by simp [coff]; omega, by simp [coff, clen]; omega⟩
  by_cases h10 : t < 208; · exact ⟨10, by decide, by simp [coff]; omega, by simp [coff, clen]; omega⟩
  exact ⟨11, by decide, by simp [coff]; omega, by simp [coff, clen]; omega⟩

theorem yn_mod (c : Dev nD) : (yn c).val % 2 = 1 - c.val % 2 := by revert c; decide
theorem yn_div (c : Dev nD) : (yn c).val / 2 = c.val / 2 := by revert c; decide
theorem xn_mod (c : Dev nD) : (xn c).val % 2 = c.val % 2 := by revert c; decide
theorem xn_div (c : Dev nD) : (xn c).val / 2 = 1 - c.val / 2 := by revert c; decide

/-- The twelve chunks placed from row `base` fill the 216 rows from `base`. -/
theorem chunks_biUnion (n base : ℕ) :
    (Finset.range 12).biUnion (fun j => rows n (base + coff j) (clen j)) = rows n base 216 := by
  ext i
  simp only [Finset.mem_biUnion, Finset.mem_range, mem_rows]
  constructor
  · rintro ⟨j, hj, h1, h2⟩
    have := chunk_le j hj
    omega
  · rintro ⟨h1, h2⟩
    obtain ⟨j, hj, h3, h4⟩ := chunk_cover ((i 0).val - base) (by omega)
    exact ⟨j, hj, by omega, by omega⟩

/-- Different chunks are disjoint. -/
theorem chunks_disjoint (n base : ℕ) {j j' : ℕ} (hj : j < 12) (hj' : j' < 12) (h : j ≠ j') :
    Disjoint (rows n (base + coff j) (clen j)) (rows n (base + coff j') (clen j')) := by
  rcases Nat.lt_or_gt_of_ne h with hlt | hgt
  · have := chunk_sep j' hj' j hlt
    exact rows_disjoint (by omega)
  · have := chunk_sep j hj j' hgt
    exact (rows_disjoint (by omega)).symm

/-- The three ranges of a block fill it. -/
theorem three_eq (n B X : ℕ) (hX : X ≤ 1) :
    rows n B 512 = (rows n (B + 216) 80 ∪ rows n (B + 296 * X) 216) ∪ rows n (B + 296 * (1 - X)) 216 := by
  ext i
  simp only [Finset.mem_union, mem_rows]
  rcases Nat.le_one_iff_eq_zero_or_eq_one.mp hX with rfl | rfl <;> omega

theorem three_d3 (n B X : ℕ) (hX : X ≤ 1) : Disjoint (rows n (B + 216) 80) (rows n (B + 296 * X) 216) := by
  rw [Finset.disjoint_left]
  intro i h1 h2
  rw [mem_rows] at h1 h2
  rcases Nat.le_one_iff_eq_zero_or_eq_one.mp hX with rfl | rfl <;> omega

theorem three_d2 (n B X : ℕ) (hX : X ≤ 1) :
    Disjoint (rows n (B + 216) 80 ∪ rows n (B + 296 * X) 216) (rows n (B + 296 * (1 - X)) 216) := by
  rw [Finset.disjoint_left]
  intro i h1 h2
  rw [Finset.mem_union, mem_rows, mem_rows] at h1
  rw [mem_rows] at h2
  rcases Nat.le_one_iff_eq_zero_or_eq_one.mp hX with rfl | rfl <;> omega

/-- The two blocks of the result fill it and are apart. -/
theorem blocks_eq (Y : ℕ) (hY : Y ≤ 1) :
    (Finset.univ : Finset (SR 1024).Idx) = rows 1024 (512 * Y) 512 ∪ rows 1024 (512 * (1 - Y)) 512 := by
  ext i
  have hlt : (i 0).val < 1024 := (i 0).isLt
  simp only [Finset.mem_univ, Finset.mem_union, mem_rows, true_iff]
  rcases Nat.le_one_iff_eq_zero_or_eq_one.mp hY with rfl | rfl <;> omega

theorem blocks_disjoint (Y : ℕ) (hY : Y ≤ 1) :
    Disjoint (rows 1024 (512 * Y) 512) (rows 1024 (512 * (1 - Y)) 512) := by
  rw [Finset.disjoint_left]
  intro i h1 h2
  rw [mem_rows] at h1 h2
  rcases Nat.le_one_iff_eq_zero_or_eq_one.mp hY with rfl | rfl <;> omega

end Rg

/-! ## Points-to along the cut, as equations -/

section Eq

variable {ℓ : Loc nD τ sig} {I J P Q R S : Finset (Idx ℓ)} {q : PosShare TreeShare} {f : Buf (Elt F) ℓ}

omit [FloatOps F] in
/-- The points-to on a disjoint union is the separating conjunction of the two, as an equation. -/
theorem pts_union_eq (h : Disjoint I J) :
    ((ℓ ↦[I ∪ J]{q} f) : sProp 𝕄) = iprop((ℓ ↦[I]{q} f) ∗ ℓ ↦[J]{q} f) :=
  BI.equiv_iff.mp ⟨(pointsTo_union h).1, (pointsTo_union h).2⟩

omit [FloatOps F] in
/-- A set that is the union of three pairwise disjoint sets. -/
theorem pts_three (hS : S = (P ∪ Q) ∪ R) (d3 : Disjoint P Q) (d2 : Disjoint (P ∪ Q) R) :
    ((ℓ ↦[S]{q} f) : sProp 𝕄) = iprop(((ℓ ↦[P]{q} f) ∗ ℓ ↦[Q]{q} f) ∗ ℓ ↦[R]{q} f) := by
  subst hS
  rw [pts_union_eq d2, pts_union_eq d3]

end Eq

omit [FloatOps F] in
/-- 216 rows of the result buffer from row `base`, cut into the twelve chunks. -/
theorem oPts_chunks (c : Dev nD) (base : ℕ) (f : (cc0_stg1_0 : Ref sig .tc).ty.Contents (Elt F)) :
    oPts (F := F) c base 216 f = bigSep (Finset.range 12) fun j => oPts c (base + coff j) (clen j) f := by
  have h := pointsTo_biUnion (Val := Elt F) (Ix := Unit) (Name := ℕ) (U := UU) (Lvl := ℕ)
    (ℓ := ((c : Thread nD τ).loc cc0_stg1_0)) (q := fullShare) (f := f)
    (Finset.range 12) (fun j => rows 1024 (base + coff j) (clen j))
    (fun j hj j' hj' hne => Rg.chunks_disjoint 1024 base (Finset.mem_range.mp hj) (Finset.mem_range.mp hj') hne)
  exact (congrArg (fun S : Finset (Idx ((c : Thread nD τ).loc cc0_stg1_0)) =>
    ((((c : Thread nD τ).loc cc0_stg1_0) ↦[S]{fullShare} f) : sProp 𝕄)) (Rg.chunks_biUnion 1024 base).symm).trans h

omit [FloatOps F] in
/-- 216 rows of the block buffer from row `base`, cut into the twelve chunks. -/
theorem xPts_chunks (c : Dev nD) (base : ℕ) (q : PosShare TreeShare) :
    xPts (F := F) m ρ c base 216 q = bigSep (Finset.range 12) fun j => xPts m ρ c (base + coff j) (clen j) q := by
  have h := pointsTo_biUnion (Val := Elt F) (Ix := Unit) (Name := ℕ) (U := UU) (Lvl := ℕ)
    (ℓ := ((c : Thread nD τ).loc cc0_stg0_0)) (q := q) (f := xstg m ρ c)
    (Finset.range 12) (fun j => rows 512 (base + coff j) (clen j))
    (fun j hj j' hj' hne => Rg.chunks_disjoint 512 base (Finset.mem_range.mp hj) (Finset.mem_range.mp hj') hne)
  exact (congrArg (fun S : Finset (Idx ((c : Thread nD τ).loc cc0_stg0_0)) =>
    ((((c : Thread nD τ).loc cc0_stg0_0) ↦[S]{q} xstg m ρ c) : sProp 𝕄)) (Rg.chunks_biUnion 512 base).symm).trans h

/-- The right half of the rows of `c`'s block that it sends nowhere along y. -/
def xRest (c : Dev nD) : sProp 𝕄 :=
  if c.val / 2 = 0 then xPts m ρ c 296 216 fullShare.right else xPts m ρ c 0 216 fullShare.right

omit [FloatOps F] in
/-- The result buffer of `c`, at any contents, is the range of its own block, the thirteen ranges its y-neighbour writes
    and the twelve its x-neighbour writes. -/
theorem split_out (c : Dev nD) (f : (cc0_stg1_0 : Ref sig .tc).ty.Contents (Elt F)) :
    ((((c : Thread nD τ).loc cc0_stg1_0) ↦{fullShare} f : sProp 𝕄))
      ⊣⊢ iprop(oPts c (512 * (c.val % 2)) 512 f ∗ (bigSep (Finset.range 13) fun k => oPts c (ydst (yn c) k) (clen k) f)
          ∗ bigSep (Finset.range 12) fun j => oPts c (xrow (xn c) j) (clen j) f) := by
  have h4 : c.val < 4 := c.isLt
  have hX : c.val / 2 ≤ 1 := by omega
  have hY : c.val % 2 ≤ 1 := by omega
  -- where the neighbours' ranges start, in terms of `c`'s own coordinates
  have ey12 : ydst (yn c) 12 = 512 * (1 - c.val % 2) + 216 := by
    unfold ydst ysrc; rw [if_neg (by decide), Rg.yn_mod]
  have eyk : ∀ k, k < 12 → ydst (yn c) k = 512 * (1 - c.val % 2) + 296 * (c.val / 2) + coff k := by
    intro k hk; unfold ydst ysrc
    rw [if_pos hk, Rg.yn_mod, Rg.yn_div]; exact (Nat.add_assoc _ _ _).symm
  have exj : ∀ j, xrow (xn c) j = 512 * (1 - c.val % 2) + 296 * (1 - c.val / 2) + coff j := by
    intro j; unfold xrow; rw [Rg.xn_mod, Rg.xn_div]
  -- the thirteen ranges: the 80 rows and the twelve chunks of 216 rows
  have e13 : (bigSep (Finset.range 13) fun k => oPts (F := F) c (ydst (yn c) k) (clen k) f)
      = iprop(oPts c (512 * (1 - c.val % 2) + 216) 80 f ∗ oPts c (512 * (1 - c.val % 2) + 296 * (c.val / 2)) 216 f) := by
    rw [Finset.range_add_one, bigSep_insert (by simp), ey12, Rg.clen12, oPts_chunks]
    refine congrArg (fun z => iprop(oPts c (512 * (1 - c.val % 2) + 216) 80 f ∗ z)) ?_
    exact bigSep_congr fun k hk => by rw [eyk k (Finset.mem_range.mp hk)]
  -- the twelve ranges: the twelve chunks of the other 216 rows
  have e12 : (bigSep (Finset.range 12) fun j => oPts (F := F) c (xrow (xn c) j) (clen j) f)
      = oPts c (512 * (1 - c.val % 2) + 296 * (1 - c.val / 2)) 216 f := by
    rw [oPts_chunks]
    exact bigSep_congr fun j hj => by rw [exj j]
  rw [e13, e12]
  refine BiEntails.of_eq ?_
  -- the whole buffer is its two blocks
  have s1 : (((((c : Thread nD τ).loc cc0_stg1_0) ↦{fullShare} f) : sProp 𝕄))
      = iprop(oPts c (512 * (c.val % 2)) 512 f ∗ oPts c (512 * (1 - c.val % 2)) 512 f) :=
    (congrArg (fun S : Finset (Idx ((c : Thread nD τ).loc cc0_stg1_0)) =>
      ((((c : Thread nD τ).loc cc0_stg1_0) ↦[S]{fullShare} f) : sProp 𝕄)) (Rg.blocks_eq _ hY)).trans
      (pts_union_eq (ℓ := ((c : Thread nD τ).loc cc0_stg1_0)) (Rg.blocks_disjoint _ hY))
  -- the other block is the three ranges
  have s2 : oPts (F := F) c (512 * (1 - c.val % 2)) 512 f
      = iprop((oPts c (512 * (1 - c.val % 2) + 216) 80 f ∗ oPts c (512 * (1 - c.val % 2) + 296 * (c.val / 2)) 216 f)
          ∗ oPts c (512 * (1 - c.val % 2) + 296 * (1 - c.val / 2)) 216 f) :=
    pts_three (ℓ := ((c : Thread nD τ).loc cc0_stg1_0)) (Rg.three_eq 1024 _ _ hX) (Rg.three_d3 1024 _ _ hX) (Rg.three_d2 1024 _ _ hX)
  exact s1.trans (congrArg (fun z => iprop(oPts c (512 * (c.val % 2)) 512 f ∗ z)) s2)

omit [FloatOps F] in
/-- The block buffer of `c`: one half whole (read by the local copy), the other half in the thirteen ranges sent along y and
    the rest. -/
theorem split_in (c : Dev nD) :
    ((((c : Thread nD τ).loc cc0_stg0_0) ↦{fullShare} xstg m ρ c : sProp 𝕄))
      ⊣⊢ iprop(xPts m ρ c 0 512 fullShare.left ∗ (bigSep (Finset.range 13) fun k => xPts m ρ c (ysrc c k) (clen k) fullShare.right)
          ∗ xRest m ρ c) := by
  have h4 : c.val < 4 := c.isLt
  have hX : c.val / 2 ≤ 1 := by omega
  have es12 : ysrc c 12 = 0 + 216 := by unfold ysrc; rw [if_neg (by decide)]
  have esk : ∀ k, k < 12 → ysrc c k = 0 + 296 * (c.val / 2) + coff k := by
    intro k hk; unfold ysrc; rw [if_pos hk, Nat.zero_add]
  -- the thirteen ranges sent along y: the 80 rows and the twelve chunks of 216 rows
  have e13 : (bigSep (Finset.range 13) fun k => xPts (F := F) m ρ c (ysrc c k) (clen k) fullShare.right)
      = iprop(xPts m ρ c (0 + 216) 80 fullShare.right ∗ xPts m ρ c (0 + 296 * (c.val / 2)) 216 fullShare.right) := by
    rw [Finset.range_add_one, bigSep_insert (by simp), es12, Rg.clen12, xPts_chunks]
    refine congrArg (fun z => iprop(xPts m ρ c (0 + 216) 80 fullShare.right ∗ z)) ?_
    exact bigSep_congr fun k hk => by rw [esk k (Finset.mem_range.mp hk)]
  -- the rows sent nowhere along y
  have er : xRest (F := F) m ρ c = xPts m ρ c (0 + 296 * (1 - c.val / 2)) 216 fullShare.right := by
    unfold xRest
    split
    · next h => rw [h]
    · next h =>
      have h1 : c.val / 2 = 1 := by omega
      rw [h1]
  rw [e13, er]
  refine BiEntails.of_eq ?_
  -- the two halves of the share
  have sh := pointsTo_share (Val := Elt F) (Ix := Unit) (Name := ℕ) (U := UU) (Lvl := ℕ)
    (ℓ := ((c : Thread nD τ).loc cc0_stg0_0)) (I := Finset.univ) (f := xstg m ρ c)
    (PosShare.mem_left_op_right fullShare)
  have s0 : (((((c : Thread nD τ).loc cc0_stg0_0) ↦{fullShare} xstg m ρ c) : sProp 𝕄))
      = iprop((((c : Thread nD τ).loc cc0_stg0_0) ↦{fullShare.left} xstg m ρ c)
          ∗ (((c : Thread nD τ).loc cc0_stg0_0) ↦{fullShare.right} xstg m ρ c)) :=
    BI.equiv_iff.mp ⟨sh.1, sh.2⟩
  -- the left half stays whole
  have sL : (((((c : Thread nD τ).loc cc0_stg0_0) ↦{fullShare.left} xstg m ρ c) : sProp 𝕄))
      = xPts m ρ c 0 512 fullShare.left :=
    congrArg (fun S : Finset (Idx ((c : Thread nD τ).loc cc0_stg0_0)) =>
      ((((c : Thread nD τ).loc cc0_stg0_0) ↦[S]{fullShare.left} xstg m ρ c) : sProp 𝕄)) (rows_all (n := 512)).symm
  -- the right half is the three ranges
  have sR : (((((c : Thread nD τ).loc cc0_stg0_0) ↦{fullShare.right} xstg m ρ c) : sProp 𝕄))
      = iprop((xPts m ρ c (0 + 216) 80 fullShare.right ∗ xPts m ρ c (0 + 296 * (c.val / 2)) 216 fullShare.right)
          ∗ xPts m ρ c (0 + 296 * (1 - c.val / 2)) 216 fullShare.right) :=
    (congrArg (fun S : Finset (Idx ((c : Thread nD τ).loc cc0_stg0_0)) =>
      ((((c : Thread nD τ).loc cc0_stg0_0) ↦[S]{fullShare.right} xstg m ρ c) : sProp 𝕄)) (rows_all (n := 512)).symm).trans
      (pts_three (ℓ := ((c : Thread nD τ).loc cc0_stg0_0)) (Rg.three_eq 512 0 _ hX) (Rg.three_d3 512 0 _ hX) (Rg.three_d2 512 0 _ hX))
  rw [s0, sL, sR]

end Cert.Kernel.AG

end

/-- info: 'Cert.Kernel.AG.split_out' depends on axioms: [propext, Classical.choice, Quot.sound] -/
#guard_msgs in #print axioms Cert.Kernel.AG.split_out
-- ==== Proof.KBodyKit.lean ====
/-
  What the body's proof is cut from: the protocol's steps as tactics, the program's later stretches by name, and the
  state a device holds between them.
-/
import proofs.«900105_g7700000000000106_dist_ag_v7x_xy2x2_y_m512_n512_f32_1_alg».proof.Proof.KSteps
import proofs.«900105_g7700000000000106_dist_ag_v7x_xy2x2_y_m512_n512_f32_1_alg».proof.Proof.KVals
import proofs.«900105_g7700000000000106_dist_ag_v7x_xy2x2_y_m512_n512_f32_1_alg».proof.Proof.KCopyVal
import proofs.«900105_g7700000000000106_dist_ag_v7x_xy2x2_y_m512_n512_f32_1_alg».proof.Proof.KRegions

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## What a device hands its neighbours at the barrier -/

omit [FloatOps F] in
/-- The thirteen ranges of its own result that the y-neighbour will write are that neighbour's landing ranges. -/
theorem landY_intro (c : Dev nD) (f : (cc0_stg1_0 : Ref sig .tc).ty.Contents (Elt F)) :
    (bigSep (Finset.range 13) fun k => oPts c (ydst (yn c) k) (clen k) f : sProp 𝕄) ⊢ landY (yn c) := by
  unfold landY; rw [yn_yn]
  exact bigSep_mono fun k _ => exists_intro (Φ := fun f => oPts c (ydst (yn c) k) (clen k) f) f
omit [FloatOps F] in
/-- The twelve ranges the x-neighbour will write are that neighbour's landing ranges. -/
theorem landX_intro (c : Dev nD) (f : (cc0_stg1_0 : Ref sig .tc).ty.Contents (Elt F)) :
    (bigSep (Finset.range 12) fun j => oPts c (xrow (xn c) j) (clen j) f : sProp 𝕄) ⊢ landX (xn c) := by
  unfold landX; rw [xn_xn]
  exact bigSep_mono fun j _ => exists_intro (Φ := fun f => oPts c (xrow (xn c) j) (clen j) f) f

omit [FloatOps F] in
theorem r51 (Φ : ℕ → sProp 𝕄) : bigSep (Finset.range 51) Φ = bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50] Φ := bigSep_eq_bigSepL_of_eq _ (by decide) (by decide) Φ
omit [FloatOps F] in
theorem r13 (Φ : ℕ → sProp 𝕄) : bigSep (Finset.range 13) Φ = bigSepL [0, 1, 2, 3, 4, 5, 6, 7, 8, 9, 10, 11, 12] Φ := bigSep_eq_bigSepL_of_eq _ (by decide) (by decide) Φ
omit [FloatOps F] in
theorem r12 (Φ : ℕ → sProp 𝕄) : bigSep (Finset.range 12) Φ = bigSepL [0, 1, 2, 3, 4, 5, 6, 7, 8, 9, 10, 11] Φ := bigSep_eq_bigSepL_of_eq _ (by decide) (by decide) Φ

omit [FloatOps F] in
theorem sepE (A B : sProp 𝕄) : BI.sep A B = iprop(A ∗ B) := rfl

theorem devE1 (c : Dev nD) : (⟨k0_dev1 c, k0_dev1_lt c⟩ : Dev nD) = yn c := Fin.ext (k0_dev1_eq c)
theorem devE2 (c : Dev nD) : (⟨k0_dev2 c, k0_dev2_lt c⟩ : Dev nD) = xn c := Fin.ext (k0_dev2_eq c)

/-! ## The payload of each DMA cell, spelt out -/

omit [FloatOps F] in
theorem dpay_c (c : Dev nD) : dpay m ρ c 2 = iprop(oPts c (512 * (c.val % 2)) 512 (gath m ρ c) ∗ xPts m ρ c 0 512 fullShare.left) := by
  unfold dpay; rw [if_pos rfl]
omit [FloatOps F] in
theorem dpay_ys (c : Dev nD) (k : ℕ) (hk : k < 13) : dpay m ρ c (3 + k) = xPts m ρ c (ysrc c k) (clen k) fullShare.right := by
  unfold dpay; rw [if_neg (by omega), if_pos (by omega), show 3 + k - 3 = k by omega]
omit [FloatOps F] in
theorem dpay_yr (c : Dev nD) (k : ℕ) (hk : k < 12) : dpay m ρ c (16 + k) = oPts c (xrow c k) (clen k) (gath m ρ c) := by
  unfold dpay; rw [if_neg (by omega), if_neg (by omega), if_pos (by omega), show 16 + k - 16 = k by omega, xrow_eq c k hk]
omit [FloatOps F] in
theorem dpay_yr12 (c : Dev nD) : dpay m ρ c 28 = oPts c (ydst (yn c) 12) (clen 12) (gath m ρ c) := by
  unfold dpay; rw [if_neg (by omega), if_neg (by omega), if_pos (by omega)]
omit [FloatOps F] in
theorem dpay_xs (c : Dev nD) (j : ℕ) (hj : j < 12) : dpay m ρ c (29 + j) = oPts c (xrow c j) (clen j) (gath m ρ c) := by
  unfold dpay; rw [if_neg (by omega), if_neg (by omega), if_neg (by omega), if_pos (by omega), show 29 + j - 29 = j by omega]
omit [FloatOps F] in
theorem dpay_xr (c : Dev nD) (j : ℕ) (hj : j < 12) : dpay m ρ c (41 + j) = oPts c (xrow (xn c) j) (clen j) (gath m ρ c) := by
  unfold dpay; rw [if_neg (by omega), if_neg (by omega), if_neg (by omega), if_neg (by omega), show 41 + j - 41 = j by omega]

/-! ## The steps, as the body meets them -/

set_option hygiene false in
/-- Chunk `k` sent along y: the source rows `hx`, the neighbour's rows `hd`, the two tokens; leaves the send cell's credit `hc`. -/
macro "ysend" k:num r:num hs0:term:max hs1:term:max hd0:term:max hd1:term:max hdev:term:max fd:term:max Onext:term:max
    hx:ident hd:ident ht1:ident ht2:ident hc:ident : tactic =>
  `(tactic| (
    irename $hx => Hsrc
    irename $hd => Hdst
    irename $ht1 => Htk1
    irename $ht2 => Htk2
    iapply (wp_ysend m ρ K c _ (Fin.ext $hdev) $k (by decide) $r rfl $hs0 $hs1 $hd0 $hd1 _ _ rfl rfl
        (landY_val m ρ c $k (by decide)) $fd $Onext _) $$ [Hsrc Hdst HO Htk1 Htk2]
    · isplitr; · iexact HR
      isplitl [Hsrc]; · iexact Hsrc
      isplitl [Hdst]; · iexact Hdst
      isplitl [HO]; · iexact HO
      isplitl [Htk1]; · iexact Htk1
      iexact Htk2
    iintro ⟨Hnew, HO⟩
    irename Hnew => $hc))

set_option hygiene false in
/-- Chunk `j` forwarded along x: the source rows `hx` (just received), the neighbour's rows `hd`, the two tokens; leaves the
    send cell's credit `hc`. -/
macro "xsend" k:num r:num hs0:term:max hs1:term:max hdev:term:max fd:term:max Onext:term:max
    hx:ident hd:ident ht1:ident ht2:ident hc:ident : tactic =>
  `(tactic| (
    irename $hx => Hsrc
    irename $hd => Hdst
    irename $ht1 => Htk1
    irename $ht2 => Htk2
    iapply (wp_xsend m ρ K c _ (Fin.ext $hdev) $k (by decide) $r rfl $hs0 $hs1 $hs0 $hs1 _ _ rfl rfl
        (landX_val m ρ c $k (by decide)) $fd $Onext _) $$ [Hsrc Hdst HO Htk1 Htk2]
    · isplitr; · iexact HR
      isplitl [Hsrc]; · iexact Hsrc
      isplitl [Hdst]; · iexact Hdst
      isplitl [HO]; · iexact HO
      isplitl [Htk1]; · iexact Htk1
      iexact Htk2
    iintro ⟨Hnew, HO⟩
    irename Hnew => $hc))

set_option hygiene false in
/-- The wait on DMA cell `n`, owing `O` (all above level `b`): spends the credit `hcr`, moves the position `hat` to round 1,
    and leaves the cell's payload, spelt by `eq`, as `hpay`. -/
macro "dwait" n:num O:term:max b:num hO:term:max eq:term:max hcr:ident hat:ident hpay:ident : tactic =>
  `(tactic| (
    irename $hcr => Hcr
    irename $hat => Hat
    iapply (wp_dwait m ρ K c $n (by decide) (by decide) (wpE_waitDma2_eq 𝒱₀ (c : Thread nD τ) none Set.univ) $O _ $b (le_refl _) $hO)
      $$ [Hcr HO Hat]
    · isplitr; · iexact HR
      isplitr; · iexact Hlev
      isplitl [Hcr]; · iexact Hcr
      isplitl [HO]; · iexact HO
      iexact Hat
    rw [$eq:term]
    iintro ⟨HO, Hat, Hpay⟩
    irename Hat => $hat
    irename Hpay => $hpay))

set_option hygiene false in
/-- Hand over the next conjunct of the goal from the hypothesis `h`. -/
macro "give" h:ident : tactic => `(tactic| (isplitl [$h]; · iexact $h))

/-! ## The later stretches of the body, by name -/

section Rest
variable (arg0 : Memref sig .tc .vmem S512x512 .f32) (harg0 : arg0.IsWhole) (arg1 : Memref sig .tc .vmem S1024x512 .f32) (harg1 : arg1.IsWhole)
  (arg2 : DmaSems sig S_) (arg3 : DmaSems sig S13) (arg4 : DmaSems sig S13) (arg5 : DmaSems sig S12) (arg6 : DmaSems sig S12)

/-- From the waits on the last four chunks sent along y to the end. -/
def rest19 (d0 : Dev nD) : Prog (TpuEff nD τ sig (Elt F) Λ₀ .tc) PUnit := do
  k0_part19 arg0 harg0 arg1 harg1 arg2 arg3 arg4 arg5 arg6 d0
  k0_part20 arg0 harg0 arg1 harg1 arg2 arg3 arg4 arg5 arg6 d0
  k0_part21 arg0 harg0 arg1 harg1 arg2 arg3 arg4 arg5 arg6 d0
  let v646 : DmaSems sig S1 := arg5.slice (Rect.unit (s := S12) ![9] S1.size inb_S12_S1_9)
  let v647 : DmaSems sig S_ := v646.squeeze S_ squeezes_S1_S_
  let v648 : Memref sig .tc .vmem S8x512 .f32 := arg1.slice (Rect.unit (s := S1024x512) (k0_off14 d0 192#32) S8x512.size (k0_off14_inb d0 1)) (fun _ => rfl)
  let v649 : Memref sig .tc .vmem S8x512 .f32 := arg1.slice (Rect.unit (s := S1024x512) (k0_off14 d0 192#32) S8x512.size (k0_off14_inb d0 1)) (fun _ => rfl)
  Prog.lift (.waitDma2 v647.sem v649 v648 (View.wordExact_bits rfl) (View.wordExact_bits rfl))
  let v650 : DmaSems sig S1 := arg5.slice (Rect.unit (s := S12) ![10] S1.size inb_S12_S1_10)
  let v651 : DmaSems sig S_ := v650.squeeze S_ squeezes_S1_S_
  let v652 : Memref sig .tc .vmem S8x512 .f32 := arg1.slice (Rect.unit (s := S1024x512) (k0_off14 d0 200#32) S8x512.size (k0_off14_inb d0 2)) (fun _ => rfl)
  let v653 : Memref sig .tc .vmem S8x512 .f32 := arg1.slice (Rect.unit (s := S1024x512) (k0_off14 d0 200#32) S8x512.size (k0_off14_inb d0 2)) (fun _ => rfl)
  Prog.lift (.waitDma2 v651.sem v653 v652 (View.wordExact_bits rfl) (View.wordExact_bits rfl))
  let v654 : DmaSems sig S1 := arg5.slice (Rect.unit (s := S12) ![11] S1.size inb_S12_S1_11)
  let v655 : DmaSems sig S_ := v654.squeeze S_ squeezes_S1_S_
  let v656 : Memref sig .tc .vmem S8x512 .f32 := arg1.slice (Rect.unit (s := S1024x512) (k0_off14 d0 208#32) S8x512.size (k0_off14_inb d0 3)) (fun _ => rfl)
  let v657 : Memref sig .tc .vmem S8x512 .f32 := arg1.slice (Rect.unit (s := S1024x512) (k0_off14 d0 208#32) S8x512.size (k0_off14_inb d0 3)) (fun _ => rfl)
  Prog.lift (.waitDma2 v655.sem v657 v656 (View.wordExact_bits rfl) (View.wordExact_bits rfl))
  let v658 : Memref sig .tc .vmem S512x512 .f32 := arg1.slice (Rect.unit (s := S1024x512) (k0_off1 d0) S512x512.size (k0_off1_inb d0)) (fun _ => rfl)
  Prog.lift (.waitDma2 arg2.sem arg0 v658 harg0.wordExact (View.wordExact_bits rfl))
  pure ⟨⟩

/-- From the wait on the thirteenth chunk received along y. -/
def rest15 (d0 : Dev nD) (v5 v7 : BitVec 32) : Prog (TpuEff nD τ sig (Elt F) Λ₀ .tc) PUnit := do
  let ⟨v487, v488⟩ : Σ' (v487 : BitVec 32), BitVec 32 ← k0_part15 arg0 harg0 arg1 harg1 arg2 arg3 arg4 arg5 arg6 d0 v5 v7
  let v518 : BitVec 32 ← k0_part16 arg0 harg0 arg1 harg1 arg2 arg3 arg4 arg5 arg6 d0 v5 v7 v487 v488
  k0_part17 arg0 harg0 arg1 harg1 arg2 arg3 arg4 arg5 arg6 d0 v5 v7 v518
  k0_part18 arg0 harg0 arg1 harg1 arg2 arg3 arg4 arg5 arg6 d0 v5 v7
  rest19 arg0 harg0 arg1 harg1 arg2 arg3 arg4 arg5 arg6 d0

/-- From the seventh forward along x. -/
def rest11 (d0 : Dev nD) (v2 v5 v6 v7 v19 v189 : BitVec 32) : Prog (TpuEff nD τ sig (Elt F) Λ₀ .tc) PUnit := do
  k0_part11 arg0 harg0 arg1 harg1 arg2 arg3 arg4 arg5 arg6 d0 v2 v5 v6 v7 v19 v189
  k0_part12 arg0 harg0 arg1 harg1 arg2 arg3 arg4 arg5 arg6 d0 v2 v5 v6 v7 v19 v189
  k0_part13 arg0 harg0 arg1 harg1 arg2 arg3 arg4 arg5 arg6 d0 v2 v5 v6 v7 v19 v189
  k0_part14 arg0 harg0 arg1 harg1 arg2 arg3 arg4 arg5 arg6 d0 v2 v5 v6 v7 v19 v189
  rest15 arg0 harg0 arg1 harg1 arg2 arg3 arg4 arg5 arg6 d0 v5 v7

/-- From the first receive wait and forward along x. -/
def rest7 (d0 : Dev nD) (v2 v5 v6 v7 v19 v189 : BitVec 32) : Prog (TpuEff nD τ sig (Elt F) Λ₀ .tc) PUnit := do
  k0_part7 arg0 harg0 arg1 harg1 arg2 arg3 arg4 arg5 arg6 d0 v2 v5 v6 v7 v19 v189
  k0_part8 arg0 harg0 arg1 harg1 arg2 arg3 arg4 arg5 arg6 d0 v2 v5 v6 v7 v19 v189
  k0_part9 arg0 harg0 arg1 harg1 arg2 arg3 arg4 arg5 arg6 d0 v2 v5 v6 v7 v19 v189
  k0_part10 arg0 harg0 arg1 harg1 arg2 arg3 arg4 arg5 arg6 d0 v2 v5 v6 v7 v19 v189
  rest11 arg0 harg0 arg1 harg1 arg2 arg3 arg4 arg5 arg6 d0 v2 v5 v6 v7 v19 v189

end Rest

abbrev R7 (c : Dev nD) (v2 v5 v6 v7 v19 v189 : BitVec 32) : Prog (TpuEff nD τ sig (Elt F) Λ₀ .tc) PUnit := rest7 (Memref.whole cc0_stg0_0) (Memref.isWhole_whole _) (Memref.whole cc0_stg1_0) (Memref.isWhole_whole _) cc0_scratch0 cc0_scratch1 cc0_scratch2 cc0_scratch3 cc0_scratch4 c v2 v5 v6 v7 v19 v189
abbrev R11 (c : Dev nD) (v2 v5 v6 v7 v19 v189 : BitVec 32) : Prog (TpuEff nD τ sig (Elt F) Λ₀ .tc) PUnit := rest11 (Memref.whole cc0_stg0_0) (Memref.isWhole_whole _) (Memref.whole cc0_stg1_0) (Memref.isWhole_whole _) cc0_scratch0 cc0_scratch1 cc0_scratch2 cc0_scratch3 cc0_scratch4 c v2 v5 v6 v7 v19 v189
abbrev R15 (c : Dev nD) (v5 v7 : BitVec 32) : Prog (TpuEff nD τ sig (Elt F) Λ₀ .tc) PUnit := rest15 (Memref.whole cc0_stg0_0) (Memref.isWhole_whole _) (Memref.whole cc0_stg1_0) (Memref.isWhole_whole _) cc0_scratch0 cc0_scratch1 cc0_scratch2 cc0_scratch3 cc0_scratch4 c v5 v7
abbrev R19 (c : Dev nD) : Prog (TpuEff nD τ sig (Elt F) Λ₀ .tc) PUnit := rest19 (Memref.whole cc0_stg0_0) (Memref.isWhole_whole _) (Memref.whole cc0_stg1_0) (Memref.isWhole_whole _) cc0_scratch0 cc0_scratch1 cc0_scratch2 cc0_scratch3 cc0_scratch4 c

/-! ## What a device holds between the stretches -/

/-- Before the first receive wait: every own cell at round 0, the tokens of the twelve forwards, the credit of everything it
    will receive and of the thirteen chunks sent, the twelve ranges of the x-neighbour's result it will write. -/
def StB1 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 3) 0 ∅ 0
    ∗ atPos ER (dcell c 4) 0 ∅ 0
    ∗ atPos ER (dcell c 5) 0 ∅ 0
    ∗ atPos ER (dcell c 6) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 16) 0 ∅ 0
    ∗ atPos ER (dcell c 17) 0 ∅ 0
    ∗ atPos ER (dcell c 18) 0 ∅ 0
    ∗ atPos ER (dcell c 19) 0 ∅ 0
    ∗ atPos ER (dcell c 20) 0 ∅ 0
    ∗ atPos ER (dcell c 21) 0 ∅ 0
    ∗ atPos ER (dcell c 22) 0 ∅ 0
    ∗ atPos ER (dcell c 23) 0 ∅ 0
    ∗ atPos ER (dcell c 24) 0 ∅ 0
    ∗ atPos ER (dcell c 25) 0 ∅ 0
    ∗ atPos ER (dcell c 26) 0 ∅ 0
    ∗ atPos ER (dcell c 27) 0 ∅ 0
    ∗ atPos ER (dcell c 28) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 41) 0 ∅ 0
    ∗ atPos ER (dcell c 42) 0 ∅ 0
    ∗ atPos ER (dcell c 43) 0 ∅ 0
    ∗ atPos ER (dcell c 44) 0 ∅ 0
    ∗ atPos ER (dcell c 45) 0 ∅ 0
    ∗ atPos ER (dcell c 46) 0 ∅ 0
    ∗ atPos ER (dcell c 47) 0 ∅ 0
    ∗ atPos ER (dcell c 48) 0 ∅ 0
    ∗ atPos ER (dcell c 49) 0 ∅ 0
    ∗ atPos ER (dcell c 50) 0 ∅ 0
    ∗ atPos ER (dcell c 51) 0 ∅ 0
    ∗ atPos ER (dcell c 52) 0 ∅ 0
    ∗ dutyTok ER (dcell c 29) 0 false
    ∗ dutyTok ER (dcell c 30) 0 false
    ∗ dutyTok ER (dcell c 31) 0 false
    ∗ dutyTok ER (dcell c 32) 0 false
    ∗ dutyTok ER (dcell c 33) 0 false
    ∗ dutyTok ER (dcell c 34) 0 false
    ∗ dutyTok ER (dcell c 35) 0 false
    ∗ dutyTok ER (dcell c 36) 0 false
    ∗ dutyTok ER (dcell c 37) 0 false
    ∗ dutyTok ER (dcell c 38) 0 false
    ∗ dutyTok ER (dcell c 39) 0 false
    ∗ dutyTok ER (dcell c 40) 0 false
    ∗ dutyTok ER (dcell (xn c) 41) 0 false
    ∗ dutyTok ER (dcell (xn c) 42) 0 false
    ∗ dutyTok ER (dcell (xn c) 43) 0 false
    ∗ dutyTok ER (dcell (xn c) 44) 0 false
    ∗ dutyTok ER (dcell (xn c) 45) 0 false
    ∗ dutyTok ER (dcell (xn c) 46) 0 false
    ∗ dutyTok ER (dcell (xn c) 47) 0 false
    ∗ dutyTok ER (dcell (xn c) 48) 0 false
    ∗ dutyTok ER (dcell (xn c) 49) 0 false
    ∗ dutyTok ER (dcell (xn c) 50) 0 false
    ∗ dutyTok ER (dcell (xn c) 51) 0 false
    ∗ dutyTok ER (dcell (xn c) 52) 0 false
    ∗ cred (tallyAt (dcell c 16) () (amt 16))
    ∗ cred (tallyAt (dcell c 17) () (amt 17))
    ∗ cred (tallyAt (dcell c 18) () (amt 18))
    ∗ cred (tallyAt (dcell c 19) () (amt 19))
    ∗ cred (tallyAt (dcell c 20) () (amt 20))
    ∗ cred (tallyAt (dcell c 21) () (amt 21))
    ∗ cred (tallyAt (dcell c 22) () (amt 22))
    ∗ cred (tallyAt (dcell c 23) () (amt 23))
    ∗ cred (tallyAt (dcell c 24) () (amt 24))
    ∗ cred (tallyAt (dcell c 25) () (amt 25))
    ∗ cred (tallyAt (dcell c 26) () (amt 26))
    ∗ cred (tallyAt (dcell c 27) () (amt 27))
    ∗ cred (tallyAt (dcell c 28) () (amt 28))
    ∗ cred (tallyAt (dcell c 41) () (amt 41))
    ∗ cred (tallyAt (dcell c 42) () (amt 42))
    ∗ cred (tallyAt (dcell c 43) () (amt 43))
    ∗ cred (tallyAt (dcell c 44) () (amt 44))
    ∗ cred (tallyAt (dcell c 45) () (amt 45))
    ∗ cred (tallyAt (dcell c 46) () (amt 46))
    ∗ cred (tallyAt (dcell c 47) () (amt 47))
    ∗ cred (tallyAt (dcell c 48) () (amt 48))
    ∗ cred (tallyAt (dcell c 49) () (amt 49))
    ∗ cred (tallyAt (dcell c 50) () (amt 50))
    ∗ cred (tallyAt (dcell c 51) () (amt 51))
    ∗ cred (tallyAt (dcell c 52) () (amt 52))
    ∗ xRest m ρ c
    ∗ cred (tallyAt (dcell c 2) () (amt 2))
    ∗ cred (tallyAt (dcell c 3) () (crd (SR (clen 0)).size))
    ∗ cred (tallyAt (dcell c 4) () (crd (SR (clen 1)).size))
    ∗ cred (tallyAt (dcell c 5) () (crd (SR (clen 2)).size))
    ∗ cred (tallyAt (dcell c 6) () (crd (SR (clen 3)).size))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ oPts (xn c) (xrow c 0) (clen 0) (fx 0)
    ∗ oPts (xn c) (xrow c 1) (clen 1) (fx 1)
    ∗ oPts (xn c) (xrow c 2) (clen 2) (fx 2)
    ∗ oPts (xn c) (xrow c 3) (clen 3) (fx 3)
    ∗ oPts (xn c) (xrow c 4) (clen 4) (fx 4)
    ∗ oPts (xn c) (xrow c 5) (clen 5) (fx 5)
    ∗ oPts (xn c) (xrow c 6) (clen 6) (fx 6)
    ∗ oPts (xn c) (xrow c 7) (clen 7) (fx 7)
    ∗ oPts (xn c) (xrow c 8) (clen 8) (fx 8)
    ∗ oPts (xn c) (xrow c 9) (clen 9) (fx 9)
    ∗ oPts (xn c) (xrow c 10) (clen 10) (fx 10)
    ∗ oPts (xn c) (xrow c 11) (clen 11) (fx 11)
    ∗ owes (c : Thread nD τ) (OX c 12) W)

/-- After six forwards. -/
def StB2 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 3) 0 ∅ 0
    ∗ atPos ER (dcell c 4) 0 ∅ 0
    ∗ atPos ER (dcell c 5) 0 ∅ 0
    ∗ atPos ER (dcell c 6) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 22) 0 ∅ 0
    ∗ atPos ER (dcell c 23) 0 ∅ 0
    ∗ atPos ER (dcell c 24) 0 ∅ 0
    ∗ atPos ER (dcell c 25) 0 ∅ 0
    ∗ atPos ER (dcell c 26) 0 ∅ 0
    ∗ atPos ER (dcell c 27) 0 ∅ 0
    ∗ atPos ER (dcell c 28) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 41) 0 ∅ 0
    ∗ atPos ER (dcell c 42) 0 ∅ 0
    ∗ atPos ER (dcell c 43) 0 ∅ 0
    ∗ atPos ER (dcell c 44) 0 ∅ 0
    ∗ atPos ER (dcell c 45) 0 ∅ 0
    ∗ atPos ER (dcell c 46) 0 ∅ 0
    ∗ atPos ER (dcell c 47) 0 ∅ 0
    ∗ atPos ER (dcell c 48) 0 ∅ 0
    ∗ atPos ER (dcell c 49) 0 ∅ 0
    ∗ atPos ER (dcell c 50) 0 ∅ 0
    ∗ atPos ER (dcell c 51) 0 ∅ 0
    ∗ atPos ER (dcell c 52) 0 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ dutyTok ER (dcell c 35) 0 false
    ∗ dutyTok ER (dcell c 36) 0 false
    ∗ dutyTok ER (dcell c 37) 0 false
    ∗ dutyTok ER (dcell c 38) 0 false
    ∗ dutyTok ER (dcell c 39) 0 false
    ∗ dutyTok ER (dcell c 40) 0 false
    ∗ dutyTok ER (dcell (xn c) 47) 0 false
    ∗ dutyTok ER (dcell (xn c) 48) 0 false
    ∗ dutyTok ER (dcell (xn c) 49) 0 false
    ∗ dutyTok ER (dcell (xn c) 50) 0 false
    ∗ dutyTok ER (dcell (xn c) 51) 0 false
    ∗ dutyTok ER (dcell (xn c) 52) 0 false
    ∗ cred (tallyAt (dcell c 22) () (amt 22))
    ∗ cred (tallyAt (dcell c 23) () (amt 23))
    ∗ cred (tallyAt (dcell c 24) () (amt 24))
    ∗ cred (tallyAt (dcell c 25) () (amt 25))
    ∗ cred (tallyAt (dcell c 26) () (amt 26))
    ∗ cred (tallyAt (dcell c 27) () (amt 27))
    ∗ cred (tallyAt (dcell c 28) () (amt 28))
    ∗ cred (tallyAt (dcell c 41) () (amt 41))
    ∗ cred (tallyAt (dcell c 42) () (amt 42))
    ∗ cred (tallyAt (dcell c 43) () (amt 43))
    ∗ cred (tallyAt (dcell c 44) () (amt 44))
    ∗ cred (tallyAt (dcell c 45) () (amt 45))
    ∗ cred (tallyAt (dcell c 46) () (amt 46))
    ∗ cred (tallyAt (dcell c 47) () (amt 47))
    ∗ cred (tallyAt (dcell c 48) () (amt 48))
    ∗ cred (tallyAt (dcell c 49) () (amt 49))
    ∗ cred (tallyAt (dcell c 50) () (amt 50))
    ∗ cred (tallyAt (dcell c 51) () (amt 51))
    ∗ cred (tallyAt (dcell c 52) () (amt 52))
    ∗ xRest m ρ c
    ∗ cred (tallyAt (dcell c 2) () (amt 2))
    ∗ cred (tallyAt (dcell c 3) () (crd (SR (clen 0)).size))
    ∗ cred (tallyAt (dcell c 4) () (crd (SR (clen 1)).size))
    ∗ cred (tallyAt (dcell c 5) () (crd (SR (clen 2)).size))
    ∗ cred (tallyAt (dcell c 6) () (crd (SR (clen 3)).size))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ cred (tallyAt (dcell c 29) () (crd (SR (clen 0)).size))
    ∗ cred (tallyAt (dcell c 30) () (crd (SR (clen 1)).size))
    ∗ cred (tallyAt (dcell c 31) () (crd (SR (clen 2)).size))
    ∗ cred (tallyAt (dcell c 32) () (crd (SR (clen 3)).size))
    ∗ cred (tallyAt (dcell c 33) () (crd (SR (clen 4)).size))
    ∗ cred (tallyAt (dcell c 34) () (crd (SR (clen 5)).size))
    ∗ oPts (xn c) (xrow c 6) (clen 6) (fx 6)
    ∗ oPts (xn c) (xrow c 7) (clen 7) (fx 7)
    ∗ oPts (xn c) (xrow c 8) (clen 8) (fx 8)
    ∗ oPts (xn c) (xrow c 9) (clen 9) (fx 9)
    ∗ oPts (xn c) (xrow c 10) (clen 10) (fx 10)
    ∗ oPts (xn c) (xrow c 11) (clen 11) (fx 11)
    ∗ owes (c : Thread nD τ) (OX c 6) W)

/-- After the twelve forwards. -/
def StC1 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 3) 0 ∅ 0
    ∗ atPos ER (dcell c 4) 0 ∅ 0
    ∗ atPos ER (dcell c 5) 0 ∅ 0
    ∗ atPos ER (dcell c 6) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 28) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 41) 0 ∅ 0
    ∗ atPos ER (dcell c 42) 0 ∅ 0
    ∗ atPos ER (dcell c 43) 0 ∅ 0
    ∗ atPos ER (dcell c 44) 0 ∅ 0
    ∗ atPos ER (dcell c 45) 0 ∅ 0
    ∗ atPos ER (dcell c 46) 0 ∅ 0
    ∗ atPos ER (dcell c 47) 0 ∅ 0
    ∗ atPos ER (dcell c 48) 0 ∅ 0
    ∗ atPos ER (dcell c 49) 0 ∅ 0
    ∗ atPos ER (dcell c 50) 0 ∅ 0
    ∗ atPos ER (dcell c 51) 0 ∅ 0
    ∗ atPos ER (dcell c 52) 0 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ atPos ER (dcell c 22) 1 ∅ 0
    ∗ atPos ER (dcell c 23) 1 ∅ 0
    ∗ atPos ER (dcell c 24) 1 ∅ 0
    ∗ atPos ER (dcell c 25) 1 ∅ 0
    ∗ atPos ER (dcell c 26) 1 ∅ 0
    ∗ atPos ER (dcell c 27) 1 ∅ 0
    ∗ cred (tallyAt (dcell c 28) () (amt 28))
    ∗ cred (tallyAt (dcell c 41) () (amt 41))
    ∗ cred (tallyAt (dcell c 42) () (amt 42))
    ∗ cred (tallyAt (dcell c 43) () (amt 43))
    ∗ cred (tallyAt (dcell c 44) () (amt 44))
    ∗ cred (tallyAt (dcell c 45) () (amt 45))
    ∗ cred (tallyAt (dcell c 46) () (amt 46))
    ∗ cred (tallyAt (dcell c 47) () (amt 47))
    ∗ cred (tallyAt (dcell c 48) () (amt 48))
    ∗ cred (tallyAt (dcell c 49) () (amt 49))
    ∗ cred (tallyAt (dcell c 50) () (amt 50))
    ∗ cred (tallyAt (dcell c 51) () (amt 51))
    ∗ cred (tallyAt (dcell c 52) () (amt 52))
    ∗ xRest m ρ c
    ∗ cred (tallyAt (dcell c 2) () (amt 2))
    ∗ cred (tallyAt (dcell c 3) () (crd (SR (clen 0)).size))
    ∗ cred (tallyAt (dcell c 4) () (crd (SR (clen 1)).size))
    ∗ cred (tallyAt (dcell c 5) () (crd (SR (clen 2)).size))
    ∗ cred (tallyAt (dcell c 6) () (crd (SR (clen 3)).size))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ cred (tallyAt (dcell c 29) () (crd (SR (clen 0)).size))
    ∗ cred (tallyAt (dcell c 30) () (crd (SR (clen 1)).size))
    ∗ cred (tallyAt (dcell c 31) () (crd (SR (clen 2)).size))
    ∗ cred (tallyAt (dcell c 32) () (crd (SR (clen 3)).size))
    ∗ cred (tallyAt (dcell c 33) () (crd (SR (clen 4)).size))
    ∗ cred (tallyAt (dcell c 34) () (crd (SR (clen 5)).size))
    ∗ cred (tallyAt (dcell c 35) () (crd (SR (clen 6)).size))
    ∗ cred (tallyAt (dcell c 36) () (crd (SR (clen 7)).size))
    ∗ cred (tallyAt (dcell c 37) () (crd (SR (clen 8)).size))
    ∗ cred (tallyAt (dcell c 38) () (crd (SR (clen 9)).size))
    ∗ cred (tallyAt (dcell c 39) () (crd (SR (clen 10)).size))
    ∗ cred (tallyAt (dcell c 40) () (crd (SR (clen 11)).size))
    ∗ owes (c : Thread nD τ) (OX c 0) W)

/-- After the waits on everything received and on the first four chunks sent along y. -/
def StC2 (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 29) 0 ∅ 0
    ∗ atPos ER (dcell c 30) 0 ∅ 0
    ∗ atPos ER (dcell c 31) 0 ∅ 0
    ∗ atPos ER (dcell c 32) 0 ∅ 0
    ∗ atPos ER (dcell c 33) 0 ∅ 0
    ∗ atPos ER (dcell c 34) 0 ∅ 0
    ∗ atPos ER (dcell c 35) 0 ∅ 0
    ∗ atPos ER (dcell c 36) 0 ∅ 0
    ∗ atPos ER (dcell c 37) 0 ∅ 0
    ∗ atPos ER (dcell c 38) 0 ∅ 0
    ∗ atPos ER (dcell c 39) 0 ∅ 0
    ∗ atPos ER (dcell c 40) 0 ∅ 0
    ∗ atPos ER (dcell c 3) 1 ∅ 0
    ∗ atPos ER (dcell c 4) 1 ∅ 0
    ∗ atPos ER (dcell c 5) 1 ∅ 0
    ∗ atPos ER (dcell c 6) 1 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ atPos ER (dcell c 22) 1 ∅ 0
    ∗ atPos ER (dcell c 23) 1 ∅ 0
    ∗ atPos ER (dcell c 24) 1 ∅ 0
    ∗ atPos ER (dcell c 25) 1 ∅ 0
    ∗ atPos ER (dcell c 26) 1 ∅ 0
    ∗ atPos ER (dcell c 27) 1 ∅ 0
    ∗ atPos ER (dcell c 28) 1 ∅ 0
    ∗ atPos ER (dcell c 41) 1 ∅ 0
    ∗ atPos ER (dcell c 42) 1 ∅ 0
    ∗ atPos ER (dcell c 43) 1 ∅ 0
    ∗ atPos ER (dcell c 44) 1 ∅ 0
    ∗ atPos ER (dcell c 45) 1 ∅ 0
    ∗ atPos ER (dcell c 46) 1 ∅ 0
    ∗ atPos ER (dcell c 47) 1 ∅ 0
    ∗ atPos ER (dcell c 48) 1 ∅ 0
    ∗ atPos ER (dcell c 49) 1 ∅ 0
    ∗ atPos ER (dcell c 50) 1 ∅ 0
    ∗ atPos ER (dcell c 51) 1 ∅ 0
    ∗ atPos ER (dcell c 52) 1 ∅ 0
    ∗ xRest m ρ c
    ∗ cred (tallyAt (dcell c 2) () (amt 2))
    ∗ cred (tallyAt (dcell c 7) () (crd (SR (clen 4)).size))
    ∗ cred (tallyAt (dcell c 8) () (crd (SR (clen 5)).size))
    ∗ cred (tallyAt (dcell c 9) () (crd (SR (clen 6)).size))
    ∗ cred (tallyAt (dcell c 10) () (crd (SR (clen 7)).size))
    ∗ cred (tallyAt (dcell c 11) () (crd (SR (clen 8)).size))
    ∗ cred (tallyAt (dcell c 12) () (crd (SR (clen 9)).size))
    ∗ cred (tallyAt (dcell c 13) () (crd (SR (clen 10)).size))
    ∗ cred (tallyAt (dcell c 14) () (crd (SR (clen 11)).size))
    ∗ cred (tallyAt (dcell c 15) () (crd (SR (clen 12)).size))
    ∗ cred (tallyAt (dcell c 29) () (crd (SR (clen 0)).size))
    ∗ cred (tallyAt (dcell c 30) () (crd (SR (clen 1)).size))
    ∗ cred (tallyAt (dcell c 31) () (crd (SR (clen 2)).size))
    ∗ cred (tallyAt (dcell c 32) () (crd (SR (clen 3)).size))
    ∗ cred (tallyAt (dcell c 33) () (crd (SR (clen 4)).size))
    ∗ cred (tallyAt (dcell c 34) () (crd (SR (clen 5)).size))
    ∗ cred (tallyAt (dcell c 35) () (crd (SR (clen 6)).size))
    ∗ cred (tallyAt (dcell c 36) () (crd (SR (clen 7)).size))
    ∗ cred (tallyAt (dcell c 37) () (crd (SR (clen 8)).size))
    ∗ cred (tallyAt (dcell c 38) () (crd (SR (clen 9)).size))
    ∗ cred (tallyAt (dcell c 39) () (crd (SR (clen 10)).size))
    ∗ cred (tallyAt (dcell c 40) () (crd (SR (clen 11)).size))
    ∗ oPts c (ydst (yn c) 12) (clen 12) (gath m ρ c)
    ∗ oPts c (xrow (xn c) 0) (clen 0) (gath m ρ c)
    ∗ oPts c (xrow (xn c) 1) (clen 1) (gath m ρ c)
    ∗ oPts c (xrow (xn c) 2) (clen 2) (gath m ρ c)
    ∗ oPts c (xrow (xn c) 3) (clen 3) (gath m ρ c)
    ∗ oPts c (xrow (xn c) 4) (clen 4) (gath m ρ c)
    ∗ oPts c (xrow (xn c) 5) (clen 5) (gath m ρ c)
    ∗ oPts c (xrow (xn c) 6) (clen 6) (gath m ρ c)
    ∗ oPts c (xrow (xn c) 7) (clen 7) (gath m ρ c)
    ∗ oPts c (xrow (xn c) 8) (clen 8) (gath m ρ c)
    ∗ oPts c (xrow (xn c) 9) (clen 9) (gath m ρ c)
    ∗ oPts c (xrow (xn c) 10) (clen 10) (gath m ρ c)
    ∗ oPts c (xrow (xn c) 11) (clen 11) (gath m ρ c)
    ∗ xPts m ρ c (ysrc c 0) (clen 0) fullShare.right
    ∗ xPts m ρ c (ysrc c 1) (clen 1) fullShare.right
    ∗ xPts m ρ c (ysrc c 2) (clen 2) fullShare.right
    ∗ xPts m ρ c (ysrc c 3) (clen 3) fullShare.right
    ∗ owes (c : Thread nD τ) (OX c 0) W)

/-- After the last wait: every own cell at round 1, every range of the two buffers back, the result's at their final contents. -/
def StD (K : Dev nD × Fin 52 → ℕ) (c : Dev nD) (W : Waits sig Unit) (fx : ℕ → (cc0_stg1_0 : Ref sig .tc).ty.Contents (Elt F)) : sProp 𝕄 :=
  iprop(records m ρ K ∗ levAts L lv
    ∗ atPos ER (dcell c 2) 1 ∅ 0
    ∗ atPos ER (dcell c 3) 1 ∅ 0
    ∗ atPos ER (dcell c 4) 1 ∅ 0
    ∗ atPos ER (dcell c 5) 1 ∅ 0
    ∗ atPos ER (dcell c 6) 1 ∅ 0
    ∗ atPos ER (dcell c 7) 1 ∅ 0
    ∗ atPos ER (dcell c 8) 1 ∅ 0
    ∗ atPos ER (dcell c 9) 1 ∅ 0
    ∗ atPos ER (dcell c 10) 1 ∅ 0
    ∗ atPos ER (dcell c 11) 1 ∅ 0
    ∗ atPos ER (dcell c 12) 1 ∅ 0
    ∗ atPos ER (dcell c 13) 1 ∅ 0
    ∗ atPos ER (dcell c 14) 1 ∅ 0
    ∗ atPos ER (dcell c 15) 1 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ atPos ER (dcell c 22) 1 ∅ 0
    ∗ atPos ER (dcell c 23) 1 ∅ 0
    ∗ atPos ER (dcell c 24) 1 ∅ 0
    ∗ atPos ER (dcell c 25) 1 ∅ 0
    ∗ atPos ER (dcell c 26) 1 ∅ 0
    ∗ atPos ER (dcell c 27) 1 ∅ 0
    ∗ atPos ER (dcell c 28) 1 ∅ 0
    ∗ atPos ER (dcell c 29) 1 ∅ 0
    ∗ atPos ER (dcell c 30) 1 ∅ 0
    ∗ atPos ER (dcell c 31) 1 ∅ 0
    ∗ atPos ER (dcell c 32) 1 ∅ 0
    ∗ atPos ER (dcell c 33) 1 ∅ 0
    ∗ atPos ER (dcell c 34) 1 ∅ 0
    ∗ atPos ER (dcell c 35) 1 ∅ 0
    ∗ atPos ER (dcell c 36) 1 ∅ 0
    ∗ atPos ER (dcell c 37) 1 ∅ 0
    ∗ atPos ER (dcell c 38) 1 ∅ 0
    ∗ atPos ER (dcell c 39) 1 ∅ 0
    ∗ atPos ER (dcell c 40) 1 ∅ 0
    ∗ atPos ER (dcell c 41) 1 ∅ 0
    ∗ atPos ER (dcell c 42) 1 ∅ 0
    ∗ atPos ER (dcell c 43) 1 ∅ 0
    ∗ atPos ER (dcell c 44) 1 ∅ 0
    ∗ atPos ER (dcell c 45) 1 ∅ 0
    ∗ atPos ER (dcell c 46) 1 ∅ 0
    ∗ atPos ER (dcell c 47) 1 ∅ 0
    ∗ atPos ER (dcell c 48) 1 ∅ 0
    ∗ atPos ER (dcell c 49) 1 ∅ 0
    ∗ atPos ER (dcell c 50) 1 ∅ 0
    ∗ atPos ER (dcell c 51) 1 ∅ 0
    ∗ atPos ER (dcell c 52) 1 ∅ 0
    ∗ xRest m ρ c
    ∗ oPts c (ydst (yn c) 12) (clen 12) (gath m ρ c)
    ∗ oPts c (xrow (xn c) 0) (clen 0) (gath m ρ c)
    ∗ oPts c (xrow (xn c) 1) (clen 1) (gath m ρ c)
    ∗ oPts c (xrow (xn c) 2) (clen 2) (gath m ρ c)
    ∗ oPts c (xrow (xn c) 3) (clen 3) (gath m ρ c)
    ∗ oPts c (xrow (xn c) 4) (clen 4) (gath m ρ c)
    ∗ oPts c (xrow (xn c) 5) (clen 5) (gath m ρ c)
    ∗ oPts c (xrow (xn c) 6) (clen 6) (gath m ρ c)
    ∗ oPts c (xrow (xn c) 7) (clen 7) (gath m ρ c)
    ∗ oPts c (xrow (xn c) 8) (clen 8) (gath m ρ c)
    ∗ oPts c (xrow (xn c) 9) (clen 9) (gath m ρ c)
    ∗ oPts c (xrow (xn c) 10) (clen 10) (gath m ρ c)
    ∗ oPts c (xrow (xn c) 11) (clen 11) (gath m ρ c)
    ∗ xPts m ρ c (ysrc c 0) (clen 0) fullShare.right
    ∗ xPts m ρ c (ysrc c 1) (clen 1) fullShare.right
    ∗ xPts m ρ c (ysrc c 2) (clen 2) fullShare.right
    ∗ xPts m ρ c (ysrc c 3) (clen 3) fullShare.right
    ∗ xPts m ρ c (ysrc c 4) (clen 4) fullShare.right
    ∗ xPts m ρ c (ysrc c 5) (clen 5) fullShare.right
    ∗ xPts m ρ c (ysrc c 6) (clen 6) fullShare.right
    ∗ xPts m ρ c (ysrc c 7) (clen 7) fullShare.right
    ∗ xPts m ρ c (ysrc c 8) (clen 8) fullShare.right
    ∗ xPts m ρ c (ysrc c 9) (clen 9) fullShare.right
    ∗ xPts m ρ c (ysrc c 10) (clen 10) fullShare.right
    ∗ xPts m ρ c (ysrc c 11) (clen 11) fullShare.right
    ∗ xPts m ρ c (ysrc c 12) (clen 12) fullShare.right
    ∗ oPts c (xrow c 0) (clen 0) (gath m ρ c)
    ∗ oPts c (xrow c 1) (clen 1) (gath m ρ c)
    ∗ oPts c (xrow c 2) (clen 2) (gath m ρ c)
    ∗ oPts c (xrow c 3) (clen 3) (gath m ρ c)
    ∗ oPts c (xrow c 4) (clen 4) (gath m ρ c)
    ∗ oPts c (xrow c 5) (clen 5) (gath m ρ c)
    ∗ oPts c (xrow c 6) (clen 6) (gath m ρ c)
    ∗ oPts c (xrow c 7) (clen 7) (gath m ρ c)
    ∗ oPts c (xrow c 8) (clen 8) (gath m ρ c)
    ∗ oPts c (xrow c 9) (clen 9) (gath m ρ c)
    ∗ oPts c (xrow c 10) (clen 10) (gath m ρ c)
    ∗ oPts c (xrow c 11) (clen 11) (gath m ρ c)
    ∗ oPts c (512 * (c.val % 2)) 512 (gath m ρ c)
    ∗ xPts m ρ c 0 512 fullShare.left
    ∗ owes (c : Thread nD τ) (OX c 0) W)

/-! ## Closing all own cells at once -/

theorem close_all (K : Dev nD × Fin 52 → ℕ) (c : Dev nD) :
    iprop(records m ρ K ∗ bigSep (Finset.range 51) fun i => atPos ER (dcN c (i + 2)) 1 ∅ 0) ⊢ (|={Set.univ}=> Φ₁ c : sProp 𝕄) := by
  unfold Φ₁
  refine BI.Entails.trans ?_ (bigSep_fupd _ _)
  refine BI.Entails.trans (sep_mono_left (BI.bigSep_of_persistent (Finset.range 51) (records m ρ K))) ?_
  rw [← bigSep_sep']
  refine bigSep_mono fun i hi => ?_
  have h : i + 2 < 53 := by have := Finset.mem_range.mp hi; omega
  rw [dcN_lt c (i + 2) h]
  exact close_d m ρ K c (i + 2) h (by omega)

omit [FloatOps F] in
/-- What is owed, all paid, under whatever waits were taken. -/
theorem owes_done (c : Dev nD) (W' : Waits sig Unit) :
    (owes (c : Thread nD τ) 0 W' : sProp 𝕄) ⊢ (dats m ρ 0 c).owesAt () t₀.succ := by
  unfold Dat.owesAt Pipeline.owesWithin
  rw [show (dats m ρ 0 c).owed t₀.succ = 0 from rfl]
  iintro HO
  iexists W'
  isplitr; · ipureintro; exact fun _ _ => Or.inl trivial
  iexact HO

end Cert.Kernel.AG

end
-- ==== Proof.KBodyB1.lean ====
/-
  The first six receive waits along y, each followed by its forward along x.
-/
import proofs.«900105_g7700000000000106_dist_ag_v7x_xy2x2_y_m512_n512_f32_1_alg».proof.Proof.KBodyKit

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseB1 (K : Dev nD × Fin 52 → ℕ) (c : Dev nD) (fx : ℕ → (cc0_stg1_0 : Ref sig .tc).ty.Contents (Elt F))
    (hnext : ∀ (W : Waits sig Unit) (v2 v5 v6 v7 v19 v189 : BitVec 32), StB2 m ρ K c W fx ⊢ wp frame (wpE (defs₀ (F := F)) 𝒱₀ c none) Set.univ (R11 c v2 v5 v6 v7 v19 v189) (fun _ => bodyPost m ρ c)) :
    ∀ (W : Waits sig Unit) (v2 v5 v6 v7 v19 v189 : BitVec 32), StB1 m ρ K c W fx ⊢ wp frame (wpE (defs₀ (F := F)) 𝒱₀ c none) Set.univ (R7 c v2 v5 v6 v7 v19 v189) (fun _ => bodyPost m ρ c) := by
  intro W v2 v5 v6 v7 v19 v189
  unfold StB1 R7 rest7
  simp only [k0_part7, k0_part8, k0_part9, k0_part10, Prog.lift, Prog.bind_op, Prog.bind_ret, Prog.pure_eq_ret]
  iintro ⟨#HR, #Hlev, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, Ht29, Ht30, Ht31, Ht32, Ht33, Ht34, Ht35, Ht36, Ht37, Ht38, Ht39, Ht40, Ht41, Ht42, Ht43, Ht44, Ht45, Ht46, Ht47, Ht48, Ht49, Ht50, Ht51, Ht52, Hcy0, Hcy1, Hcy2, Hcy3, Hcy4, Hcy5, Hcy6, Hcy7, Hcy8, Hcy9, Hcy10, Hcy11, Hcy12, Hcx0, Hcx1, Hcx2, Hcx3, Hcx4, Hcx5, Hcx6, Hcx7, Hcx8, Hcx9, Hcx10, Hcx11, HxRest, HcC, Hcs0, Hcs1, Hcs2, Hcs3, Hcs4, Hcs5, Hcs6, Hcs7, Hcs8, Hcs9, Hcs10, Hcs11, Hcs12, Hdx0, Hdx1, Hdx2, Hdx3, Hdx4, Hdx5, Hdx6, Hdx7, Hdx8, Hdx9, Hdx10, Hdx11, HO⟩
  dwait 16 (OX c 12) 2 (above_OX c 12) (dpay_yr m ρ c 0 (by decide)) Hcy0 Ha16 Hfy0
  xsend 0 32 (k0_off11_row c 0) (k0_off11_col c 0) (k0_dev16_eq c) (fx 0) (OX c 11) Hfy0 Hdx0 Ht29 Ht41 Hcxs0
  dwait 17 (OX c 11) 2 (above_OX c 11) (dpay_yr m ρ c 1 (by decide)) Hcy1 Ha17 Hfy1
  xsend 1 32 (k0_off11_row c 1) (k0_off11_col c 1) (k0_dev17_eq c) (fx 1) (OX c 10) Hfy1 Hdx1 Ht30 Ht42 Hcxs1
  dwait 18 (OX c 10) 2 (above_OX c 10) (dpay_yr m ρ c 2 (by decide)) Hcy2 Ha18 Hfy2
  xsend 2 24 (k0_off12_row c 0) (k0_off12_col c 0) (k0_dev18_eq c) (fx 2) (OX c 9) Hfy2 Hdx2 Ht31 Ht43 Hcxs2
  dwait 19 (OX c 9) 2 (above_OX c 9) (dpay_yr m ρ c 3 (by decide)) Hcy3 Ha19 Hfy3
  xsend 3 24 (k0_off12_row c 1) (k0_off12_col c 1) (k0_dev19_eq c) (fx 3) (OX c 8) Hfy3 Hdx3 Ht32 Ht44 Hcxs3
  dwait 20 (OX c 8) 2 (above_OX c 8) (dpay_yr m ρ c 4 (by decide)) Hcy4 Ha20 Hfy4
  xsend 4 24 (k0_off12_row c 2) (k0_off12_col c 2) (k0_dev20_eq c) (fx 4) (OX c 7) Hfy4 Hdx4 Ht33 Ht45 Hcxs4
  dwait 21 (OX c 7) 2 (above_OX c 7) (dpay_yr m ρ c 5 (by decide)) Hcy5 Ha21 Hfy5
  xsend 5 16 (k0_off13_row c 0) (k0_off13_col c 0) (k0_dev21_eq c) (fx 5) (OX c 6) Hfy5 Hdx5 Ht34 Ht46 Hcxs5
  iapply (hnext _ _ _ _ _ _ _)
  unfold StB2
  isplitr; · iexact HR
  isplitr; · iexact Hlev
  give Ha2
  give Ha3
  give Ha4
  give Ha5
  give Ha6
  give Ha7
  give Ha8
  give Ha9
  give Ha10
  give Ha11
  give Ha12
  give Ha13
  give Ha14
  give Ha15
  give Ha22
  give Ha23
  give Ha24
  give Ha25
  give Ha26
  give Ha27
  give Ha28
  give Ha29
  give Ha30
  give Ha31
  give Ha32
  give Ha33
  give Ha34
  give Ha35
  give Ha36
  give Ha37
  give Ha38
  give Ha39
  give Ha40
  give Ha41
  give Ha42
  give Ha43
  give Ha44
  give Ha45
  give Ha46
  give Ha47
  give Ha48
  give Ha49
  give Ha50
  give Ha51
  give Ha52
  give Ha16
  give Ha17
  give Ha18
  give Ha19
  give Ha20
  give Ha21
  give Ht35
  give Ht36
  give Ht37
  give Ht38
  give Ht39
  give Ht40
  give Ht47
  give Ht48
  give Ht49
  give Ht50
  give Ht51
  give Ht52
  give Hcy6
  give Hcy7
  give Hcy8
  give Hcy9
  give Hcy10
  give Hcy11
  give Hcy12
  give Hcx0
  give Hcx1
  give Hcx2
  give Hcx3
  give Hcx4
  give Hcx5
  give Hcx6
  give Hcx7
  give Hcx8
  give Hcx9
  give Hcx10
  give Hcx11
  give HxRest
  give HcC
  give Hcs0
  give Hcs1
  give Hcs2
  give Hcs3
  give Hcs4
  give Hcs5
  give Hcs6
  give Hcs7
  give Hcs8
  give Hcs9
  give Hcs10
  give Hcs11
  give Hcs12
  give Hcxs0
  give Hcxs1
  give Hcxs2
  give Hcxs3
  give Hcxs4
  give Hcxs5
  give Hdx6
  give Hdx7
  give Hdx8
  give Hdx9
  give Hdx10
  give Hdx11
  iexact HO

end Cert.Kernel.AG

end
-- ==== Proof.KBodyB2.lean ====
/-
  The last six receive waits along y of the forwarded chunks, each followed by its forward along x.
-/
import proofs.«900105_g7700000000000106_dist_ag_v7x_xy2x2_y_m512_n512_f32_1_alg».proof.Proof.KBodyKit

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseB2 (K : Dev nD × Fin 52 → ℕ) (c : Dev nD) (fx : ℕ → (cc0_stg1_0 : Ref sig .tc).ty.Contents (Elt F))
    (hnext : ∀ (W : Waits sig Unit) (v5 v7 : BitVec 32), StC1 m ρ K c W fx ⊢ wp frame (wpE (defs₀ (F := F)) 𝒱₀ c none) Set.univ (R15 c v5 v7) (fun _ => bodyPost m ρ c)) :
    ∀ (W : Waits sig Unit) (v2 v5 v6 v7 v19 v189 : BitVec 32), StB2 m ρ K c W fx ⊢ wp frame (wpE (defs₀ (F := F)) 𝒱₀ c none) Set.univ (R11 c v2 v5 v6 v7 v19 v189) (fun _ => bodyPost m ρ c) := by
  intro W v2 v5 v6 v7 v19 v189
  unfold StB2 R11 rest11
  simp only [k0_part11, k0_part12, k0_part13, k0_part14, Prog.lift, Prog.bind_op, Prog.bind_ret, Prog.pure_eq_ret]
  iintro ⟨#HR, #Hlev, Ha2, Ha3, Ha4, Ha5, Ha6, Ha7, Ha8, Ha9, Ha10, Ha11, Ha12, Ha13, Ha14, Ha15, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, Ha16, Ha17, Ha18, Ha19, Ha20, Ha21, Ht35, Ht36, Ht37, Ht38, Ht39, Ht40, Ht47, Ht48, Ht49, Ht50, Ht51, Ht52, Hcy6, Hcy7, Hcy8, Hcy9, Hcy10, Hcy11, Hcy12, Hcx0, Hcx1, Hcx2, Hcx3, Hcx4, Hcx5, Hcx6, Hcx7, Hcx8, Hcx9, Hcx10, Hcx11, HxRest, HcC, Hcs0, Hcs1, Hcs2, Hcs3, Hcs4, Hcs5, Hcs6, Hcs7, Hcs8, Hcs9, Hcs10, Hcs11, Hcs12, Hcxs0, Hcxs1, Hcxs2, Hcxs3, Hcxs4, Hcxs5, Hdx6, Hdx7, Hdx8, Hdx9, Hdx10, Hdx11, HO⟩
  dwait 22 (OX c 6) 2 (above_OX c 6) (dpay_yr m ρ c 6 (by decide)) Hcy6 Ha22 Hfy6
  xsend 6 16 (k0_off13_row c 1) (k0_off13_col c 1) (k0_dev22_eq c) (fx 6) (OX c 5) Hfy6 Hdx6 Ht35 Ht47 Hcxs6
  dwait 23 (OX c 5) 2 (above_OX c 5) (dpay_yr m ρ c 7 (by decide)) Hcy7 Ha23 Hfy7
  xsend 7 16 (k0_off13_row c 2) (k0_off13_col c 2) (k0_dev23_eq c) (fx 7) (OX c 4) Hfy7 Hdx7 Ht36 Ht48 Hcxs7
  dwait 24 (OX c 4) 2 (above_OX c 4) (dpay_yr m ρ c 8 (by decide)) Hcy8 Ha24 Hfy8
  xsend 8 8 (k0_off14_row c 0) (k0_off14_col c 0) (k0_dev24_eq c) (fx 8) (OX c 3) Hfy8 Hdx8 Ht37 Ht49 Hcxs8
  dwait 25 (OX c 3) 2 (above_OX c 3) (dpay_yr m ρ c 9 (by decide)) Hcy9 Ha25 Hfy9
  xsend 9 8 (k0_off14_row c 1) (k0_off14_col c 1) (k0_dev25_eq c) (fx 9) (OX c 2) Hfy9 Hdx9 Ht38 Ht50 Hcxs9
  dwait 26 (OX c 2) 2 (above_OX c 2) (dpay_yr m ρ c 10 (by decide)) Hcy10 Ha26 Hfy10
  xsend 10 8 (k0_off14_row c 2) (k0_off14_col c 2) (k0_dev26_eq c) (fx 10) (OX c 1) Hfy10 Hdx10 Ht39 Ht51 Hcxs10
  dwait 27 (OX c 1) 2 (above_OX c 1) (dpay_yr m ρ c 11 (by decide)) Hcy11 Ha27 Hfy11
  xsend 11 8 (k0_off14_row c 3) (k0_off14_col c 3) (k0_dev27_eq c) (fx 11) (OX c 0) Hfy11 Hdx11 Ht40 Ht52 Hcxs11
  iapply (hnext _ _ _)
  unfold StC1
  isplitr; · iexact HR
  isplitr; · iexact Hlev
  give Ha2
  give Ha3
  give Ha4
  give Ha5
  give Ha6
  give Ha7
  give Ha8
  give Ha9
  give Ha10
  give Ha11
  give Ha12
  give Ha13
  give Ha14
  give Ha15
  give Ha28
  give Ha29
  give Ha30
  give Ha31
  give Ha32
  give Ha33
  give Ha34
  give Ha35
  give Ha36
  give Ha37
  give Ha38
  give Ha39
  give Ha40
  give Ha41
  give Ha42
  give Ha43
  give Ha44
  give Ha45
  give Ha46
  give Ha47
  give Ha48
  give Ha49
  give Ha50
  give Ha51
  give Ha52
  give Ha16
  give Ha17
  give Ha18
  give Ha19
  give Ha20
  give Ha21
  give Ha22
  give Ha23
  give Ha24
  give Ha25
  give Ha26
  give Ha27
  give Hcy12
  give Hcx0
  give Hcx1
  give Hcx2
  give Hcx3
  give Hcx4
  give Hcx5
  give Hcx6
  give Hcx7
  give Hcx8
  give Hcx9
  give Hcx10
  give Hcx11
  give HxRest
  give HcC
  give Hcs0
  give Hcs1
  give Hcs2
  give Hcs3
  give Hcs4
  give Hcs5
  give Hcs6
  give Hcs7
  give Hcs8
  give Hcs9
  give Hcs10
  give Hcs11
  give Hcs12
  give Hcxs0
  give Hcxs1
  give Hcxs2
  give Hcxs3
  give Hcxs4
  give Hcxs5
  give Hcxs6
  give Hcxs7
  give Hcxs8
  give Hcxs9
  give Hcxs10
  give Hcxs11
  iexact HO

end Cert.Kernel.AG

end
-- ==== Proof.KBodyC1.lean ====
/-
  The waits on everything received, and on the first four chunks sent along y.
-/
import proofs.«900105_g7700000000000106_dist_ag_v7x_xy2x2_y_m512_n512_f32_1_alg».proof.Proof.KBodyKit

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseC1 (K : Dev nD × Fin 52 → ℕ) (c : Dev nD) (fx : ℕ → (cc0_stg1_0 : Ref sig .tc).ty.Contents (Elt F))
    (hnext : ∀ W : Waits sig Unit, StC2 m ρ K c W fx ⊢ wp frame (wpE (defs₀ (F := F)) 𝒱₀ c none) Set.univ (R19 c) (fun _ => bodyPost m ρ c)) :
    ∀ (W : Waits sig Unit) (v5 v7 : BitVec 32), StC1 m ρ K c W fx ⊢ wp frame (wpE (defs₀ (F := F)) 𝒱₀ c none) Set.univ (R15 c v5 v7) (fun _ => bodyPost m ρ c) := by
  intro W v5 v7
  unfold StC1 R15 rest15
  simp only [k0_part15, k0_part16, k0_part17, k0_part18, Prog.lift, Prog.bind_op, Prog.bind_ret, Prog.pure_eq_ret]
  iintro ⟨#HR, #Hlev, Ha2, Ha3, Ha4, Ha5, Ha6, Ha7, Ha8, Ha9, Ha10, Ha11, Ha12, Ha13, Ha14, Ha15, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, Ha16, Ha17, Ha18, Ha19, Ha20, Ha21, Ha22, Ha23, Ha24, Ha25, Ha26, Ha27, Hcy12, Hcx0, Hcx1, Hcx2, Hcx3, Hcx4, Hcx5, Hcx6, Hcx7, Hcx8, Hcx9, Hcx10, Hcx11, HxRest, HcC, Hcs0, Hcs1, Hcs2, Hcs3, Hcs4, Hcs5, Hcs6, Hcs7, Hcs8, Hcs9, Hcs10, Hcs11, Hcs12, Hcxs0, Hcxs1, Hcxs2, Hcxs3, Hcxs4, Hcxs5, Hcxs6, Hcxs7, Hcxs8, Hcxs9, Hcxs10, Hcxs11, HO⟩
  dwait 28 (OX c 0) 2 (above_OX c 0) (dpay_yr12 m ρ c) Hcy12 Ha28 Hfy12
  dwait 41 (OX c 0) 3 (above_zero _) (dpay_xr m ρ c 0 (by decide)) Hcx0 Ha41 Hfx0
  dwait 42 (OX c 0) 3 (above_zero _) (dpay_xr m ρ c 1 (by decide)) Hcx1 Ha42 Hfx1
  dwait 43 (OX c 0) 3 (above_zero _) (dpay_xr m ρ c 2 (by decide)) Hcx2 Ha43 Hfx2
  dwait 44 (OX c 0) 3 (above_zero _) (dpay_xr m ρ c 3 (by decide)) Hcx3 Ha44 Hfx3
  dwait 45 (OX c 0) 3 (above_zero _) (dpay_xr m ρ c 4 (by decide)) Hcx4 Ha45 Hfx4
  dwait 46 (OX c 0) 3 (above_zero _) (dpay_xr m ρ c 5 (by decide)) Hcx5 Ha46 Hfx5
  dwait 47 (OX c 0) 3 (above_zero _) (dpay_xr m ρ c 6 (by decide)) Hcx6 Ha47 Hfx6
  dwait 48 (OX c 0) 3 (above_zero _) (dpay_xr m ρ c 7 (by decide)) Hcx7 Ha48 Hfx7
  dwait 49 (OX c 0) 3 (above_zero _) (dpay_xr m ρ c 8 (by decide)) Hcx8 Ha49 Hfx8
  dwait 50 (OX c 0) 3 (above_zero _) (dpay_xr m ρ c 9 (by decide)) Hcx9 Ha50 Hfx9
  dwait 51 (OX c 0) 3 (above_zero _) (dpay_xr m ρ c 10 (by decide)) Hcx10 Ha51 Hfx10
  dwait 52 (OX c 0) 3 (above_zero _) (dpay_xr m ρ c 11 (by decide)) Hcx11 Ha52 Hfx11
  dwait 3 (OX c 0) 0 (above_zero _) (dpay_ys m ρ c 0 (by decide)) Hcs0 Ha3 Hxy0
  dwait 4 (OX c 0) 0 (above_zero _) (dpay_ys m ρ c 1 (by decide)) Hcs1 Ha4 Hxy1
  dwait 5 (OX c 0) 0 (above_zero _) (dpay_ys m ρ c 2 (by decide)) Hcs2 Ha5 Hxy2
  dwait 6 (OX c 0) 0 (above_zero _) (dpay_ys m ρ c 3 (by decide)) Hcs3 Ha6 Hxy3
  iapply (hnext _)
  unfold StC2
  isplitr; · iexact HR
  isplitr; · iexact Hlev
  give Ha2
  give Ha7
  give Ha8
  give Ha9
  give Ha10
  give Ha11
  give Ha12
  give Ha13
  give Ha14
  give Ha15
  give Ha29
  give Ha30
  give Ha31
  give Ha32
  give Ha33
  give Ha34
  give Ha35
  give Ha36
  give Ha37
  give Ha38
  give Ha39
  give Ha40
  give Ha3
  give Ha4
  give Ha5
  give Ha6
  give Ha16
  give Ha17
  give Ha18
  give Ha19
  give Ha20
  give Ha21
  give Ha22
  give Ha23
  give Ha24
  give Ha25
  give Ha26
  give Ha27
  give Ha28
  give Ha41
  give Ha42
  give Ha43
  give Ha44
  give Ha45
  give Ha46
  give Ha47
  give Ha48
  give Ha49
  give Ha50
  give Ha51
  give Ha52
  give HxRest
  give HcC
  give Hcs4
  give Hcs5
  give Hcs6
  give Hcs7
  give Hcs8
  give Hcs9
  give Hcs10
  give Hcs11
  give Hcs12
  give Hcxs0
  give Hcxs1
  give Hcxs2
  give Hcxs3
  give Hcxs4
  give Hcxs5
  give Hcxs6
  give Hcxs7
  give Hcxs8
  give Hcxs9
  give Hcxs10
  give Hcxs11
  give Hfy12
  give Hfx0
  give Hfx1
  give Hfx2
  give Hfx3
  give Hfx4
  give Hfx5
  give Hfx6
  give Hfx7
  give Hfx8
  give Hfx9
  give Hfx10
  give Hfx11
  give Hxy0
  give Hxy1
  give Hxy2
  give Hxy3
  iexact HO

end Cert.Kernel.AG

end
-- ==== Proof.KBodyC2.lean ====
/-
  The waits on the chunks sent, on the forwards and on the local copy.
-/
import proofs.«900105_g7700000000000106_dist_ag_v7x_xy2x2_y_m512_n512_f32_1_alg».proof.Proof.KBodyKit

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
set_option maxRecDepth 16384 in
theorem phaseC2 (K : Dev nD × Fin 52 → ℕ) (c : Dev nD) (fx : ℕ → (cc0_stg1_0 : Ref sig .tc).ty.Contents (Elt F))
    (hD : ∀ W : Waits sig Unit, StD m ρ K c W fx ⊢ (|={Set.univ}=> bodyPost m ρ c : sProp 𝕄)) :
    ∀ W : Waits sig Unit, StC2 m ρ K c W fx ⊢ wp frame (wpE (defs₀ (F := F)) 𝒱₀ c none) Set.univ (R19 c) (fun _ => bodyPost m ρ c) := by
  intro W
  unfold StC2 R19 rest19
  simp only [k0_part19, k0_part20, k0_part21, Prog.lift, Prog.bind_op, Prog.bind_ret, Prog.pure_eq_ret]
  iintro ⟨#HR, #Hlev, Ha2, Ha7, Ha8, Ha9, Ha10, Ha11, Ha12, Ha13, Ha14, Ha15, Ha29, Ha30, Ha31, Ha32, Ha33, Ha34, Ha35, Ha36, Ha37, Ha38, Ha39, Ha40, Ha3, Ha4, Ha5, Ha6, Ha16, Ha17, Ha18, Ha19, Ha20, Ha21, Ha22, Ha23, Ha24, Ha25, Ha26, Ha27, Ha28, Ha41, Ha42, Ha43, Ha44, Ha45, Ha46, Ha47, Ha48, Ha49, Ha50, Ha51, Ha52, HxRest, HcC, Hcs4, Hcs5, Hcs6, Hcs7, Hcs8, Hcs9, Hcs10, Hcs11, Hcs12, Hcxs0, Hcxs1, Hcxs2, Hcxs3, Hcxs4, Hcxs5, Hcxs6, Hcxs7, Hcxs8, Hcxs9, Hcxs10, Hcxs11, Hfy12, Hfx0, Hfx1, Hfx2, Hfx3, Hfx4, Hfx5, Hfx6, Hfx7, Hfx8, Hfx9, Hfx10, Hfx11, Hxy0, Hxy1, Hxy2, Hxy3, HO⟩
  dwait 7 (OX c 0) 0 (above_zero _) (dpay_ys m ρ c 4 (by decide)) Hcs4 Ha7 Hxy4
  dwait 8 (OX c 0) 0 (above_zero _) (dpay_ys m ρ c 5 (by decide)) Hcs5 Ha8 Hxy5
  dwait 9 (OX c 0) 0 (above_zero _) (dpay_ys m ρ c 6 (by decide)) Hcs6 Ha9 Hxy6
  dwait 10 (OX c 0) 0 (above_zero _) (dpay_ys m ρ c 7 (by decide)) Hcs7 Ha10 Hxy7
  dwait 11 (OX c 0) 0 (above_zero _) (dpay_ys m ρ c 8 (by decide)) Hcs8 Ha11 Hxy8
  dwait 12 (OX c 0) 0 (above_zero _) (dpay_ys m ρ c 9 (by decide)) Hcs9 Ha12 Hxy9
  dwait 13 (OX c 0) 0 (above_zero _) (dpay_ys m ρ c 10 (by decide)) Hcs10 Ha13 Hxy10
  dwait 14 (OX c 0) 0 (above_zero _) (dpay_ys m ρ c 11 (by decide)) Hcs11 Ha14 Hxy11
  dwait 15 (OX c 0) 0 (above_zero _) (dpay_ys m ρ c 12 (by decide)) Hcs12 Ha15 Hxy12
  dwait 29 (OX c 0) 0 (above_zero _) (dpay_xs m ρ c 0 (by decide)) Hcxs0 Ha29 Hox0
  dwait 30 (OX c 0) 0 (above_zero _) (dpay_xs m ρ c 1 (by decide)) Hcxs1 Ha30 Hox1
  dwait 31 (OX c 0) 0 (above_zero _) (dpay_xs m ρ c 2 (by decide)) Hcxs2 Ha31 Hox2
  dwait 32 (OX c 0) 0 (above_zero _) (dpay_xs m ρ c 3 (by decide)) Hcxs3 Ha32 Hox3
  dwait 33 (OX c 0) 0 (above_zero _) (dpay_xs m ρ c 4 (by decide)) Hcxs4 Ha33 Hox4
  dwait 34 (OX c 0) 0 (above_zero _) (dpay_xs m ρ c 5 (by decide)) Hcxs5 Ha34 Hox5
  dwait 35 (OX c 0) 0 (above_zero _) (dpay_xs m ρ c 6 (by decide)) Hcxs6 Ha35 Hox6
  dwait 36 (OX c 0) 0 (above_zero _) (dpay_xs m ρ c 7 (by decide)) Hcxs7 Ha36 Hox7
  dwait 37 (OX c 0) 0 (above_zero _) (dpay_xs m ρ c 8 (by decide)) Hcxs8 Ha37 Hox8
  dwait 38 (OX c 0) 0 (above_zero _) (dpay_xs m ρ c 9 (by decide)) Hcxs9 Ha38 Hox9
  dwait 39 (OX c 0) 0 (above_zero _) (dpay_xs m ρ c 10 (by decide)) Hcxs10 Ha39 Hox10
  dwait 40 (OX c 0) 0 (above_zero _) (dpay_xs m ρ c 11 (by decide)) Hcxs11 Ha40 Hox11
  dwait 2 (OX c 0) 0 (above_zero _) (dpay_c m ρ c) HcC Ha2 Hcp
  icases Hcp with ⟨HoOwn, HxL⟩
  imod (hD _) $$ [Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39 Ha40 Ha41 Ha42 Ha43 Ha44 Ha45 Ha46 Ha47 Ha48 Ha49 Ha50 Ha51 Ha52 HxRest Hfy12 Hfx0 Hfx1 Hfx2 Hfx3 Hfx4 Hfx5 Hfx6 Hfx7 Hfx8 Hfx9 Hfx10 Hfx11 Hxy0 Hxy1 Hxy2 Hxy3 Hxy4 Hxy5 Hxy6 Hxy7 Hxy8 Hxy9 Hxy10 Hxy11 Hxy12 Hox0 Hox1 Hox2 Hox3 Hox4 Hox5 Hox6 Hox7 Hox8 Hox9 Hox10 Hox11 HoOwn HxL HO] with Hpost
  · unfold StD
    isplitr; · iexact HR
    isplitr; · iexact Hlev
    give Ha2
    give Ha3
    give Ha4
    give Ha5
    give Ha6
    give Ha7
    give Ha8
    give Ha9
    give Ha10
    give Ha11
    give Ha12
    give Ha13
    give Ha14
    give Ha15
    give Ha16
    give Ha17
    give Ha18
    give Ha19
    give Ha20
    give Ha21
    give Ha22
    give Ha23
    give Ha24
    give Ha25
    give Ha26
    give Ha27
    give Ha28
    give Ha29
    give Ha30
    give Ha31
    give Ha32
    give Ha33
    give Ha34
    give Ha35
    give Ha36
    give Ha37
    give Ha38
    give Ha39
    give Ha40
    give Ha41
    give Ha42
    give Ha43
    give Ha44
    give Ha45
    give Ha46
    give Ha47
    give Ha48
    give Ha49
    give Ha50
    give Ha51
    give Ha52
    give HxRest
    give Hfy12
    give Hfx0
    give Hfx1
    give Hfx2
    give Hfx3
    give Hfx4
    give Hfx5
    give Hfx6
    give Hfx7
    give Hfx8
    give Hfx9
    give Hfx10
    give Hfx11
    give Hxy0
    give Hxy1
    give Hxy2
    give Hxy3
    give Hxy4
    give Hxy5
    give Hxy6
    give Hxy7
    give Hxy8
    give Hxy9
    give Hxy10
    give Hxy11
    give Hxy12
    give Hox0
    give Hox1
    give Hox2
    give Hox3
    give Hox4
    give Hox5
    give Hox6
    give Hox7
    give Hox8
    give Hox9
    give Hox10
    give Hox11
    give HoOwn
    give HxL
    iexact HO
  rw [wp_ret]; imodintro; iexact Hpost

end Cert.Kernel.AG

end
-- ==== Proof.KBodyD.lean ====
/-
  The end of the body: the own cells closed, the two staging buffers put together again.
-/
import proofs.«900105_g7700000000000106_dist_ag_v7x_xy2x2_y_m512_n512_f32_1_alg».proof.Proof.KBodyKit

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
set_option maxRecDepth 16384 in
/-- From the state after the last wait to the body's post. -/
theorem phaseD (K : Dev nD × Fin 52 → ℕ) (c : Dev nD) (fx : ℕ → (cc0_stg1_0 : Ref sig .tc).ty.Contents (Elt F)) :
    ∀ W : Waits sig Unit, StD m ρ K c W fx ⊢ (|={Set.univ}=> bodyPost m ρ c : sProp 𝕄) := by
  intro W
  unfold StD
  iintro ⟨#HR, #Hlev, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52, HxRest, Hfy12, Hfx0, Hfx1, Hfx2, Hfx3, Hfx4, Hfx5, Hfx6, Hfx7, Hfx8, Hfx9, Hfx10, Hfx11, Hxy0, Hxy1, Hxy2, Hxy3, Hxy4, Hxy5, Hxy6, Hxy7, Hxy8, Hxy9, Hxy10, Hxy11, Hxy12, Hox0, Hox1, Hox2, Hox3, Hox4, Hox5, Hox6, Hox7, Hox8, Hox9, Hox10, Hox11, HoOwn, HxL, HO⟩
  -- the fifty-one own cells, their one round over, close
  imod (close_all m ρ K c) $$ [Ha2 Ha3 Ha4 Ha5 Ha6 Ha7 Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39 Ha40 Ha41 Ha42 Ha43 Ha44 Ha45 Ha46 Ha47 Ha48 Ha49 Ha50 Ha51 Ha52] with HΦ
  · isplitr; · iexact HR
    simp only [r51, bigSepL_cons_cons, bigSepL_singleton, sepE]
    give Ha2
    give Ha3
    give Ha4
    give Ha5
    give Ha6
    give Ha7
    give Ha8
    give Ha9
    give Ha10
    give Ha11
    give Ha12
    give Ha13
    give Ha14
    give Ha15
    give Ha16
    give Ha17
    give Ha18
    give Ha19
    give Ha20
    give Ha21
    give Ha22
    give Ha23
    give Ha24
    give Ha25
    give Ha26
    give Ha27
    give Ha28
    give Ha29
    give Ha30
    give Ha31
    give Ha32
    give Ha33
    give Ha34
    give Ha35
    give Ha36
    give Ha37
    give Ha38
    give Ha39
    give Ha40
    give Ha41
    give Ha42
    give Ha43
    give Ha44
    give Ha45
    give Ha46
    give Ha47
    give Ha48
    give Ha49
    give Ha50
    give Ha51
    iexact Ha52
  -- the block buffer put together again
  ihave Hx := (split_in m ρ c).2 $$ [HxL Hxy0 Hxy1 Hxy2 Hxy3 Hxy4 Hxy5 Hxy6 Hxy7 Hxy8 Hxy9 Hxy10 Hxy11 Hxy12 HxRest]
  · simp only [r13, bigSepL_cons_cons, bigSepL_singleton, sepE]
    give HxL
    isplitl [Hxy0 Hxy1 Hxy2 Hxy3 Hxy4 Hxy5 Hxy6 Hxy7 Hxy8 Hxy9 Hxy10 Hxy11 Hxy12]
    · give Hxy0
      give Hxy1
      give Hxy2
      give Hxy3
      give Hxy4
      give Hxy5
      give Hxy6
      give Hxy7
      give Hxy8
      give Hxy9
      give Hxy10
      give Hxy11
      iexact Hxy12
    iexact HxRest
  -- the result buffer: the own block, the thirteen ranges received along y (twelve of them back from their forwards),
  -- the twelve received along x
  ihave Hout := (split_out c (gath m ρ c)).2 $$ [HoOwn Hox0 Hox1 Hox2 Hox3 Hox4 Hox5 Hox6 Hox7 Hox8 Hox9 Hox10 Hox11 Hfy12 Hfx0 Hfx1 Hfx2 Hfx3 Hfx4 Hfx5 Hfx6 Hfx7 Hfx8 Hfx9 Hfx10 Hfx11]
  · simp only [r13, r12, bigSepL_cons_cons, bigSepL_singleton, sepE]
    give HoOwn
    isplitl [Hox0 Hox1 Hox2 Hox3 Hox4 Hox5 Hox6 Hox7 Hox8 Hox9 Hox10 Hox11 Hfy12]
    · isplitl [Hox0]; · rw [← xrow_eq c 0 (by decide)]; iexact Hox0
      isplitl [Hox1]; · rw [← xrow_eq c 1 (by decide)]; iexact Hox1
      isplitl [Hox2]; · rw [← xrow_eq c 2 (by decide)]; iexact Hox2
      isplitl [Hox3]; · rw [← xrow_eq c 3 (by decide)]; iexact Hox3
      isplitl [Hox4]; · rw [← xrow_eq c 4 (by decide)]; iexact Hox4
      isplitl [Hox5]; · rw [← xrow_eq c 5 (by decide)]; iexact Hox5
      isplitl [Hox6]; · rw [← xrow_eq c 6 (by decide)]; iexact Hox6
      isplitl [Hox7]; · rw [← xrow_eq c 7 (by decide)]; iexact Hox7
      isplitl [Hox8]; · rw [← xrow_eq c 8 (by decide)]; iexact Hox8
      isplitl [Hox9]; · rw [← xrow_eq c 9 (by decide)]; iexact Hox9
      isplitl [Hox10]; · rw [← xrow_eq c 10 (by decide)]; iexact Hox10
      isplitl [Hox11]; · rw [← xrow_eq c 11 (by decide)]; iexact Hox11
      iexact Hfy12
    give Hfx0
    give Hfx1
    give Hfx2
    give Hfx3
    give Hfx4
    give Hfx5
    give Hfx6
    give Hfx7
    give Hfx8
    give Hfx9
    give Hfx10
    iexact Hfx11
  imodintro
  unfold bodyPost
  isplitl [HΦ]; · iexact HΦ
  isplitl [HO]; · iapply (owes_done m ρ c _); iexact HO
  isplitl [Hx]
  · iexists _; isplitr; · (ipureintro; rfl)
    iexact Hx
  iexists _; isplitr; · (ipureintro; rfl)
  iexact Hout

end Cert.Kernel.AG

end
-- ==== Proof.KBody.lean ====
/-
  One device's body: the copy of its own block, the entry handshake and the thirteen sends along y, stepped here; the
  later stretches are the lemmas of the modules BodyB1 … BodyD, and `sound_body` puts them in a row.
-/
import proofs.«900105_g7700000000000106_dist_ag_v7x_xy2x2_y_m512_n512_f32_1_alg».proof.Proof.KBodyKit
import proofs.«900105_g7700000000000106_dist_ag_v7x_xy2x2_y_m512_n512_f32_1_alg».proof.Proof.KBodyB1
import proofs.«900105_g7700000000000106_dist_ag_v7x_xy2x2_y_m512_n512_f32_1_alg».proof.Proof.KBodyB2
import proofs.«900105_g7700000000000106_dist_ag_v7x_xy2x2_y_m512_n512_f32_1_alg».proof.Proof.KBodyC1
import proofs.«900105_g7700000000000106_dist_ag_v7x_xy2x2_y_m512_n512_f32_1_alg».proof.Proof.KBodyC2
import proofs.«900105_g7700000000000106_dist_ag_v7x_xy2x2_y_m512_n512_f32_1_alg».proof.Proof.KBodyD

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
set_option maxRecDepth 16384 in
/-- From the body's precondition through the thirteenth send along y. -/
theorem phaseA (c : Dev nD)
    (hnext : ∀ (K : Dev nD × Fin 52 → ℕ) (fx : ℕ → (cc0_stg1_0 : Ref sig .tc).ty.Contents (Elt F)) (W : Waits sig Unit) (v2 v5 v6 v7 v19 v189 : BitVec 32),
      StB1 m ρ K c W fx ⊢ wp frame (wpE (defs₀ (F := F)) 𝒱₀ c none) Set.univ (R7 c v2 v5 v6 v7 v19 v189) (fun _ => bodyPost m ρ c)) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4) (fun _ => bodyPost m ρ c) := by
  simp only [cc0_body_eq_skeleton]; unfold cc0_body_skel
  simp only [k0_part1, semSignalWord, semWaitWord, Prog.lift, Prog.bind_op, Prog.bind_ret, Prog.pure_eq_ret, wp_deviceId]
  unfold bodyPre Φ₀ start ghost linear creds
  simp only [r51, r13, r12, bigSepL_cons_cons, bigSepL_singleton, sepE]
  iintro ⟨⟨⟨%K, #HR, HaB, ⟨Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39, Ha40, Ha41, Ha42, Ha43, Ha44, Ha45, Ha46, Ha47, Ha48, Ha49, Ha50, Ha51, Ha52⟩, HtBY, HtBX, ⟨Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52⟩⟩, ⟨HcB, ⟨Hcy0, Hcy1, Hcy2, Hcy3, Hcy4, Hcy5, Hcy6, Hcy7, Hcy8, Hcy9, Hcy10, Hcy11, Hcy12⟩, ⟨Hcx0, Hcx1, Hcx2, Hcx3, Hcx4, Hcx5, Hcx6, Hcx7, Hcx8, Hcx9, Hcx10, Hcx11⟩⟩, #Hlev⟩,
    Ho, ⟨%d0, %g0, %hg0, Hx⟩, ⟨%d1, %g1, %hg1, Hout⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the two staging buffers cut into the ranges the transfers move
  ihave Hxs := (split_in m ρ c).1 $$ Hx
  simp only [r13, bigSepL_cons_cons, bigSepL_singleton, sepE]
  icases Hxs with ⟨HxL, ⟨Hxy0, Hxy1, Hxy2, Hxy3, Hxy4, Hxy5, Hxy6, Hxy7, Hxy8, Hxy9, Hxy10, Hxy11, Hxy12⟩, HxRest⟩
  ihave Hos := (split_out c g1).1 $$ Hout
  icases Hos with ⟨HoOwn, HoYs, HoXs⟩
  ihave HlY := (landY_intro c g1) $$ HoYs
  ihave HlX := (landX_intro c g1) $$ HoXs
  -- the copy of the own block
  iapply (wp_copy0 m ρ K c (k0_off1_row c) (k0_off1_col c) _ rfl g1
      (fun i hi => (copy_write (k0_off1 c) _ (k0_off1_col c) (xstg m ρ c) g1 i (by rw [k0_off1_row]; exact hi)).trans
        (by rw [k0_off1_row]; exact (copy_val m ρ c i hi).symm))) $$ [HxL HoOwn Ht2]
  · isplitr; · iexact HR
    isplitl [HxL]; · iexact HxL
    isplitl [HoOwn]; · iexact HoOwn
    iexact Ht2
  iintro HcC
  simp only [devE1 c, devE2 c]
  -- the signal to the y-neighbour's barrier: its duty `false`, with the thirteen ranges it will write
  unfold O₀
  iapply (Rounds.wp_signal 𝒱₀ ER (agRd m ρ) (c : Thread nD τ) none (dst := (yn c : Thread nD τ)) (κ := K (yn c, 0))
      (d := false) (by rw [duties_bar]; exact Finset.mem_univ _) ((amount_bar m ρ (yn c) false).trans (by decide)) () (O₁ c) rfl)
    $$ [HO HtBY HlY]
  · isplitr; · iapply (inv_bar m ρ K (yn c)); iexact HR
    isplitl [HO]; · iexact HO
    isplitl [HtBY]; · iexact HtBY
    isplitl [HlY]; · rw [payload_bar_false]; iexact HlY
    iapply (reached_bar m ρ K (yn c)); iexact HR
  iintro HO
  -- the signal to the x-neighbour's barrier: its duty `true`, with the twelve ranges it will write
  unfold O₁
  iapply (Rounds.wp_signal 𝒱₀ ER (agRd m ρ) (c : Thread nD τ) none (dst := (xn c : Thread nD τ)) (κ := K (xn c, 0))
      (d := true) (by rw [duties_bar]; exact Finset.mem_univ _) ((amount_bar m ρ (xn c) true).trans (by decide)) () (OY c 13) rfl)
    $$ [HO HtBX HlX]
  · isplitr; · iapply (inv_bar m ρ K (xn c)); iexact HR
    isplitl [HO]; · iexact HO
    isplitl [HtBX]; · iexact HtBX
    isplitl [HlX]; · rw [payload_bar_true]; iexact HlX
    iapply (reached_bar m ρ K (xn c)); iexact HR
  iintro HO
  -- the wait for both neighbours: with it come the ranges of their results this device writes
  iapply (Rounds.wp_wait_rest_token 𝒱₀ ER (agRd m ρ) (c : Thread nD τ) none (κ := K (c, 0))
      (wpE_semWait_eq 𝒱₀ (c : Thread nD τ) none Set.univ) (Set.mem_univ _) () (O := OY c 13) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_above c (.reg barS) 1 (le_refl _) (OY c 13) (above_OY c 13 (le_refl _))); iexact Hlev
    iexact HaB
  iintro ⟨HO, HaB, -, Hpay⟩
  ihave Hp := (Entails.of_eq (rest_bar m ρ c)) $$ Hpay
  unfold landY landX
  simp only [r13, r12, bigSepL_cons_cons, bigSepL_singleton, sepE]
  icases Hp with ⟨⟨⟨%fy0, Hdy0⟩, ⟨%fy1, Hdy1⟩, ⟨%fy2, Hdy2⟩, ⟨%fy3, Hdy3⟩, ⟨%fy4, Hdy4⟩, ⟨%fy5, Hdy5⟩, ⟨%fy6, Hdy6⟩, ⟨%fy7, Hdy7⟩, ⟨%fy8, Hdy8⟩, ⟨%fy9, Hdy9⟩, ⟨%fy10, Hdy10⟩, ⟨%fy11, Hdy11⟩, ⟨%fy12, Hdy12⟩⟩, ⟨⟨%fx0, Hdx0⟩, ⟨%fx1, Hdx1⟩, ⟨%fx2, Hdx2⟩, ⟨%fx3, Hdx3⟩, ⟨%fx4, Hdx4⟩, ⟨%fx5, Hdx5⟩, ⟨%fx6, Hdx6⟩, ⟨%fx7, Hdx7⟩, ⟨%fx8, Hdx8⟩, ⟨%fx9, Hdx9⟩, ⟨%fx10, Hdx10⟩, ⟨%fx11, Hdx11⟩⟩⟩
  simp only [k0_part2, Prog.lift, Prog.bind_op, Prog.bind_ret, Prog.pure_eq_ret]
  ysend 0 32 (k0_off3_row c 0) (k0_off3_col c 0) (k0_off2_row c 0) (k0_off2_col c 0) (k0_dev3_eq c) fy0 (OY c 12) Hxy0 Hdy0 Ht3 Ht16 Hcs0
  ysend 1 32 (k0_off3_row c 1) (k0_off3_col c 1) (k0_off2_row c 1) (k0_off2_col c 1) (k0_dev4_eq c) fy1 (OY c 11) Hxy1 Hdy1 Ht4 Ht17 Hcs1
  simp only [k0_part3, Prog.lift, Prog.bind_op, Prog.bind_ret, Prog.pure_eq_ret]
  ysend 2 24 (k0_off5_row c 0) (k0_off5_col c 0) (k0_off4_row c 0) (k0_off4_col c 0) (k0_dev5_eq c) fy2 (OY c 10) Hxy2 Hdy2 Ht5 Ht18 Hcs2
  ysend 3 24 (k0_off5_row c 1) (k0_off5_col c 1) (k0_off4_row c 1) (k0_off4_col c 1) (k0_dev6_eq c) fy3 (OY c 9) Hxy3 Hdy3 Ht6 Ht19 Hcs3
  ysend 4 24 (k0_off5_row c 2) (k0_off5_col c 2) (k0_off4_row c 2) (k0_off4_col c 2) (k0_dev7_eq c) fy4 (OY c 8) Hxy4 Hdy4 Ht7 Ht20 Hcs4
  simp only [k0_part4, Prog.lift, Prog.bind_op, Prog.bind_ret, Prog.pure_eq_ret]
  ysend 5 16 (k0_off7_row c 0) (k0_off7_col c 0) (k0_off6_row c 0) (k0_off6_col c 0) (k0_dev8_eq c) fy5 (OY c 7) Hxy5 Hdy5 Ht8 Ht21 Hcs5
  ysend 6 16 (k0_off7_row c 1) (k0_off7_col c 1) (k0_off6_row c 1) (k0_off6_col c 1) (k0_dev9_eq c) fy6 (OY c 6) Hxy6 Hdy6 Ht9 Ht22 Hcs6
  ysend 7 16 (k0_off7_row c 2) (k0_off7_col c 2) (k0_off6_row c 2) (k0_off6_col c 2) (k0_dev10_eq c) fy7 (OY c 5) Hxy7 Hdy7 Ht10 Ht23 Hcs7
  simp only [k0_part5, Prog.lift, Prog.bind_op, Prog.bind_ret, Prog.pure_eq_ret]
  ysend 8 8 (k0_off9_row c 0) (k0_off9_col c 0) (k0_off8_row c 0) (k0_off8_col c 0) (k0_dev11_eq c) fy8 (OY c 4) Hxy8 Hdy8 Ht11 Ht24 Hcs8
  ysend 9 8 (k0_off9_row c 1) (k0_off9_col c 1) (k0_off8_row c 1) (k0_off8_col c 1) (k0_dev12_eq c) fy9 (OY c 3) Hxy9 Hdy9 Ht12 Ht25 Hcs9
  ysend 10 8 (k0_off9_row c 2) (k0_off9_col c 2) (k0_off8_row c 2) (k0_off8_col c 2) (k0_dev13_eq c) fy10 (OY c 2) Hxy10 Hdy10 Ht13 Ht26 Hcs10
  simp only [k0_part6, Prog.lift, Prog.bind_op, Prog.bind_ret, Prog.pure_eq_ret]
  ysend 11 8 (k0_off9_row c 3) (k0_off9_col c 3) (k0_off8_row c 3) (k0_off8_col c 3) (k0_dev14_eq c) fy11 (OY c 1) Hxy11 Hdy11 Ht14 Ht27 Hcs11
  ysend 12 80 rfl rfl (k0_off10_row c) (k0_off10_col c) (k0_dev15_eq c) fy12 (OY c 0) Hxy12 Hdy12 Ht15 Ht28 Hcs12
  rw [show OY c 0 = OX c 12 from rfl]
  iapply (hnext K (fun j => [fx0, fx1, fx2, fx3, fx4, fx5, fx6, fx7, fx8, fx9, fx10, fx11].getD j fx0) _ _ _ _ _ _ _)
  unfold StB1
  isplitr; · iexact HR
  isplitr; · iexact Hlev
  give Ha2
  give Ha3
  give Ha4
  give Ha5
  give Ha6
  give Ha7
  give Ha8
  give Ha9
  give Ha10
  give Ha11
  give Ha12
  give Ha13
  give Ha14
  give Ha15
  give Ha16
  give Ha17
  give Ha18
  give Ha19
  give Ha20
  give Ha21
  give Ha22
  give Ha23
  give Ha24
  give Ha25
  give Ha26
  give Ha27
  give Ha28
  give Ha29
  give Ha30
  give Ha31
  give Ha32
  give Ha33
  give Ha34
  give Ha35
  give Ha36
  give Ha37
  give Ha38
  give Ha39
  give Ha40
  give Ha41
  give Ha42
  give Ha43
  give Ha44
  give Ha45
  give Ha46
  give Ha47
  give Ha48
  give Ha49
  give Ha50
  give Ha51
  give Ha52
  give Ht29
  give Ht30
  give Ht31
  give Ht32
  give Ht33
  give Ht34
  give Ht35
  give Ht36
  give Ht37
  give Ht38
  give Ht39
  give Ht40
  give Ht41
  give Ht42
  give Ht43
  give Ht44
  give Ht45
  give Ht46
  give Ht47
  give Ht48
  give Ht49
  give Ht50
  give Ht51
  give Ht52
  give Hcy0
  give Hcy1
  give Hcy2
  give Hcy3
  give Hcy4
  give Hcy5
  give Hcy6
  give Hcy7
  give Hcy8
  give Hcy9
  give Hcy10
  give Hcy11
  give Hcy12
  give Hcx0
  give Hcx1
  give Hcx2
  give Hcx3
  give Hcx4
  give Hcx5
  give Hcx6
  give Hcx7
  give Hcx8
  give Hcx9
  give Hcx10
  give Hcx11
  give HxRest
  give HcC
  give Hcs0
  give Hcs1
  give Hcs2
  give Hcs3
  give Hcs4
  give Hcs5
  give Hcs6
  give Hcs7
  give Hcs8
  give Hcs9
  give Hcs10
  give Hcs11
  give Hcs12
  give Hdx0
  give Hdx1
  give Hdx2
  give Hdx3
  give Hdx4
  give Hdx5
  give Hdx6
  give Hdx7
  give Hdx8
  give Hdx9
  give Hdx10
  give Hdx11
  iexact HO

/-- The body on device `c`, from `bodyPre` to `bodyPost`. -/
theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1 cc0_scratch2 cc0_scratch3 cc0_scratch4) (fun _ => bodyPost m ρ c) :=
  phaseA m ρ c fun K fx => phaseB1 m ρ K c fx (phaseB2 m ρ K c fx (phaseC1 m ρ K c fx (phaseC2 m ρ K c fx (phaseD m ρ K c fx))))

end Cert.Kernel.AG

end
-- ==== Proof.KLaunch.lean ====
/-
  The launch: the four devices' bodies under the protocol's schedule give the run of @main.
-/
import proofs.«900105_g7700000000000106_dist_ag_v7x_xy2x2_y_m512_n512_f32_1_alg».proof.Proof.KBody
import Mathlib.Data.Finset.Image
import Mathlib.Data.Fintype.Fin

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over an initial segment of the naturals -/

section Big
variable {M : Type} [URA M]

/-- Over `Fin n` or over the naturals below `n`: the same conjunction. -/
theorem bigSep_fin_range (n : ℕ) (Ψ : ℕ → sProp M) :
    bigSep (Finset.univ : Finset (Fin n)) (fun i => Ψ i.val) = bigSep (Finset.range n) Ψ := by
  have h : Finset.range n = (Finset.univ : Finset (Fin n)).map Fin.valEmbedding := by
    ext i
    rw [Finset.mem_range, Finset.mem_map]
    exact ⟨fun hi => ⟨⟨i, hi⟩, Finset.mem_univ _, rfl⟩, fun ⟨k, _, hk⟩ => hk ▸ k.isLt⟩
  calc bigSep (Finset.univ : Finset (Fin n)) (fun i => Ψ i.val)
      = bigSep ((Finset.univ : Finset (Fin n)).map Fin.valEmbedding) Ψ := (bigSep_map Fin.valEmbedding).symm
    _ = bigSep (Finset.range n) Ψ := by rw [h]

/-- The first conjunct apart. -/
theorem bigSep_range_peel (n : ℕ) (Ψ : ℕ → sProp M) :
    bigSep (Finset.range (n + 1)) Ψ = iprop(Ψ 0 ∗ bigSep (Finset.range n) fun i => Ψ (i + 1)) := by
  have h0 : (0 : ℕ) ∉ (Finset.range n).map ⟨fun i => i + 1, fun i j h => Nat.succ.inj h⟩ := fun h => by
    obtain ⟨i, _, hi⟩ := Finset.mem_map.mp h
    exact Nat.succ_ne_zero i hi
  rw [Finset.range_add_one', bigSep_insert h0]
  exact congrArg (fun X => iprop(Ψ 0 ∗ X)) (bigSep_map _)

theorem bigSep_fin_peel1 (n : ℕ) (Ψ : ℕ → sProp M) :
    bigSep (Finset.univ : Finset (Fin (n + 1))) (fun i => Ψ i.val) = iprop(Ψ 0 ∗ bigSep (Finset.range n) fun i => Ψ (i + 1)) := by
  rw [bigSep_fin_range, bigSep_range_peel]

theorem bigSep_fin_peel2 (n : ℕ) (Ψ : ℕ → sProp M) :
    bigSep (Finset.univ : Finset (Fin (n + 2))) (fun i => Ψ i.val) = iprop(Ψ 0 ∗ Ψ 1 ∗ bigSep (Finset.range n) fun i => Ψ (i + 2)) := by
  rw [bigSep_fin_range, bigSep_range_peel, bigSep_range_peel]

/-- The last conjunct apart. -/
theorem bigSep_range_last (n : ℕ) (Ψ : ℕ → sProp M) :
    bigSep (Finset.range (n + 1)) Ψ = iprop(Ψ n ∗ bigSep (Finset.range n) Ψ) := by
  rw [Finset.range_add_one]; exact bigSep_insert Finset.notMem_range_self

/-- Counting down instead of up. -/
theorem bigSep_range_reflect12 (Ψ : ℕ → sProp M) : bigSep (Finset.range 12) (fun i => Ψ (11 - i)) = bigSep (Finset.range 12) Ψ := by
  have h : (Finset.range 12).image (fun i => 11 - i) = Finset.range 12 := by decide
  rw [← bigSep_image_of_injOn (f := fun i => 11 - i) (s := Finset.range 12) (fun a ha b hb e => by
    have ha' := Finset.mem_range.mp ha; have hb' := Finset.mem_range.mp hb; simp only at e; omega) Ψ, h]

theorem bigSep_range_reflect13 (Ψ : ℕ → sProp M) : bigSep (Finset.range 13) (fun i => Ψ (12 - i)) = bigSep (Finset.range 13) Ψ := by
  have h : (Finset.range 13).image (fun i => 12 - i) = Finset.range 13 := by decide
  rw [← bigSep_image_of_injOn (f := fun i => 12 - i) (s := Finset.range 13) (fun a ha b hb e => by
    have ha' := Finset.mem_range.mp ha; have hb' := Finset.mem_range.mp hb; simp only at e; omega) Ψ, h]

end Big

/-! ## The body obligation -/

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 32000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m ρ c)
  exact sound_body m ρ c

/-! ## The launch -/

/-- The kernel's own (scoped) semaphores as the launch indexes them: the DMA semaphores 2 … 52. -/
abbrev osem : Fin 51 → SemLoc sig := fun i => .dma (dsem (i.val + 2) (by have := i.isLt; omega))

theorem ownSemFacts : Pipeline.OwnSemFacts cfg0.spec osem :=
  ⟨by decide, fun a b h => Fin.ext (by have : a.val + 2 = b.val + 2 := Option.some.inj (congrArg dnum h); omega), by decide⟩

theorem share_eq (c : Dev nD) (w : Fin cfg0.W) : (dats m ρ 0 c).share w = fullShare := by unfold Dat.share; split <;> rfl

/-! ### The cells -/

theorem dcN_dev (c : Dev nD) (n : ℕ) : (dcN c n).1.1 = c := by unfold dcN; split <;> rfl

/-- A cell's number among a device's fifty-two: the barrier cell 0, DMA cell `n` at `n - 1`. -/
def gnum (g : GSem nD τ sig) : ℕ := match dnum g.2 with | none => 0 | some n => n - 1

theorem kcell_dev (ck : Dev nD × Fin 52) : (kcell ck).1.1 = ck.1 := by
  unfold kcell; split
  · rfl
  · exact dcN_dev _ _

theorem kcell_gnum (ck : Dev nD × Fin 52) : gnum (kcell ck) = ck.2.val := by
  have hk := ck.2.isLt
  unfold kcell; split
  · show (0 : ℕ) = ck.2.val; omega
  · rw [dcN_lt _ _ (by omega)]; show ck.2.val + 1 - 1 = ck.2.val; omega

theorem kcell_injective : Function.Injective (kcell : Dev nD × Fin 52 → GSem nD τ sig) := fun a b h =>
  Prod.ext (by have : (kcell a).1.1 = (kcell b).1.1 := congrArg (fun g : GSem nD τ sig => g.1.1) h
               rwa [kcell_dev, kcell_dev] at this)
    (Fin.ext (by have : gnum (kcell a) = gnum (kcell b) := congrArg gnum h
                 rwa [kcell_gnum, kcell_gnum] at this))

def agCells : Finset (GSem nD τ sig) := Finset.univ.map ⟨kcell, kcell_injective⟩

/-- A device's cells one by one: its barrier cell, then its DMA cells 2 … 52. -/
theorem bigSep_kcells (Ψ : GSem nD τ sig → sProp 𝕄) (c : Dev nD) :
    bigSep Finset.univ (fun k : Fin 52 => Ψ (kcell (c, k))) = iprop(Ψ (barCell c) ∗ bigSep (Finset.range 51) fun i => Ψ (dcN c (i + 2))) :=
  (bigSep_fin_peel1 51 (fun n : ℕ => Ψ (if n = 0 then barCell c else dcN c (n + 1)))).trans
    (congrArg (fun X => iprop(Ψ (barCell c) ∗ X)) (bigSep_congr fun i _ => by
      show Ψ (if i + 1 = 0 then barCell c else dcN c (i + 1 + 1)) = Ψ (dcN c (i + 2))
      rw [if_neg (Nat.succ_ne_zero i)]))

/-! ### The duty tokens, as minted and as dealt -/

/-- The three ways a duty's payer is found from the cell's device: itself, its y-neighbour, its x-neighbour. -/
def act : Fin 3 → Dev nD → Dev nD
  | 0, c => c
  | 1, c => yn c
  | 2, c => xn c

theorem act_act (k : Fin 3) (c : Dev nD) : act k (act k c) = c := by revert k c; decide

/-- Which of the three, by the token's number: 0 the barrier's `false`, 1 its `true`, `n ≥ 2` DMA cell `n`'s. -/
def pk (j : ℕ) : Fin 3 := if j = 0 then 1 else if j = 1 then 2 else if j < 16 then 0 else if j < 29 then 1 else if j < 41 then 0 else 2

def payEquiv : Dev nD × Fin 53 ≃ Dev nD × Fin 53 where
  toFun cj := (act (pk cj.2.val) cj.1, cj.2)
  invFun cj := (act (pk cj.2.val) cj.1, cj.2)
  left_inv cj := Prod.ext (act_act _ _) rfl
  right_inv cj := Prod.ext (act_act _ _) rfl

/-- Token number `j` of device `c`'s cells. -/
def tokN (c : Dev nD) (j : ℕ) : GSem nD τ sig × ℕ × Bool :=
  if j = 0 then (barCell c, 0, false) else if j = 1 then (barCell c, 0, true) else (dcN c j, 0, false)
def tokOf (cj : Dev nD × Fin 53) : GSem nD τ sig × ℕ × Bool := tokN cj.1 cj.2.val

def tnum (x : GSem nD τ sig × ℕ × Bool) : ℕ := match dnum x.1.2 with | none => if x.2.2 then 1 else 0 | some n => n

theorem tokN_dev (c : Dev nD) (j : ℕ) : (tokN c j).1.1.1 = c := by
  unfold tokN; split
  · rfl
  split
  · rfl
  exact dcN_dev c j

theorem tokN_num (c : Dev nD) (j : ℕ) (h : j < 53) : tnum (tokN c j) = j := by
  unfold tokN; split
  · show (0 : ℕ) = j; omega
  split
  · show (1 : ℕ) = j; omega
  rw [dcN_lt c j h]; rfl

theorem tokOf_injective : Function.Injective (tokOf : Dev nD × Fin 53 → GSem nD τ sig × ℕ × Bool) := fun a b h =>
  Prod.ext (by have : (tokOf a).1.1.1 = (tokOf b).1.1.1 := congrArg (fun x : GSem nD τ sig × ℕ × Bool => x.1.1.1) h
               rwa [show (tokOf a).1.1.1 = a.1 from tokN_dev _ _, show (tokOf b).1.1.1 = b.1 from tokN_dev _ _] at this)
    (Fin.ext (by have : tnum (tokOf a) = tnum (tokOf b) := congrArg tnum h
                 rwa [show tnum (tokOf a) = a.2.val from tokN_num _ _ a.2.isLt,
                   show tnum (tokOf b) = b.2.val from tokN_num _ _ b.2.isLt] at this))

def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

def tokP (x : GSem nD τ sig × ℕ × Bool) : sProp 𝕄 := dutyTok ER x.1 x.2.1 x.2.2
/-- The duty tokens of device `c`'s own cells. -/
def toks (c : Dev nD) : sProp 𝕄 := bigSep Finset.univ fun j : Fin 53 => tokP (tokOf (c, j))
/-- The duty tokens device `c` pays. -/
def payToks (c : Dev nD) : sProp 𝕄 := bigSep Finset.univ fun j : Fin 53 => tokP (tokOf (payEquiv (c, j)))

theorem toks_around : (bigSep Finset.univ fun c : Dev nD => (toks c : sProp 𝕄)) = bigSep Finset.univ fun c : Dev nD => payToks c := by
  unfold toks payToks
  rw [← bigSep_univ_prod (fun cj : Dev nD × Fin 53 => (tokP (tokOf cj) : sProp 𝕄)),
    ← bigSep_univ_prod (fun cj : Dev nD × Fin 53 => (tokP (tokOf (payEquiv cj)) : sProp 𝕄)),
    bigSep_univ_equiv payEquiv (fun cj : Dev nD × Fin 53 => (tokP (tokOf cj) : sProp 𝕄))]

theorem payCell_eq (c : Dev nD) (n : ℕ) (h : 2 ≤ n) : payCell c n = dcN (act (pk n) c) n := by
  unfold payCell pk
  rw [if_neg (show ¬ n = 0 by omega), if_neg (show ¬ n = 1 by omega)]
  by_cases h1 : n < 16
  · rw [if_pos h1, if_pos h1]; rfl
  rw [if_neg h1, if_neg h1]
  by_cases h2 : n < 29
  · rw [if_pos h2, if_pos h2]; rfl
  rw [if_neg h2, if_neg h2]
  by_cases h3 : n < 41
  · rw [if_pos h3, if_pos h3]; rfl
  rw [if_neg h3, if_neg h3]; rfl

theorem payToks_eq (c : Dev nD) : (payToks c : sProp 𝕄)
    = iprop(dutyTok ER (barCell (yn c)) 0 false ∗ dutyTok ER (barCell (xn c)) 0 true
        ∗ bigSep (Finset.range 51) fun i => dutyTok ER (payCell c (i + 2)) 0 false) := by
  refine (show (payToks c : sProp 𝕄) = bigSep Finset.univ (fun j : Fin 53 => (fun n : ℕ => (tokP (tokN (act (pk n) c) n) : sProp 𝕄)) j.val) from rfl).trans
    ((bigSep_fin_peel2 51 (fun n : ℕ => (tokP (tokN (act (pk n) c) n) : sProp 𝕄))).trans ?_)
  refine congrArg₂ (fun A B => iprop(A ∗ B)) rfl (congrArg₂ (fun A B => iprop(A ∗ B)) rfl (bigSep_congr fun i _ => ?_))
  show tokP (tokN (act (pk (i + 2)) c) (i + 2)) = dutyTok ER (payCell c (i + 2)) 0 false
  rw [payCell_eq c (i + 2) (by omega)]
  unfold tokN
  rw [if_neg (show ¬ i + 2 = 0 by omega), if_neg (show ¬ i + 2 = 1 by omega)]
  rfl

/-! ### What the launch element deals, and the global step -/

/-- What the launch element deals device `c` (the theorem's `G`). -/
def G (c : Dev nD) : sProp 𝕄 :=
  iprop((bigSep Finset.univ fun k : Fin 52 => roundState ER (agRd m ρ) (kcell (c, k)) 0)
    ∗ (bigSep Finset.univ fun k : Fin 52 => iprop(atPos ER (kcell (c, k)) 0 ∅ 0 ∗ reached ER (kcell (c, k)) 0)) ∗ toks c)

/-- What the global step makes of it (`G'`). -/
def G' (c : Dev nD) : sProp 𝕄 := iprop(∃ K, ghost m ρ K c)

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 52 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The fifty-one DMA semaphores are the kernel's own; -/
theorem ownSems0_eq (c : Dev nD) : (Pipeline.ownSems0 (Ix := Unit) (Name := ℕ) (U := UU) (Lvl := ℕ) (Val := Elt F) (τ := τ) osem c : sProp 𝕄)
    = bigSep (Finset.range 51) fun i => semVal (dcN c (i + 2)) 0 :=
  (show (Pipeline.ownSems0 (Ix := Unit) (Name := ℕ) (U := UU) (Lvl := ℕ) (Val := Elt F) (τ := τ) osem c : sProp 𝕄)
      = bigSep Finset.univ (fun k : Fin 51 => (fun n : ℕ => (semVal (dcN c (n + 2)) 0 : sProp 𝕄)) k.val) from
    bigSep_congr fun k _ => by
      show (semVal ((c : Thread nD τ), osem k) 0 : sProp 𝕄) = semVal (dcN c (k.val + 2)) 0
      rw [dcN_lt c (k.val + 2) (by have := k.isLt; omega)]).trans (bigSep_fin_range 51 (fun n : ℕ => (semVal (dcN c (n + 2)) 0 : sProp 𝕄)))

/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 52 => semVal (kcell (c, k)) 0 : sProp 𝕄) := by
  rw [ownSems0_eq, unscopedSems0_eq, bigSep_kcells (fun g => (semVal g 0 : sProp 𝕄)) c]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 52 => iprop(∃ κ : ℕ, cellInv ER (agRd m ρ) κ (kcell (c, k))))
          ∗ (bigSep Finset.univ fun k : Fin 52 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 52 => semVal (kcell (c, k)) 0) ∗ bigSep Finset.univ fun k : Fin 52 => roundState ER (agRd m ρ) (kcell (c, k)) 0)
      ⊢ (|={Set.univ}=> bigSep Finset.univ fun k : Fin 52 => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 52 → ℕ) (c : Dev nD) : iprop(records m ρ K ∗ linear c) ⊢ G' m ρ c := by
  unfold G' ghost
  iintro H
  iexists K
  iexact H

theorem linear_intro (c : Dev nD) :
    iprop((bigSep Finset.univ fun k : Fin 52 => (atPos ER (kcell (c, k)) 0 ∅ 0 : sProp 𝕄)) ∗ payToks c) ⊢ linear c := by
  rw [bigSep_kcells (fun g => (atPos ER g 0 ∅ 0 : sProp 𝕄)) c, payToks_eq]
  unfold linear
  iintro ⟨⟨HA, HB⟩, H1, H2, H3⟩
  isplitl [HA]; · iexact HA
  isplitl [HB]; · iexact HB
  isplitl [H1]; · iexact H1
  isplitl [H2]; · iexact H2
  iexact H3

theorem regroup :
    (bigSep Finset.univ fun c : Dev nD => iprop((bigSep Finset.univ fun k : Fin 52 => iprop(∃ κ : ℕ, cellInv ER (agRd m ρ) κ (kcell (c, k))))
          ∗ (bigSep Finset.univ fun k : Fin 52 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 52 => iprop(∃ κ : ℕ, cellInv ER (agRd m ρ) κ (kcell ck))),
    bigSep_congr (s := Finset.univ) (fun (c : Dev nD) _ => bigSep_sep' Finset.univ (fun k : Fin 52 => (atPos ER (kcell (c, k)) 0 ∅ 0 : sProp 𝕄)) (fun k => reached ER (kcell (c, k)) 0)),
    bigSep_sep', ← bigSep_univ_prod (fun ck : Dev nD × Fin 52 => (reached ER (kcell ck) 0 : sProp 𝕄))]
  iintro ⟨HI, ⟨Hat, #HR⟩, Htok⟩
  ihave HK := (BI.bigSep_exists_pi Finset.univ (fun (ck : Dev nD × Fin 52) (κ : ℕ) => (cellInv ER (agRd m ρ) κ (kcell ck) : sProp 𝕄))) $$ HI
  icases HK with ⟨%K, #HI⟩
  ihave Htk := (Entails.of_eq (toks_around (F := F))) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 52 => (atPos ER (kcell (c, k)) 0 ∅ 0 : sProp 𝕄)) (payToks (F := F))).symm).trans
      (bigSep_mono fun c _ => linear_intro c))
    isplitl [Hat]; · iexact Hat
    iexact Htk

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem amt_x (j : ℕ) : amt (41 + j) = crd (csz j) := by
  unfold amt
  rw [if_neg (by omega), if_neg (by omega), if_neg (by omega), if_neg (by omega), Nat.add_sub_cancel_left]
theorem amt_y (k : ℕ) (hk : k < 13) : amt (16 + k) = crd (csz k) := by
  unfold amt
  rw [if_neg (by omega), if_neg (by omega), if_pos (by omega), Nat.add_sub_cancel_left]

/-- Every device owes chunk `j` to its x-neighbour's receive cell: device `c` is dealt that credit on its own. -/
theorem cred_TX (c : Dev nD) (j : ℕ) (hj : j < 12) :
    (Pipeline.launchCred (fun d => TX d j) c : sProp 𝕄) ⊢ cred (tallyAt (dcN c (41 + j)) () (amt (41 + j))) := by
  have h : 41 + j < 53 := by omega
  rw [show (fun d : Dev nD => TX d j) = fun d => tallyAt (((xn d : Dev nD) : Thread nD τ), SemLoc.dma (dsem (41 + j) h)) () (crd (csz j)) from
    funext fun d => by unfold TX; rw [dif_pos h], dcN_lt c _ h, amt_x]
  exact Pipeline.launchCred_tallyAt (SemLoc.dma (dsem (41 + j) h)) xn xn xn_xn xn_xn () _ c

theorem cred_TY (c : Dev nD) (k : ℕ) (hk : k < 13) :
    (Pipeline.launchCred (fun d => TY d k) c : sProp 𝕄) ⊢ cred (tallyAt (dcN c (16 + k)) () (amt (16 + k))) := by
  have h : 16 + k < 53 := by omega
  rw [show (fun d : Dev nD => TY d k) = fun d => tallyAt (((yn d : Dev nD) : Thread nD τ), SemLoc.dma (dsem (16 + k) h)) () (crd (csz k)) from
    funext fun d => by unfold TY; rw [dif_pos h], dcN_lt c _ h, amt_y k hk]
  exact Pipeline.launchCred_tallyAt (SemLoc.dma (dsem (16 + k) h)) yn yn yn_yn yn_yn () _ c

theorem cred_OX (c : Dev nD) : ∀ n, n ≤ 12 →
    (Pipeline.launchCred (fun d => OX d n) c : sProp 𝕄)
      ⊢ bigSep (Finset.range n) fun i => cred (tallyAt (dcN c (41 + (11 - i))) () (amt (41 + (11 - i))))
  | 0, _ => Entails.of_eq (by
      rw [show (fun d : Dev nD => OX d 0) = fun _ => (0 : CellTallies nD τ sig Unit) from rfl, Pipeline.launchCred_zero, Finset.range_zero, bigSep_empty]; rfl)
  | n + 1, h => by
    rw [show (fun d : Dev nD => OX d (n + 1)) = fun d => OX d n + TX d (11 - n) from rfl, Pipeline.launchCred_add, bigSep_range_last]
    iintro ⟨H1, H2⟩
    isplitl [H2]
    · iapply (cred_TX (F := F) c (11 - n) (by omega)); iexact H2
    · iapply (cred_OX c n (by omega)); iexact H1

theorem cred_OX12 (c : Dev nD) :
    (Pipeline.launchCred (fun d => OX d 12) c : sProp 𝕄) ⊢ bigSep (Finset.range 12) fun j => cred (tallyAt (dcN c (41 + j)) () (amt (41 + j))) :=
  (cred_OX c 12 (le_refl _)).trans
    (Entails.of_eq (bigSep_range_reflect12 fun j => (cred (tallyAt (dcN c (41 + j)) () (amt (41 + j))) : sProp 𝕄)))

theorem cred_OY (c : Dev nD) : ∀ n, n ≤ 13 →
    (Pipeline.launchCred (fun d => OY d n) c : sProp 𝕄)
      ⊢ iprop((bigSep (Finset.range n) fun i => cred (tallyAt (dcN c (16 + (12 - i))) () (amt (16 + (12 - i)))))
          ∗ bigSep (Finset.range 12) fun j => cred (tallyAt (dcN c (41 + j)) () (amt (41 + j))))
  | 0, _ => by
    rw [show (fun d : Dev nD => OY d 0) = fun d => OX d 12 from rfl, Finset.range_zero, bigSep_empty]
    iintro H
    isplitr
    · iempintro
    · iapply (cred_OX12 (F := F) c); iexact H
  | n + 1, h => by
    rw [show (fun d : Dev nD => OY d (n + 1)) = fun d => OY d n + TY d (12 - n) from rfl, Pipeline.launchCred_add, bigSep_range_last]
    iintro ⟨H1, H2⟩
    ihave H := (cred_OY c n (by omega)) $$ H1
    icases H with ⟨HY, HX⟩
    isplitr [HX]
    · isplitl [H2]
      · iapply (cred_TY (F := F) c (12 - n) (by omega)); iexact H2
      · iexact HY
    · iexact HX

theorem cred_OY13 (c : Dev nD) :
    (Pipeline.launchCred (fun d => OY d 13) c : sProp 𝕄)
      ⊢ iprop((bigSep (Finset.range 13) fun k => cred (tallyAt (dcN c (16 + k)) () (amt (16 + k))))
          ∗ bigSep (Finset.range 12) fun j => cred (tallyAt (dcN c (41 + j)) () (amt (41 + j)))) :=
  (cred_OY c 13 (le_refl _)).trans
    (sep_mono_left (Entails.of_eq (bigSep_range_reflect13 fun k => (cred (tallyAt (dcN c (16 + k)) () (amt (16 + k))) : sProp 𝕄))))

/-- The two barrier units, one from each neighbour, as one credit of two. -/
theorem cred_bar2 (c : Dev nD) :
    iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add _ () 1 1).symm]
  exact (cred_add _ _).2

/-- What the other devices owe device `c`'s cells, as the credit its body starts from. -/
theorem creds_intro (c : Dev nD) : (Pipeline.launchCred O₀ c : sProp 𝕄) ⊢ creds c := by
  rw [show (O₀ : Dev nD → CellTallies nD τ sig Unit) = fun d => (OY d 13 + tallyAt (barCell (xn d)) () 1) + tallyAt (barCell (yn d)) () 1 from rfl,
    Pipeline.launchCred_add, Pipeline.launchCred_add]
  unfold creds
  iintro ⟨⟨HO, HBx⟩, HBy⟩
  ihave HO' := (cred_OY13 (F := F) c) $$ HO
  icases HO' with ⟨HY, HX⟩
  ihave Hx := (Pipeline.launchCred_tallyAt (SemLoc.reg barS) xn xn xn_xn xn_xn () 1 c) $$ HBx
  ihave Hy := (Pipeline.launchCred_tallyAt (SemLoc.reg barS) yn yn yn_yn yn_yn () 1 c) $$ HBy
  isplitl [Hx Hy]
  · iapply (cred_bar2 (F := F) c)
    isplitl [Hx] <;> iassumption
  isplitl [HY]; · iexact HY
  iexact HX

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro H
  isplitr; · iempintro
  isplitl [H]; · iexact H
  iempintro

/-- The pipeline's staging cells sit at level 0. -/
theorem lv_stage (c : Dev nD) (w : Fin (cfgs 0).W) (s : Fin ((cfgs 0).win w).nbuf) :
    lv ((c : Thread nD τ), SemLoc.dma (((cfgs 0).win w).sem s)) () ≤ 0 := by
  fin_cases w <;> fin_cases s <;> (revert c; decide)

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (lv_stage c w s) _ (by
      rcases t with ⟨_ | _, ht⟩
      · exact above_O₀ c
      · exact above_zero 0)

/-! ### The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of @main on the four devices terminates, and every
    final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AG.run_main' depends on axioms: [propext, Classical.choice, Quot.sound] -/
#guard_msgs in #print axioms run_main

end Cert.Kernel.AG

end
-- ==== Proof.KFinal.lean ====
/-
  The run of @main, read back: on every device the argument array ends as launched, and the result array ends at the
  gathered contents. The argument's window is an input, never written back. The result's window is the whole array as one
  block, written back at the one grid point from what the body left in its staging buffer.
-/
import proofs.«900105_g7700000000000106_dist_ag_v7x_xy2x2_y_m512_n512_f32_1_alg».proof.Proof.KLaunch

noncomputable section

namespace Cert.Kernel.AG

open Cert.Kernel Cert.Kernel.Gen Cert.LibRows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array after the run holds what it held: an input window's array is never written back. -/
theorem finalA_x (c : Dev nD) : finalA m ρ c (0 : Fin 2) = m ((c : Thread nD τ).loc main_arg0) :=
  (dats (F := F) m ρ 0 c).arrAt_in (0 : Fin 2) rfl _

/-- The result array after the run holds the gathered contents: its one block is the whole array, read through zero
    offsets, and the one write-back overwrites all of it with what the body left in the staging buffer. -/
theorem finalA_o (c : Dev nD) : finalA m ρ c (1 : Fin 2) = gath m ρ c := by
  unfold finalA
  rw [show cfg0.N = (t₀ : Fin cfg0.N).val + 1 from rfl, (dats (F := F) m ρ 0 c).arrAt_succ (1 : Fin 2) t₀,
    flush0_1 t₀, if_pos rfl]
  have hz : (fun a => win0_1.index t₀ a * main_v1.ty.shape.size a) = fun _ => 0 := funext fun a => by fin_cases a <;> decide
  exact Memref.write_access_unit_zero_univ (Elt F) main_v1 hz (fun a => by rw [congrFun hz a]; simp) _ _

/-- The frame: every weakly fair execution of @main terminates with the argument array unchanged on every device. -/
theorem frame_run : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 2)).trans (finalA_x m ρ c)) (run_main m ρ)

/-- The value: every weakly fair execution of @main terminates with the result array at the gathered contents and the
    argument array unchanged, on every device. -/
theorem value_run : θ_run defs (onTc (τ := τ) (main (F := F))) ⟨m, fun _ => 0, ρ⟩ (fun r => ∀ c : Dev nD,
    r.2.mem ((c.tc : Thread nD τ).loc main_v1) = gath m ρ c
    ∧ r.2.mem ((c.tc : Thread nD τ).loc main_arg0) = m ((c.tc : Thread nD τ).loc main_arg0)) :=
  (θ_run defs _ _).mono (fun _ h c => ⟨(h c (1 : Fin 2)).trans (finalA_o m ρ c), (h c (0 : Fin 2)).trans (finalA_x m ρ c)⟩)
    (run_main m ρ)

/-- info: 'Cert.Kernel.AG.finalA_x' depends on axioms: [propext, Classical.choice, Quot.sound] -/
#guard_msgs in #print axioms finalA_x

/-- info: 'Cert.Kernel.AG.finalA_o' depends on axioms: [propext, Classical.choice, Quot.sound] -/
#guard_msgs in #print axioms finalA_o

/-- info: 'Cert.Kernel.AG.value_run' depends on axioms: [propext, Classical.choice, Quot.sound] -/
#guard_msgs in #print axioms value_run

end Cert.Kernel.AG

end
-- ==== Proof.Whole.lean ====
/-
  The gathered contents are the whole array. Device c of the 2×2 mesh (coordinates X = c / 2, Y = c % 2) holds block Y of
  the whole array, 512 rows. The gathered contents take row r of the result from block r / 512, row r % 512: from the
  device itself where r / 512 = Y, else from a device whose Y coordinate is the other one (the y-neighbour or the
  diagonal device, which hold the same block). Block Y at (row, column) is the whole array at (512·Y + row, column), so the
  gathered contents at (r, column) are the whole array at (512·(r / 512) + r % 512, column) = (r, column).
-/
import proofs.«900105_g7700000000000106_dist_ag_v7x_xy2x2_y_m512_n512_f32_1_alg».proof.Proof.Final
import proofs.«900105_g7700000000000106_dist_ag_v7x_xy2x2_y_m512_n512_f32_1_alg».proof.ReferenceIdeal
import Idealize.ShloMosaic.Lib.Layout
import Idealize.ShloMosaic.PureOps.Ideal

noncomputable section

namespace Cert.KernelIdeal.AG

open Cert.KernelIdeal Cert.KernelIdeal.Gen Cert.LibRows

open Idealize.ShloMosaic
open Idealize.ShloMosaic.TcCoe
open Idealize.SL Idealize.SL.Sem
open Idealize.ShloMosaic.Pipeline (Dat Cfg Window)

/-- A device's block as its staging buffer holds it during the body is its argument array as launched: the window's one
    block is the whole array, read through zero offsets. -/
theorem xstg_eq {F : FTy → Type} [FloatOps F] (m : (ℓ : Loc nD τ sig) → Buf (Elt F) ℓ) (ρ : Dev nD → PrngReg) (c : Dev nD) :
    xstg m ρ c = m ((c : Thread nD τ).loc main_arg0) := by
  unfold xstg
  have hz : (fun a => win0_0.index (0 : Fin 1) a * main_arg0.ty.shape.size a) = fun _ => 0 := funext fun a => by fin_cases a <;> decide
  exact Memref.read_access_unit_zero (Elt F) main_arg0 hz (fun a => by rw [congrFun hz a]; simp) _

/-- The block coordinates of device d: Y = d % 2 along the rows, none along the columns. -/
theorem meshBlock_rows : ∀ d : Dev nD, ((Layout.meshBlock [2, 2] ![[1], []] d) (0 : Fin 2)).val = d.val % 2 := by decide
theorem meshBlock_cols : ∀ d : Dev nD, ((Layout.meshBlock [2, 2] ![[1], []] d) (1 : Fin 2)).val = 0 := by decide

/-- Row r of the whole array, read from a device whose block holds it (Y = r / 512), at row r % 512 of that block. -/
theorem blk_at (m : (ℓ : Loc nD τ sig) → Buf (Elt Ideal) ℓ) (ρ : Dev nD → PrngReg)
    (X : Buf (Elt Ideal) (((0 : Dev Cert.ReferenceIdeal.nD).tc : Thread Cert.ReferenceIdeal.nD Cert.ReferenceIdeal.τ).loc Cert.ReferenceIdeal.main_arg0))
    (h : ∀ c : Dev nD, m ((c.tc : Thread nD τ).loc main_arg0)
      = Layout.blockN ⟨2, ![512, 512]⟩ ⟨2, ![1024, 512]⟩ (Layout.meshBlock [2, 2] ![[1], []] c) X)
    (d : Dev nD) (i : S1024x512.Idx) (hd : (i 0).val / 512 = d.val % 2) :
    xstg m ρ d (lowIdx i) = X i := by
  rw [xstg_eq, h d, Layout.blockN_apply]
  congr 1
  funext b
  apply Fin.ext
  rw [Layout.TilesN.idx_val]
  match b with
  | ⟨0, _⟩ =>
    show ((Layout.meshBlock [2, 2] ![[1], []] d) (0 : Fin 2)).val * 512 + (i 0).val % 512 = (i 0).val
    rw [meshBlock_rows, ← hd]; omega
  | ⟨1, _⟩ =>
    show ((Layout.meshBlock [2, 2] ![[1], []] d) (1 : Fin 2)).val * 512 + (i 1).val = (i 1).val
    rw [meshBlock_cols]; omega

/-- Where every device's argument array is its block of the whole array, every device's gathered contents are the whole
    array. -/
theorem gath_whole (m : (ℓ : Loc nD τ sig) → Buf (Elt Ideal) ℓ) (ρ : Dev nD → PrngReg)
    (X : Buf (Elt Ideal) (((0 : Dev Cert.ReferenceIdeal.nD).tc : Thread Cert.ReferenceIdeal.nD Cert.ReferenceIdeal.τ).loc Cert.ReferenceIdeal.main_arg0))
    (h : ∀ c : Dev nD, m ((c.tc : Thread nD τ).loc main_arg0)
      = Layout.blockN ⟨2, ![512, 512]⟩ ⟨2, ![1024, 512]⟩ (Layout.meshBlock [2, 2] ![[1], []] c) X)
    (c : Dev nD) : gath m ρ c = X := by
  funext i
  have hi : (i 0).val < 1024 := (i 0).isLt
  have hy : ∀ c : Dev nD, (yn c).val % 2 = 1 - c.val % 2 := by decide
  have hg : ∀ c : Dev nD, (dg c).val % 2 = 1 - c.val % 2 := by decide
  unfold gath
  split
  · exact blk_at m ρ X h c i ‹_›
  · split
    · exact blk_at m ρ X h (yn c) i (by rw [hy]; omega)
    · exact blk_at m ρ X h (dg c) i (by rw [hg]; omega)

/-- info: 'Cert.KernelIdeal.AG.gath_whole' depends on axioms: [propext, Classical.choice, Quot.sound] -/
#guard_msgs in #print axioms gath_whole

end Cert.KernelIdeal.AG

end
-- ==== Proof.lean ====
/-
  The proof of `Cert.Claim`: an all-gather along the y axis of a 2×2 mesh against the identity on the whole array.

  Each of the four devices holds one block (512 rows) of a 1024-row array and ends with the whole array: it copies its
  own block into place, and receives the block it misses from the two devices that hold it, part of the rows straight
  from its y-neighbour and the rest forwarded through its x-neighbour. The protocol is written as a schedule of rounds,
  one per semaphore; each device's body is stepped once, at a symbolic device, from that schedule; the launch turns the
  four bodies into the run of @main, which ends with every device's argument array as launched and its result array at
  the gathered contents (a pure term of the four argument arrays). All of this is generic in the float instance.

  The five conjuncts:
  · the kernel's two frames (at the word-level instance and at the ideal one) are that run with the result's value
    dropped;
  · the reference returns its argument at once, so its run leaves the argument array, which is its result, unchanged;
  · the idealization rewrote no operation, so there is nothing to preserve;
  · at the ideal instance, where each device's argument array is its block of the whole array (block Y = c % 2 of two
    along the rows), the gathered contents take row r from block r / 512 at row r % 512, which is row r of the whole
    array: every device's result is the whole array, which is what the reference's result array holds.
-/
import proofs.«900105_g7700000000000106_dist_ag_v7x_xy2x2_y_m512_n512_f32_1_alg».proof.Defs
import proofs.«900105_g7700000000000106_dist_ag_v7x_xy2x2_y_m512_n512_f32_1_alg».proof.Proof.Gen.Kernel
import proofs.«900105_g7700000000000106_dist_ag_v7x_xy2x2_y_m512_n512_f32_1_alg».proof.Proof.Gen.KernelIdeal
import proofs.«900105_g7700000000000106_dist_ag_v7x_xy2x2_y_m512_n512_f32_1_alg».proof.Proof.Gen.ReferenceIdeal
import proofs.«900105_g7700000000000106_dist_ag_v7x_xy2x2_y_m512_n512_f32_1_alg».proof.Proof.Gen.Pre_finite_inputs_Kernel
import proofs.«900105_g7700000000000106_dist_ag_v7x_xy2x2_y_m512_n512_f32_1_alg».proof.Proof.Gen.Pre_finite_inputs_ReferenceIdeal
import proofs.«900105_g7700000000000106_dist_ag_v7x_xy2x2_y_m512_n512_f32_1_alg».proof.Proof.RefRun
import proofs.«900105_g7700000000000106_dist_ag_v7x_xy2x2_y_m512_n512_f32_1_alg».proof.Proof.Final
import proofs.«900105_g7700000000000106_dist_ag_v7x_xy2x2_y_m512_n512_f32_1_alg».proof.Proof.KFinal
import proofs.«900105_g7700000000000106_dist_ag_v7x_xy2x2_y_m512_n512_f32_1_alg».proof.Proof.Whole

noncomputable section

namespace Cert.Proof

open Idealize.ShloMosaic Idealize.SL.Sem

/-- The word-level kernel runs and leaves its argument arrays unchanged: its run with the result's value dropped. -/
theorem frame_k : Cert.frame_Kernel := fun m g _ => Cert.Kernel.AG.frame_run (F := Bits) m g

/-- The same of the kernel read at the ideal instance. -/
theorem frame_ki : Cert.frame_KernelIdeal := fun m g _ => Cert.KernelIdeal.AG.frame_run (F := Ideal) m g

/-- The reference returns at once: its argument array is unchanged. -/
theorem frame_ri : Cert.frame_ReferenceIdeal := fun m g _ => Cert.RefRun.run (F := Ideal) m g

/-- No operation was rewritten. -/
theorem preserves : Cert.preserves_Kernel_KernelIdeal := trivial

/-- At the ideal instance, from blocks of one whole array: every device's result array ends at the gathered contents,
    which are the whole array; the reference's result is its argument array, the whole array, unchanged. -/
theorem algebraic : Cert.algebraic_KernelIdeal_ReferenceIdeal := by
  intro m g m' g' _ hblk
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h c).1.trans (Cert.KernelIdeal.AG.gath_whole m g _ hblk c), (h c).2⟩)
      (Cert.KernelIdeal.AG.value_run (F := Ideal) m g)
  · exact (θ_run Cert.ReferenceIdeal.defs _ _).mono (fun _ h => ⟨h 0, h 0⟩) (Cert.RefRun.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
